-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v441)) (v1 : (c : Dev Cert.KernelIdeal.nD) → Buf (Elt Ideal) ((c.tc : Thread Cert.KernelIdeal.nD Cert.KernelIdeal.τ).loc Cert.KernelIdeal.main_v442)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v441) = v0 c
          ∧ r.2.mem ((c.tc : Thread Cert.KernelIdeal.nD Cert.KernelIdeal.τ).loc Cert.KernelIdeal.main_v442) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1322) = v0 c
          ∧ r.2.mem ((c.tc : Thread Cert.ReferenceIdeal.nD Cert.ReferenceIdeal.τ).loc Cert.ReferenceIdeal.main_v1323) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S12x2x4096 : Shape := ⟨3, ![12, 2, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S12x2x4096 : S_.BroadcastsInDim S12x2x4096 (![] : Fin 0 → Fin S12x2x4096.rank)
  reducesTo_S12x2x4096_S_d0_1_2 : S12x2x4096.ReducesTo [0, 1, 2] S_

variable [Facts]

def fn_part1 {F : FTy → Type} [FloatOps F] (main_v13 : IVec S_ 1) (main_v16 : IVec S12x2x4096 1) : IVec S_ 1 :=
  let main_c_5 : IVec S_ 1 := constantI S_ 1 1#1
  let main_v17 : IVec S_ 1 := (fun x v => Host.reduce IntOp.andi x v reducesTo_S12x2x4096_S_d0_1_2 h_S_) main_v16 main_c_5
  let main_v18 : IVec S_ 1 := andi main_v13 main_v17
  main_v18

def fn {F : FTy → Type} [FloatOps F] (main_arg0 : FVec F S2048x4096 .f32) (main_arg1 : FVec F S4096x4096 .f32) (main_arg2 : FVec F S12x2x4096 .f32) (main_arg3 : FVec F S12x2x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S12x2x4096 .f32 := Host.absf main_arg2
  let main_cst_2 : FVec F S_ .f32 := constant S_ .f32 0x7F800000#32
  let main_v10 : FVec F S12x2x4096 .f32 := broadcastInDim S12x2x4096 ![] bcast_S_S12x2x4096 main_cst_2
  let main_v11 : IVec S12x2x4096 1 := cmpf .olt main_v9 main_v10
  let main_c_3 : IVec S_ 1 := constantI S_ 1 1#1
  let main_v12 : IVec S_ 1 := (fun x v => Host.reduce IntOp.andi x v reducesTo_S12x2x4096_S_d0_1_2 h_S_) main_v11 main_c_3
  let main_v13 : IVec S_ 1 := andi main_v8 main_v12
  let main_v14 : FVec F S12x2x4096 .f32 := Host.absf main_arg3
  let main_cst_4 : FVec F S_ .f32 := constant S_ .f32 0x7F800000#32
  let main_v15 : FVec F S12x2x4096 .f32 := broadcastInDim S12x2x4096 ![] bcast_S_S12x2x4096 main_cst_4
  let main_v16 : IVec S12x2x4096 1 := cmpf .olt main_v14 main_v15
  fn_part1 (F := F) main_v13 main_v16
-- ==== Kernel.lean ====
abbrev S2048x4096 : Shape := ⟨2, ![2048, 4096]⟩
abbrev S4096x4096 : Shape := ⟨2, ![4096, 4096]⟩
abbrev S12x2x4096 : Shape := ⟨3, ![12, 2, 4096]⟩
abbrev S256x1024 : Shape := ⟨2, ![256, 1024]⟩
abbrev S1024x4096 : Shape := ⟨2, ![1024, 4096]⟩
abbrev S256x4096 : Shape := ⟨2, ![256, 4096]⟩
abbrev S1x1x2 : Shape := ⟨3, ![1, 1, 2]⟩
abbrev S2 : Shape := ⟨1, ![2]⟩
abbrev S_ : Shape := ⟨0, ![]⟩
abbrev S1x2 : Shape := ⟨2, ![1, 2]⟩
abbrev S2048x2 : Shape := ⟨2, ![2048, 2]⟩
abbrev S4096 : Shape := ⟨1, ![4096]⟩
abbrev S1x1x4 : Shape := ⟨3, ![1, 1, 4]⟩
abbrev S4 : Shape := ⟨1, ![4]⟩
abbrev S1x4 : Shape := ⟨2, ![1, 4]⟩
abbrev S1024x4 : Shape := ⟨2, ![1024, 4]⟩
abbrev S1x1x8 : Shape := ⟨3, ![1, 1, 8]⟩
abbrev S8 : Shape := ⟨1, ![8]⟩
abbrev S1x8 : Shape := ⟨2, ![1, 8]⟩
abbrev S512x8 : Shape := ⟨2, ![512, 8]⟩
abbrev S1x1x16 : Shape := ⟨3, ![1, 1, 16]⟩
abbrev S16 : Shape := ⟨1, ![16]⟩
abbrev S1x16 : Shape := ⟨2, ![1, 16]⟩
abbrev S256x16 : Shape := ⟨2, ![256, 16]⟩
abbrev S1x1x32 : Shape := ⟨3, ![1, 1, 32]⟩
abbrev S32 : Shape := ⟨1, ![32]⟩
abbrev S1x32 : Shape := ⟨2, ![1, 32]⟩
abbrev S128x32 : Shape := ⟨2, ![128, 32]⟩
abbrev S1x1x64 : Shape := ⟨3, ![1, 1, 64]⟩
abbrev S64 : Shape := ⟨1, ![64]⟩
abbrev S1x64 : Shape := ⟨2, ![1, 64]⟩
abbrev S64x64 : Shape := ⟨2, ![64, 64]⟩
abbrev S1x1x128 : Shape := ⟨3, ![1, 1, 128]⟩
abbrev S128 : Shape := ⟨1, ![128]⟩
abbrev S1x128 : Shape := ⟨2, ![1, 128]⟩
abbrev S32x128 : Shape := ⟨2, ![32, 128]⟩
abbrev S1x1x256 : Shape := ⟨3, ![1, 1, 256]⟩
abbrev S256 : Shape := ⟨1, ![256]⟩
abbrev S1x256 : Shape := ⟨2, ![1, 256]⟩
abbrev S16x256 : Shape := ⟨2, ![16, 256]⟩
abbrev S1x1x512 : Shape := ⟨3, ![1, 1, 512]⟩
abbrev S512 : Shape := ⟨1, ![512]⟩
abbrev S1x512 : Shape := ⟨2, ![1, 512]⟩
abbrev S8x512 : Shape := ⟨2, ![8, 512]⟩
abbrev S1x1x1024 : Shape := ⟨3, ![1, 1, 1024]⟩
abbrev S1024 : Shape := ⟨1, ![1024]⟩
abbrev S1x1024 : Shape := ⟨2, ![1, 1024]⟩
abbrev S4x1024 : Shape := ⟨2, ![4, 1024]⟩
abbrev S1x1x2048 : Shape := ⟨3, ![1, 1, 2048]⟩
abbrev S2048 : Shape := ⟨1, ![2048]⟩
abbrev S1x2048 : Shape := ⟨2, ![1, 2048]⟩
abbrev S2x2048 : Shape := ⟨2, ![2, 2048]⟩
abbrev S1x1x4096 : Shape := ⟨3, ![1, 1, 4096]⟩
abbrev S1x4096 : Shape := ⟨2, ![1, 4096]⟩
abbrev S12x4096 : Shape := ⟨2, ![12, 4096]⟩
abbrev S128x4096 : Shape := ⟨2, ![128, 4096]⟩
abbrev S2048x1x4096 : Shape := ⟨3, ![2048, 1, 4096]⟩

abbrev nBuf : Space → Nat
  | .hbm => 460
  | .vmem => 18
  | .smem => 0
  | _ => 0

abbrev hbmTy0_0 (i : Nat) : BufTy := match i % 128 with
  | 0 => ⟨S2048x4096, .f32⟩
  | 1 => ⟨S4096x4096, .f32⟩
  | 2 => ⟨S12x2x4096, .f32⟩
  | 3 => ⟨S12x2x4096, .f32⟩
  | 4 => ⟨S2048x4096, .bf16⟩
  | 5 => ⟨S4096x4096, .bf16⟩
  | 6 => ⟨S2048x4096, .f32⟩
  | 7 => ⟨S1x1x2, .f32⟩
  | 8 => ⟨S2, .f32⟩
  | 9 => ⟨S1x1x2, .f32⟩
  | 10 => ⟨S2, .f32⟩
  | 11 => ⟨S1x1x2, .f32⟩
  | 12 => ⟨S2, .f32⟩
  | 13 => ⟨S1x1x2, .f32⟩
  | 14 => ⟨S2, .f32⟩
  | 15 => ⟨S2, .i32⟩
  | 16 => ⟨S_, .i32⟩
  | 17 => ⟨S2, .i32⟩
  | 18 => ⟨S2, .i1⟩
  | 19 => ⟨S2, .f32⟩
  | 20 => ⟨S2, .f32⟩
  | 21 => ⟨S2, .f32⟩
  | 22 => ⟨S2, .f32⟩
  | 23 => ⟨S2, .f32⟩
  | 24 => ⟨S1x2, .f32⟩
  | 25 => ⟨S2048x2, .f32⟩
  | 26 => ⟨S4096, .f32⟩
  | 27 => ⟨S1x2, .f32⟩
  | 28 => ⟨S2048x2, .f32⟩
  | 29 => ⟨S4096, .f32⟩
  | 30 => ⟨S1x2, .f32⟩
  | 31 => ⟨S2048x2, .f32⟩
  | 32 => ⟨S4096, .f32⟩
  | 33 => ⟨S1x2, .f32⟩
  | 34 => ⟨S2048x2, .f32⟩
  | 35 => ⟨S4096, .f32⟩
  | 36 => ⟨S1x2, .f32⟩
  | 37 => ⟨S2048x2, .f32⟩
  | 38 => ⟨S4096, .f32⟩
  | 39 => ⟨S1x1x4, .f32⟩
  | 40 => ⟨S4, .f32⟩
  | 41 => ⟨S1x1x4, .f32⟩
  | 42 => ⟨S4, .f32⟩
  | 43 => ⟨S1x1x4, .f32⟩
  | 44 => ⟨S4, .f32⟩
  | 45 => ⟨S1x1x4, .f32⟩
  | 46 => ⟨S4, .f32⟩
  | 47 => ⟨S4, .i32⟩
  | 48 => ⟨S_, .i32⟩
  | 49 => ⟨S4, .i32⟩
  | 50 => ⟨S4, .i1⟩
  | 51 => ⟨S4, .f32⟩
  | 52 => ⟨S4, .f32⟩
  | 53 => ⟨S4, .f32⟩
  | 54 => ⟨S4, .f32⟩
  | 55 => ⟨S4, .f32⟩
  | 56 => ⟨S1x4, .f32⟩
  | 57 => ⟨S1024x4, .f32⟩
  | 58 => ⟨S4096, .f32⟩
  | 59 => ⟨S1x4, .f32⟩
  | 60 => ⟨S1024x4, .f32⟩
  | 61 => ⟨S4096, .f32⟩
  | 62 => ⟨S1x4, .f32⟩
  | 63 => ⟨S1024x4, .f32⟩
  | 64 => ⟨S4096, .f32⟩
  | 65 => ⟨S1x4, .f32⟩
  | 66 => ⟨S1024x4, .f32⟩
  | 67 => ⟨S4096, .f32⟩
  | 68 => ⟨S1x4, .f32⟩
  | 69 => ⟨S1024x4, .f32⟩
  | 70 => ⟨S4096, .f32⟩
  | 71 => ⟨S1x1x8, .f32⟩
  | 72 => ⟨S8, .f32⟩
  | 73 => ⟨S1x1x8, .f32⟩
  | 74 => ⟨S8, .f32⟩
  | 75 => ⟨S1x1x8, .f32⟩
  | 76 => ⟨S8, .f32⟩
  | 77 => ⟨S1x1x8, .f32⟩
  | 78 => ⟨S8, .f32⟩
  | 79 => ⟨S8, .i32⟩
  | 80 => ⟨S_, .i32⟩
  | 81 => ⟨S8, .i32⟩
  | 82 => ⟨S8, .i1⟩
  | 83 => ⟨S8, .f32⟩
  | 84 => ⟨S8, .f32⟩
  | 85 => ⟨S8, .f32⟩
  | 86 => ⟨S8, .f32⟩
  | 87 => ⟨S8, .f32⟩
  | 88 => ⟨S1x8, .f32⟩
  | 89 => ⟨S512x8, .f32⟩
  | 90 => ⟨S4096, .f32⟩
  | 91 => ⟨S1x8, .f32⟩
  | 92 => ⟨S512x8, .f32⟩
  | 93 => ⟨S4096, .f32⟩
  | 94 => ⟨S1x8, .f32⟩
  | 95 => ⟨S512x8, .f32⟩
  | 96 => ⟨S4096, .f32⟩
  | 97 => ⟨S1x8, .f32⟩
  | 98 => ⟨S512x8, .f32⟩
  | 99 => ⟨S4096, .f32⟩
  | 100 => ⟨S1x8, .f32⟩
  | 101 => ⟨S512x8, .f32⟩
  | 102 => ⟨S4096, .f32⟩
  | 103 => ⟨S1x1x16, .f32⟩
  | 104 => ⟨S16, .f32⟩
  | 105 => ⟨S1x1x16, .f32⟩
  | 106 => ⟨S16, .f32⟩
  | 107 => ⟨S1x1x16, .f32⟩
  | 108 => ⟨S16, .f32⟩
  | 109 => ⟨S1x1x16, .f32⟩
  | 110 => ⟨S16, .f32⟩
  | 111 => ⟨S16, .i32⟩
  | 112 => ⟨S_, .i32⟩
  | 113 => ⟨S16, .i32⟩
  | 114 => ⟨S16, .i1⟩
  | 115 => ⟨S16, .f32⟩
  | 116 => ⟨S16, .f32⟩
  | 117 => ⟨S16, .f32⟩
  | 118 => ⟨S16, .f32⟩
  | 119 => ⟨S16, .f32⟩
  | 120 => ⟨S1x16, .f32⟩
  | 121 => ⟨S256x16, .f32⟩
  | 122 => ⟨S4096, .f32⟩
  | 123 => ⟨S1x16, .f32⟩
  | 124 => ⟨S256x16, .f32⟩
  | 125 => ⟨S4096, .f32⟩
  | 126 => ⟨S1x16, .f32⟩
  | 127 => ⟨S256x16, .f32⟩
  | _ => ⟨S2048x4096, .f32⟩

abbrev hbmTy0_1 (i : Nat) : BufTy := match i % 128 with
  | 0 => ⟨S4096, .f32⟩
  | 1 => ⟨S1x16, .f32⟩
  | 2 => ⟨S256x16, .f32⟩
  | 3 => ⟨S4096, .f32⟩
  | 4 => ⟨S1x16, .f32⟩
  | 5 => ⟨S256x16, .f32⟩
  | 6 => ⟨S4096, .f32⟩
  | 7 => ⟨S1x1x32, .f32⟩
  | 8 => ⟨S32, .f32⟩
  | 9 => ⟨S1x1x32, .f32⟩
  | 10 => ⟨S32, .f32⟩
  | 11 => ⟨S1x1x32, .f32⟩
  | 12 => ⟨S32, .f32⟩
  | 13 => ⟨S1x1x32, .f32⟩
  | 14 => ⟨S32, .f32⟩
  | 15 => ⟨S32, .i32⟩
  | 16 => ⟨S_, .i32⟩
  | 17 => ⟨S32, .i32⟩
  | 18 => ⟨S32, .i1⟩
  | 19 => ⟨S32, .f32⟩
  | 20 => ⟨S32, .f32⟩
  | 21 => ⟨S32, .f32⟩
  | 22 => ⟨S32, .f32⟩
  | 23 => ⟨S32, .f32⟩
  | 24 => ⟨S1x32, .f32⟩
  | 25 => ⟨S128x32, .f32⟩
  | 26 => ⟨S4096, .f32⟩
  | 27 => ⟨S1x32, .f32⟩
  | 28 => ⟨S128x32, .f32⟩
  | 29 => ⟨S4096, .f32⟩
  | 30 => ⟨S1x32, .f32⟩
  | 31 => ⟨S128x32, .f32⟩
  | 32 => ⟨S4096, .f32⟩
  | 33 => ⟨S1x32, .f32⟩
  | 34 => ⟨S128x32, .f32⟩
  | 35 => ⟨S4096, .f32⟩
  | 36 => ⟨S1x32, .f32⟩
  | 37 => ⟨S128x32, .f32⟩
  | 38 => ⟨S4096, .f32⟩
  | 39 => ⟨S1x1x64, .f32⟩
  | 40 => ⟨S64, .f32⟩
  | 41 => ⟨S1x1x64, .f32⟩
  | 42 => ⟨S64, .f32⟩
  | 43 => ⟨S1x1x64, .f32⟩
  | 44 => ⟨S64, .f32⟩
  | 45 => ⟨S1x1x64, .f32⟩
  | 46 => ⟨S64, .f32⟩
  | 47 => ⟨S64, .i32⟩
  | 48 => ⟨S_, .i32⟩
  | 49 => ⟨S64, .i32⟩
  | 50 => ⟨S64, .i1⟩
  | 51 => ⟨S64, .f32⟩
  | 52 => ⟨S64, .f32⟩
  | 53 => ⟨S64, .f32⟩
  | 54 => ⟨S64, .f32⟩
  | 55 => ⟨S64, .f32⟩
  | 56 => ⟨S1x64, .f32⟩
  | 57 => ⟨S64x64, .f32⟩
  | 58 => ⟨S4096, .f32⟩
  | 59 => ⟨S1x64, .f32⟩
  | 60 => ⟨S64x64, .f32⟩
  | 61 => ⟨S4096, .f32⟩
  | 62 => ⟨S1x64, .f32⟩
  | 63 => ⟨S64x64, .f32⟩
  | 64 => ⟨S4096, .f32⟩
  | 65 => ⟨S1x64, .f32⟩
  | 66 => ⟨S64x64, .f32⟩
  | 67 => ⟨S4096, .f32⟩
  | 68 => ⟨S1x64, .f32⟩
  | 69 => ⟨S64x64, .f32⟩
  | 70 => ⟨S4096, .f32⟩
  | 71 => ⟨S1x1x128, .f32⟩
  | 72 => ⟨S128, .f32⟩
  | 73 => ⟨S1x1x128, .f32⟩
  | 74 => ⟨S128, .f32⟩
  | 75 => ⟨S1x1x128, .f32⟩
  | 76 => ⟨S128, .f32⟩
  | 77 => ⟨S1x1x128, .f32⟩
  | 78 => ⟨S128, .f32⟩
  | 79 => ⟨S128, .i32⟩
  | 80 => ⟨S_, .i32⟩
  | 81 => ⟨S128, .i32⟩
  | 82 => ⟨S128, .i1⟩
  | 83 => ⟨S128, .f32⟩
  | 84 => ⟨S128, .f32⟩
  | 85 => ⟨S128, .f32⟩
  | 86 => ⟨S128, .f32⟩
  | 87 => ⟨S128, .f32⟩
  | 88 => ⟨S1x128, .f32⟩
  | 89 => ⟨S32x128, .f32⟩
  | 90 => ⟨S4096, .f32⟩
  | 91 => ⟨S1x128, .f32⟩
  | 92 => ⟨S32x128, .f32⟩
  | 93 => ⟨S4096, .f32⟩
  | 94 => ⟨S1x128, .f32⟩
  | 95 => ⟨S32x128, .f32⟩
  | 96 => ⟨S4096, .f32⟩
  | 97 => ⟨S1x128, .f32⟩
  | 98 => ⟨S32x128, .f32⟩
  | 99 => ⟨S4096, .f32⟩
  | 100 => ⟨S1x128, .f32⟩
  | 101 => ⟨S32x128, .f32⟩
  | 102 => ⟨S4096, .f32⟩
  | 103 => ⟨S1x1x256, .f32⟩
  | 104 => ⟨S256, .f32⟩
  | 105 => ⟨S1x1x256, .f32⟩
  | 106 => ⟨S256, .f32⟩
  | 107 => ⟨S1x1x256, .f32⟩
  | 108 => ⟨S256, .f32⟩
  | 109 => ⟨S1x1x256, .f32⟩
  | 110 => ⟨S256, .f32⟩
  | 111 => ⟨S256, .i32⟩
  | 112 => ⟨S_, .i32⟩
  | 113 => ⟨S256, .i32⟩
  | 114 => ⟨S256, .i1⟩
  | 115 => ⟨S256, .f32⟩
  | 116 => ⟨S256, .f32⟩
  | 117 => ⟨S256, .f32⟩
  | 118 => ⟨S256, .f32⟩
  | 119 => ⟨S256, .f32⟩
  | 120 => ⟨S1x256, .f32⟩
  | 121 => ⟨S16x256, .f32⟩
  | 122 => ⟨S4096, .f32⟩
  | 123 => ⟨S1x256, .f32⟩
  | 124 => ⟨S16x256, .f32⟩
  | 125 => ⟨S4096, .f32⟩
  | 126 => ⟨S1x256, .f32⟩
  | 127 => ⟨S16x256, .f32⟩
  | _ => ⟨S2048x4096, .f32⟩

abbrev hbmTy0_2 (i : Nat) : BufTy := match i % 128 with
  | 0 => ⟨S4096, .f32⟩
  | 1 => ⟨S1x256, .f32⟩
  | 2 => ⟨S16x256, .f32⟩
  | 3 => ⟨S4096, .f32⟩
  | 4 => ⟨S1x256, .f32⟩
  | 5 => ⟨S16x256, .f32⟩
  | 6 => ⟨S4096, .f32⟩
  | 7 => ⟨S1x1x512, .f32⟩
  | 8 => ⟨S512, .f32⟩
  | 9 => ⟨S1x1x512, .f32⟩
  | 10 => ⟨S512, .f32⟩
  | 11 => ⟨S1x1x512, .f32⟩
  | 12 => ⟨S512, .f32⟩
  | 13 => ⟨S1x1x512, .f32⟩
  | 14 => ⟨S512, .f32⟩
  | 15 => ⟨S512, .i32⟩
  | 16 => ⟨S_, .i32⟩
  | 17 => ⟨S512, .i32⟩
  | 18 => ⟨S512, .i1⟩
  | 19 => ⟨S512, .f32⟩
  | 20 => ⟨S512, .f32⟩
  | 21 => ⟨S512, .f32⟩
  | 22 => ⟨S512, .f32⟩
  | 23 => ⟨S512, .f32⟩
  | 24 => ⟨S1x512, .f32⟩
  | 25 => ⟨S8x512, .f32⟩
  | 26 => ⟨S4096, .f32⟩
  | 27 => ⟨S1x512, .f32⟩
  | 28 => ⟨S8x512, .f32⟩
  | 29 => ⟨S4096, .f32⟩
  | 30 => ⟨S1x512, .f32⟩
  | 31 => ⟨S8x512, .f32⟩
  | 32 => ⟨S4096, .f32⟩
  | 33 => ⟨S1x512, .f32⟩
  | 34 => ⟨S8x512, .f32⟩
  | 35 => ⟨S4096, .f32⟩
  | 36 => ⟨S1x512, .f32⟩
  | 37 => ⟨S8x512, .f32⟩
  | 38 => ⟨S4096, .f32⟩
  | 39 => ⟨S1x1x1024, .f32⟩
  | 40 => ⟨S1024, .f32⟩
  | 41 => ⟨S1x1x1024, .f32⟩
  | 42 => ⟨S1024, .f32⟩
  | 43 => ⟨S1x1x1024, .f32⟩
  | 44 => ⟨S1024, .f32⟩
  | 45 => ⟨S1x1x1024, .f32⟩
  | 46 => ⟨S1024, .f32⟩
  | 47 => ⟨S1024, .i32⟩
  | 48 => ⟨S_, .i32⟩
  | 49 => ⟨S1024, .i32⟩
  | 50 => ⟨S1024, .i1⟩
  | 51 => ⟨S1024, .f32⟩
  | 52 => ⟨S1024, .f32⟩
  | 53 => ⟨S1024, .f32⟩
  | 54 => ⟨S1024, .f32⟩
  | 55 => ⟨S1024, .f32⟩
  | 56 => ⟨S1x1024, .f32⟩
  | 57 => ⟨S4x1024, .f32⟩
  | 58 => ⟨S4096, .f32⟩
  | 59 => ⟨S1x1024, .f32⟩
  | 60 => ⟨S4x1024, .f32⟩
  | 61 => ⟨S4096, .f32⟩
  | 62 => ⟨S1x1024, .f32⟩
  | 63 => ⟨S4x1024, .f32⟩
  | 64 => ⟨S4096, .f32⟩
  | 65 => ⟨S1x1024, .f32⟩
  | 66 => ⟨S4x1024, .f32⟩
  | 67 => ⟨S4096, .f32⟩
  | 68 => ⟨S1x1024, .f32⟩
  | 69 => ⟨S4x1024, .f32⟩
  | 70 => ⟨S4096, .f32⟩
  | 71 => ⟨S1x1x2048, .f32⟩
  | 72 => ⟨S2048, .f32⟩
  | 73 => ⟨S1x1x2048, .f32⟩
  | 74 => ⟨S2048, .f32⟩
  | 75 => ⟨S1x1x2048, .f32⟩
  | 76 => ⟨S2048, .f32⟩
  | 77 => ⟨S1x1x2048, .f32⟩
  | 78 => ⟨S2048, .f32⟩
  | 79 => ⟨S2048, .i32⟩
  | 80 => ⟨S_, .i32⟩
  | 81 => ⟨S2048, .i32⟩
  | 82 => ⟨S2048, .i1⟩
  | 83 => ⟨S2048, .f32⟩
  | 84 => ⟨S2048, .f32⟩
  | 85 => ⟨S2048, .f32⟩
  | 86 => ⟨S2048, .f32⟩
  | 87 => ⟨S2048, .f32⟩
  | 88 => ⟨S1x2048, .f32⟩
  | 89 => ⟨S2x2048, .f32⟩
  | 90 => ⟨S4096, .f32⟩
  | 91 => ⟨S1x2048, .f32⟩
  | 92 => ⟨S2x2048, .f32⟩
  | 93 => ⟨S4096, .f32⟩
  | 94 => ⟨S1x2048, .f32⟩
  | 95 => ⟨S2x2048, .f32⟩
  | 96 => ⟨S4096, .f32⟩
  | 97 => ⟨S1x2048, .f32⟩
  | 98 => ⟨S2x2048, .f32⟩
  | 99 => ⟨S4096, .f32⟩
  | 100 => ⟨S1x2048, .f32⟩
  | 101 => ⟨S2x2048, .f32⟩
  | 102 => ⟨S4096, .f32⟩
  | 103 => ⟨S1x1x4096, .f32⟩
  | 104 => ⟨S4096, .f32⟩
  | 105 => ⟨S1x1x4096, .f32⟩
  | 106 => ⟨S4096, .f32⟩
  | 107 => ⟨S1x1x4096, .f32⟩
  | 108 => ⟨S4096, .f32⟩
  | 109 => ⟨S1x1x4096, .f32⟩
  | 110 => ⟨S4096, .f32⟩
  | 111 => ⟨S4096, .i32⟩
  | 112 => ⟨S_, .i32⟩
  | 113 => ⟨S4096, .i32⟩
  | 114 => ⟨S4096, .i1⟩
  | 115 => ⟨S4096, .f32⟩
  | 116 => ⟨S4096, .f32⟩
  | 117 => ⟨S4096, .f32⟩
  | 118 => ⟨S4096, .f32⟩
  | 119 => ⟨S4096, .f32⟩
  | 120 => ⟨S1x4096, .f32⟩
  | 121 => ⟨S1x4096, .f32⟩
  | 122 => ⟨S4096, .f32⟩
  | 123 => ⟨S1x4096, .f32⟩
  | 124 => ⟨S1x4096, .f32⟩
  | 125 => ⟨S4096, .f32⟩
  | 126 => ⟨S1x4096, .f32⟩
  | 127 => ⟨S1x4096, .f32⟩
  | _ => ⟨S2048x4096, .f32⟩

abbrev hbmTy0_3 (i : Nat) : BufTy := match i % 128 with
  | 0 => ⟨S4096, .f32⟩
  | 1 => ⟨S1x4096, .f32⟩
  | 2 => ⟨S1x4096, .f32⟩
  | 3 => ⟨S4096, .f32⟩
  | 4 => ⟨S1x4096, .f32⟩
  | 5 => ⟨S1x4096, .f32⟩
  | 6 => ⟨S4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S12x4096, .f32⟩
  | 20 => ⟨S1x4096, .f32⟩
  | 21 => ⟨S1x4096, .f32⟩
  | 22 => ⟨S1x4096, .f32⟩
  | 23 => ⟨S1x4096, .f32⟩
  | 24 => ⟨S1x4096, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S1x4096, .f32⟩
  | 32 => ⟨S12x4096, .f32⟩
  | 33 => ⟨S1x4096, .f32⟩
  | 34 => ⟨S1x4096, .f32⟩
  | 35 => ⟨S1x4096, .f32⟩
  | 36 => ⟨S1x4096, .f32⟩
  | 37 => ⟨S1x4096, .f32⟩
  | 38 => ⟨S1x4096, .f32⟩
  | 39 => ⟨S1x4096, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S12x4096, .f32⟩
  | 46 => ⟨S1x4096, .f32⟩
  | 47 => ⟨S1x4096, .f32⟩
  | 48 => ⟨S1x4096, .f32⟩
  | 49 => ⟨S1x4096, .f32⟩
  | 50 => ⟨S1x4096, .f32⟩
  | 51 => ⟨S1x4096, .f32⟩
  | 52 => ⟨S1x4096, .f32⟩
  | 53 => ⟨S1x4096, .f32⟩
  | 54 => ⟨S1x4096, .f32⟩
  | 55 => ⟨S1x4096, .f32⟩
  | 56 => ⟨S1x4096, .f32⟩
  | 57 => ⟨S1x4096, .f32⟩
  | 58 => ⟨S12x4096, .f32⟩
  | 59 => ⟨S1x4096, .f32⟩
  | 60 => ⟨S1x4096, .f32⟩
  | 61 => ⟨S1x4096, .f32⟩
  | 62 => ⟨S1x4096, .f32⟩
  | 63 => ⟨S1x4096, .f32⟩
  | 64 => ⟨S1x4096, .f32⟩
  | 65 => ⟨S1x4096, .f32⟩
  | 66 => ⟨S1x4096, .f32⟩
  | 67 => ⟨S1x4096, .f32⟩
  | 68 => ⟨S1x4096, .f32⟩
  | 69 => ⟨S1x4096, .f32⟩
  | 70 => ⟨S1x4096, .f32⟩
  | 71 => ⟨S12x4096, .f32⟩
  | 72 => ⟨S2048x4096, .f32⟩
  | 73 => ⟨S2048x4096, .f32⟩
  | 74 => ⟨S2048x1x4096, .f32⟩
  | 75 => ⟨S2048x1x4096, .f32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | _ => ⟨S2048x4096, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S128x4096, .f32⟩
  | .local _ .vmem, ⟨8, _⟩ => ⟨S128x4096, .f32⟩
  | .local _ .vmem, ⟨9, _⟩ => ⟨S12x4096, .f32⟩
  | .local _ .vmem, ⟨10, _⟩ => ⟨S12x4096, .f32⟩
  | .local _ .vmem, ⟨11, _⟩ => ⟨S12x4096, .f32⟩
  | .local _ .vmem, ⟨12, _⟩ => ⟨S12x4096, .f32⟩
  | .local _ .vmem, ⟨13, _⟩ => ⟨S12x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c_0 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_c_1 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_c_2 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_c_3 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_c_4 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_c_5 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_c_6 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_c_7 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_v283 : Ref sig .tc := ⟨.hbm, 296, rfl⟩
abbrev main_v284 : Ref sig .tc := ⟨.hbm, 297, rfl⟩
abbrev main_v285 : Ref sig .tc := ⟨.hbm, 298, rfl⟩
abbrev main_v286 : Ref sig .tc := ⟨.hbm, 299, rfl⟩
abbrev main_v287 : Ref sig .tc := ⟨.hbm, 300, rfl⟩
abbrev main_v288 : Ref sig .tc := ⟨.hbm, 301, rfl⟩
abbrev main_v289 : Ref sig .tc := ⟨.hbm, 302, rfl⟩
abbrev main_v290 : Ref sig .tc := ⟨.hbm, 303, rfl⟩
abbrev main_c_8 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_c_9 : Ref sig .tc := ⟨.hbm, 336, rfl⟩
abbrev main_v322 : Ref sig .tc := ⟨.hbm, 337, rfl⟩
abbrev main_v323 : Ref sig .tc := ⟨.hbm, 338, rfl⟩
abbrev main_v324 : Ref sig .tc := ⟨.hbm, 339, rfl⟩
abbrev main_v325 : Ref sig .tc := ⟨.hbm, 340, rfl⟩
abbrev main_v326 : Ref sig .tc := ⟨.hbm, 341, rfl⟩
abbrev main_v327 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev main_v332 : Ref sig .tc := ⟨.hbm, 347, rfl⟩
abbrev main_v333 : Ref sig .tc := ⟨.hbm, 348, rfl⟩
abbrev main_v334 : Ref sig .tc := ⟨.hbm, 349, rfl⟩
abbrev main_v335 : Ref sig .tc := ⟨.hbm, 350, rfl⟩
abbrev main_v336 : Ref sig .tc := ⟨.hbm, 351, rfl⟩
abbrev main_v337 : Ref sig .tc := ⟨.hbm, 352, rfl⟩
abbrev main_v338 : Ref sig .tc := ⟨.hbm, 353, rfl⟩
abbrev main_v339 : Ref sig .tc := ⟨.hbm, 354, rfl⟩
abbrev main_v340 : Ref sig .tc := ⟨.hbm, 355, rfl⟩
abbrev main_v341 : Ref sig .tc := ⟨.hbm, 356, rfl⟩
abbrev main_v342 : Ref sig .tc := ⟨.hbm, 357, rfl⟩
abbrev main_v343 : Ref sig .tc := ⟨.hbm, 358, rfl⟩
abbrev main_v344 : Ref sig .tc := ⟨.hbm, 359, rfl⟩
abbrev main_v345 : Ref sig .tc := ⟨.hbm, 360, rfl⟩
abbrev main_v346 : Ref sig .tc := ⟨.hbm, 361, rfl⟩
abbrev main_v347 : Ref sig .tc := ⟨.hbm, 362, rfl⟩
abbrev main_v348 : Ref sig .tc := ⟨.hbm, 363, rfl⟩
abbrev main_v349 : Ref sig .tc := ⟨.hbm, 364, rfl⟩
abbrev main_v350 : Ref sig .tc := ⟨.hbm, 365, rfl⟩
abbrev main_v351 : Ref sig .tc := ⟨.hbm, 366, rfl⟩
abbrev main_v352 : Ref sig .tc := ⟨.hbm, 367, rfl⟩
abbrev main_c_10 : Ref sig .tc := ⟨.hbm, 368, rfl⟩
abbrev main_v353 : Ref sig .tc := ⟨.hbm, 369, rfl⟩
abbrev main_v354 : Ref sig .tc := ⟨.hbm, 370, rfl⟩
abbrev main_v355 : Ref sig .tc := ⟨.hbm, 371, rfl⟩
abbrev main_v356 : Ref sig .tc := ⟨.hbm, 372, rfl⟩
abbrev main_v357 : Ref sig .tc := ⟨.hbm, 373, rfl⟩
abbrev main_v358 : Ref sig .tc := ⟨.hbm, 374, rfl⟩
abbrev main_v359 : Ref sig .tc := ⟨.hbm, 375, rfl⟩
abbrev main_v360 : Ref sig .tc := ⟨.hbm, 376, rfl⟩
abbrev main_v361 : Ref sig .tc := ⟨.hbm, 377, rfl⟩
abbrev main_v362 : Ref sig .tc := ⟨.hbm, 378, rfl⟩
abbrev main_v363 : Ref sig .tc := ⟨.hbm, 379, rfl⟩
abbrev main_v364 : Ref sig .tc := ⟨.hbm, 380, rfl⟩
abbrev main_v365 : Ref sig .tc := ⟨.hbm, 381, rfl⟩
abbrev main_v366 : Ref sig .tc := ⟨.hbm, 382, rfl⟩
abbrev main_v367 : Ref sig .tc := ⟨.hbm, 383, rfl⟩
abbrev main_v368 : Ref sig .tc := ⟨.hbm, 384, rfl⟩
abbrev main_v369 : Ref sig .tc := ⟨.hbm, 385, rfl⟩
abbrev main_v370 : Ref sig .tc := ⟨.hbm, 386, rfl⟩
abbrev main_v371 : Ref sig .tc := ⟨.hbm, 387, rfl⟩
abbrev main_v372 : Ref sig .tc := ⟨.hbm, 388, rfl⟩
abbrev main_v373 : Ref sig .tc := ⟨.hbm, 389, rfl⟩
abbrev main_v374 : Ref sig .tc := ⟨.hbm, 390, rfl⟩
abbrev main_v375 : Ref sig .tc := ⟨.hbm, 391, rfl⟩
abbrev main_v376 : Ref sig .tc := ⟨.hbm, 392, rfl⟩
abbrev main_v377 : Ref sig .tc := ⟨.hbm, 393, rfl⟩
abbrev main_v378 : Ref sig .tc := ⟨.hbm, 394, rfl⟩
abbrev main_v379 : Ref sig .tc := ⟨.hbm, 395, rfl⟩
abbrev main_v380 : Ref sig .tc := ⟨.hbm, 396, rfl⟩
abbrev main_v381 : Ref sig .tc := ⟨.hbm, 397, rfl⟩
abbrev main_v382 : Ref sig .tc := ⟨.hbm, 398, rfl⟩
abbrev main_v383 : Ref sig .tc := ⟨.hbm, 399, rfl⟩
abbrev main_v384 : Ref sig .tc := ⟨.hbm, 400, rfl⟩
abbrev main_v385 : Ref sig .tc := ⟨.hbm, 401, rfl⟩
abbrev main_v386 : Ref sig .tc := ⟨.hbm, 402, rfl⟩
abbrev main_v387 : Ref sig .tc := ⟨.hbm, 403, rfl⟩
abbrev main_v388 : Ref sig .tc := ⟨.hbm, 404, rfl⟩
abbrev main_v389 : Ref sig .tc := ⟨.hbm, 405, rfl⟩
abbrev main_v390 : Ref sig .tc := ⟨.hbm, 406, rfl⟩
abbrev main_v391 : Ref sig .tc := ⟨.hbm, 407, rfl⟩
abbrev main_v392 : Ref sig .tc := ⟨.hbm, 408, rfl⟩
abbrev main_v393 : Ref sig .tc := ⟨.hbm, 409, rfl⟩
abbrev main_v394 : Ref sig .tc := ⟨.hbm, 410, rfl⟩
abbrev main_v395 : Ref sig .tc := ⟨.hbm, 411, rfl⟩
abbrev main_v396 : Ref sig .tc := ⟨.hbm, 412, rfl⟩
abbrev main_v397 : Ref sig .tc := ⟨.hbm, 413, rfl⟩
abbrev main_v398 : Ref sig .tc := ⟨.hbm, 414, rfl⟩
abbrev main_v399 : Ref sig .tc := ⟨.hbm, 415, rfl⟩
abbrev main_v400 : Ref sig .tc := ⟨.hbm, 416, rfl⟩
abbrev main_v401 : Ref sig .tc := ⟨.hbm, 417, rfl⟩
abbrev main_v402 : Ref sig .tc := ⟨.hbm, 418, rfl⟩
abbrev main_v403 : Ref sig .tc := ⟨.hbm, 419, rfl⟩
abbrev main_v404 : Ref sig .tc := ⟨.hbm, 420, rfl⟩
abbrev main_v405 : Ref sig .tc := ⟨.hbm, 421, rfl⟩
abbrev main_v406 : Ref sig .tc := ⟨.hbm, 422, rfl⟩
abbrev main_v407 : Ref sig .tc := ⟨.hbm, 423, rfl⟩
abbrev main_v408 : Ref sig .tc := ⟨.hbm, 424, rfl⟩
abbrev main_v409 : Ref sig .tc := ⟨.hbm, 425, rfl⟩
abbrev main_v410 : Ref sig .tc := ⟨.hbm, 426, rfl⟩
abbrev main_v411 : Ref sig .tc := ⟨.hbm, 427, rfl⟩
abbrev main_v412 : Ref sig .tc := ⟨.hbm, 428, rfl⟩
abbrev main_v413 : Ref sig .tc := ⟨.hbm, 429, rfl⟩
abbrev main_v414 : Ref sig .tc := ⟨.hbm, 430, rfl⟩
abbrev main_v415 : Ref sig .tc := ⟨.hbm, 431, rfl⟩
abbrev main_v416 : Ref sig .tc := ⟨.hbm, 432, rfl⟩
abbrev main_v417 : Ref sig .tc := ⟨.hbm, 433, rfl⟩
abbrev main_v418 : Ref sig .tc := ⟨.hbm, 434, rfl⟩
abbrev main_v419 : Ref sig .tc := ⟨.hbm, 435, rfl⟩
abbrev main_v420 : Ref sig .tc := ⟨.hbm, 436, rfl⟩
abbrev main_v421 : Ref sig .tc := ⟨.hbm, 437, rfl⟩
abbrev main_v422 : Ref sig .tc := ⟨.hbm, 438, rfl⟩
abbrev main_v423 : Ref sig .tc := ⟨.hbm, 439, rfl⟩
abbrev main_v424 : Ref sig .tc := ⟨.hbm, 440, rfl⟩
abbrev main_v425 : Ref sig .tc := ⟨.hbm, 441, rfl⟩
abbrev main_v426 : Ref sig .tc := ⟨.hbm, 442, rfl⟩
abbrev main_v427 : Ref sig .tc := ⟨.hbm, 443, rfl⟩
abbrev main_v428 : Ref sig .tc := ⟨.hbm, 444, rfl⟩
abbrev main_v429 : Ref sig .tc := ⟨.hbm, 445, rfl⟩
abbrev main_v430 : Ref sig .tc := ⟨.hbm, 446, rfl⟩
abbrev main_v431 : Ref sig .tc := ⟨.hbm, 447, rfl⟩
abbrev main_v432 : Ref sig .tc := ⟨.hbm, 448, rfl⟩
abbrev main_v433 : Ref sig .tc := ⟨.hbm, 449, rfl⟩
abbrev main_v434 : Ref sig .tc := ⟨.hbm, 450, rfl⟩
abbrev main_v435 : Ref sig .tc := ⟨.hbm, 451, rfl⟩
abbrev main_v436 : Ref sig .tc := ⟨.hbm, 452, rfl⟩
abbrev main_v437 : Ref sig .tc := ⟨.hbm, 453, rfl⟩
abbrev main_v438 : Ref sig .tc := ⟨.hbm, 454, rfl⟩
abbrev main_v439 : Ref sig .tc := ⟨.hbm, 455, rfl⟩
abbrev main_v440_0 : Ref sig .tc := ⟨.hbm, 456, rfl⟩
abbrev main_v440_1 : Ref sig .tc := ⟨.hbm, 457, rfl⟩
abbrev main_v441 : Ref sig .tc := ⟨.hbm, 458, rfl⟩
abbrev main_v442 : Ref sig .tc := ⟨.hbm, 459, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S12x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S12x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S12x2x4096_S1x1x2_0_0_0 : S12x2x4096.Slices ![0, 0, 0] S1x1x2
  shapeCasts_S1x1x2_S2 : S1x1x2.ShapeCasts S2
  slices_S12x2x4096_S1x1x2_0_1_0 : S12x2x4096.Slices ![0, 1, 0] S1x1x2
  bcast_S_S2 : S_.BroadcastsInDim S2 (![] : Fin 0 → Fin S2.rank)
  shapeCasts_S2_S1x2 : S2.ShapeCasts S1x2
  bcast_S1x2_S2048x2_0_1 : S1x2.BroadcastsInDim S2048x2 (![0, 1] : Fin 2 → Fin S2048x2.rank)
  shapeCasts_S2048x2_S4096 : S2048x2.ShapeCasts S4096
  slices_S12x2x4096_S1x1x4_1_0_0 : S12x2x4096.Slices ![1, 0, 0] S1x1x4
  shapeCasts_S1x1x4_S4 : S1x1x4.ShapeCasts S4
  slices_S12x2x4096_S1x1x4_1_1_0 : S12x2x4096.Slices ![1, 1, 0] S1x1x4
  bcast_S_S4 : S_.BroadcastsInDim S4 (![] : Fin 0 → Fin S4.rank)
  shapeCasts_S4_S1x4 : S4.ShapeCasts S1x4
  bcast_S1x4_S1024x4_0_1 : S1x4.BroadcastsInDim S1024x4 (![0, 1] : Fin 2 → Fin S1024x4.rank)
  shapeCasts_S1024x4_S4096 : S1024x4.ShapeCasts S4096
  slices_S12x2x4096_S1x1x8_2_0_0 : S12x2x4096.Slices ![2, 0, 0] S1x1x8
  shapeCasts_S1x1x8_S8 : S1x1x8.ShapeCasts S8
  slices_S12x2x4096_S1x1x8_2_1_0 : S12x2x4096.Slices ![2, 1, 0] S1x1x8
  bcast_S_S8 : S_.BroadcastsInDim S8 (![] : Fin 0 → Fin S8.rank)
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  slices_S12x2x4096_S1x1x16_3_0_0 : S12x2x4096.Slices ![3, 0, 0] S1x1x16
  shapeCasts_S1x1x16_S16 : S1x1x16.ShapeCasts S16
  slices_S12x2x4096_S1x1x16_3_1_0 : S12x2x4096.Slices ![3, 1, 0] S1x1x16
  bcast_S_S16 : S_.BroadcastsInDim S16 (![] : Fin 0 → Fin S16.rank)
  shapeCasts_S16_S1x16 : S16.ShapeCasts S1x16
  bcast_S1x16_S256x16_0_1 : S1x16.BroadcastsInDim S256x16 (![0, 1] : Fin 2 → Fin S256x16.rank)
  shapeCasts_S256x16_S4096 : S256x16.ShapeCasts S4096
  slices_S12x2x4096_S1x1x32_4_0_0 : S12x2x4096.Slices ![4, 0, 0] S1x1x32
  shapeCasts_S1x1x32_S32 : S1x1x32.ShapeCasts S32
  slices_S12x2x4096_S1x1x32_4_1_0 : S12x2x4096.Slices ![4, 1, 0] S1x1x32
  bcast_S_S32 : S_.BroadcastsInDim S32 (![] : Fin 0 → Fin S32.rank)
  shapeCasts_S32_S1x32 : S32.ShapeCasts S1x32
  bcast_S1x32_S128x32_0_1 : S1x32.BroadcastsInDim S128x32 (![0, 1] : Fin 2 → Fin S128x32.rank)
  shapeCasts_S128x32_S4096 : S128x32.ShapeCasts S4096
  slices_S12x2x4096_S1x1x64_5_0_0 : S12x2x4096.Slices ![5, 0, 0] S1x1x64
  shapeCasts_S1x1x64_S64 : S1x1x64.ShapeCasts S64
  slices_S12x2x4096_S1x1x64_5_1_0 : S12x2x4096.Slices ![5, 1, 0] S1x1x64
  bcast_S_S64 : S_.BroadcastsInDim S64 (![] : Fin 0 → Fin S64.rank)
  shapeCasts_S64_S1x64 : S64.ShapeCasts S1x64
  bcast_S1x64_S64x64_0_1 : S1x64.BroadcastsInDim S64x64 (![0, 1] : Fin 2 → Fin S64x64.rank)
  shapeCasts_S64x64_S4096 : S64x64.ShapeCasts S4096
  slices_S12x2x4096_S1x1x128_6_0_0 : S12x2x4096.Slices ![6, 0, 0] S1x1x128
  shapeCasts_S1x1x128_S128 : S1x1x128.ShapeCasts S128
  slices_S12x2x4096_S1x1x128_6_1_0 : S12x2x4096.Slices ![6, 1, 0] S1x1x128
  bcast_S_S128 : S_.BroadcastsInDim S128 (![] : Fin 0 → Fin S128.rank)
  shapeCasts_S128_S1x128 : S128.ShapeCasts S1x128
  bcast_S1x128_S32x128_0_1 : S1x128.BroadcastsInDim S32x128 (![0, 1] : Fin 2 → Fin S32x128.rank)
  shapeCasts_S32x128_S4096 : S32x128.ShapeCasts S4096
  slices_S12x2x4096_S1x1x256_7_0_0 : S12x2x4096.Slices ![7, 0, 0] S1x1x256
  shapeCasts_S1x1x256_S256 : S1x1x256.ShapeCasts S256
  slices_S12x2x4096_S1x1x256_7_1_0 : S12x2x4096.Slices ![7, 1, 0] S1x1x256
  bcast_S_S256 : S_.BroadcastsInDim S256 (![] : Fin 0 → Fin S256.rank)
  shapeCasts_S256_S1x256 : S256.ShapeCasts S1x256
  bcast_S1x256_S16x256_0_1 : S1x256.BroadcastsInDim S16x256 (![0, 1] : Fin 2 → Fin S16x256.rank)
  shapeCasts_S16x256_S4096 : S16x256.ShapeCasts S4096
  slices_S12x2x4096_S1x1x512_8_0_0 : S12x2x4096.Slices ![8, 0, 0] S1x1x512
  shapeCasts_S1x1x512_S512 : S1x1x512.ShapeCasts S512
  slices_S12x2x4096_S1x1x512_8_1_0 : S12x2x4096.Slices ![8, 1, 0] S1x1x512
  bcast_S_S512 : S_.BroadcastsInDim S512 (![] : Fin 0 → Fin S512.rank)
  shapeCasts_S512_S1x512 : S512.ShapeCasts S1x512
  bcast_S1x512_S8x512_0_1 : S1x512.BroadcastsInDim S8x512 (![0, 1] : Fin 2 → Fin S8x512.rank)
  shapeCasts_S8x512_S4096 : S8x512.ShapeCasts S4096
  slices_S12x2x4096_S1x1x1024_9_0_0 : S12x2x4096.Slices ![9, 0, 0] S1x1x1024
  shapeCasts_S1x1x1024_S1024 : S1x1x1024.ShapeCasts S1024
  slices_S12x2x4096_S1x1x1024_9_1_0 : S12x2x4096.Slices ![9, 1, 0] S1x1x1024
  bcast_S_S1024 : S_.BroadcastsInDim S1024 (![] : Fin 0 → Fin S1024.rank)
  shapeCasts_S1024_S1x1024 : S1024.ShapeCasts S1x1024
  bcast_S1x1024_S4x1024_0_1 : S1x1024.BroadcastsInDim S4x1024 (![0, 1] : Fin 2 → Fin S4x1024.rank)
  shapeCasts_S4x1024_S4096 : S4x1024.ShapeCasts S4096
  slices_S12x2x4096_S1x1x2048_10_0_0 : S12x2x4096.Slices ![10, 0, 0] S1x1x2048
  shapeCasts_S1x1x2048_S2048 : S1x1x2048.ShapeCasts S2048
  slices_S12x2x4096_S1x1x2048_10_1_0 : S12x2x4096.Slices ![10, 1, 0] S1x1x2048
  bcast_S_S2048 : S_.BroadcastsInDim S2048 (![] : Fin 0 → Fin S2048.rank)
  shapeCasts_S2048_S1x2048 : S2048.ShapeCasts S1x2048
  bcast_S1x2048_S2x2048_0_1 : S1x2048.BroadcastsInDim S2x2048 (![0, 1] : Fin 2 → Fin S2x2048.rank)
  shapeCasts_S2x2048_S4096 : S2x2048.ShapeCasts S4096
  slices_S12x2x4096_S1x1x4096_11_0_0 : S12x2x4096.Slices ![11, 0, 0] S1x1x4096
  shapeCasts_S1x1x4096_S4096 : S1x1x4096.ShapeCasts S4096
  slices_S12x2x4096_S1x1x4096_11_1_0 : S12x2x4096.Slices ![11, 1, 0] S1x1x4096
  bcast_S_S4096 : S_.BroadcastsInDim S4096 (![] : Fin 0 → Fin S4096.rank)
  shapeCasts_S4096_S1x4096 : S4096.ShapeCasts S1x4096
  bcast_S1x4096_S1x4096_0_1 : S1x4096.BroadcastsInDim S1x4096 (![0, 1] : Fin 2 → Fin S1x4096.rank)
  shapeCasts_S1x4096_S4096 : S1x4096.ShapeCasts S4096
  bcast_S4096_S1x4096_1 : S4096.BroadcastsInDim S1x4096 (![1] : Fin 1 → Fin S1x4096.rank)
  concatenates_S1x4096_S1x4096_S1x4096_S1x4096_S1x4096_S1x4096_S1x4096_S1x4096_S1x4096_S1x4096_S1x4096_S1x4096_S12x4096_d0 : Shape.Concatenates [S1x4096, S1x4096, S1x4096, S1x4096, S1x4096, S1x4096, S1x4096, S1x4096, S1x4096, S1x4096, S1x4096, S1x4096] S12x4096 0
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S12x4096_S1x4096_0_0 : ∀ a, (![0, 0] : Fin 2 → Nat) a + S1x4096.size a ≤ S12x4096.size a
  h_S1x4096 : 0 < S1x4096.numel
  shapeCasts_S1x4096_S1x4096 : S1x4096.ShapeCasts S1x4096
  rotates_S128x4096_d1 : S128x4096.Rotates 1 none
  broadcasts_S1x4096_S128x4096 : S1x4096.Broadcasts S128x4096
  inb_S12x4096_S1x4096_1_0 : ∀ a, (![1, 0] : Fin 2 → Nat) a + S1x4096.size a ≤ S12x4096.size a
  inb_S12x4096_S1x4096_2_0 : ∀ a, (![2, 0] : Fin 2 → Nat) a + S1x4096.size a ≤ S12x4096.size a
  inb_S12x4096_S1x4096_3_0 : ∀ a, (![3, 0] : Fin 2 → Nat) a + S1x4096.size a ≤ S12x4096.size a
  inb_S12x4096_S1x4096_4_0 : ∀ a, (![4, 0] : Fin 2 → Nat) a + S1x4096.size a ≤ S12x4096.size a
  inb_S12x4096_S1x4096_5_0 : ∀ a, (![5, 0] : Fin 2 → Nat) a + S1x4096.size a ≤ S12x4096.size a
  inb_S12x4096_S1x4096_6_0 : ∀ a, (![6, 0] : Fin 2 → Nat) a + S1x4096.size a ≤ S12x4096.size a
  inb_S12x4096_S1x4096_7_0 : ∀ a, (![7, 0] : Fin 2 → Nat) a + S1x4096.size a ≤ S12x4096.size a
  inb_S12x4096_S1x4096_8_0 : ∀ a, (![8, 0] : Fin 2 → Nat) a + S1x4096.size a ≤ S12x4096.size a
  inb_S12x4096_S1x4096_9_0 : ∀ a, (![9, 0] : Fin 2 → Nat) a + S1x4096.size a ≤ S12x4096.size a
  inb_S12x4096_S1x4096_10_0 : ∀ a, (![10, 0] : Fin 2 → Nat) a + S1x4096.size a ≤ S12x4096.size a
  inb_S12x4096_S1x4096_11_0 : ∀ a, (![11, 0] : Fin 2 → Nat) a + S1x4096.size a ≤ S12x4096.size a
  shapeCasts_S2048x4096_S2048x1x4096 : S2048x4096.ShapeCasts S2048x1x4096
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x4096.size a
  hwx0_0 : ∀ i : grid0.Coords, EltTy.bits .bf16 = 32 ∨ (Rect.block (s := S2048x4096) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .f32 = 32 ∨ (Rect.block (s := S2048x4096) S256x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S2048x4096.size a
  hwx1_0 : ∀ i : grid1.Coords, EltTy.bits .f32 = 32 ∨ (Rect.block (s := S2048x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12x4096.size a ≤ S12x4096.size a
  hwx1_1 : ∀ i : grid1.Coords, EltTy.bits .f32 = 32 ∨ (Rect.block (s := S12x4096) S12x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12x4096.size a ≤ S12x4096.size a
  hwx1_2 : ∀ i : grid1.Coords, EltTy.bits .f32 = 32 ∨ (Rect.block (s := S12x4096) S12x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12x4096.size a ≤ S12x4096.size a
  hwx1_3 : ∀ i : grid1.Coords, EltTy.bits .f32 = 32 ∨ (Rect.block (s := S12x4096) S12x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S12x4096.size a ≤ S12x4096.size a
  hwx1_4 : ∀ i : grid1.Coords, EltTy.bits .f32 = 32 ∨ (Rect.block (s := S12x4096) S12x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S12x4096.size a ≤ S12x4096.size a
  hwx1_5 : ∀ i : grid1.Coords, EltTy.bits .f32 = 32 ∨ (Rect.block (s := S12x4096) S12x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S2048x4096.size a
  hwx1_6 : ∀ i : grid1.Coords, EltTy.bits .f32 = 32 ∨ (Rect.block (s := S2048x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S2048x4096.size a
  hwx1_7 : ∀ i : grid1.Coords, EltTy.bits .f32 = 32 ∨ (Rect.block (s := S2048x4096) S128x4096.size (cc1_transform_7 i) (hinb1_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v387) S12x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v400) S12x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v413) S12x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v426) S12x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v439) S12x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v440_0) S128x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v440_1) S128x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S12x2x4096 : Shape := ⟨3, ![12, 2, 4096]⟩
abbrev S_ : Shape := ⟨0, ![]⟩
abbrev S2048x2048x2 : Shape := ⟨3, ![2048, 2048, 2]⟩
abbrev S1x2x2 : Shape := ⟨3, ![1, 2, 2]⟩
abbrev S2x2 : Shape := ⟨2, ![2, 2]⟩
abbrev S2048x2048x1 : Shape := ⟨3, ![2048, 2048, 1]⟩
abbrev S1x1 : Shape := ⟨2, ![1, 1]⟩
abbrev S1 : Shape := ⟨1, ![1]⟩
abbrev S1x1x1 : Shape := ⟨3, ![1, 1, 1]⟩
abbrev S2048x1024x4 : Shape := ⟨3, ![2048, 1024, 4]⟩
abbrev S1x2x4 : Shape := ⟨3, ![1, 2, 4]⟩
abbrev S2x4 : Shape := ⟨2, ![2, 4]⟩
abbrev S2048x1024x2 : Shape := ⟨3, ![2048, 1024, 2]⟩
abbrev S1x2 : Shape := ⟨2, ![1, 2]⟩
abbrev S2 : Shape := ⟨1, ![2]⟩
abbrev S1x1x2 : Shape := ⟨3, ![1, 1, 2]⟩
abbrev S2048x512x8 : Shape := ⟨3, ![2048, 512, 8]⟩
abbrev S1x2x8 : Shape := ⟨3, ![1, 2, 8]⟩
abbrev S2x8 : Shape := ⟨2, ![2, 8]⟩
abbrev S2048x512x4 : Shape := ⟨3, ![2048, 512, 4]⟩
abbrev S1x4 : Shape := ⟨2, ![1, 4]⟩
abbrev S4 : Shape := ⟨1, ![4]⟩
abbrev S1x1x4 : Shape := ⟨3, ![1, 1, 4]⟩
abbrev S2048x256x16 : Shape := ⟨3, ![2048, 256, 16]⟩
abbrev S1x2x16 : Shape := ⟨3, ![1, 2, 16]⟩
abbrev S2x16 : Shape := ⟨2, ![2, 16]⟩
abbrev S2048x256x8 : Shape := ⟨3, ![2048, 256, 8]⟩
abbrev S1x8 : Shape := ⟨2, ![1, 8]⟩
abbrev S8 : Shape := ⟨1, ![8]⟩
abbrev S1x1x8 : Shape := ⟨3, ![1, 1, 8]⟩
abbrev S2048x128x32 : Shape := ⟨3, ![2048, 128, 32]⟩
abbrev S1x2x32 : Shape := ⟨3, ![1, 2, 32]⟩
abbrev S2x32 : Shape := ⟨2, ![2, 32]⟩
abbrev S2048x128x16 : Shape := ⟨3, ![2048, 128, 16]⟩
abbrev S1x16 : Shape := ⟨2, ![1, 16]⟩
abbrev S16 : Shape := ⟨1, ![16]⟩
abbrev S1x1x16 : Shape := ⟨3, ![1, 1, 16]⟩
abbrev S2048x64x64 : Shape := ⟨3, ![2048, 64, 64]⟩
abbrev S1x2x64 : Shape := ⟨3, ![1, 2, 64]⟩
abbrev S2x64 : Shape := ⟨2, ![2, 64]⟩
abbrev S2048x64x32 : Shape := ⟨3, ![2048, 64, 32]⟩
abbrev S1x32 : Shape := ⟨2, ![1, 32]⟩
abbrev S32 : Shape := ⟨1, ![32]⟩
abbrev S1x1x32 : Shape := ⟨3, ![1, 1, 32]⟩
abbrev S2048x32x128 : Shape := ⟨3, ![2048, 32, 128]⟩
abbrev S1x2x128 : Shape := ⟨3, ![1, 2, 128]⟩
abbrev S2x128 : Shape := ⟨2, ![2, 128]⟩
abbrev S2048x32x64 : Shape := ⟨3, ![2048, 32, 64]⟩
abbrev S1x64 : Shape := ⟨2, ![1, 64]⟩
abbrev S64 : Shape := ⟨1, ![64]⟩
abbrev S1x1x64 : Shape := ⟨3, ![1, 1, 64]⟩
abbrev S2048x16x256 : Shape := ⟨3, ![2048, 16, 256]⟩
abbrev S1x2x256 : Shape := ⟨3, ![1, 2, 256]⟩
abbrev S2x256 : Shape := ⟨2, ![2, 256]⟩
abbrev S2048x16x128 : Shape := ⟨3, ![2048, 16, 128]⟩
abbrev S1x128 : Shape := ⟨2, ![1, 128]⟩
abbrev S128 : Shape := ⟨1, ![128]⟩
abbrev S1x1x128 : Shape := ⟨3, ![1, 1, 128]⟩
abbrev S2048x8x512 : Shape := ⟨3, ![2048, 8, 512]⟩
abbrev S1x2x512 : Shape := ⟨3, ![1, 2, 512]⟩
abbrev S2x512 : Shape := ⟨2, ![2, 512]⟩
abbrev S2048x8x256 : Shape := ⟨3, ![2048, 8, 256]⟩
abbrev S1x256 : Shape := ⟨2, ![1, 256]⟩
abbrev S256 : Shape := ⟨1, ![256]⟩
abbrev S1x1x256 : Shape := ⟨3, ![1, 1, 256]⟩
abbrev S2048x4x1024 : Shape := ⟨3, ![2048, 4, 1024]⟩
abbrev S1x2x1024 : Shape := ⟨3, ![1, 2, 1024]⟩
abbrev S2x1024 : Shape := ⟨2, ![2, 1024]⟩
abbrev S2048x4x512 : Shape := ⟨3, ![2048, 4, 512]⟩
abbrev S1x512 : Shape := ⟨2, ![1, 512]⟩
abbrev S512 : Shape := ⟨1, ![512]⟩
abbrev S1x1x512 : Shape := ⟨3, ![1, 1, 512]⟩
abbrev S2048x2x2048 : Shape := ⟨3, ![2048, 2, 2048]⟩
abbrev S1x2x2048 : Shape := ⟨3, ![1, 2, 2048]⟩
abbrev S2x2048 : Shape := ⟨2, ![2, 2048]⟩
abbrev S2048x2x1024 : Shape := ⟨3, ![2048, 2, 1024]⟩
abbrev S1x1024 : Shape := ⟨2, ![1, 1024]⟩
abbrev S1024 : Shape := ⟨1, ![1024]⟩
abbrev S1x1x1024 : Shape := ⟨3, ![1, 1, 1024]⟩
abbrev S2048x1x4096 : Shape := ⟨3, ![2048, 1, 4096]⟩
abbrev S1x2x4096 : Shape := ⟨3, ![1, 2, 4096]⟩
abbrev S2x4096 : Shape := ⟨2, ![2, 4096]⟩
abbrev S2048x1x2048 : Shape := ⟨3, ![2048, 1, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 1329
  | .vmem => 0
  | .smem => 0
  | _ => 0

abbrev hbmTy0_0 (i : Nat) : BufTy := match i % 128 with
  | 0 => ⟨S2048x4096, .f32⟩
  | 1 => ⟨S4096x4096, .f32⟩
  | 2 => ⟨S12x2x4096, .f32⟩
  | 3 => ⟨S12x2x4096, .f32⟩
  | 4 => ⟨S2048x4096, .f32⟩
  | 5 => ⟨S_, .f32⟩
  | 6 => ⟨S2048x4096, .f32⟩
  | 7 => ⟨S2048x2048x2, .f32⟩
  | 8 => ⟨S2048x2048x2, .f32⟩
  | 9 => ⟨S1x2x2, .f32⟩
  | 10 => ⟨S2x2, .f32⟩
  | 11 => ⟨S1x2x2, .f32⟩
  | 12 => ⟨S2x2, .f32⟩
  | 13 => ⟨S2048x2048x1, .f32⟩
  | 14 => ⟨S2048x2048x1, .f32⟩
  | 15 => ⟨S1x1, .f32⟩
  | 16 => ⟨S1, .f32⟩
  | 17 => ⟨S1x1x1, .f32⟩
  | 18 => ⟨S2048x2048x1, .f32⟩
  | 19 => ⟨S2048x2048x1, .f32⟩
  | 20 => ⟨S1x1, .f32⟩
  | 21 => ⟨S1, .f32⟩
  | 22 => ⟨S1x1x1, .f32⟩
  | 23 => ⟨S2048x2048x1, .f32⟩
  | 24 => ⟨S2048x2048x1, .f32⟩
  | 25 => ⟨S2048x2048x1, .f32⟩
  | 26 => ⟨S1x1, .f32⟩
  | 27 => ⟨S1, .f32⟩
  | 28 => ⟨S1x1x1, .f32⟩
  | 29 => ⟨S2048x2048x1, .f32⟩
  | 30 => ⟨S2048x2048x1, .f32⟩
  | 31 => ⟨S1x1, .f32⟩
  | 32 => ⟨S1, .f32⟩
  | 33 => ⟨S1x1x1, .f32⟩
  | 34 => ⟨S2048x2048x1, .f32⟩
  | 35 => ⟨S2048x2048x1, .f32⟩
  | 36 => ⟨S2048x2048x1, .f32⟩
  | 37 => ⟨S2048x2048x2, .f32⟩
  | 38 => ⟨S2048x2048x1, .f32⟩
  | 39 => ⟨S2048x2048x1, .f32⟩
  | 40 => ⟨S1x1, .f32⟩
  | 41 => ⟨S1, .f32⟩
  | 42 => ⟨S1x1x1, .f32⟩
  | 43 => ⟨S2048x2048x1, .f32⟩
  | 44 => ⟨S2048x2048x1, .f32⟩
  | 45 => ⟨S1x1, .f32⟩
  | 46 => ⟨S1, .f32⟩
  | 47 => ⟨S1x1x1, .f32⟩
  | 48 => ⟨S2048x2048x1, .f32⟩
  | 49 => ⟨S2048x2048x1, .f32⟩
  | 50 => ⟨S2048x2048x1, .f32⟩
  | 51 => ⟨S1x1, .f32⟩
  | 52 => ⟨S1, .f32⟩
  | 53 => ⟨S1x1x1, .f32⟩
  | 54 => ⟨S2048x2048x1, .f32⟩
  | 55 => ⟨S2048x2048x1, .f32⟩
  | 56 => ⟨S1x1, .f32⟩
  | 57 => ⟨S1, .f32⟩
  | 58 => ⟨S1x1x1, .f32⟩
  | 59 => ⟨S2048x2048x1, .f32⟩
  | 60 => ⟨S2048x2048x1, .f32⟩
  | 61 => ⟨S2048x2048x1, .f32⟩
  | 62 => ⟨S2048x2048x2, .f32⟩
  | 63 => ⟨S2048x2048x2, .f32⟩
  | 64 => ⟨S2048x2048x1, .f32⟩
  | 65 => ⟨S2048x2048x1, .f32⟩
  | 66 => ⟨S1x1, .f32⟩
  | 67 => ⟨S1, .f32⟩
  | 68 => ⟨S1x1x1, .f32⟩
  | 69 => ⟨S2048x2048x1, .f32⟩
  | 70 => ⟨S2048x2048x1, .f32⟩
  | 71 => ⟨S1x1, .f32⟩
  | 72 => ⟨S1, .f32⟩
  | 73 => ⟨S1x1x1, .f32⟩
  | 74 => ⟨S2048x2048x1, .f32⟩
  | 75 => ⟨S2048x2048x1, .f32⟩
  | 76 => ⟨S2048x2048x1, .f32⟩
  | 77 => ⟨S1x1, .f32⟩
  | 78 => ⟨S1, .f32⟩
  | 79 => ⟨S1x1x1, .f32⟩
  | 80 => ⟨S2048x2048x1, .f32⟩
  | 81 => ⟨S2048x2048x1, .f32⟩
  | 82 => ⟨S1x1, .f32⟩
  | 83 => ⟨S1, .f32⟩
  | 84 => ⟨S1x1x1, .f32⟩
  | 85 => ⟨S2048x2048x1, .f32⟩
  | 86 => ⟨S2048x2048x1, .f32⟩
  | 87 => ⟨S2048x2048x1, .f32⟩
  | 88 => ⟨S2048x2048x2, .f32⟩
  | 89 => ⟨S2048x2048x1, .f32⟩
  | 90 => ⟨S2048x2048x1, .f32⟩
  | 91 => ⟨S1x1, .f32⟩
  | 92 => ⟨S1, .f32⟩
  | 93 => ⟨S1x1x1, .f32⟩
  | 94 => ⟨S2048x2048x1, .f32⟩
  | 95 => ⟨S2048x2048x1, .f32⟩
  | 96 => ⟨S1x1, .f32⟩
  | 97 => ⟨S1, .f32⟩
  | 98 => ⟨S1x1x1, .f32⟩
  | 99 => ⟨S2048x2048x1, .f32⟩
  | 100 => ⟨S2048x2048x1, .f32⟩
  | 101 => ⟨S2048x2048x1, .f32⟩
  | 102 => ⟨S1x1, .f32⟩
  | 103 => ⟨S1, .f32⟩
  | 104 => ⟨S1x1x1, .f32⟩
  | 105 => ⟨S2048x2048x1, .f32⟩
  | 106 => ⟨S2048x2048x1, .f32⟩
  | 107 => ⟨S1x1, .f32⟩
  | 108 => ⟨S1, .f32⟩
  | 109 => ⟨S1x1x1, .f32⟩
  | 110 => ⟨S2048x2048x1, .f32⟩
  | 111 => ⟨S2048x2048x1, .f32⟩
  | 112 => ⟨S2048x2048x1, .f32⟩
  | 113 => ⟨S2048x2048x2, .f32⟩
  | 114 => ⟨S2048x2048x2, .f32⟩
  | 115 => ⟨S2048x4096, .f32⟩
  | 116 => ⟨S2048x4096, .f32⟩
  | 117 => ⟨S2048x1024x4, .f32⟩
  | 118 => ⟨S2048x1024x4, .f32⟩
  | 119 => ⟨S1x2x4, .f32⟩
  | 120 => ⟨S2x4, .f32⟩
  | 121 => ⟨S1x2x4, .f32⟩
  | 122 => ⟨S2x4, .f32⟩
  | 123 => ⟨S2048x1024x2, .f32⟩
  | 124 => ⟨S2048x1024x2, .f32⟩
  | 125 => ⟨S1x2, .f32⟩
  | 126 => ⟨S2, .f32⟩
  | 127 => ⟨S1x1x2, .f32⟩
  | _ => ⟨S2048x4096, .f32⟩

abbrev hbmTy0_1 (i : Nat) : BufTy := match i % 128 with
  | 0 => ⟨S2048x1024x2, .f32⟩
  | 1 => ⟨S2048x1024x2, .f32⟩
  | 2 => ⟨S1x2, .f32⟩
  | 3 => ⟨S2, .f32⟩
  | 4 => ⟨S1x1x2, .f32⟩
  | 5 => ⟨S2048x1024x2, .f32⟩
  | 6 => ⟨S2048x1024x2, .f32⟩
  | 7 => ⟨S2048x1024x2, .f32⟩
  | 8 => ⟨S1x2, .f32⟩
  | 9 => ⟨S2, .f32⟩
  | 10 => ⟨S1x1x2, .f32⟩
  | 11 => ⟨S2048x1024x2, .f32⟩
  | 12 => ⟨S2048x1024x2, .f32⟩
  | 13 => ⟨S1x2, .f32⟩
  | 14 => ⟨S2, .f32⟩
  | 15 => ⟨S1x1x2, .f32⟩
  | 16 => ⟨S2048x1024x2, .f32⟩
  | 17 => ⟨S2048x1024x2, .f32⟩
  | 18 => ⟨S2048x1024x2, .f32⟩
  | 19 => ⟨S2048x1024x4, .f32⟩
  | 20 => ⟨S2048x1024x2, .f32⟩
  | 21 => ⟨S2048x1024x2, .f32⟩
  | 22 => ⟨S1x2, .f32⟩
  | 23 => ⟨S2, .f32⟩
  | 24 => ⟨S1x1x2, .f32⟩
  | 25 => ⟨S2048x1024x2, .f32⟩
  | 26 => ⟨S2048x1024x2, .f32⟩
  | 27 => ⟨S1x2, .f32⟩
  | 28 => ⟨S2, .f32⟩
  | 29 => ⟨S1x1x2, .f32⟩
  | 30 => ⟨S2048x1024x2, .f32⟩
  | 31 => ⟨S2048x1024x2, .f32⟩
  | 32 => ⟨S2048x1024x2, .f32⟩
  | 33 => ⟨S1x2, .f32⟩
  | 34 => ⟨S2, .f32⟩
  | 35 => ⟨S1x1x2, .f32⟩
  | 36 => ⟨S2048x1024x2, .f32⟩
  | 37 => ⟨S2048x1024x2, .f32⟩
  | 38 => ⟨S1x2, .f32⟩
  | 39 => ⟨S2, .f32⟩
  | 40 => ⟨S1x1x2, .f32⟩
  | 41 => ⟨S2048x1024x2, .f32⟩
  | 42 => ⟨S2048x1024x2, .f32⟩
  | 43 => ⟨S2048x1024x2, .f32⟩
  | 44 => ⟨S2048x1024x4, .f32⟩
  | 45 => ⟨S2048x1024x4, .f32⟩
  | 46 => ⟨S2048x1024x2, .f32⟩
  | 47 => ⟨S2048x1024x2, .f32⟩
  | 48 => ⟨S1x2, .f32⟩
  | 49 => ⟨S2, .f32⟩
  | 50 => ⟨S1x1x2, .f32⟩
  | 51 => ⟨S2048x1024x2, .f32⟩
  | 52 => ⟨S2048x1024x2, .f32⟩
  | 53 => ⟨S1x2, .f32⟩
  | 54 => ⟨S2, .f32⟩
  | 55 => ⟨S1x1x2, .f32⟩
  | 56 => ⟨S2048x1024x2, .f32⟩
  | 57 => ⟨S2048x1024x2, .f32⟩
  | 58 => ⟨S2048x1024x2, .f32⟩
  | 59 => ⟨S1x2, .f32⟩
  | 60 => ⟨S2, .f32⟩
  | 61 => ⟨S1x1x2, .f32⟩
  | 62 => ⟨S2048x1024x2, .f32⟩
  | 63 => ⟨S2048x1024x2, .f32⟩
  | 64 => ⟨S1x2, .f32⟩
  | 65 => ⟨S2, .f32⟩
  | 66 => ⟨S1x1x2, .f32⟩
  | 67 => ⟨S2048x1024x2, .f32⟩
  | 68 => ⟨S2048x1024x2, .f32⟩
  | 69 => ⟨S2048x1024x2, .f32⟩
  | 70 => ⟨S2048x1024x4, .f32⟩
  | 71 => ⟨S2048x1024x2, .f32⟩
  | 72 => ⟨S2048x1024x2, .f32⟩
  | 73 => ⟨S1x2, .f32⟩
  | 74 => ⟨S2, .f32⟩
  | 75 => ⟨S1x1x2, .f32⟩
  | 76 => ⟨S2048x1024x2, .f32⟩
  | 77 => ⟨S2048x1024x2, .f32⟩
  | 78 => ⟨S1x2, .f32⟩
  | 79 => ⟨S2, .f32⟩
  | 80 => ⟨S1x1x2, .f32⟩
  | 81 => ⟨S2048x1024x2, .f32⟩
  | 82 => ⟨S2048x1024x2, .f32⟩
  | 83 => ⟨S2048x1024x2, .f32⟩
  | 84 => ⟨S1x2, .f32⟩
  | 85 => ⟨S2, .f32⟩
  | 86 => ⟨S1x1x2, .f32⟩
  | 87 => ⟨S2048x1024x2, .f32⟩
  | 88 => ⟨S2048x1024x2, .f32⟩
  | 89 => ⟨S1x2, .f32⟩
  | 90 => ⟨S2, .f32⟩
  | 91 => ⟨S1x1x2, .f32⟩
  | 92 => ⟨S2048x1024x2, .f32⟩
  | 93 => ⟨S2048x1024x2, .f32⟩
  | 94 => ⟨S2048x1024x2, .f32⟩
  | 95 => ⟨S2048x1024x4, .f32⟩
  | 96 => ⟨S2048x1024x4, .f32⟩
  | 97 => ⟨S2048x4096, .f32⟩
  | 98 => ⟨S2048x4096, .f32⟩
  | 99 => ⟨S2048x512x8, .f32⟩
  | 100 => ⟨S2048x512x8, .f32⟩
  | 101 => ⟨S1x2x8, .f32⟩
  | 102 => ⟨S2x8, .f32⟩
  | 103 => ⟨S1x2x8, .f32⟩
  | 104 => ⟨S2x8, .f32⟩
  | 105 => ⟨S2048x512x4, .f32⟩
  | 106 => ⟨S2048x512x4, .f32⟩
  | 107 => ⟨S1x4, .f32⟩
  | 108 => ⟨S4, .f32⟩
  | 109 => ⟨S1x1x4, .f32⟩
  | 110 => ⟨S2048x512x4, .f32⟩
  | 111 => ⟨S2048x512x4, .f32⟩
  | 112 => ⟨S1x4, .f32⟩
  | 113 => ⟨S4, .f32⟩
  | 114 => ⟨S1x1x4, .f32⟩
  | 115 => ⟨S2048x512x4, .f32⟩
  | 116 => ⟨S2048x512x4, .f32⟩
  | 117 => ⟨S2048x512x4, .f32⟩
  | 118 => ⟨S1x4, .f32⟩
  | 119 => ⟨S4, .f32⟩
  | 120 => ⟨S1x1x4, .f32⟩
  | 121 => ⟨S2048x512x4, .f32⟩
  | 122 => ⟨S2048x512x4, .f32⟩
  | 123 => ⟨S1x4, .f32⟩
  | 124 => ⟨S4, .f32⟩
  | 125 => ⟨S1x1x4, .f32⟩
  | 126 => ⟨S2048x512x4, .f32⟩
  | 127 => ⟨S2048x512x4, .f32⟩
  | _ => ⟨S2048x4096, .f32⟩

abbrev hbmTy0_2 (i : Nat) : BufTy := match i % 128 with
  | 0 => ⟨S2048x512x4, .f32⟩
  | 1 => ⟨S2048x512x8, .f32⟩
  | 2 => ⟨S2048x512x4, .f32⟩
  | 3 => ⟨S2048x512x4, .f32⟩
  | 4 => ⟨S1x4, .f32⟩
  | 5 => ⟨S4, .f32⟩
  | 6 => ⟨S1x1x4, .f32⟩
  | 7 => ⟨S2048x512x4, .f32⟩
  | 8 => ⟨S2048x512x4, .f32⟩
  | 9 => ⟨S1x4, .f32⟩
  | 10 => ⟨S4, .f32⟩
  | 11 => ⟨S1x1x4, .f32⟩
  | 12 => ⟨S2048x512x4, .f32⟩
  | 13 => ⟨S2048x512x4, .f32⟩
  | 14 => ⟨S2048x512x4, .f32⟩
  | 15 => ⟨S1x4, .f32⟩
  | 16 => ⟨S4, .f32⟩
  | 17 => ⟨S1x1x4, .f32⟩
  | 18 => ⟨S2048x512x4, .f32⟩
  | 19 => ⟨S2048x512x4, .f32⟩
  | 20 => ⟨S1x4, .f32⟩
  | 21 => ⟨S4, .f32⟩
  | 22 => ⟨S1x1x4, .f32⟩
  | 23 => ⟨S2048x512x4, .f32⟩
  | 24 => ⟨S2048x512x4, .f32⟩
  | 25 => ⟨S2048x512x4, .f32⟩
  | 26 => ⟨S2048x512x8, .f32⟩
  | 27 => ⟨S2048x512x8, .f32⟩
  | 28 => ⟨S2048x512x4, .f32⟩
  | 29 => ⟨S2048x512x4, .f32⟩
  | 30 => ⟨S1x4, .f32⟩
  | 31 => ⟨S4, .f32⟩
  | 32 => ⟨S1x1x4, .f32⟩
  | 33 => ⟨S2048x512x4, .f32⟩
  | 34 => ⟨S2048x512x4, .f32⟩
  | 35 => ⟨S1x4, .f32⟩
  | 36 => ⟨S4, .f32⟩
  | 37 => ⟨S1x1x4, .f32⟩
  | 38 => ⟨S2048x512x4, .f32⟩
  | 39 => ⟨S2048x512x4, .f32⟩
  | 40 => ⟨S2048x512x4, .f32⟩
  | 41 => ⟨S1x4, .f32⟩
  | 42 => ⟨S4, .f32⟩
  | 43 => ⟨S1x1x4, .f32⟩
  | 44 => ⟨S2048x512x4, .f32⟩
  | 45 => ⟨S2048x512x4, .f32⟩
  | 46 => ⟨S1x4, .f32⟩
  | 47 => ⟨S4, .f32⟩
  | 48 => ⟨S1x1x4, .f32⟩
  | 49 => ⟨S2048x512x4, .f32⟩
  | 50 => ⟨S2048x512x4, .f32⟩
  | 51 => ⟨S2048x512x4, .f32⟩
  | 52 => ⟨S2048x512x8, .f32⟩
  | 53 => ⟨S2048x512x4, .f32⟩
  | 54 => ⟨S2048x512x4, .f32⟩
  | 55 => ⟨S1x4, .f32⟩
  | 56 => ⟨S4, .f32⟩
  | 57 => ⟨S1x1x4, .f32⟩
  | 58 => ⟨S2048x512x4, .f32⟩
  | 59 => ⟨S2048x512x4, .f32⟩
  | 60 => ⟨S1x4, .f32⟩
  | 61 => ⟨S4, .f32⟩
  | 62 => ⟨S1x1x4, .f32⟩
  | 63 => ⟨S2048x512x4, .f32⟩
  | 64 => ⟨S2048x512x4, .f32⟩
  | 65 => ⟨S2048x512x4, .f32⟩
  | 66 => ⟨S1x4, .f32⟩
  | 67 => ⟨S4, .f32⟩
  | 68 => ⟨S1x1x4, .f32⟩
  | 69 => ⟨S2048x512x4, .f32⟩
  | 70 => ⟨S2048x512x4, .f32⟩
  | 71 => ⟨S1x4, .f32⟩
  | 72 => ⟨S4, .f32⟩
  | 73 => ⟨S1x1x4, .f32⟩
  | 74 => ⟨S2048x512x4, .f32⟩
  | 75 => ⟨S2048x512x4, .f32⟩
  | 76 => ⟨S2048x512x4, .f32⟩
  | 77 => ⟨S2048x512x8, .f32⟩
  | 78 => ⟨S2048x512x8, .f32⟩
  | 79 => ⟨S2048x4096, .f32⟩
  | 80 => ⟨S2048x4096, .f32⟩
  | 81 => ⟨S2048x256x16, .f32⟩
  | 82 => ⟨S2048x256x16, .f32⟩
  | 83 => ⟨S1x2x16, .f32⟩
  | 84 => ⟨S2x16, .f32⟩
  | 85 => ⟨S1x2x16, .f32⟩
  | 86 => ⟨S2x16, .f32⟩
  | 87 => ⟨S2048x256x8, .f32⟩
  | 88 => ⟨S2048x256x8, .f32⟩
  | 89 => ⟨S1x8, .f32⟩
  | 90 => ⟨S8, .f32⟩
  | 91 => ⟨S1x1x8, .f32⟩
  | 92 => ⟨S2048x256x8, .f32⟩
  | 93 => ⟨S2048x256x8, .f32⟩
  | 94 => ⟨S1x8, .f32⟩
  | 95 => ⟨S8, .f32⟩
  | 96 => ⟨S1x1x8, .f32⟩
  | 97 => ⟨S2048x256x8, .f32⟩
  | 98 => ⟨S2048x256x8, .f32⟩
  | 99 => ⟨S2048x256x8, .f32⟩
  | 100 => ⟨S1x8, .f32⟩
  | 101 => ⟨S8, .f32⟩
  | 102 => ⟨S1x1x8, .f32⟩
  | 103 => ⟨S2048x256x8, .f32⟩
  | 104 => ⟨S2048x256x8, .f32⟩
  | 105 => ⟨S1x8, .f32⟩
  | 106 => ⟨S8, .f32⟩
  | 107 => ⟨S1x1x8, .f32⟩
  | 108 => ⟨S2048x256x8, .f32⟩
  | 109 => ⟨S2048x256x8, .f32⟩
  | 110 => ⟨S2048x256x8, .f32⟩
  | 111 => ⟨S2048x256x16, .f32⟩
  | 112 => ⟨S2048x256x8, .f32⟩
  | 113 => ⟨S2048x256x8, .f32⟩
  | 114 => ⟨S1x8, .f32⟩
  | 115 => ⟨S8, .f32⟩
  | 116 => ⟨S1x1x8, .f32⟩
  | 117 => ⟨S2048x256x8, .f32⟩
  | 118 => ⟨S2048x256x8, .f32⟩
  | 119 => ⟨S1x8, .f32⟩
  | 120 => ⟨S8, .f32⟩
  | 121 => ⟨S1x1x8, .f32⟩
  | 122 => ⟨S2048x256x8, .f32⟩
  | 123 => ⟨S2048x256x8, .f32⟩
  | 124 => ⟨S2048x256x8, .f32⟩
  | 125 => ⟨S1x8, .f32⟩
  | 126 => ⟨S8, .f32⟩
  | 127 => ⟨S1x1x8, .f32⟩
  | _ => ⟨S2048x4096, .f32⟩

abbrev hbmTy0_3 (i : Nat) : BufTy := match i % 128 with
  | 0 => ⟨S2048x256x8, .f32⟩
  | 1 => ⟨S2048x256x8, .f32⟩
  | 2 => ⟨S1x8, .f32⟩
  | 3 => ⟨S8, .f32⟩
  | 4 => ⟨S1x1x8, .f32⟩
  | 5 => ⟨S2048x256x8, .f32⟩
  | 6 => ⟨S2048x256x8, .f32⟩
  | 7 => ⟨S2048x256x8, .f32⟩
  | 8 => ⟨S2048x256x16, .f32⟩
  | 9 => ⟨S2048x256x16, .f32⟩
  | 10 => ⟨S2048x256x8, .f32⟩
  | 11 => ⟨S2048x256x8, .f32⟩
  | 12 => ⟨S1x8, .f32⟩
  | 13 => ⟨S8, .f32⟩
  | 14 => ⟨S1x1x8, .f32⟩
  | 15 => ⟨S2048x256x8, .f32⟩
  | 16 => ⟨S2048x256x8, .f32⟩
  | 17 => ⟨S1x8, .f32⟩
  | 18 => ⟨S8, .f32⟩
  | 19 => ⟨S1x1x8, .f32⟩
  | 20 => ⟨S2048x256x8, .f32⟩
  | 21 => ⟨S2048x256x8, .f32⟩
  | 22 => ⟨S2048x256x8, .f32⟩
  | 23 => ⟨S1x8, .f32⟩
  | 24 => ⟨S8, .f32⟩
  | 25 => ⟨S1x1x8, .f32⟩
  | 26 => ⟨S2048x256x8, .f32⟩
  | 27 => ⟨S2048x256x8, .f32⟩
  | 28 => ⟨S1x8, .f32⟩
  | 29 => ⟨S8, .f32⟩
  | 30 => ⟨S1x1x8, .f32⟩
  | 31 => ⟨S2048x256x8, .f32⟩
  | 32 => ⟨S2048x256x8, .f32⟩
  | 33 => ⟨S2048x256x8, .f32⟩
  | 34 => ⟨S2048x256x16, .f32⟩
  | 35 => ⟨S2048x256x8, .f32⟩
  | 36 => ⟨S2048x256x8, .f32⟩
  | 37 => ⟨S1x8, .f32⟩
  | 38 => ⟨S8, .f32⟩
  | 39 => ⟨S1x1x8, .f32⟩
  | 40 => ⟨S2048x256x8, .f32⟩
  | 41 => ⟨S2048x256x8, .f32⟩
  | 42 => ⟨S1x8, .f32⟩
  | 43 => ⟨S8, .f32⟩
  | 44 => ⟨S1x1x8, .f32⟩
  | 45 => ⟨S2048x256x8, .f32⟩
  | 46 => ⟨S2048x256x8, .f32⟩
  | 47 => ⟨S2048x256x8, .f32⟩
  | 48 => ⟨S1x8, .f32⟩
  | 49 => ⟨S8, .f32⟩
  | 50 => ⟨S1x1x8, .f32⟩
  | 51 => ⟨S2048x256x8, .f32⟩
  | 52 => ⟨S2048x256x8, .f32⟩
  | 53 => ⟨S1x8, .f32⟩
  | 54 => ⟨S8, .f32⟩
  | 55 => ⟨S1x1x8, .f32⟩
  | 56 => ⟨S2048x256x8, .f32⟩
  | 57 => ⟨S2048x256x8, .f32⟩
  | 58 => ⟨S2048x256x8, .f32⟩
  | 59 => ⟨S2048x256x16, .f32⟩
  | 60 => ⟨S2048x256x16, .f32⟩
  | 61 => ⟨S2048x4096, .f32⟩
  | 62 => ⟨S2048x4096, .f32⟩
  | 63 => ⟨S2048x128x32, .f32⟩
  | 64 => ⟨S2048x128x32, .f32⟩
  | 65 => ⟨S1x2x32, .f32⟩
  | 66 => ⟨S2x32, .f32⟩
  | 67 => ⟨S1x2x32, .f32⟩
  | 68 => ⟨S2x32, .f32⟩
  | 69 => ⟨S2048x128x16, .f32⟩
  | 70 => ⟨S2048x128x16, .f32⟩
  | 71 => ⟨S1x16, .f32⟩
  | 72 => ⟨S16, .f32⟩
  | 73 => ⟨S1x1x16, .f32⟩
  | 74 => ⟨S2048x128x16, .f32⟩
  | 75 => ⟨S2048x128x16, .f32⟩
  | 76 => ⟨S1x16, .f32⟩
  | 77 => ⟨S16, .f32⟩
  | 78 => ⟨S1x1x16, .f32⟩
  | 79 => ⟨S2048x128x16, .f32⟩
  | 80 => ⟨S2048x128x16, .f32⟩
  | 81 => ⟨S2048x128x16, .f32⟩
  | 82 => ⟨S1x16, .f32⟩
  | 83 => ⟨S16, .f32⟩
  | 84 => ⟨S1x1x16, .f32⟩
  | 85 => ⟨S2048x128x16, .f32⟩
  | 86 => ⟨S2048x128x16, .f32⟩
  | 87 => ⟨S1x16, .f32⟩
  | 88 => ⟨S16, .f32⟩
  | 89 => ⟨S1x1x16, .f32⟩
  | 90 => ⟨S2048x128x16, .f32⟩
  | 91 => ⟨S2048x128x16, .f32⟩
  | 92 => ⟨S2048x128x16, .f32⟩
  | 93 => ⟨S2048x128x32, .f32⟩
  | 94 => ⟨S2048x128x16, .f32⟩
  | 95 => ⟨S2048x128x16, .f32⟩
  | 96 => ⟨S1x16, .f32⟩
  | 97 => ⟨S16, .f32⟩
  | 98 => ⟨S1x1x16, .f32⟩
  | 99 => ⟨S2048x128x16, .f32⟩
  | 100 => ⟨S2048x128x16, .f32⟩
  | 101 => ⟨S1x16, .f32⟩
  | 102 => ⟨S16, .f32⟩
  | 103 => ⟨S1x1x16, .f32⟩
  | 104 => ⟨S2048x128x16, .f32⟩
  | 105 => ⟨S2048x128x16, .f32⟩
  | 106 => ⟨S2048x128x16, .f32⟩
  | 107 => ⟨S1x16, .f32⟩
  | 108 => ⟨S16, .f32⟩
  | 109 => ⟨S1x1x16, .f32⟩
  | 110 => ⟨S2048x128x16, .f32⟩
  | 111 => ⟨S2048x128x16, .f32⟩
  | 112 => ⟨S1x16, .f32⟩
  | 113 => ⟨S16, .f32⟩
  | 114 => ⟨S1x1x16, .f32⟩
  | 115 => ⟨S2048x128x16, .f32⟩
  | 116 => ⟨S2048x128x16, .f32⟩
  | 117 => ⟨S2048x128x16, .f32⟩
  | 118 => ⟨S2048x128x32, .f32⟩
  | 119 => ⟨S2048x128x32, .f32⟩
  | 120 => ⟨S2048x128x16, .f32⟩
  | 121 => ⟨S2048x128x16, .f32⟩
  | 122 => ⟨S1x16, .f32⟩
  | 123 => ⟨S16, .f32⟩
  | 124 => ⟨S1x1x16, .f32⟩
  | 125 => ⟨S2048x128x16, .f32⟩
  | 126 => ⟨S2048x128x16, .f32⟩
  | 127 => ⟨S1x16, .f32⟩
  | _ => ⟨S2048x4096, .f32⟩

abbrev hbmTy0_4 (i : Nat) : BufTy := match i % 128 with
  | 0 => ⟨S16, .f32⟩
  | 1 => ⟨S1x1x16, .f32⟩
  | 2 => ⟨S2048x128x16, .f32⟩
  | 3 => ⟨S2048x128x16, .f32⟩
  | 4 => ⟨S2048x128x16, .f32⟩
  | 5 => ⟨S1x16, .f32⟩
  | 6 => ⟨S16, .f32⟩
  | 7 => ⟨S1x1x16, .f32⟩
  | 8 => ⟨S2048x128x16, .f32⟩
  | 9 => ⟨S2048x128x16, .f32⟩
  | 10 => ⟨S1x16, .f32⟩
  | 11 => ⟨S16, .f32⟩
  | 12 => ⟨S1x1x16, .f32⟩
  | 13 => ⟨S2048x128x16, .f32⟩
  | 14 => ⟨S2048x128x16, .f32⟩
  | 15 => ⟨S2048x128x16, .f32⟩
  | 16 => ⟨S2048x128x32, .f32⟩
  | 17 => ⟨S2048x128x16, .f32⟩
  | 18 => ⟨S2048x128x16, .f32⟩
  | 19 => ⟨S1x16, .f32⟩
  | 20 => ⟨S16, .f32⟩
  | 21 => ⟨S1x1x16, .f32⟩
  | 22 => ⟨S2048x128x16, .f32⟩
  | 23 => ⟨S2048x128x16, .f32⟩
  | 24 => ⟨S1x16, .f32⟩
  | 25 => ⟨S16, .f32⟩
  | 26 => ⟨S1x1x16, .f32⟩
  | 27 => ⟨S2048x128x16, .f32⟩
  | 28 => ⟨S2048x128x16, .f32⟩
  | 29 => ⟨S2048x128x16, .f32⟩
  | 30 => ⟨S1x16, .f32⟩
  | 31 => ⟨S16, .f32⟩
  | 32 => ⟨S1x1x16, .f32⟩
  | 33 => ⟨S2048x128x16, .f32⟩
  | 34 => ⟨S2048x128x16, .f32⟩
  | 35 => ⟨S1x16, .f32⟩
  | 36 => ⟨S16, .f32⟩
  | 37 => ⟨S1x1x16, .f32⟩
  | 38 => ⟨S2048x128x16, .f32⟩
  | 39 => ⟨S2048x128x16, .f32⟩
  | 40 => ⟨S2048x128x16, .f32⟩
  | 41 => ⟨S2048x128x32, .f32⟩
  | 42 => ⟨S2048x128x32, .f32⟩
  | 43 => ⟨S2048x4096, .f32⟩
  | 44 => ⟨S2048x4096, .f32⟩
  | 45 => ⟨S2048x64x64, .f32⟩
  | 46 => ⟨S2048x64x64, .f32⟩
  | 47 => ⟨S1x2x64, .f32⟩
  | 48 => ⟨S2x64, .f32⟩
  | 49 => ⟨S1x2x64, .f32⟩
  | 50 => ⟨S2x64, .f32⟩
  | 51 => ⟨S2048x64x32, .f32⟩
  | 52 => ⟨S2048x64x32, .f32⟩
  | 53 => ⟨S1x32, .f32⟩
  | 54 => ⟨S32, .f32⟩
  | 55 => ⟨S1x1x32, .f32⟩
  | 56 => ⟨S2048x64x32, .f32⟩
  | 57 => ⟨S2048x64x32, .f32⟩
  | 58 => ⟨S1x32, .f32⟩
  | 59 => ⟨S32, .f32⟩
  | 60 => ⟨S1x1x32, .f32⟩
  | 61 => ⟨S2048x64x32, .f32⟩
  | 62 => ⟨S2048x64x32, .f32⟩
  | 63 => ⟨S2048x64x32, .f32⟩
  | 64 => ⟨S1x32, .f32⟩
  | 65 => ⟨S32, .f32⟩
  | 66 => ⟨S1x1x32, .f32⟩
  | 67 => ⟨S2048x64x32, .f32⟩
  | 68 => ⟨S2048x64x32, .f32⟩
  | 69 => ⟨S1x32, .f32⟩
  | 70 => ⟨S32, .f32⟩
  | 71 => ⟨S1x1x32, .f32⟩
  | 72 => ⟨S2048x64x32, .f32⟩
  | 73 => ⟨S2048x64x32, .f32⟩
  | 74 => ⟨S2048x64x32, .f32⟩
  | 75 => ⟨S2048x64x64, .f32⟩
  | 76 => ⟨S2048x64x32, .f32⟩
  | 77 => ⟨S2048x64x32, .f32⟩
  | 78 => ⟨S1x32, .f32⟩
  | 79 => ⟨S32, .f32⟩
  | 80 => ⟨S1x1x32, .f32⟩
  | 81 => ⟨S2048x64x32, .f32⟩
  | 82 => ⟨S2048x64x32, .f32⟩
  | 83 => ⟨S1x32, .f32⟩
  | 84 => ⟨S32, .f32⟩
  | 85 => ⟨S1x1x32, .f32⟩
  | 86 => ⟨S2048x64x32, .f32⟩
  | 87 => ⟨S2048x64x32, .f32⟩
  | 88 => ⟨S2048x64x32, .f32⟩
  | 89 => ⟨S1x32, .f32⟩
  | 90 => ⟨S32, .f32⟩
  | 91 => ⟨S1x1x32, .f32⟩
  | 92 => ⟨S2048x64x32, .f32⟩
  | 93 => ⟨S2048x64x32, .f32⟩
  | 94 => ⟨S1x32, .f32⟩
  | 95 => ⟨S32, .f32⟩
  | 96 => ⟨S1x1x32, .f32⟩
  | 97 => ⟨S2048x64x32, .f32⟩
  | 98 => ⟨S2048x64x32, .f32⟩
  | 99 => ⟨S2048x64x32, .f32⟩
  | 100 => ⟨S2048x64x64, .f32⟩
  | 101 => ⟨S2048x64x64, .f32⟩
  | 102 => ⟨S2048x64x32, .f32⟩
  | 103 => ⟨S2048x64x32, .f32⟩
  | 104 => ⟨S1x32, .f32⟩
  | 105 => ⟨S32, .f32⟩
  | 106 => ⟨S1x1x32, .f32⟩
  | 107 => ⟨S2048x64x32, .f32⟩
  | 108 => ⟨S2048x64x32, .f32⟩
  | 109 => ⟨S1x32, .f32⟩
  | 110 => ⟨S32, .f32⟩
  | 111 => ⟨S1x1x32, .f32⟩
  | 112 => ⟨S2048x64x32, .f32⟩
  | 113 => ⟨S2048x64x32, .f32⟩
  | 114 => ⟨S2048x64x32, .f32⟩
  | 115 => ⟨S1x32, .f32⟩
  | 116 => ⟨S32, .f32⟩
  | 117 => ⟨S1x1x32, .f32⟩
  | 118 => ⟨S2048x64x32, .f32⟩
  | 119 => ⟨S2048x64x32, .f32⟩
  | 120 => ⟨S1x32, .f32⟩
  | 121 => ⟨S32, .f32⟩
  | 122 => ⟨S1x1x32, .f32⟩
  | 123 => ⟨S2048x64x32, .f32⟩
  | 124 => ⟨S2048x64x32, .f32⟩
  | 125 => ⟨S2048x64x32, .f32⟩
  | 126 => ⟨S2048x64x64, .f32⟩
  | 127 => ⟨S2048x64x32, .f32⟩
  | _ => ⟨S2048x4096, .f32⟩

abbrev hbmTy0_5 (i : Nat) : BufTy := match i % 128 with
  | 0 => ⟨S2048x64x32, .f32⟩
  | 1 => ⟨S1x32, .f32⟩
  | 2 => ⟨S32, .f32⟩
  | 3 => ⟨S1x1x32, .f32⟩
  | 4 => ⟨S2048x64x32, .f32⟩
  | 5 => ⟨S2048x64x32, .f32⟩
  | 6 => ⟨S1x32, .f32⟩
  | 7 => ⟨S32, .f32⟩
  | 8 => ⟨S1x1x32, .f32⟩
  | 9 => ⟨S2048x64x32, .f32⟩
  | 10 => ⟨S2048x64x32, .f32⟩
  | 11 => ⟨S2048x64x32, .f32⟩
  | 12 => ⟨S1x32, .f32⟩
  | 13 => ⟨S32, .f32⟩
  | 14 => ⟨S1x1x32, .f32⟩
  | 15 => ⟨S2048x64x32, .f32⟩
  | 16 => ⟨S2048x64x32, .f32⟩
  | 17 => ⟨S1x32, .f32⟩
  | 18 => ⟨S32, .f32⟩
  | 19 => ⟨S1x1x32, .f32⟩
  | 20 => ⟨S2048x64x32, .f32⟩
  | 21 => ⟨S2048x64x32, .f32⟩
  | 22 => ⟨S2048x64x32, .f32⟩
  | 23 => ⟨S2048x64x64, .f32⟩
  | 24 => ⟨S2048x64x64, .f32⟩
  | 25 => ⟨S2048x4096, .f32⟩
  | 26 => ⟨S2048x4096, .f32⟩
  | 27 => ⟨S2048x32x128, .f32⟩
  | 28 => ⟨S2048x32x128, .f32⟩
  | 29 => ⟨S1x2x128, .f32⟩
  | 30 => ⟨S2x128, .f32⟩
  | 31 => ⟨S1x2x128, .f32⟩
  | 32 => ⟨S2x128, .f32⟩
  | 33 => ⟨S2048x32x64, .f32⟩
  | 34 => ⟨S2048x32x64, .f32⟩
  | 35 => ⟨S1x64, .f32⟩
  | 36 => ⟨S64, .f32⟩
  | 37 => ⟨S1x1x64, .f32⟩
  | 38 => ⟨S2048x32x64, .f32⟩
  | 39 => ⟨S2048x32x64, .f32⟩
  | 40 => ⟨S1x64, .f32⟩
  | 41 => ⟨S64, .f32⟩
  | 42 => ⟨S1x1x64, .f32⟩
  | 43 => ⟨S2048x32x64, .f32⟩
  | 44 => ⟨S2048x32x64, .f32⟩
  | 45 => ⟨S2048x32x64, .f32⟩
  | 46 => ⟨S1x64, .f32⟩
  | 47 => ⟨S64, .f32⟩
  | 48 => ⟨S1x1x64, .f32⟩
  | 49 => ⟨S2048x32x64, .f32⟩
  | 50 => ⟨S2048x32x64, .f32⟩
  | 51 => ⟨S1x64, .f32⟩
  | 52 => ⟨S64, .f32⟩
  | 53 => ⟨S1x1x64, .f32⟩
  | 54 => ⟨S2048x32x64, .f32⟩
  | 55 => ⟨S2048x32x64, .f32⟩
  | 56 => ⟨S2048x32x64, .f32⟩
  | 57 => ⟨S2048x32x128, .f32⟩
  | 58 => ⟨S2048x32x64, .f32⟩
  | 59 => ⟨S2048x32x64, .f32⟩
  | 60 => ⟨S1x64, .f32⟩
  | 61 => ⟨S64, .f32⟩
  | 62 => ⟨S1x1x64, .f32⟩
  | 63 => ⟨S2048x32x64, .f32⟩
  | 64 => ⟨S2048x32x64, .f32⟩
  | 65 => ⟨S1x64, .f32⟩
  | 66 => ⟨S64, .f32⟩
  | 67 => ⟨S1x1x64, .f32⟩
  | 68 => ⟨S2048x32x64, .f32⟩
  | 69 => ⟨S2048x32x64, .f32⟩
  | 70 => ⟨S2048x32x64, .f32⟩
  | 71 => ⟨S1x64, .f32⟩
  | 72 => ⟨S64, .f32⟩
  | 73 => ⟨S1x1x64, .f32⟩
  | 74 => ⟨S2048x32x64, .f32⟩
  | 75 => ⟨S2048x32x64, .f32⟩
  | 76 => ⟨S1x64, .f32⟩
  | 77 => ⟨S64, .f32⟩
  | 78 => ⟨S1x1x64, .f32⟩
  | 79 => ⟨S2048x32x64, .f32⟩
  | 80 => ⟨S2048x32x64, .f32⟩
  | 81 => ⟨S2048x32x64, .f32⟩
  | 82 => ⟨S2048x32x128, .f32⟩
  | 83 => ⟨S2048x32x128, .f32⟩
  | 84 => ⟨S2048x32x64, .f32⟩
  | 85 => ⟨S2048x32x64, .f32⟩
  | 86 => ⟨S1x64, .f32⟩
  | 87 => ⟨S64, .f32⟩
  | 88 => ⟨S1x1x64, .f32⟩
  | 89 => ⟨S2048x32x64, .f32⟩
  | 90 => ⟨S2048x32x64, .f32⟩
  | 91 => ⟨S1x64, .f32⟩
  | 92 => ⟨S64, .f32⟩
  | 93 => ⟨S1x1x64, .f32⟩
  | 94 => ⟨S2048x32x64, .f32⟩
  | 95 => ⟨S2048x32x64, .f32⟩
  | 96 => ⟨S2048x32x64, .f32⟩
  | 97 => ⟨S1x64, .f32⟩
  | 98 => ⟨S64, .f32⟩
  | 99 => ⟨S1x1x64, .f32⟩
  | 100 => ⟨S2048x32x64, .f32⟩
  | 101 => ⟨S2048x32x64, .f32⟩
  | 102 => ⟨S1x64, .f32⟩
  | 103 => ⟨S64, .f32⟩
  | 104 => ⟨S1x1x64, .f32⟩
  | 105 => ⟨S2048x32x64, .f32⟩
  | 106 => ⟨S2048x32x64, .f32⟩
  | 107 => ⟨S2048x32x64, .f32⟩
  | 108 => ⟨S2048x32x128, .f32⟩
  | 109 => ⟨S2048x32x64, .f32⟩
  | 110 => ⟨S2048x32x64, .f32⟩
  | 111 => ⟨S1x64, .f32⟩
  | 112 => ⟨S64, .f32⟩
  | 113 => ⟨S1x1x64, .f32⟩
  | 114 => ⟨S2048x32x64, .f32⟩
  | 115 => ⟨S2048x32x64, .f32⟩
  | 116 => ⟨S1x64, .f32⟩
  | 117 => ⟨S64, .f32⟩
  | 118 => ⟨S1x1x64, .f32⟩
  | 119 => ⟨S2048x32x64, .f32⟩
  | 120 => ⟨S2048x32x64, .f32⟩
  | 121 => ⟨S2048x32x64, .f32⟩
  | 122 => ⟨S1x64, .f32⟩
  | 123 => ⟨S64, .f32⟩
  | 124 => ⟨S1x1x64, .f32⟩
  | 125 => ⟨S2048x32x64, .f32⟩
  | 126 => ⟨S2048x32x64, .f32⟩
  | 127 => ⟨S1x64, .f32⟩
  | _ => ⟨S2048x4096, .f32⟩

abbrev hbmTy0_6 (i : Nat) : BufTy := match i % 128 with
  | 0 => ⟨S64, .f32⟩
  | 1 => ⟨S1x1x64, .f32⟩
  | 2 => ⟨S2048x32x64, .f32⟩
  | 3 => ⟨S2048x32x64, .f32⟩
  | 4 => ⟨S2048x32x64, .f32⟩
  | 5 => ⟨S2048x32x128, .f32⟩
  | 6 => ⟨S2048x32x128, .f32⟩
  | 7 => ⟨S2048x4096, .f32⟩
  | 8 => ⟨S2048x4096, .f32⟩
  | 9 => ⟨S2048x16x256, .f32⟩
  | 10 => ⟨S2048x16x256, .f32⟩
  | 11 => ⟨S1x2x256, .f32⟩
  | 12 => ⟨S2x256, .f32⟩
  | 13 => ⟨S1x2x256, .f32⟩
  | 14 => ⟨S2x256, .f32⟩
  | 15 => ⟨S2048x16x128, .f32⟩
  | 16 => ⟨S2048x16x128, .f32⟩
  | 17 => ⟨S1x128, .f32⟩
  | 18 => ⟨S128, .f32⟩
  | 19 => ⟨S1x1x128, .f32⟩
  | 20 => ⟨S2048x16x128, .f32⟩
  | 21 => ⟨S2048x16x128, .f32⟩
  | 22 => ⟨S1x128, .f32⟩
  | 23 => ⟨S128, .f32⟩
  | 24 => ⟨S1x1x128, .f32⟩
  | 25 => ⟨S2048x16x128, .f32⟩
  | 26 => ⟨S2048x16x128, .f32⟩
  | 27 => ⟨S2048x16x128, .f32⟩
  | 28 => ⟨S1x128, .f32⟩
  | 29 => ⟨S128, .f32⟩
  | 30 => ⟨S1x1x128, .f32⟩
  | 31 => ⟨S2048x16x128, .f32⟩
  | 32 => ⟨S2048x16x128, .f32⟩
  | 33 => ⟨S1x128, .f32⟩
  | 34 => ⟨S128, .f32⟩
  | 35 => ⟨S1x1x128, .f32⟩
  | 36 => ⟨S2048x16x128, .f32⟩
  | 37 => ⟨S2048x16x128, .f32⟩
  | 38 => ⟨S2048x16x128, .f32⟩
  | 39 => ⟨S2048x16x256, .f32⟩
  | 40 => ⟨S2048x16x128, .f32⟩
  | 41 => ⟨S2048x16x128, .f32⟩
  | 42 => ⟨S1x128, .f32⟩
  | 43 => ⟨S128, .f32⟩
  | 44 => ⟨S1x1x128, .f32⟩
  | 45 => ⟨S2048x16x128, .f32⟩
  | 46 => ⟨S2048x16x128, .f32⟩
  | 47 => ⟨S1x128, .f32⟩
  | 48 => ⟨S128, .f32⟩
  | 49 => ⟨S1x1x128, .f32⟩
  | 50 => ⟨S2048x16x128, .f32⟩
  | 51 => ⟨S2048x16x128, .f32⟩
  | 52 => ⟨S2048x16x128, .f32⟩
  | 53 => ⟨S1x128, .f32⟩
  | 54 => ⟨S128, .f32⟩
  | 55 => ⟨S1x1x128, .f32⟩
  | 56 => ⟨S2048x16x128, .f32⟩
  | 57 => ⟨S2048x16x128, .f32⟩
  | 58 => ⟨S1x128, .f32⟩
  | 59 => ⟨S128, .f32⟩
  | 60 => ⟨S1x1x128, .f32⟩
  | 61 => ⟨S2048x16x128, .f32⟩
  | 62 => ⟨S2048x16x128, .f32⟩
  | 63 => ⟨S2048x16x128, .f32⟩
  | 64 => ⟨S2048x16x256, .f32⟩
  | 65 => ⟨S2048x16x256, .f32⟩
  | 66 => ⟨S2048x16x128, .f32⟩
  | 67 => ⟨S2048x16x128, .f32⟩
  | 68 => ⟨S1x128, .f32⟩
  | 69 => ⟨S128, .f32⟩
  | 70 => ⟨S1x1x128, .f32⟩
  | 71 => ⟨S2048x16x128, .f32⟩
  | 72 => ⟨S2048x16x128, .f32⟩
  | 73 => ⟨S1x128, .f32⟩
  | 74 => ⟨S128, .f32⟩
  | 75 => ⟨S1x1x128, .f32⟩
  | 76 => ⟨S2048x16x128, .f32⟩
  | 77 => ⟨S2048x16x128, .f32⟩
  | 78 => ⟨S2048x16x128, .f32⟩
  | 79 => ⟨S1x128, .f32⟩
  | 80 => ⟨S128, .f32⟩
  | 81 => ⟨S1x1x128, .f32⟩
  | 82 => ⟨S2048x16x128, .f32⟩
  | 83 => ⟨S2048x16x128, .f32⟩
  | 84 => ⟨S1x128, .f32⟩
  | 85 => ⟨S128, .f32⟩
  | 86 => ⟨S1x1x128, .f32⟩
  | 87 => ⟨S2048x16x128, .f32⟩
  | 88 => ⟨S2048x16x128, .f32⟩
  | 89 => ⟨S2048x16x128, .f32⟩
  | 90 => ⟨S2048x16x256, .f32⟩
  | 91 => ⟨S2048x16x128, .f32⟩
  | 92 => ⟨S2048x16x128, .f32⟩
  | 93 => ⟨S1x128, .f32⟩
  | 94 => ⟨S128, .f32⟩
  | 95 => ⟨S1x1x128, .f32⟩
  | 96 => ⟨S2048x16x128, .f32⟩
  | 97 => ⟨S2048x16x128, .f32⟩
  | 98 => ⟨S1x128, .f32⟩
  | 99 => ⟨S128, .f32⟩
  | 100 => ⟨S1x1x128, .f32⟩
  | 101 => ⟨S2048x16x128, .f32⟩
  | 102 => ⟨S2048x16x128, .f32⟩
  | 103 => ⟨S2048x16x128, .f32⟩
  | 104 => ⟨S1x128, .f32⟩
  | 105 => ⟨S128, .f32⟩
  | 106 => ⟨S1x1x128, .f32⟩
  | 107 => ⟨S2048x16x128, .f32⟩
  | 108 => ⟨S2048x16x128, .f32⟩
  | 109 => ⟨S1x128, .f32⟩
  | 110 => ⟨S128, .f32⟩
  | 111 => ⟨S1x1x128, .f32⟩
  | 112 => ⟨S2048x16x128, .f32⟩
  | 113 => ⟨S2048x16x128, .f32⟩
  | 114 => ⟨S2048x16x128, .f32⟩
  | 115 => ⟨S2048x16x256, .f32⟩
  | 116 => ⟨S2048x16x256, .f32⟩
  | 117 => ⟨S2048x4096, .f32⟩
  | 118 => ⟨S2048x4096, .f32⟩
  | 119 => ⟨S2048x8x512, .f32⟩
  | 120 => ⟨S2048x8x512, .f32⟩
  | 121 => ⟨S1x2x512, .f32⟩
  | 122 => ⟨S2x512, .f32⟩
  | 123 => ⟨S1x2x512, .f32⟩
  | 124 => ⟨S2x512, .f32⟩
  | 125 => ⟨S2048x8x256, .f32⟩
  | 126 => ⟨S2048x8x256, .f32⟩
  | 127 => ⟨S1x256, .f32⟩
  | _ => ⟨S2048x4096, .f32⟩

abbrev hbmTy0_7 (i : Nat) : BufTy := match i % 128 with
  | 0 => ⟨S256, .f32⟩
  | 1 => ⟨S1x1x256, .f32⟩
  | 2 => ⟨S2048x8x256, .f32⟩
  | 3 => ⟨S2048x8x256, .f32⟩
  | 4 => ⟨S1x256, .f32⟩
  | 5 => ⟨S256, .f32⟩
  | 6 => ⟨S1x1x256, .f32⟩
  | 7 => ⟨S2048x8x256, .f32⟩
  | 8 => ⟨S2048x8x256, .f32⟩
  | 9 => ⟨S2048x8x256, .f32⟩
  | 10 => ⟨S1x256, .f32⟩
  | 11 => ⟨S256, .f32⟩
  | 12 => ⟨S1x1x256, .f32⟩
  | 13 => ⟨S2048x8x256, .f32⟩
  | 14 => ⟨S2048x8x256, .f32⟩
  | 15 => ⟨S1x256, .f32⟩
  | 16 => ⟨S256, .f32⟩
  | 17 => ⟨S1x1x256, .f32⟩
  | 18 => ⟨S2048x8x256, .f32⟩
  | 19 => ⟨S2048x8x256, .f32⟩
  | 20 => ⟨S2048x8x256, .f32⟩
  | 21 => ⟨S2048x8x512, .f32⟩
  | 22 => ⟨S2048x8x256, .f32⟩
  | 23 => ⟨S2048x8x256, .f32⟩
  | 24 => ⟨S1x256, .f32⟩
  | 25 => ⟨S256, .f32⟩
  | 26 => ⟨S1x1x256, .f32⟩
  | 27 => ⟨S2048x8x256, .f32⟩
  | 28 => ⟨S2048x8x256, .f32⟩
  | 29 => ⟨S1x256, .f32⟩
  | 30 => ⟨S256, .f32⟩
  | 31 => ⟨S1x1x256, .f32⟩
  | 32 => ⟨S2048x8x256, .f32⟩
  | 33 => ⟨S2048x8x256, .f32⟩
  | 34 => ⟨S2048x8x256, .f32⟩
  | 35 => ⟨S1x256, .f32⟩
  | 36 => ⟨S256, .f32⟩
  | 37 => ⟨S1x1x256, .f32⟩
  | 38 => ⟨S2048x8x256, .f32⟩
  | 39 => ⟨S2048x8x256, .f32⟩
  | 40 => ⟨S1x256, .f32⟩
  | 41 => ⟨S256, .f32⟩
  | 42 => ⟨S1x1x256, .f32⟩
  | 43 => ⟨S2048x8x256, .f32⟩
  | 44 => ⟨S2048x8x256, .f32⟩
  | 45 => ⟨S2048x8x256, .f32⟩
  | 46 => ⟨S2048x8x512, .f32⟩
  | 47 => ⟨S2048x8x512, .f32⟩
  | 48 => ⟨S2048x8x256, .f32⟩
  | 49 => ⟨S2048x8x256, .f32⟩
  | 50 => ⟨S1x256, .f32⟩
  | 51 => ⟨S256, .f32⟩
  | 52 => ⟨S1x1x256, .f32⟩
  | 53 => ⟨S2048x8x256, .f32⟩
  | 54 => ⟨S2048x8x256, .f32⟩
  | 55 => ⟨S1x256, .f32⟩
  | 56 => ⟨S256, .f32⟩
  | 57 => ⟨S1x1x256, .f32⟩
  | 58 => ⟨S2048x8x256, .f32⟩
  | 59 => ⟨S2048x8x256, .f32⟩
  | 60 => ⟨S2048x8x256, .f32⟩
  | 61 => ⟨S1x256, .f32⟩
  | 62 => ⟨S256, .f32⟩
  | 63 => ⟨S1x1x256, .f32⟩
  | 64 => ⟨S2048x8x256, .f32⟩
  | 65 => ⟨S2048x8x256, .f32⟩
  | 66 => ⟨S1x256, .f32⟩
  | 67 => ⟨S256, .f32⟩
  | 68 => ⟨S1x1x256, .f32⟩
  | 69 => ⟨S2048x8x256, .f32⟩
  | 70 => ⟨S2048x8x256, .f32⟩
  | 71 => ⟨S2048x8x256, .f32⟩
  | 72 => ⟨S2048x8x512, .f32⟩
  | 73 => ⟨S2048x8x256, .f32⟩
  | 74 => ⟨S2048x8x256, .f32⟩
  | 75 => ⟨S1x256, .f32⟩
  | 76 => ⟨S256, .f32⟩
  | 77 => ⟨S1x1x256, .f32⟩
  | 78 => ⟨S2048x8x256, .f32⟩
  | 79 => ⟨S2048x8x256, .f32⟩
  | 80 => ⟨S1x256, .f32⟩
  | 81 => ⟨S256, .f32⟩
  | 82 => ⟨S1x1x256, .f32⟩
  | 83 => ⟨S2048x8x256, .f32⟩
  | 84 => ⟨S2048x8x256, .f32⟩
  | 85 => ⟨S2048x8x256, .f32⟩
  | 86 => ⟨S1x256, .f32⟩
  | 87 => ⟨S256, .f32⟩
  | 88 => ⟨S1x1x256, .f32⟩
  | 89 => ⟨S2048x8x256, .f32⟩
  | 90 => ⟨S2048x8x256, .f32⟩
  | 91 => ⟨S1x256, .f32⟩
  | 92 => ⟨S256, .f32⟩
  | 93 => ⟨S1x1x256, .f32⟩
  | 94 => ⟨S2048x8x256, .f32⟩
  | 95 => ⟨S2048x8x256, .f32⟩
  | 96 => ⟨S2048x8x256, .f32⟩
  | 97 => ⟨S2048x8x512, .f32⟩
  | 98 => ⟨S2048x8x512, .f32⟩
  | 99 => ⟨S2048x4096, .f32⟩
  | 100 => ⟨S2048x4096, .f32⟩
  | 101 => ⟨S2048x4x1024, .f32⟩
  | 102 => ⟨S2048x4x1024, .f32⟩
  | 103 => ⟨S1x2x1024, .f32⟩
  | 104 => ⟨S2x1024, .f32⟩
  | 105 => ⟨S1x2x1024, .f32⟩
  | 106 => ⟨S2x1024, .f32⟩
  | 107 => ⟨S2048x4x512, .f32⟩
  | 108 => ⟨S2048x4x512, .f32⟩
  | 109 => ⟨S1x512, .f32⟩
  | 110 => ⟨S512, .f32⟩
  | 111 => ⟨S1x1x512, .f32⟩
  | 112 => ⟨S2048x4x512, .f32⟩
  | 113 => ⟨S2048x4x512, .f32⟩
  | 114 => ⟨S1x512, .f32⟩
  | 115 => ⟨S512, .f32⟩
  | 116 => ⟨S1x1x512, .f32⟩
  | 117 => ⟨S2048x4x512, .f32⟩
  | 118 => ⟨S2048x4x512, .f32⟩
  | 119 => ⟨S2048x4x512, .f32⟩
  | 120 => ⟨S1x512, .f32⟩
  | 121 => ⟨S512, .f32⟩
  | 122 => ⟨S1x1x512, .f32⟩
  | 123 => ⟨S2048x4x512, .f32⟩
  | 124 => ⟨S2048x4x512, .f32⟩
  | 125 => ⟨S1x512, .f32⟩
  | 126 => ⟨S512, .f32⟩
  | 127 => ⟨S1x1x512, .f32⟩
  | _ => ⟨S2048x4096, .f32⟩

abbrev hbmTy0_8 (i : Nat) : BufTy := match i % 128 with
  | 0 => ⟨S2048x4x512, .f32⟩
  | 1 => ⟨S2048x4x512, .f32⟩
  | 2 => ⟨S2048x4x512, .f32⟩
  | 3 => ⟨S2048x4x1024, .f32⟩
  | 4 => ⟨S2048x4x512, .f32⟩
  | 5 => ⟨S2048x4x512, .f32⟩
  | 6 => ⟨S1x512, .f32⟩
  | 7 => ⟨S512, .f32⟩
  | 8 => ⟨S1x1x512, .f32⟩
  | 9 => ⟨S2048x4x512, .f32⟩
  | 10 => ⟨S2048x4x512, .f32⟩
  | 11 => ⟨S1x512, .f32⟩
  | 12 => ⟨S512, .f32⟩
  | 13 => ⟨S1x1x512, .f32⟩
  | 14 => ⟨S2048x4x512, .f32⟩
  | 15 => ⟨S2048x4x512, .f32⟩
  | 16 => ⟨S2048x4x512, .f32⟩
  | 17 => ⟨S1x512, .f32⟩
  | 18 => ⟨S512, .f32⟩
  | 19 => ⟨S1x1x512, .f32⟩
  | 20 => ⟨S2048x4x512, .f32⟩
  | 21 => ⟨S2048x4x512, .f32⟩
  | 22 => ⟨S1x512, .f32⟩
  | 23 => ⟨S512, .f32⟩
  | 24 => ⟨S1x1x512, .f32⟩
  | 25 => ⟨S2048x4x512, .f32⟩
  | 26 => ⟨S2048x4x512, .f32⟩
  | 27 => ⟨S2048x4x512, .f32⟩
  | 28 => ⟨S2048x4x1024, .f32⟩
  | 29 => ⟨S2048x4x1024, .f32⟩
  | 30 => ⟨S2048x4x512, .f32⟩
  | 31 => ⟨S2048x4x512, .f32⟩
  | 32 => ⟨S1x512, .f32⟩
  | 33 => ⟨S512, .f32⟩
  | 34 => ⟨S1x1x512, .f32⟩
  | 35 => ⟨S2048x4x512, .f32⟩
  | 36 => ⟨S2048x4x512, .f32⟩
  | 37 => ⟨S1x512, .f32⟩
  | 38 => ⟨S512, .f32⟩
  | 39 => ⟨S1x1x512, .f32⟩
  | 40 => ⟨S2048x4x512, .f32⟩
  | 41 => ⟨S2048x4x512, .f32⟩
  | 42 => ⟨S2048x4x512, .f32⟩
  | 43 => ⟨S1x512, .f32⟩
  | 44 => ⟨S512, .f32⟩
  | 45 => ⟨S1x1x512, .f32⟩
  | 46 => ⟨S2048x4x512, .f32⟩
  | 47 => ⟨S2048x4x512, .f32⟩
  | 48 => ⟨S1x512, .f32⟩
  | 49 => ⟨S512, .f32⟩
  | 50 => ⟨S1x1x512, .f32⟩
  | 51 => ⟨S2048x4x512, .f32⟩
  | 52 => ⟨S2048x4x512, .f32⟩
  | 53 => ⟨S2048x4x512, .f32⟩
  | 54 => ⟨S2048x4x1024, .f32⟩
  | 55 => ⟨S2048x4x512, .f32⟩
  | 56 => ⟨S2048x4x512, .f32⟩
  | 57 => ⟨S1x512, .f32⟩
  | 58 => ⟨S512, .f32⟩
  | 59 => ⟨S1x1x512, .f32⟩
  | 60 => ⟨S2048x4x512, .f32⟩
  | 61 => ⟨S2048x4x512, .f32⟩
  | 62 => ⟨S1x512, .f32⟩
  | 63 => ⟨S512, .f32⟩
  | 64 => ⟨S1x1x512, .f32⟩
  | 65 => ⟨S2048x4x512, .f32⟩
  | 66 => ⟨S2048x4x512, .f32⟩
  | 67 => ⟨S2048x4x512, .f32⟩
  | 68 => ⟨S1x512, .f32⟩
  | 69 => ⟨S512, .f32⟩
  | 70 => ⟨S1x1x512, .f32⟩
  | 71 => ⟨S2048x4x512, .f32⟩
  | 72 => ⟨S2048x4x512, .f32⟩
  | 73 => ⟨S1x512, .f32⟩
  | 74 => ⟨S512, .f32⟩
  | 75 => ⟨S1x1x512, .f32⟩
  | 76 => ⟨S2048x4x512, .f32⟩
  | 77 => ⟨S2048x4x512, .f32⟩
  | 78 => ⟨S2048x4x512, .f32⟩
  | 79 => ⟨S2048x4x1024, .f32⟩
  | 80 => ⟨S2048x4x1024, .f32⟩
  | 81 => ⟨S2048x4096, .f32⟩
  | 82 => ⟨S2048x4096, .f32⟩
  | 83 => ⟨S2048x2x2048, .f32⟩
  | 84 => ⟨S2048x2x2048, .f32⟩
  | 85 => ⟨S1x2x2048, .f32⟩
  | 86 => ⟨S2x2048, .f32⟩
  | 87 => ⟨S1x2x2048, .f32⟩
  | 88 => ⟨S2x2048, .f32⟩
  | 89 => ⟨S2048x2x1024, .f32⟩
  | 90 => ⟨S2048x2x1024, .f32⟩
  | 91 => ⟨S1x1024, .f32⟩
  | 92 => ⟨S1024, .f32⟩
  | 93 => ⟨S1x1x1024, .f32⟩
  | 94 => ⟨S2048x2x1024, .f32⟩
  | 95 => ⟨S2048x2x1024, .f32⟩
  | 96 => ⟨S1x1024, .f32⟩
  | 97 => ⟨S1024, .f32⟩
  | 98 => ⟨S1x1x1024, .f32⟩
  | 99 => ⟨S2048x2x1024, .f32⟩
  | 100 => ⟨S2048x2x1024, .f32⟩
  | 101 => ⟨S2048x2x1024, .f32⟩
  | 102 => ⟨S1x1024, .f32⟩
  | 103 => ⟨S1024, .f32⟩
  | 104 => ⟨S1x1x1024, .f32⟩
  | 105 => ⟨S2048x2x1024, .f32⟩
  | 106 => ⟨S2048x2x1024, .f32⟩
  | 107 => ⟨S1x1024, .f32⟩
  | 108 => ⟨S1024, .f32⟩
  | 109 => ⟨S1x1x1024, .f32⟩
  | 110 => ⟨S2048x2x1024, .f32⟩
  | 111 => ⟨S2048x2x1024, .f32⟩
  | 112 => ⟨S2048x2x1024, .f32⟩
  | 113 => ⟨S2048x2x2048, .f32⟩
  | 114 => ⟨S2048x2x1024, .f32⟩
  | 115 => ⟨S2048x2x1024, .f32⟩
  | 116 => ⟨S1x1024, .f32⟩
  | 117 => ⟨S1024, .f32⟩
  | 118 => ⟨S1x1x1024, .f32⟩
  | 119 => ⟨S2048x2x1024, .f32⟩
  | 120 => ⟨S2048x2x1024, .f32⟩
  | 121 => ⟨S1x1024, .f32⟩
  | 122 => ⟨S1024, .f32⟩
  | 123 => ⟨S1x1x1024, .f32⟩
  | 124 => ⟨S2048x2x1024, .f32⟩
  | 125 => ⟨S2048x2x1024, .f32⟩
  | 126 => ⟨S2048x2x1024, .f32⟩
  | 127 => ⟨S1x1024, .f32⟩
  | _ => ⟨S2048x4096, .f32⟩

abbrev hbmTy0_9 (i : Nat) : BufTy := match i % 128 with
  | 0 => ⟨S1024, .f32⟩
  | 1 => ⟨S1x1x1024, .f32⟩
  | 2 => ⟨S2048x2x1024, .f32⟩
  | 3 => ⟨S2048x2x1024, .f32⟩
  | 4 => ⟨S1x1024, .f32⟩
  | 5 => ⟨S1024, .f32⟩
  | 6 => ⟨S1x1x1024, .f32⟩
  | 7 => ⟨S2048x2x1024, .f32⟩
  | 8 => ⟨S2048x2x1024, .f32⟩
  | 9 => ⟨S2048x2x1024, .f32⟩
  | 10 => ⟨S2048x2x2048, .f32⟩
  | 11 => ⟨S2048x2x2048, .f32⟩
  | 12 => ⟨S2048x2x1024, .f32⟩
  | 13 => ⟨S2048x2x1024, .f32⟩
  | 14 => ⟨S1x1024, .f32⟩
  | 15 => ⟨S1024, .f32⟩
  | 16 => ⟨S1x1x1024, .f32⟩
  | 17 => ⟨S2048x2x1024, .f32⟩
  | 18 => ⟨S2048x2x1024, .f32⟩
  | 19 => ⟨S1x1024, .f32⟩
  | 20 => ⟨S1024, .f32⟩
  | 21 => ⟨S1x1x1024, .f32⟩
  | 22 => ⟨S2048x2x1024, .f32⟩
  | 23 => ⟨S2048x2x1024, .f32⟩
  | 24 => ⟨S2048x2x1024, .f32⟩
  | 25 => ⟨S1x1024, .f32⟩
  | 26 => ⟨S1024, .f32⟩
  | 27 => ⟨S1x1x1024, .f32⟩
  | 28 => ⟨S2048x2x1024, .f32⟩
  | 29 => ⟨S2048x2x1024, .f32⟩
  | 30 => ⟨S1x1024, .f32⟩
  | 31 => ⟨S1024, .f32⟩
  | 32 => ⟨S1x1x1024, .f32⟩
  | 33 => ⟨S2048x2x1024, .f32⟩
  | 34 => ⟨S2048x2x1024, .f32⟩
  | 35 => ⟨S2048x2x1024, .f32⟩
  | 36 => ⟨S2048x2x2048, .f32⟩
  | 37 => ⟨S2048x2x1024, .f32⟩
  | 38 => ⟨S2048x2x1024, .f32⟩
  | 39 => ⟨S1x1024, .f32⟩
  | 40 => ⟨S1024, .f32⟩
  | 41 => ⟨S1x1x1024, .f32⟩
  | 42 => ⟨S2048x2x1024, .f32⟩
  | 43 => ⟨S2048x2x1024, .f32⟩
  | 44 => ⟨S1x1024, .f32⟩
  | 45 => ⟨S1024, .f32⟩
  | 46 => ⟨S1x1x1024, .f32⟩
  | 47 => ⟨S2048x2x1024, .f32⟩
  | 48 => ⟨S2048x2x1024, .f32⟩
  | 49 => ⟨S2048x2x1024, .f32⟩
  | 50 => ⟨S1x1024, .f32⟩
  | 51 => ⟨S1024, .f32⟩
  | 52 => ⟨S1x1x1024, .f32⟩
  | 53 => ⟨S2048x2x1024, .f32⟩
  | 54 => ⟨S2048x2x1024, .f32⟩
  | 55 => ⟨S1x1024, .f32⟩
  | 56 => ⟨S1024, .f32⟩
  | 57 => ⟨S1x1x1024, .f32⟩
  | 58 => ⟨S2048x2x1024, .f32⟩
  | 59 => ⟨S2048x2x1024, .f32⟩
  | 60 => ⟨S2048x2x1024, .f32⟩
  | 61 => ⟨S2048x2x2048, .f32⟩
  | 62 => ⟨S2048x2x2048, .f32⟩
  | 63 => ⟨S2048x4096, .f32⟩
  | 64 => ⟨S2048x4096, .f32⟩
  | 65 => ⟨S2048x1x4096, .f32⟩
  | 66 => ⟨S2048x1x4096, .f32⟩
  | 67 => ⟨S1x2x4096, .f32⟩
  | 68 => ⟨S2x4096, .f32⟩
  | 69 => ⟨S1x2x4096, .f32⟩
  | 70 => ⟨S2x4096, .f32⟩
  | 71 => ⟨S2048x1x2048, .f32⟩
  | 72 => ⟨S2048x1x2048, .f32⟩
  | 73 => ⟨S1x2048, .f32⟩
  | 74 => ⟨S2048, .f32⟩
  | 75 => ⟨S1x1x2048, .f32⟩
  | 76 => ⟨S2048x1x2048, .f32⟩
  | 77 => ⟨S2048x1x2048, .f32⟩
  | 78 => ⟨S1x2048, .f32⟩
  | 79 => ⟨S2048, .f32⟩
  | 80 => ⟨S1x1x2048, .f32⟩
  | 81 => ⟨S2048x1x2048, .f32⟩
  | 82 => ⟨S2048x1x2048, .f32⟩
  | 83 => ⟨S2048x1x2048, .f32⟩
  | 84 => ⟨S1x2048, .f32⟩
  | 85 => ⟨S2048, .f32⟩
  | 86 => ⟨S1x1x2048, .f32⟩
  | 87 => ⟨S2048x1x2048, .f32⟩
  | 88 => ⟨S2048x1x2048, .f32⟩
  | 89 => ⟨S1x2048, .f32⟩
  | 90 => ⟨S2048, .f32⟩
  | 91 => ⟨S1x1x2048, .f32⟩
  | 92 => ⟨S2048x1x2048, .f32⟩
  | 93 => ⟨S2048x1x2048, .f32⟩
  | 94 => ⟨S2048x1x2048, .f32⟩
  | 95 => ⟨S2048x1x4096, .f32⟩
  | 96 => ⟨S2048x1x2048, .f32⟩
  | 97 => ⟨S2048x1x2048, .f32⟩
  | 98 => ⟨S1x2048, .f32⟩
  | 99 => ⟨S2048, .f32⟩
  | 100 => ⟨S1x1x2048, .f32⟩
  | 101 => ⟨S2048x1x2048, .f32⟩
  | 102 => ⟨S2048x1x2048, .f32⟩
  | 103 => ⟨S1x2048, .f32⟩
  | 104 => ⟨S2048, .f32⟩
  | 105 => ⟨S1x1x2048, .f32⟩
  | 106 => ⟨S2048x1x2048, .f32⟩
  | 107 => ⟨S2048x1x2048, .f32⟩
  | 108 => ⟨S2048x1x2048, .f32⟩
  | 109 => ⟨S1x2048, .f32⟩
  | 110 => ⟨S2048, .f32⟩
  | 111 => ⟨S1x1x2048, .f32⟩
  | 112 => ⟨S2048x1x2048, .f32⟩
  | 113 => ⟨S2048x1x2048, .f32⟩
  | 114 => ⟨S1x2048, .f32⟩
  | 115 => ⟨S2048, .f32⟩
  | 116 => ⟨S1x1x2048, .f32⟩
  | 117 => ⟨S2048x1x2048, .f32⟩
  | 118 => ⟨S2048x1x2048, .f32⟩
  | 119 => ⟨S2048x1x2048, .f32⟩
  | 120 => ⟨S2048x1x4096, .f32⟩
  | 121 => ⟨S2048x1x4096, .f32⟩
  | 122 => ⟨S2048x1x2048, .f32⟩
  | 123 => ⟨S2048x1x2048, .f32⟩
  | 124 => ⟨S1x2048, .f32⟩
  | 125 => ⟨S2048, .f32⟩
  | 126 => ⟨S1x1x2048, .f32⟩
  | 127 => ⟨S2048x1x2048, .f32⟩
  | _ => ⟨S2048x4096, .f32⟩

abbrev hbmTy0_10 (i : Nat) : BufTy := match i % 128 with
  | 0 => ⟨S2048x1x2048, .f32⟩
  | 1 => ⟨S1x2048, .f32⟩
  | 2 => ⟨S2048, .f32⟩
  | 3 => ⟨S1x1x2048, .f32⟩
  | 4 => ⟨S2048x1x2048, .f32⟩
  | 5 => ⟨S2048x1x2048, .f32⟩
  | 6 => ⟨S2048x1x2048, .f32⟩
  | 7 => ⟨S1x2048, .f32⟩
  | 8 => ⟨S2048, .f32⟩
  | 9 => ⟨S1x1x2048, .f32⟩
  | 10 => ⟨S2048x1x2048, .f32⟩
  | 11 => ⟨S2048x1x2048, .f32⟩
  | 12 => ⟨S1x2048, .f32⟩
  | 13 => ⟨S2048, .f32⟩
  | 14 => ⟨S1x1x2048, .f32⟩
  | 15 => ⟨S2048x1x2048, .f32⟩
  | 16 => ⟨S2048x1x2048, .f32⟩
  | 17 => ⟨S2048x1x2048, .f32⟩
  | 18 => ⟨S2048x1x4096, .f32⟩
  | 19 => ⟨S2048x1x2048, .f32⟩
  | 20 => ⟨S2048x1x2048, .f32⟩
  | 21 => ⟨S1x2048, .f32⟩
  | 22 => ⟨S2048, .f32⟩
  | 23 => ⟨S1x1x2048, .f32⟩
  | 24 => ⟨S2048x1x2048, .f32⟩
  | 25 => ⟨S2048x1x2048, .f32⟩
  | 26 => ⟨S1x2048, .f32⟩
  | 27 => ⟨S2048, .f32⟩
  | 28 => ⟨S1x1x2048, .f32⟩
  | 29 => ⟨S2048x1x2048, .f32⟩
  | 30 => ⟨S2048x1x2048, .f32⟩
  | 31 => ⟨S2048x1x2048, .f32⟩
  | 32 => ⟨S1x2048, .f32⟩
  | 33 => ⟨S2048, .f32⟩
  | 34 => ⟨S1x1x2048, .f32⟩
  | 35 => ⟨S2048x1x2048, .f32⟩
  | 36 => ⟨S2048x1x2048, .f32⟩
  | 37 => ⟨S1x2048, .f32⟩
  | 38 => ⟨S2048, .f32⟩
  | 39 => ⟨S1x1x2048, .f32⟩
  | 40 => ⟨S2048x1x2048, .f32⟩
  | 41 => ⟨S2048x1x2048, .f32⟩
  | 42 => ⟨S2048x1x2048, .f32⟩
  | 43 => ⟨S2048x1x4096, .f32⟩
  | 44 => ⟨S2048x1x4096, .f32⟩
  | 45 => ⟨S2048x4096, .f32⟩
  | 46 => ⟨S2048x4096, .f32⟩
  | 47 => ⟨S2048x1x4096, .f32⟩
  | 48 => ⟨S2048x1x4096, .f32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_v281 : Ref sig .tc := ⟨.hbm, 286, rfl⟩
abbrev main_v282 : Ref sig .tc := ⟨.hbm, 287, rfl⟩
abbrev main_v283 : Ref sig .tc := ⟨.hbm, 288, rfl⟩
abbrev main_v284 : Ref sig .tc := ⟨.hbm, 289, rfl⟩
abbrev main_v285 : Ref sig .tc := ⟨.hbm, 290, rfl⟩
abbrev main_v286 : Ref sig .tc := ⟨.hbm, 291, rfl⟩
abbrev main_v287 : Ref sig .tc := ⟨.hbm, 292, rfl⟩
abbrev main_v288 : Ref sig .tc := ⟨.hbm, 293, rfl⟩
abbrev main_v289 : Ref sig .tc := ⟨.hbm, 294, rfl⟩
abbrev main_v290 : Ref sig .tc := ⟨.hbm, 295, rfl⟩
abbrev main_v291 : Ref sig .tc := ⟨.hbm, 296, rfl⟩
abbrev main_v292 : Ref sig .tc := ⟨.hbm, 297, rfl⟩
abbrev main_v293 : Ref sig .tc := ⟨.hbm, 298, rfl⟩
abbrev main_v294 : Ref sig .tc := ⟨.hbm, 299, rfl⟩
abbrev main_v295 : Ref sig .tc := ⟨.hbm, 300, rfl⟩
abbrev main_v296 : Ref sig .tc := ⟨.hbm, 301, rfl⟩
abbrev main_v297 : Ref sig .tc := ⟨.hbm, 302, rfl⟩
abbrev main_v298 : Ref sig .tc := ⟨.hbm, 303, rfl⟩
abbrev main_v299 : Ref sig .tc := ⟨.hbm, 304, rfl⟩
abbrev main_v300 : Ref sig .tc := ⟨.hbm, 305, rfl⟩
abbrev main_v301 : Ref sig .tc := ⟨.hbm, 306, rfl⟩
abbrev main_v302 : Ref sig .tc := ⟨.hbm, 307, rfl⟩
abbrev main_v303 : Ref sig .tc := ⟨.hbm, 308, rfl⟩
abbrev main_v304 : Ref sig .tc := ⟨.hbm, 309, rfl⟩
abbrev main_v305 : Ref sig .tc := ⟨.hbm, 310, rfl⟩
abbrev main_v306 : Ref sig .tc := ⟨.hbm, 311, rfl⟩
abbrev main_v307 : Ref sig .tc := ⟨.hbm, 312, rfl⟩
abbrev main_v308 : Ref sig .tc := ⟨.hbm, 313, rfl⟩
abbrev main_v309 : Ref sig .tc := ⟨.hbm, 314, rfl⟩
abbrev main_v310 : Ref sig .tc := ⟨.hbm, 315, rfl⟩
abbrev main_v311 : Ref sig .tc := ⟨.hbm, 316, rfl⟩
abbrev main_v312 : Ref sig .tc := ⟨.hbm, 317, rfl⟩
abbrev main_v313 : Ref sig .tc := ⟨.hbm, 318, rfl⟩
abbrev main_v314 : Ref sig .tc := ⟨.hbm, 319, rfl⟩
abbrev main_v315 : Ref sig .tc := ⟨.hbm, 320, rfl⟩
abbrev main_v316 : Ref sig .tc := ⟨.hbm, 321, rfl⟩
abbrev main_v317 : Ref sig .tc := ⟨.hbm, 322, rfl⟩
abbrev main_v318 : Ref sig .tc := ⟨.hbm, 323, rfl⟩
abbrev main_v319 : Ref sig .tc := ⟨.hbm, 324, rfl⟩
abbrev main_v320 : Ref sig .tc := ⟨.hbm, 325, rfl⟩
abbrev main_v321 : Ref sig .tc := ⟨.hbm, 326, rfl⟩
abbrev main_v322 : Ref sig .tc := ⟨.hbm, 327, rfl⟩
abbrev main_v323 : Ref sig .tc := ⟨.hbm, 328, rfl⟩
abbrev main_v324 : Ref sig .tc := ⟨.hbm, 329, rfl⟩
abbrev main_v325 : Ref sig .tc := ⟨.hbm, 330, rfl⟩
abbrev main_v326 : Ref sig .tc := ⟨.hbm, 331, rfl⟩
abbrev main_v327 : Ref sig .tc := ⟨.hbm, 332, rfl⟩
abbrev main_v328 : Ref sig .tc := ⟨.hbm, 333, rfl⟩
abbrev main_v329 : Ref sig .tc := ⟨.hbm, 334, rfl⟩
abbrev main_v330 : Ref sig .tc := ⟨.hbm, 335, rfl⟩
abbrev main_v331 : Ref sig .tc := ⟨.hbm, 336, rfl⟩
abbrev main_v332 : Ref sig .tc := ⟨.hbm, 337, rfl⟩
abbrev main_v333 : Ref sig .tc := ⟨.hbm, 338, rfl⟩
abbrev main_v334 : Ref sig .tc := ⟨.hbm, 339, rfl⟩
abbrev main_v335 : Ref sig .tc := ⟨.hbm, 340, rfl⟩
abbrev main_v336 : Ref sig .tc := ⟨.hbm, 341, rfl⟩
abbrev main_v337 : Ref sig .tc := ⟨.hbm, 342, rfl⟩
abbrev main_v338 : Ref sig .tc := ⟨.hbm, 343, rfl⟩
abbrev main_v339 : Ref sig .tc := ⟨.hbm, 344, rfl⟩
abbrev main_v340 : Ref sig .tc := ⟨.hbm, 345, rfl⟩
abbrev main_v341 : Ref sig .tc := ⟨.hbm, 346, rfl⟩
abbrev main_v342 : Ref sig .tc := ⟨.hbm, 347, rfl⟩
abbrev main_v343 : Ref sig .tc := ⟨.hbm, 348, rfl⟩
abbrev main_v344 : Ref sig .tc := ⟨.hbm, 349, rfl⟩
abbrev main_v345 : Ref sig .tc := ⟨.hbm, 350, rfl⟩
abbrev main_v346 : Ref sig .tc := ⟨.hbm, 351, rfl⟩
abbrev main_v347 : Ref sig .tc := ⟨.hbm, 352, rfl⟩
abbrev main_v348 : Ref sig .tc := ⟨.hbm, 353, rfl⟩
abbrev main_v349 : Ref sig .tc := ⟨.hbm, 354, rfl⟩
abbrev main_v350 : Ref sig .tc := ⟨.hbm, 355, rfl⟩
abbrev main_v351 : Ref sig .tc := ⟨.hbm, 356, rfl⟩
abbrev main_v352 : Ref sig .tc := ⟨.hbm, 357, rfl⟩
abbrev main_v353 : Ref sig .tc := ⟨.hbm, 358, rfl⟩
abbrev main_v354 : Ref sig .tc := ⟨.hbm, 359, rfl⟩
abbrev main_v355 : Ref sig .tc := ⟨.hbm, 360, rfl⟩
abbrev main_v356 : Ref sig .tc := ⟨.hbm, 361, rfl⟩
abbrev main_v357 : Ref sig .tc := ⟨.hbm, 362, rfl⟩
abbrev main_v358 : Ref sig .tc := ⟨.hbm, 363, rfl⟩
abbrev main_v359 : Ref sig .tc := ⟨.hbm, 364, rfl⟩
abbrev main_v360 : Ref sig .tc := ⟨.hbm, 365, rfl⟩
abbrev main_v361 : Ref sig .tc := ⟨.hbm, 366, rfl⟩
abbrev main_v362 : Ref sig .tc := ⟨.hbm, 367, rfl⟩
abbrev main_v363 : Ref sig .tc := ⟨.hbm, 368, rfl⟩
abbrev main_v364 : Ref sig .tc := ⟨.hbm, 369, rfl⟩
abbrev main_v365 : Ref sig .tc := ⟨.hbm, 370, rfl⟩
abbrev main_v366 : Ref sig .tc := ⟨.hbm, 371, rfl⟩
abbrev main_v367 : Ref sig .tc := ⟨.hbm, 372, rfl⟩
abbrev main_v368 : Ref sig .tc := ⟨.hbm, 373, rfl⟩
abbrev main_v369 : Ref sig .tc := ⟨.hbm, 374, rfl⟩
abbrev main_v370 : Ref sig .tc := ⟨.hbm, 375, rfl⟩
abbrev main_v371 : Ref sig .tc := ⟨.hbm, 376, rfl⟩
abbrev main_v372 : Ref sig .tc := ⟨.hbm, 377, rfl⟩
abbrev main_v373 : Ref sig .tc := ⟨.hbm, 378, rfl⟩
abbrev main_v374 : Ref sig .tc := ⟨.hbm, 379, rfl⟩
abbrev main_v375 : Ref sig .tc := ⟨.hbm, 380, rfl⟩
abbrev main_v376 : Ref sig .tc := ⟨.hbm, 381, rfl⟩
abbrev main_v377 : Ref sig .tc := ⟨.hbm, 382, rfl⟩
abbrev main_v378 : Ref sig .tc := ⟨.hbm, 383, rfl⟩
abbrev main_v379 : Ref sig .tc := ⟨.hbm, 384, rfl⟩
abbrev main_v380 : Ref sig .tc := ⟨.hbm, 385, rfl⟩
abbrev main_v381 : Ref sig .tc := ⟨.hbm, 386, rfl⟩
abbrev main_v382 : Ref sig .tc := ⟨.hbm, 387, rfl⟩
abbrev main_v383 : Ref sig .tc := ⟨.hbm, 388, rfl⟩
abbrev main_v384 : Ref sig .tc := ⟨.hbm, 389, rfl⟩
abbrev main_v385 : Ref sig .tc := ⟨.hbm, 390, rfl⟩
abbrev main_v386 : Ref sig .tc := ⟨.hbm, 391, rfl⟩
abbrev main_v387 : Ref sig .tc := ⟨.hbm, 392, rfl⟩
abbrev main_v388 : Ref sig .tc := ⟨.hbm, 393, rfl⟩
abbrev main_v389 : Ref sig .tc := ⟨.hbm, 394, rfl⟩
abbrev main_v390 : Ref sig .tc := ⟨.hbm, 395, rfl⟩
abbrev main_v391 : Ref sig .tc := ⟨.hbm, 396, rfl⟩
abbrev main_v392 : Ref sig .tc := ⟨.hbm, 397, rfl⟩
abbrev main_v393 : Ref sig .tc := ⟨.hbm, 398, rfl⟩
abbrev main_v394 : Ref sig .tc := ⟨.hbm, 399, rfl⟩
abbrev main_v395 : Ref sig .tc := ⟨.hbm, 400, rfl⟩
abbrev main_v396 : Ref sig .tc := ⟨.hbm, 401, rfl⟩
abbrev main_v397 : Ref sig .tc := ⟨.hbm, 402, rfl⟩
abbrev main_v398 : Ref sig .tc := ⟨.hbm, 403, rfl⟩
abbrev main_v399 : Ref sig .tc := ⟨.hbm, 404, rfl⟩
abbrev main_v400 : Ref sig .tc := ⟨.hbm, 405, rfl⟩
abbrev main_v401 : Ref sig .tc := ⟨.hbm, 406, rfl⟩
abbrev main_v402 : Ref sig .tc := ⟨.hbm, 407, rfl⟩
abbrev main_v403 : Ref sig .tc := ⟨.hbm, 408, rfl⟩
abbrev main_v404 : Ref sig .tc := ⟨.hbm, 409, rfl⟩
abbrev main_v405 : Ref sig .tc := ⟨.hbm, 410, rfl⟩
abbrev main_v406 : Ref sig .tc := ⟨.hbm, 411, rfl⟩
abbrev main_v407 : Ref sig .tc := ⟨.hbm, 412, rfl⟩
abbrev main_v408 : Ref sig .tc := ⟨.hbm, 413, rfl⟩
abbrev main_v409 : Ref sig .tc := ⟨.hbm, 414, rfl⟩
abbrev main_v410 : Ref sig .tc := ⟨.hbm, 415, rfl⟩
abbrev main_v411 : Ref sig .tc := ⟨.hbm, 416, rfl⟩
abbrev main_v412 : Ref sig .tc := ⟨.hbm, 417, rfl⟩
abbrev main_v413 : Ref sig .tc := ⟨.hbm, 418, rfl⟩
abbrev main_v414 : Ref sig .tc := ⟨.hbm, 419, rfl⟩
abbrev main_v415 : Ref sig .tc := ⟨.hbm, 420, rfl⟩
abbrev main_v416 : Ref sig .tc := ⟨.hbm, 421, rfl⟩
abbrev main_v417 : Ref sig .tc := ⟨.hbm, 422, rfl⟩
abbrev main_v418 : Ref sig .tc := ⟨.hbm, 423, rfl⟩
abbrev main_v419 : Ref sig .tc := ⟨.hbm, 424, rfl⟩
abbrev main_v420 : Ref sig .tc := ⟨.hbm, 425, rfl⟩
abbrev main_v421 : Ref sig .tc := ⟨.hbm, 426, rfl⟩
abbrev main_v422 : Ref sig .tc := ⟨.hbm, 427, rfl⟩
abbrev main_v423 : Ref sig .tc := ⟨.hbm, 428, rfl⟩
abbrev main_v424 : Ref sig .tc := ⟨.hbm, 429, rfl⟩
abbrev main_v425 : Ref sig .tc := ⟨.hbm, 430, rfl⟩
abbrev main_v426 : Ref sig .tc := ⟨.hbm, 431, rfl⟩
abbrev main_v427 : Ref sig .tc := ⟨.hbm, 432, rfl⟩
abbrev main_v428 : Ref sig .tc := ⟨.hbm, 433, rfl⟩
abbrev main_v429 : Ref sig .tc := ⟨.hbm, 434, rfl⟩
abbrev main_v430 : Ref sig .tc := ⟨.hbm, 435, rfl⟩
abbrev main_v431 : Ref sig .tc := ⟨.hbm, 436, rfl⟩
abbrev main_v432 : Ref sig .tc := ⟨.hbm, 437, rfl⟩
abbrev main_v433 : Ref sig .tc := ⟨.hbm, 438, rfl⟩
abbrev main_v434 : Ref sig .tc := ⟨.hbm, 439, rfl⟩
abbrev main_v435 : Ref sig .tc := ⟨.hbm, 440, rfl⟩
abbrev main_v436 : Ref sig .tc := ⟨.hbm, 441, rfl⟩
abbrev main_v437 : Ref sig .tc := ⟨.hbm, 442, rfl⟩
abbrev main_v438 : Ref sig .tc := ⟨.hbm, 443, rfl⟩
abbrev main_v439 : Ref sig .tc := ⟨.hbm, 444, rfl⟩
abbrev main_v440 : Ref sig .tc := ⟨.hbm, 445, rfl⟩
abbrev main_v441 : Ref sig .tc := ⟨.hbm, 446, rfl⟩
abbrev main_v442 : Ref sig .tc := ⟨.hbm, 447, rfl⟩
abbrev main_v443 : Ref sig .tc := ⟨.hbm, 448, rfl⟩
abbrev main_v444 : Ref sig .tc := ⟨.hbm, 449, rfl⟩
abbrev main_v445 : Ref sig .tc := ⟨.hbm, 450, rfl⟩
abbrev main_v446 : Ref sig .tc := ⟨.hbm, 451, rfl⟩
abbrev main_v447 : Ref sig .tc := ⟨.hbm, 452, rfl⟩
abbrev main_v448 : Ref sig .tc := ⟨.hbm, 453, rfl⟩
abbrev main_v449 : Ref sig .tc := ⟨.hbm, 454, rfl⟩
abbrev main_v450 : Ref sig .tc := ⟨.hbm, 455, rfl⟩
abbrev main_v451 : Ref sig .tc := ⟨.hbm, 456, rfl⟩
abbrev main_v452 : Ref sig .tc := ⟨.hbm, 457, rfl⟩
abbrev main_v453 : Ref sig .tc := ⟨.hbm, 458, rfl⟩
abbrev main_v454 : Ref sig .tc := ⟨.hbm, 459, rfl⟩
abbrev main_v455 : Ref sig .tc := ⟨.hbm, 460, rfl⟩
abbrev main_v456 : Ref sig .tc := ⟨.hbm, 461, rfl⟩
abbrev main_v457 : Ref sig .tc := ⟨.hbm, 462, rfl⟩
abbrev main_v458 : Ref sig .tc := ⟨.hbm, 463, rfl⟩
abbrev main_v459 : Ref sig .tc := ⟨.hbm, 464, rfl⟩
abbrev main_v460 : Ref sig .tc := ⟨.hbm, 465, rfl⟩
abbrev main_v461 : Ref sig .tc := ⟨.hbm, 466, rfl⟩
abbrev main_v462 : Ref sig .tc := ⟨.hbm, 467, rfl⟩
abbrev main_v463 : Ref sig .tc := ⟨.hbm, 468, rfl⟩
abbrev main_v464 : Ref sig .tc := ⟨.hbm, 469, rfl⟩
abbrev main_v465 : Ref sig .tc := ⟨.hbm, 470, rfl⟩
abbrev main_v466 : Ref sig .tc := ⟨.hbm, 471, rfl⟩
abbrev main_v467 : Ref sig .tc := ⟨.hbm, 472, rfl⟩
abbrev main_v468 : Ref sig .tc := ⟨.hbm, 473, rfl⟩
abbrev main_v469 : Ref sig .tc := ⟨.hbm, 474, rfl⟩
abbrev main_v470 : Ref sig .tc := ⟨.hbm, 475, rfl⟩
abbrev main_v471 : Ref sig .tc := ⟨.hbm, 476, rfl⟩
abbrev main_v472 : Ref sig .tc := ⟨.hbm, 477, rfl⟩
abbrev main_v473 : Ref sig .tc := ⟨.hbm, 478, rfl⟩
abbrev main_v474 : Ref sig .tc := ⟨.hbm, 479, rfl⟩
abbrev main_v475 : Ref sig .tc := ⟨.hbm, 480, rfl⟩
abbrev main_v476 : Ref sig .tc := ⟨.hbm, 481, rfl⟩
abbrev main_v477 : Ref sig .tc := ⟨.hbm, 482, rfl⟩
abbrev main_v478 : Ref sig .tc := ⟨.hbm, 483, rfl⟩
abbrev main_v479 : Ref sig .tc := ⟨.hbm, 484, rfl⟩
abbrev main_v480 : Ref sig .tc := ⟨.hbm, 485, rfl⟩
abbrev main_v481 : Ref sig .tc := ⟨.hbm, 486, rfl⟩
abbrev main_v482 : Ref sig .tc := ⟨.hbm, 487, rfl⟩
abbrev main_v483 : Ref sig .tc := ⟨.hbm, 488, rfl⟩
abbrev main_v484 : Ref sig .tc := ⟨.hbm, 489, rfl⟩
abbrev main_v485 : Ref sig .tc := ⟨.hbm, 490, rfl⟩
abbrev main_v486 : Ref sig .tc := ⟨.hbm, 491, rfl⟩
abbrev main_v487 : Ref sig .tc := ⟨.hbm, 492, rfl⟩
abbrev main_v488 : Ref sig .tc := ⟨.hbm, 493, rfl⟩
abbrev main_v489 : Ref sig .tc := ⟨.hbm, 494, rfl⟩
abbrev main_v490 : Ref sig .tc := ⟨.hbm, 495, rfl⟩
abbrev main_v491 : Ref sig .tc := ⟨.hbm, 496, rfl⟩
abbrev main_v492 : Ref sig .tc := ⟨.hbm, 497, rfl⟩
abbrev main_v493 : Ref sig .tc := ⟨.hbm, 498, rfl⟩
abbrev main_v494 : Ref sig .tc := ⟨.hbm, 499, rfl⟩
abbrev main_v495 : Ref sig .tc := ⟨.hbm, 500, rfl⟩
abbrev main_v496 : Ref sig .tc := ⟨.hbm, 501, rfl⟩
abbrev main_v497 : Ref sig .tc := ⟨.hbm, 502, rfl⟩
abbrev main_v498 : Ref sig .tc := ⟨.hbm, 503, rfl⟩
abbrev main_v499 : Ref sig .tc := ⟨.hbm, 504, rfl⟩
abbrev main_v500 : Ref sig .tc := ⟨.hbm, 505, rfl⟩
abbrev main_v501 : Ref sig .tc := ⟨.hbm, 506, rfl⟩
abbrev main_v502 : Ref sig .tc := ⟨.hbm, 507, rfl⟩
abbrev main_v503 : Ref sig .tc := ⟨.hbm, 508, rfl⟩
abbrev main_v504 : Ref sig .tc := ⟨.hbm, 509, rfl⟩
abbrev main_v505 : Ref sig .tc := ⟨.hbm, 510, rfl⟩
abbrev main_v506 : Ref sig .tc := ⟨.hbm, 511, rfl⟩
abbrev main_v507 : Ref sig .tc := ⟨.hbm, 512, rfl⟩
abbrev main_v508 : Ref sig .tc := ⟨.hbm, 513, rfl⟩
abbrev main_v509 : Ref sig .tc := ⟨.hbm, 514, rfl⟩
abbrev main_v510 : Ref sig .tc := ⟨.hbm, 515, rfl⟩
abbrev main_v511 : Ref sig .tc := ⟨.hbm, 516, rfl⟩
abbrev main_v512 : Ref sig .tc := ⟨.hbm, 517, rfl⟩
abbrev main_v513 : Ref sig .tc := ⟨.hbm, 518, rfl⟩
abbrev main_v514 : Ref sig .tc := ⟨.hbm, 519, rfl⟩
abbrev main_v515 : Ref sig .tc := ⟨.hbm, 520, rfl⟩
abbrev main_v516 : Ref sig .tc := ⟨.hbm, 521, rfl⟩
abbrev main_v517 : Ref sig .tc := ⟨.hbm, 522, rfl⟩
abbrev main_v518 : Ref sig .tc := ⟨.hbm, 523, rfl⟩
abbrev main_v519 : Ref sig .tc := ⟨.hbm, 524, rfl⟩
abbrev main_v520 : Ref sig .tc := ⟨.hbm, 525, rfl⟩
abbrev main_v521 : Ref sig .tc := ⟨.hbm, 526, rfl⟩
abbrev main_v522 : Ref sig .tc := ⟨.hbm, 527, rfl⟩
abbrev main_v523 : Ref sig .tc := ⟨.hbm, 528, rfl⟩
abbrev main_v524 : Ref sig .tc := ⟨.hbm, 529, rfl⟩
abbrev main_v525 : Ref sig .tc := ⟨.hbm, 530, rfl⟩
abbrev main_v526 : Ref sig .tc := ⟨.hbm, 531, rfl⟩
abbrev main_v527 : Ref sig .tc := ⟨.hbm, 532, rfl⟩
abbrev main_v528 : Ref sig .tc := ⟨.hbm, 533, rfl⟩
abbrev main_v529 : Ref sig .tc := ⟨.hbm, 534, rfl⟩
abbrev main_v530 : Ref sig .tc := ⟨.hbm, 535, rfl⟩
abbrev main_v531 : Ref sig .tc := ⟨.hbm, 536, rfl⟩
abbrev main_v532 : Ref sig .tc := ⟨.hbm, 537, rfl⟩
abbrev main_v533 : Ref sig .tc := ⟨.hbm, 538, rfl⟩
abbrev main_v534 : Ref sig .tc := ⟨.hbm, 539, rfl⟩
abbrev main_v535 : Ref sig .tc := ⟨.hbm, 540, rfl⟩
abbrev main_v536 : Ref sig .tc := ⟨.hbm, 541, rfl⟩
abbrev main_v537 : Ref sig .tc := ⟨.hbm, 542, rfl⟩
abbrev main_v538 : Ref sig .tc := ⟨.hbm, 543, rfl⟩
abbrev main_v539 : Ref sig .tc := ⟨.hbm, 544, rfl⟩
abbrev main_v540 : Ref sig .tc := ⟨.hbm, 545, rfl⟩
abbrev main_v541 : Ref sig .tc := ⟨.hbm, 546, rfl⟩
abbrev main_v542 : Ref sig .tc := ⟨.hbm, 547, rfl⟩
abbrev main_v543 : Ref sig .tc := ⟨.hbm, 548, rfl⟩
abbrev main_v544 : Ref sig .tc := ⟨.hbm, 549, rfl⟩
abbrev main_v545 : Ref sig .tc := ⟨.hbm, 550, rfl⟩
abbrev main_v546 : Ref sig .tc := ⟨.hbm, 551, rfl⟩
abbrev main_v547 : Ref sig .tc := ⟨.hbm, 552, rfl⟩
abbrev main_v548 : Ref sig .tc := ⟨.hbm, 553, rfl⟩
abbrev main_v549 : Ref sig .tc := ⟨.hbm, 554, rfl⟩
abbrev main_v550 : Ref sig .tc := ⟨.hbm, 555, rfl⟩
abbrev main_v551 : Ref sig .tc := ⟨.hbm, 556, rfl⟩
abbrev main_v552 : Ref sig .tc := ⟨.hbm, 557, rfl⟩
abbrev main_v553 : Ref sig .tc := ⟨.hbm, 558, rfl⟩
abbrev main_v554 : Ref sig .tc := ⟨.hbm, 559, rfl⟩
abbrev main_v555 : Ref sig .tc := ⟨.hbm, 560, rfl⟩
abbrev main_v556 : Ref sig .tc := ⟨.hbm, 561, rfl⟩
abbrev main_v557 : Ref sig .tc := ⟨.hbm, 562, rfl⟩
abbrev main_v558 : Ref sig .tc := ⟨.hbm, 563, rfl⟩
abbrev main_v559 : Ref sig .tc := ⟨.hbm, 564, rfl⟩
abbrev main_v560 : Ref sig .tc := ⟨.hbm, 565, rfl⟩
abbrev main_v561 : Ref sig .tc := ⟨.hbm, 566, rfl⟩
abbrev main_v562 : Ref sig .tc := ⟨.hbm, 567, rfl⟩
abbrev main_v563 : Ref sig .tc := ⟨.hbm, 568, rfl⟩
abbrev main_v564 : Ref sig .tc := ⟨.hbm, 569, rfl⟩
abbrev main_v565 : Ref sig .tc := ⟨.hbm, 570, rfl⟩
abbrev main_v566 : Ref sig .tc := ⟨.hbm, 571, rfl⟩
abbrev main_v567 : Ref sig .tc := ⟨.hbm, 572, rfl⟩
abbrev main_v568 : Ref sig .tc := ⟨.hbm, 573, rfl⟩
abbrev main_v569 : Ref sig .tc := ⟨.hbm, 574, rfl⟩
abbrev main_v570 : Ref sig .tc := ⟨.hbm, 575, rfl⟩
abbrev main_v571 : Ref sig .tc := ⟨.hbm, 576, rfl⟩
abbrev main_v572 : Ref sig .tc := ⟨.hbm, 577, rfl⟩
abbrev main_v573 : Ref sig .tc := ⟨.hbm, 578, rfl⟩
abbrev main_v574 : Ref sig .tc := ⟨.hbm, 579, rfl⟩
abbrev main_v575 : Ref sig .tc := ⟨.hbm, 580, rfl⟩
abbrev main_v576 : Ref sig .tc := ⟨.hbm, 581, rfl⟩
abbrev main_v577 : Ref sig .tc := ⟨.hbm, 582, rfl⟩
abbrev main_v578 : Ref sig .tc := ⟨.hbm, 583, rfl⟩
abbrev main_v579 : Ref sig .tc := ⟨.hbm, 584, rfl⟩
abbrev main_v580 : Ref sig .tc := ⟨.hbm, 585, rfl⟩
abbrev main_v581 : Ref sig .tc := ⟨.hbm, 586, rfl⟩
abbrev main_v582 : Ref sig .tc := ⟨.hbm, 587, rfl⟩
abbrev main_v583 : Ref sig .tc := ⟨.hbm, 588, rfl⟩
abbrev main_v584 : Ref sig .tc := ⟨.hbm, 589, rfl⟩
abbrev main_v585 : Ref sig .tc := ⟨.hbm, 590, rfl⟩
abbrev main_v586 : Ref sig .tc := ⟨.hbm, 591, rfl⟩
abbrev main_v587 : Ref sig .tc := ⟨.hbm, 592, rfl⟩
abbrev main_v588 : Ref sig .tc := ⟨.hbm, 593, rfl⟩
abbrev main_v589 : Ref sig .tc := ⟨.hbm, 594, rfl⟩
abbrev main_v590 : Ref sig .tc := ⟨.hbm, 595, rfl⟩
abbrev main_v591 : Ref sig .tc := ⟨.hbm, 596, rfl⟩
abbrev main_v592 : Ref sig .tc := ⟨.hbm, 597, rfl⟩
abbrev main_v593 : Ref sig .tc := ⟨.hbm, 598, rfl⟩
abbrev main_v594 : Ref sig .tc := ⟨.hbm, 599, rfl⟩
abbrev main_v595 : Ref sig .tc := ⟨.hbm, 600, rfl⟩
abbrev main_v596 : Ref sig .tc := ⟨.hbm, 601, rfl⟩
abbrev main_v597 : Ref sig .tc := ⟨.hbm, 602, rfl⟩
abbrev main_v598 : Ref sig .tc := ⟨.hbm, 603, rfl⟩
abbrev main_v599 : Ref sig .tc := ⟨.hbm, 604, rfl⟩
abbrev main_v600 : Ref sig .tc := ⟨.hbm, 605, rfl⟩
abbrev main_v601 : Ref sig .tc := ⟨.hbm, 606, rfl⟩
abbrev main_v602 : Ref sig .tc := ⟨.hbm, 607, rfl⟩
abbrev main_v603 : Ref sig .tc := ⟨.hbm, 608, rfl⟩
abbrev main_v604 : Ref sig .tc := ⟨.hbm, 609, rfl⟩
abbrev main_v605 : Ref sig .tc := ⟨.hbm, 610, rfl⟩
abbrev main_v606 : Ref sig .tc := ⟨.hbm, 611, rfl⟩
abbrev main_v607 : Ref sig .tc := ⟨.hbm, 612, rfl⟩
abbrev main_v608 : Ref sig .tc := ⟨.hbm, 613, rfl⟩
abbrev main_v609 : Ref sig .tc := ⟨.hbm, 614, rfl⟩
abbrev main_v610 : Ref sig .tc := ⟨.hbm, 615, rfl⟩
abbrev main_v611 : Ref sig .tc := ⟨.hbm, 616, rfl⟩
abbrev main_v612 : Ref sig .tc := ⟨.hbm, 617, rfl⟩
abbrev main_v613 : Ref sig .tc := ⟨.hbm, 618, rfl⟩
abbrev main_v614 : Ref sig .tc := ⟨.hbm, 619, rfl⟩
abbrev main_v615 : Ref sig .tc := ⟨.hbm, 620, rfl⟩
abbrev main_v616 : Ref sig .tc := ⟨.hbm, 621, rfl⟩
abbrev main_v617 : Ref sig .tc := ⟨.hbm, 622, rfl⟩
abbrev main_v618 : Ref sig .tc := ⟨.hbm, 623, rfl⟩
abbrev main_v619 : Ref sig .tc := ⟨.hbm, 624, rfl⟩
abbrev main_v620 : Ref sig .tc := ⟨.hbm, 625, rfl⟩
abbrev main_v621 : Ref sig .tc := ⟨.hbm, 626, rfl⟩
abbrev main_v622 : Ref sig .tc := ⟨.hbm, 627, rfl⟩
abbrev main_v623 : Ref sig .tc := ⟨.hbm, 628, rfl⟩
abbrev main_v624 : Ref sig .tc := ⟨.hbm, 629, rfl⟩
abbrev main_v625 : Ref sig .tc := ⟨.hbm, 630, rfl⟩
abbrev main_v626 : Ref sig .tc := ⟨.hbm, 631, rfl⟩
abbrev main_v627 : Ref sig .tc := ⟨.hbm, 632, rfl⟩
abbrev main_v628 : Ref sig .tc := ⟨.hbm, 633, rfl⟩
abbrev main_v629 : Ref sig .tc := ⟨.hbm, 634, rfl⟩
abbrev main_v630 : Ref sig .tc := ⟨.hbm, 635, rfl⟩
abbrev main_v631 : Ref sig .tc := ⟨.hbm, 636, rfl⟩
abbrev main_v632 : Ref sig .tc := ⟨.hbm, 637, rfl⟩
abbrev main_v633 : Ref sig .tc := ⟨.hbm, 638, rfl⟩
abbrev main_v634 : Ref sig .tc := ⟨.hbm, 639, rfl⟩
abbrev main_v635 : Ref sig .tc := ⟨.hbm, 640, rfl⟩
abbrev main_v636 : Ref sig .tc := ⟨.hbm, 641, rfl⟩
abbrev main_v637 : Ref sig .tc := ⟨.hbm, 642, rfl⟩
abbrev main_v638 : Ref sig .tc := ⟨.hbm, 643, rfl⟩
abbrev main_v639 : Ref sig .tc := ⟨.hbm, 644, rfl⟩
abbrev main_v640 : Ref sig .tc := ⟨.hbm, 645, rfl⟩
abbrev main_v641 : Ref sig .tc := ⟨.hbm, 646, rfl⟩
abbrev main_v642 : Ref sig .tc := ⟨.hbm, 647, rfl⟩
abbrev main_v643 : Ref sig .tc := ⟨.hbm, 648, rfl⟩
abbrev main_v644 : Ref sig .tc := ⟨.hbm, 649, rfl⟩
abbrev main_v645 : Ref sig .tc := ⟨.hbm, 650, rfl⟩
abbrev main_v646 : Ref sig .tc := ⟨.hbm, 651, rfl⟩
abbrev main_v647 : Ref sig .tc := ⟨.hbm, 652, rfl⟩
abbrev main_v648 : Ref sig .tc := ⟨.hbm, 653, rfl⟩
abbrev main_v649 : Ref sig .tc := ⟨.hbm, 654, rfl⟩
abbrev main_v650 : Ref sig .tc := ⟨.hbm, 655, rfl⟩
abbrev main_v651 : Ref sig .tc := ⟨.hbm, 656, rfl⟩
abbrev main_v652 : Ref sig .tc := ⟨.hbm, 657, rfl⟩
abbrev main_v653 : Ref sig .tc := ⟨.hbm, 658, rfl⟩
abbrev main_v654 : Ref sig .tc := ⟨.hbm, 659, rfl⟩
abbrev main_v655 : Ref sig .tc := ⟨.hbm, 660, rfl⟩
abbrev main_v656 : Ref sig .tc := ⟨.hbm, 661, rfl⟩
abbrev main_v657 : Ref sig .tc := ⟨.hbm, 662, rfl⟩
abbrev main_v658 : Ref sig .tc := ⟨.hbm, 663, rfl⟩
abbrev main_v659 : Ref sig .tc := ⟨.hbm, 664, rfl⟩
abbrev main_v660 : Ref sig .tc := ⟨.hbm, 665, rfl⟩
abbrev main_v661 : Ref sig .tc := ⟨.hbm, 666, rfl⟩
abbrev main_v662 : Ref sig .tc := ⟨.hbm, 667, rfl⟩
abbrev main_v663 : Ref sig .tc := ⟨.hbm, 668, rfl⟩
abbrev main_v664 : Ref sig .tc := ⟨.hbm, 669, rfl⟩
abbrev main_v665 : Ref sig .tc := ⟨.hbm, 670, rfl⟩
abbrev main_v666 : Ref sig .tc := ⟨.hbm, 671, rfl⟩
abbrev main_v667 : Ref sig .tc := ⟨.hbm, 672, rfl⟩
abbrev main_v668 : Ref sig .tc := ⟨.hbm, 673, rfl⟩
abbrev main_v669 : Ref sig .tc := ⟨.hbm, 674, rfl⟩
abbrev main_v670 : Ref sig .tc := ⟨.hbm, 675, rfl⟩
abbrev main_v671 : Ref sig .tc := ⟨.hbm, 676, rfl⟩
abbrev main_v672 : Ref sig .tc := ⟨.hbm, 677, rfl⟩
abbrev main_v673 : Ref sig .tc := ⟨.hbm, 678, rfl⟩
abbrev main_v674 : Ref sig .tc := ⟨.hbm, 679, rfl⟩
abbrev main_v675 : Ref sig .tc := ⟨.hbm, 680, rfl⟩
abbrev main_v676 : Ref sig .tc := ⟨.hbm, 681, rfl⟩
abbrev main_v677 : Ref sig .tc := ⟨.hbm, 682, rfl⟩
abbrev main_v678 : Ref sig .tc := ⟨.hbm, 683, rfl⟩
abbrev main_v679 : Ref sig .tc := ⟨.hbm, 684, rfl⟩
abbrev main_v680 : Ref sig .tc := ⟨.hbm, 685, rfl⟩
abbrev main_v681 : Ref sig .tc := ⟨.hbm, 686, rfl⟩
abbrev main_v682 : Ref sig .tc := ⟨.hbm, 687, rfl⟩
abbrev main_v683 : Ref sig .tc := ⟨.hbm, 688, rfl⟩
abbrev main_v684 : Ref sig .tc := ⟨.hbm, 689, rfl⟩
abbrev main_v685 : Ref sig .tc := ⟨.hbm, 690, rfl⟩
abbrev main_v686 : Ref sig .tc := ⟨.hbm, 691, rfl⟩
abbrev main_v687 : Ref sig .tc := ⟨.hbm, 692, rfl⟩
abbrev main_v688 : Ref sig .tc := ⟨.hbm, 693, rfl⟩
abbrev main_v689 : Ref sig .tc := ⟨.hbm, 694, rfl⟩
abbrev main_v690 : Ref sig .tc := ⟨.hbm, 695, rfl⟩
abbrev main_v691 : Ref sig .tc := ⟨.hbm, 696, rfl⟩
abbrev main_v692 : Ref sig .tc := ⟨.hbm, 697, rfl⟩
abbrev main_v693 : Ref sig .tc := ⟨.hbm, 698, rfl⟩
abbrev main_v694 : Ref sig .tc := ⟨.hbm, 699, rfl⟩
abbrev main_v695 : Ref sig .tc := ⟨.hbm, 700, rfl⟩
abbrev main_v696 : Ref sig .tc := ⟨.hbm, 701, rfl⟩
abbrev main_v697 : Ref sig .tc := ⟨.hbm, 702, rfl⟩
abbrev main_v698 : Ref sig .tc := ⟨.hbm, 703, rfl⟩
abbrev main_v699 : Ref sig .tc := ⟨.hbm, 704, rfl⟩
abbrev main_v700 : Ref sig .tc := ⟨.hbm, 705, rfl⟩
abbrev main_v701 : Ref sig .tc := ⟨.hbm, 706, rfl⟩
abbrev main_v702 : Ref sig .tc := ⟨.hbm, 707, rfl⟩
abbrev main_v703 : Ref sig .tc := ⟨.hbm, 708, rfl⟩
abbrev main_v704 : Ref sig .tc := ⟨.hbm, 709, rfl⟩
abbrev main_v705 : Ref sig .tc := ⟨.hbm, 710, rfl⟩
abbrev main_v706 : Ref sig .tc := ⟨.hbm, 711, rfl⟩
abbrev main_v707 : Ref sig .tc := ⟨.hbm, 712, rfl⟩
abbrev main_v708 : Ref sig .tc := ⟨.hbm, 713, rfl⟩
abbrev main_v709 : Ref sig .tc := ⟨.hbm, 714, rfl⟩
abbrev main_v710 : Ref sig .tc := ⟨.hbm, 715, rfl⟩
abbrev main_v711 : Ref sig .tc := ⟨.hbm, 716, rfl⟩
abbrev main_v712 : Ref sig .tc := ⟨.hbm, 717, rfl⟩
abbrev main_v713 : Ref sig .tc := ⟨.hbm, 718, rfl⟩
abbrev main_v714 : Ref sig .tc := ⟨.hbm, 719, rfl⟩
abbrev main_v715 : Ref sig .tc := ⟨.hbm, 720, rfl⟩
abbrev main_v716 : Ref sig .tc := ⟨.hbm, 721, rfl⟩
abbrev main_v717 : Ref sig .tc := ⟨.hbm, 722, rfl⟩
abbrev main_v718 : Ref sig .tc := ⟨.hbm, 723, rfl⟩
abbrev main_v719 : Ref sig .tc := ⟨.hbm, 724, rfl⟩
abbrev main_v720 : Ref sig .tc := ⟨.hbm, 725, rfl⟩
abbrev main_v721 : Ref sig .tc := ⟨.hbm, 726, rfl⟩
abbrev main_v722 : Ref sig .tc := ⟨.hbm, 727, rfl⟩
abbrev main_v723 : Ref sig .tc := ⟨.hbm, 728, rfl⟩
abbrev main_v724 : Ref sig .tc := ⟨.hbm, 729, rfl⟩
abbrev main_v725 : Ref sig .tc := ⟨.hbm, 730, rfl⟩
abbrev main_v726 : Ref sig .tc := ⟨.hbm, 731, rfl⟩
abbrev main_v727 : Ref sig .tc := ⟨.hbm, 732, rfl⟩
abbrev main_v728 : Ref sig .tc := ⟨.hbm, 733, rfl⟩
abbrev main_v729 : Ref sig .tc := ⟨.hbm, 734, rfl⟩
abbrev main_v730 : Ref sig .tc := ⟨.hbm, 735, rfl⟩
abbrev main_v731 : Ref sig .tc := ⟨.hbm, 736, rfl⟩
abbrev main_v732 : Ref sig .tc := ⟨.hbm, 737, rfl⟩
abbrev main_v733 : Ref sig .tc := ⟨.hbm, 738, rfl⟩
abbrev main_v734 : Ref sig .tc := ⟨.hbm, 739, rfl⟩
abbrev main_v735 : Ref sig .tc := ⟨.hbm, 740, rfl⟩
abbrev main_v736 : Ref sig .tc := ⟨.hbm, 741, rfl⟩
abbrev main_v737 : Ref sig .tc := ⟨.hbm, 742, rfl⟩
abbrev main_v738 : Ref sig .tc := ⟨.hbm, 743, rfl⟩
abbrev main_v739 : Ref sig .tc := ⟨.hbm, 744, rfl⟩
abbrev main_v740 : Ref sig .tc := ⟨.hbm, 745, rfl⟩
abbrev main_v741 : Ref sig .tc := ⟨.hbm, 746, rfl⟩
abbrev main_v742 : Ref sig .tc := ⟨.hbm, 747, rfl⟩
abbrev main_v743 : Ref sig .tc := ⟨.hbm, 748, rfl⟩
abbrev main_v744 : Ref sig .tc := ⟨.hbm, 749, rfl⟩
abbrev main_v745 : Ref sig .tc := ⟨.hbm, 750, rfl⟩
abbrev main_v746 : Ref sig .tc := ⟨.hbm, 751, rfl⟩
abbrev main_v747 : Ref sig .tc := ⟨.hbm, 752, rfl⟩
abbrev main_v748 : Ref sig .tc := ⟨.hbm, 753, rfl⟩
abbrev main_v749 : Ref sig .tc := ⟨.hbm, 754, rfl⟩
abbrev main_v750 : Ref sig .tc := ⟨.hbm, 755, rfl⟩
abbrev main_v751 : Ref sig .tc := ⟨.hbm, 756, rfl⟩
abbrev main_v752 : Ref sig .tc := ⟨.hbm, 757, rfl⟩
abbrev main_v753 : Ref sig .tc := ⟨.hbm, 758, rfl⟩
abbrev main_v754 : Ref sig .tc := ⟨.hbm, 759, rfl⟩
abbrev main_v755 : Ref sig .tc := ⟨.hbm, 760, rfl⟩
abbrev main_v756 : Ref sig .tc := ⟨.hbm, 761, rfl⟩
abbrev main_v757 : Ref sig .tc := ⟨.hbm, 762, rfl⟩
abbrev main_v758 : Ref sig .tc := ⟨.hbm, 763, rfl⟩
abbrev main_v759 : Ref sig .tc := ⟨.hbm, 764, rfl⟩
abbrev main_v760 : Ref sig .tc := ⟨.hbm, 765, rfl⟩
abbrev main_v761 : Ref sig .tc := ⟨.hbm, 766, rfl⟩
abbrev main_v762 : Ref sig .tc := ⟨.hbm, 767, rfl⟩
abbrev main_v763 : Ref sig .tc := ⟨.hbm, 768, rfl⟩
abbrev main_v764 : Ref sig .tc := ⟨.hbm, 769, rfl⟩
abbrev main_v765 : Ref sig .tc := ⟨.hbm, 770, rfl⟩
abbrev main_v766 : Ref sig .tc := ⟨.hbm, 771, rfl⟩
abbrev main_v767 : Ref sig .tc := ⟨.hbm, 772, rfl⟩
abbrev main_v768 : Ref sig .tc := ⟨.hbm, 773, rfl⟩
abbrev main_v769 : Ref sig .tc := ⟨.hbm, 774, rfl⟩
abbrev main_v770 : Ref sig .tc := ⟨.hbm, 775, rfl⟩
abbrev main_v771 : Ref sig .tc := ⟨.hbm, 776, rfl⟩
abbrev main_v772 : Ref sig .tc := ⟨.hbm, 777, rfl⟩
abbrev main_v773 : Ref sig .tc := ⟨.hbm, 778, rfl⟩
abbrev main_v774 : Ref sig .tc := ⟨.hbm, 779, rfl⟩
abbrev main_v775 : Ref sig .tc := ⟨.hbm, 780, rfl⟩
abbrev main_v776 : Ref sig .tc := ⟨.hbm, 781, rfl⟩
abbrev main_v777 : Ref sig .tc := ⟨.hbm, 782, rfl⟩
abbrev main_v778 : Ref sig .tc := ⟨.hbm, 783, rfl⟩
abbrev main_v779 : Ref sig .tc := ⟨.hbm, 784, rfl⟩
abbrev main_v780 : Ref sig .tc := ⟨.hbm, 785, rfl⟩
abbrev main_v781 : Ref sig .tc := ⟨.hbm, 786, rfl⟩
abbrev main_v782 : Ref sig .tc := ⟨.hbm, 787, rfl⟩
abbrev main_v783 : Ref sig .tc := ⟨.hbm, 788, rfl⟩
abbrev main_v784 : Ref sig .tc := ⟨.hbm, 789, rfl⟩
abbrev main_v785 : Ref sig .tc := ⟨.hbm, 790, rfl⟩
abbrev main_v786 : Ref sig .tc := ⟨.hbm, 791, rfl⟩
abbrev main_v787 : Ref sig .tc := ⟨.hbm, 792, rfl⟩
abbrev main_v788 : Ref sig .tc := ⟨.hbm, 793, rfl⟩
abbrev main_v789 : Ref sig .tc := ⟨.hbm, 794, rfl⟩
abbrev main_v790 : Ref sig .tc := ⟨.hbm, 795, rfl⟩
abbrev main_v791 : Ref sig .tc := ⟨.hbm, 796, rfl⟩
abbrev main_v792 : Ref sig .tc := ⟨.hbm, 797, rfl⟩
abbrev main_v793 : Ref sig .tc := ⟨.hbm, 798, rfl⟩
abbrev main_v794 : Ref sig .tc := ⟨.hbm, 799, rfl⟩
abbrev main_v795 : Ref sig .tc := ⟨.hbm, 800, rfl⟩
abbrev main_v796 : Ref sig .tc := ⟨.hbm, 801, rfl⟩
abbrev main_v797 : Ref sig .tc := ⟨.hbm, 802, rfl⟩
abbrev main_v798 : Ref sig .tc := ⟨.hbm, 803, rfl⟩
abbrev main_v799 : Ref sig .tc := ⟨.hbm, 804, rfl⟩
abbrev main_v800 : Ref sig .tc := ⟨.hbm, 805, rfl⟩
abbrev main_v801 : Ref sig .tc := ⟨.hbm, 806, rfl⟩
abbrev main_v802 : Ref sig .tc := ⟨.hbm, 807, rfl⟩
abbrev main_v803 : Ref sig .tc := ⟨.hbm, 808, rfl⟩
abbrev main_v804 : Ref sig .tc := ⟨.hbm, 809, rfl⟩
abbrev main_v805 : Ref sig .tc := ⟨.hbm, 810, rfl⟩
abbrev main_v806 : Ref sig .tc := ⟨.hbm, 811, rfl⟩
abbrev main_v807 : Ref sig .tc := ⟨.hbm, 812, rfl⟩
abbrev main_v808 : Ref sig .tc := ⟨.hbm, 813, rfl⟩
abbrev main_v809 : Ref sig .tc := ⟨.hbm, 814, rfl⟩
abbrev main_v810 : Ref sig .tc := ⟨.hbm, 815, rfl⟩
abbrev main_v811 : Ref sig .tc := ⟨.hbm, 816, rfl⟩
abbrev main_v812 : Ref sig .tc := ⟨.hbm, 817, rfl⟩
abbrev main_v813 : Ref sig .tc := ⟨.hbm, 818, rfl⟩
abbrev main_v814 : Ref sig .tc := ⟨.hbm, 819, rfl⟩
abbrev main_v815 : Ref sig .tc := ⟨.hbm, 820, rfl⟩
abbrev main_v816 : Ref sig .tc := ⟨.hbm, 821, rfl⟩
abbrev main_v817 : Ref sig .tc := ⟨.hbm, 822, rfl⟩
abbrev main_v818 : Ref sig .tc := ⟨.hbm, 823, rfl⟩
abbrev main_v819 : Ref sig .tc := ⟨.hbm, 824, rfl⟩
abbrev main_v820 : Ref sig .tc := ⟨.hbm, 825, rfl⟩
abbrev main_v821 : Ref sig .tc := ⟨.hbm, 826, rfl⟩
abbrev main_v822 : Ref sig .tc := ⟨.hbm, 827, rfl⟩
abbrev main_v823 : Ref sig .tc := ⟨.hbm, 828, rfl⟩
abbrev main_v824 : Ref sig .tc := ⟨.hbm, 829, rfl⟩
abbrev main_v825 : Ref sig .tc := ⟨.hbm, 830, rfl⟩
abbrev main_v826 : Ref sig .tc := ⟨.hbm, 831, rfl⟩
abbrev main_v827 : Ref sig .tc := ⟨.hbm, 832, rfl⟩
abbrev main_v828 : Ref sig .tc := ⟨.hbm, 833, rfl⟩
abbrev main_v829 : Ref sig .tc := ⟨.hbm, 834, rfl⟩
abbrev main_v830 : Ref sig .tc := ⟨.hbm, 835, rfl⟩
abbrev main_v831 : Ref sig .tc := ⟨.hbm, 836, rfl⟩
abbrev main_v832 : Ref sig .tc := ⟨.hbm, 837, rfl⟩
abbrev main_v833 : Ref sig .tc := ⟨.hbm, 838, rfl⟩
abbrev main_v834 : Ref sig .tc := ⟨.hbm, 839, rfl⟩
abbrev main_v835 : Ref sig .tc := ⟨.hbm, 840, rfl⟩
abbrev main_v836 : Ref sig .tc := ⟨.hbm, 841, rfl⟩
abbrev main_v837 : Ref sig .tc := ⟨.hbm, 842, rfl⟩
abbrev main_v838 : Ref sig .tc := ⟨.hbm, 843, rfl⟩
abbrev main_v839 : Ref sig .tc := ⟨.hbm, 844, rfl⟩
abbrev main_v840 : Ref sig .tc := ⟨.hbm, 845, rfl⟩
abbrev main_v841 : Ref sig .tc := ⟨.hbm, 846, rfl⟩
abbrev main_v842 : Ref sig .tc := ⟨.hbm, 847, rfl⟩
abbrev main_v843 : Ref sig .tc := ⟨.hbm, 848, rfl⟩
abbrev main_v844 : Ref sig .tc := ⟨.hbm, 849, rfl⟩
abbrev main_v845 : Ref sig .tc := ⟨.hbm, 850, rfl⟩
abbrev main_v846 : Ref sig .tc := ⟨.hbm, 851, rfl⟩
abbrev main_v847 : Ref sig .tc := ⟨.hbm, 852, rfl⟩
abbrev main_v848 : Ref sig .tc := ⟨.hbm, 853, rfl⟩
abbrev main_v849 : Ref sig .tc := ⟨.hbm, 854, rfl⟩
abbrev main_v850 : Ref sig .tc := ⟨.hbm, 855, rfl⟩
abbrev main_v851 : Ref sig .tc := ⟨.hbm, 856, rfl⟩
abbrev main_v852 : Ref sig .tc := ⟨.hbm, 857, rfl⟩
abbrev main_v853 : Ref sig .tc := ⟨.hbm, 858, rfl⟩
abbrev main_v854 : Ref sig .tc := ⟨.hbm, 859, rfl⟩
abbrev main_v855 : Ref sig .tc := ⟨.hbm, 860, rfl⟩
abbrev main_v856 : Ref sig .tc := ⟨.hbm, 861, rfl⟩
abbrev main_v857 : Ref sig .tc := ⟨.hbm, 862, rfl⟩
abbrev main_v858 : Ref sig .tc := ⟨.hbm, 863, rfl⟩
abbrev main_v859 : Ref sig .tc := ⟨.hbm, 864, rfl⟩
abbrev main_v860 : Ref sig .tc := ⟨.hbm, 865, rfl⟩
abbrev main_v861 : Ref sig .tc := ⟨.hbm, 866, rfl⟩
abbrev main_v862 : Ref sig .tc := ⟨.hbm, 867, rfl⟩
abbrev main_v863 : Ref sig .tc := ⟨.hbm, 868, rfl⟩
abbrev main_v864 : Ref sig .tc := ⟨.hbm, 869, rfl⟩
abbrev main_v865 : Ref sig .tc := ⟨.hbm, 870, rfl⟩
abbrev main_v866 : Ref sig .tc := ⟨.hbm, 871, rfl⟩
abbrev main_v867 : Ref sig .tc := ⟨.hbm, 872, rfl⟩
abbrev main_v868 : Ref sig .tc := ⟨.hbm, 873, rfl⟩
abbrev main_v869 : Ref sig .tc := ⟨.hbm, 874, rfl⟩
abbrev main_v870 : Ref sig .tc := ⟨.hbm, 875, rfl⟩
abbrev main_v871 : Ref sig .tc := ⟨.hbm, 876, rfl⟩
abbrev main_v872 : Ref sig .tc := ⟨.hbm, 877, rfl⟩
abbrev main_v873 : Ref sig .tc := ⟨.hbm, 878, rfl⟩
abbrev main_v874 : Ref sig .tc := ⟨.hbm, 879, rfl⟩
abbrev main_v875 : Ref sig .tc := ⟨.hbm, 880, rfl⟩
abbrev main_v876 : Ref sig .tc := ⟨.hbm, 881, rfl⟩
abbrev main_v877 : Ref sig .tc := ⟨.hbm, 882, rfl⟩
abbrev main_v878 : Ref sig .tc := ⟨.hbm, 883, rfl⟩
abbrev main_v879 : Ref sig .tc := ⟨.hbm, 884, rfl⟩
abbrev main_v880 : Ref sig .tc := ⟨.hbm, 885, rfl⟩
abbrev main_v881 : Ref sig .tc := ⟨.hbm, 886, rfl⟩
abbrev main_v882 : Ref sig .tc := ⟨.hbm, 887, rfl⟩
abbrev main_v883 : Ref sig .tc := ⟨.hbm, 888, rfl⟩
abbrev main_v884 : Ref sig .tc := ⟨.hbm, 889, rfl⟩
abbrev main_v885 : Ref sig .tc := ⟨.hbm, 890, rfl⟩
abbrev main_v886 : Ref sig .tc := ⟨.hbm, 891, rfl⟩
abbrev main_v887 : Ref sig .tc := ⟨.hbm, 892, rfl⟩
abbrev main_v888 : Ref sig .tc := ⟨.hbm, 893, rfl⟩
abbrev main_v889 : Ref sig .tc := ⟨.hbm, 894, rfl⟩
abbrev main_v890 : Ref sig .tc := ⟨.hbm, 895, rfl⟩
abbrev main_v891 : Ref sig .tc := ⟨.hbm, 896, rfl⟩
abbrev main_v892 : Ref sig .tc := ⟨.hbm, 897, rfl⟩
abbrev main_v893 : Ref sig .tc := ⟨.hbm, 898, rfl⟩
abbrev main_v894 : Ref sig .tc := ⟨.hbm, 899, rfl⟩
abbrev main_v895 : Ref sig .tc := ⟨.hbm, 900, rfl⟩
abbrev main_v896 : Ref sig .tc := ⟨.hbm, 901, rfl⟩
abbrev main_v897 : Ref sig .tc := ⟨.hbm, 902, rfl⟩
abbrev main_v898 : Ref sig .tc := ⟨.hbm, 903, rfl⟩
abbrev main_v899 : Ref sig .tc := ⟨.hbm, 904, rfl⟩
abbrev main_v900 : Ref sig .tc := ⟨.hbm, 905, rfl⟩
abbrev main_v901 : Ref sig .tc := ⟨.hbm, 906, rfl⟩
abbrev main_v902 : Ref sig .tc := ⟨.hbm, 907, rfl⟩
abbrev main_v903 : Ref sig .tc := ⟨.hbm, 908, rfl⟩
abbrev main_v904 : Ref sig .tc := ⟨.hbm, 909, rfl⟩
abbrev main_v905 : Ref sig .tc := ⟨.hbm, 910, rfl⟩
abbrev main_v906 : Ref sig .tc := ⟨.hbm, 911, rfl⟩
abbrev main_v907 : Ref sig .tc := ⟨.hbm, 912, rfl⟩
abbrev main_v908 : Ref sig .tc := ⟨.hbm, 913, rfl⟩
abbrev main_v909 : Ref sig .tc := ⟨.hbm, 914, rfl⟩
abbrev main_v910 : Ref sig .tc := ⟨.hbm, 915, rfl⟩
abbrev main_v911 : Ref sig .tc := ⟨.hbm, 916, rfl⟩
abbrev main_v912 : Ref sig .tc := ⟨.hbm, 917, rfl⟩
abbrev main_v913 : Ref sig .tc := ⟨.hbm, 918, rfl⟩
abbrev main_v914 : Ref sig .tc := ⟨.hbm, 919, rfl⟩
abbrev main_v915 : Ref sig .tc := ⟨.hbm, 920, rfl⟩
abbrev main_v916 : Ref sig .tc := ⟨.hbm, 921, rfl⟩
abbrev main_v917 : Ref sig .tc := ⟨.hbm, 922, rfl⟩
abbrev main_v918 : Ref sig .tc := ⟨.hbm, 923, rfl⟩
abbrev main_v919 : Ref sig .tc := ⟨.hbm, 924, rfl⟩
abbrev main_v920 : Ref sig .tc := ⟨.hbm, 925, rfl⟩
abbrev main_v921 : Ref sig .tc := ⟨.hbm, 926, rfl⟩
abbrev main_v922 : Ref sig .tc := ⟨.hbm, 927, rfl⟩
abbrev main_v923 : Ref sig .tc := ⟨.hbm, 928, rfl⟩
abbrev main_v924 : Ref sig .tc := ⟨.hbm, 929, rfl⟩
abbrev main_v925 : Ref sig .tc := ⟨.hbm, 930, rfl⟩
abbrev main_v926 : Ref sig .tc := ⟨.hbm, 931, rfl⟩
abbrev main_v927 : Ref sig .tc := ⟨.hbm, 932, rfl⟩
abbrev main_v928 : Ref sig .tc := ⟨.hbm, 933, rfl⟩
abbrev main_v929 : Ref sig .tc := ⟨.hbm, 934, rfl⟩
abbrev main_v930 : Ref sig .tc := ⟨.hbm, 935, rfl⟩
abbrev main_v931 : Ref sig .tc := ⟨.hbm, 936, rfl⟩
abbrev main_v932 : Ref sig .tc := ⟨.hbm, 937, rfl⟩
abbrev main_v933 : Ref sig .tc := ⟨.hbm, 938, rfl⟩
abbrev main_v934 : Ref sig .tc := ⟨.hbm, 939, rfl⟩
abbrev main_v935 : Ref sig .tc := ⟨.hbm, 940, rfl⟩
abbrev main_v936 : Ref sig .tc := ⟨.hbm, 941, rfl⟩
abbrev main_v937 : Ref sig .tc := ⟨.hbm, 942, rfl⟩
abbrev main_v938 : Ref sig .tc := ⟨.hbm, 943, rfl⟩
abbrev main_v939 : Ref sig .tc := ⟨.hbm, 944, rfl⟩
abbrev main_v940 : Ref sig .tc := ⟨.hbm, 945, rfl⟩
abbrev main_v941 : Ref sig .tc := ⟨.hbm, 946, rfl⟩
abbrev main_v942 : Ref sig .tc := ⟨.hbm, 947, rfl⟩
abbrev main_v943 : Ref sig .tc := ⟨.hbm, 948, rfl⟩
abbrev main_v944 : Ref sig .tc := ⟨.hbm, 949, rfl⟩
abbrev main_v945 : Ref sig .tc := ⟨.hbm, 950, rfl⟩
abbrev main_v946 : Ref sig .tc := ⟨.hbm, 951, rfl⟩
abbrev main_v947 : Ref sig .tc := ⟨.hbm, 952, rfl⟩
abbrev main_v948 : Ref sig .tc := ⟨.hbm, 953, rfl⟩
abbrev main_v949 : Ref sig .tc := ⟨.hbm, 954, rfl⟩
abbrev main_v950 : Ref sig .tc := ⟨.hbm, 955, rfl⟩
abbrev main_v951 : Ref sig .tc := ⟨.hbm, 956, rfl⟩
abbrev main_v952 : Ref sig .tc := ⟨.hbm, 957, rfl⟩
abbrev main_v953 : Ref sig .tc := ⟨.hbm, 958, rfl⟩
abbrev main_v954 : Ref sig .tc := ⟨.hbm, 959, rfl⟩
abbrev main_v955 : Ref sig .tc := ⟨.hbm, 960, rfl⟩
abbrev main_v956 : Ref sig .tc := ⟨.hbm, 961, rfl⟩
abbrev main_v957 : Ref sig .tc := ⟨.hbm, 962, rfl⟩
abbrev main_v958 : Ref sig .tc := ⟨.hbm, 963, rfl⟩
abbrev main_v959 : Ref sig .tc := ⟨.hbm, 964, rfl⟩
abbrev main_v960 : Ref sig .tc := ⟨.hbm, 965, rfl⟩
abbrev main_v961 : Ref sig .tc := ⟨.hbm, 966, rfl⟩
abbrev main_v962 : Ref sig .tc := ⟨.hbm, 967, rfl⟩
abbrev main_v963 : Ref sig .tc := ⟨.hbm, 968, rfl⟩
abbrev main_v964 : Ref sig .tc := ⟨.hbm, 969, rfl⟩
abbrev main_v965 : Ref sig .tc := ⟨.hbm, 970, rfl⟩
abbrev main_v966 : Ref sig .tc := ⟨.hbm, 971, rfl⟩
abbrev main_v967 : Ref sig .tc := ⟨.hbm, 972, rfl⟩
abbrev main_v968 : Ref sig .tc := ⟨.hbm, 973, rfl⟩
abbrev main_v969 : Ref sig .tc := ⟨.hbm, 974, rfl⟩
abbrev main_v970 : Ref sig .tc := ⟨.hbm, 975, rfl⟩
abbrev main_v971 : Ref sig .tc := ⟨.hbm, 976, rfl⟩
abbrev main_v972 : Ref sig .tc := ⟨.hbm, 977, rfl⟩
abbrev main_v973 : Ref sig .tc := ⟨.hbm, 978, rfl⟩
abbrev main_v974 : Ref sig .tc := ⟨.hbm, 979, rfl⟩
abbrev main_v975 : Ref sig .tc := ⟨.hbm, 980, rfl⟩
abbrev main_v976 : Ref sig .tc := ⟨.hbm, 981, rfl⟩
abbrev main_v977 : Ref sig .tc := ⟨.hbm, 982, rfl⟩
abbrev main_v978 : Ref sig .tc := ⟨.hbm, 983, rfl⟩
abbrev main_v979 : Ref sig .tc := ⟨.hbm, 984, rfl⟩
abbrev main_v980 : Ref sig .tc := ⟨.hbm, 985, rfl⟩
abbrev main_v981 : Ref sig .tc := ⟨.hbm, 986, rfl⟩
abbrev main_v982 : Ref sig .tc := ⟨.hbm, 987, rfl⟩
abbrev main_v983 : Ref sig .tc := ⟨.hbm, 988, rfl⟩
abbrev main_v984 : Ref sig .tc := ⟨.hbm, 989, rfl⟩
abbrev main_v985 : Ref sig .tc := ⟨.hbm, 990, rfl⟩
abbrev main_v986 : Ref sig .tc := ⟨.hbm, 991, rfl⟩
abbrev main_v987 : Ref sig .tc := ⟨.hbm, 992, rfl⟩
abbrev main_v988 : Ref sig .tc := ⟨.hbm, 993, rfl⟩
abbrev main_v989 : Ref sig .tc := ⟨.hbm, 994, rfl⟩
abbrev main_v990 : Ref sig .tc := ⟨.hbm, 995, rfl⟩
abbrev main_v991 : Ref sig .tc := ⟨.hbm, 996, rfl⟩
abbrev main_v992 : Ref sig .tc := ⟨.hbm, 997, rfl⟩
abbrev main_v993 : Ref sig .tc := ⟨.hbm, 998, rfl⟩
abbrev main_v994 : Ref sig .tc := ⟨.hbm, 999, rfl⟩
abbrev main_v995 : Ref sig .tc := ⟨.hbm, 1000, rfl⟩
abbrev main_v996 : Ref sig .tc := ⟨.hbm, 1001, rfl⟩
abbrev main_v997 : Ref sig .tc := ⟨.hbm, 1002, rfl⟩
abbrev main_v998 : Ref sig .tc := ⟨.hbm, 1003, rfl⟩
abbrev main_v999 : Ref sig .tc := ⟨.hbm, 1004, rfl⟩
abbrev main_v1000 : Ref sig .tc := ⟨.hbm, 1005, rfl⟩
abbrev main_v1001 : Ref sig .tc := ⟨.hbm, 1006, rfl⟩
abbrev main_v1002 : Ref sig .tc := ⟨.hbm, 1007, rfl⟩
abbrev main_v1003 : Ref sig .tc := ⟨.hbm, 1008, rfl⟩
abbrev main_v1004 : Ref sig .tc := ⟨.hbm, 1009, rfl⟩
abbrev main_v1005 : Ref sig .tc := ⟨.hbm, 1010, rfl⟩
abbrev main_v1006 : Ref sig .tc := ⟨.hbm, 1011, rfl⟩
abbrev main_v1007 : Ref sig .tc := ⟨.hbm, 1012, rfl⟩
abbrev main_v1008 : Ref sig .tc := ⟨.hbm, 1013, rfl⟩
abbrev main_v1009 : Ref sig .tc := ⟨.hbm, 1014, rfl⟩
abbrev main_v1010 : Ref sig .tc := ⟨.hbm, 1015, rfl⟩
abbrev main_v1011 : Ref sig .tc := ⟨.hbm, 1016, rfl⟩
abbrev main_v1012 : Ref sig .tc := ⟨.hbm, 1017, rfl⟩
abbrev main_v1013 : Ref sig .tc := ⟨.hbm, 1018, rfl⟩
abbrev main_v1014 : Ref sig .tc := ⟨.hbm, 1019, rfl⟩
abbrev main_v1015 : Ref sig .tc := ⟨.hbm, 1020, rfl⟩
abbrev main_v1016 : Ref sig .tc := ⟨.hbm, 1021, rfl⟩
abbrev main_v1017 : Ref sig .tc := ⟨.hbm, 1022, rfl⟩
abbrev main_v1018 : Ref sig .tc := ⟨.hbm, 1023, rfl⟩
abbrev main_v1019 : Ref sig .tc := ⟨.hbm, 1024, rfl⟩
abbrev main_v1020 : Ref sig .tc := ⟨.hbm, 1025, rfl⟩
abbrev main_v1021 : Ref sig .tc := ⟨.hbm, 1026, rfl⟩
abbrev main_v1022 : Ref sig .tc := ⟨.hbm, 1027, rfl⟩
abbrev main_v1023 : Ref sig .tc := ⟨.hbm, 1028, rfl⟩
abbrev main_v1024 : Ref sig .tc := ⟨.hbm, 1029, rfl⟩
abbrev main_v1025 : Ref sig .tc := ⟨.hbm, 1030, rfl⟩
abbrev main_v1026 : Ref sig .tc := ⟨.hbm, 1031, rfl⟩
abbrev main_v1027 : Ref sig .tc := ⟨.hbm, 1032, rfl⟩
abbrev main_v1028 : Ref sig .tc := ⟨.hbm, 1033, rfl⟩
abbrev main_v1029 : Ref sig .tc := ⟨.hbm, 1034, rfl⟩
abbrev main_v1030 : Ref sig .tc := ⟨.hbm, 1035, rfl⟩
abbrev main_v1031 : Ref sig .tc := ⟨.hbm, 1036, rfl⟩
abbrev main_v1032 : Ref sig .tc := ⟨.hbm, 1037, rfl⟩
abbrev main_v1033 : Ref sig .tc := ⟨.hbm, 1038, rfl⟩
abbrev main_v1034 : Ref sig .tc := ⟨.hbm, 1039, rfl⟩
abbrev main_v1035 : Ref sig .tc := ⟨.hbm, 1040, rfl⟩
abbrev main_v1036 : Ref sig .tc := ⟨.hbm, 1041, rfl⟩
abbrev main_v1037 : Ref sig .tc := ⟨.hbm, 1042, rfl⟩
abbrev main_v1038 : Ref sig .tc := ⟨.hbm, 1043, rfl⟩
abbrev main_v1039 : Ref sig .tc := ⟨.hbm, 1044, rfl⟩
abbrev main_v1040 : Ref sig .tc := ⟨.hbm, 1045, rfl⟩
abbrev main_v1041 : Ref sig .tc := ⟨.hbm, 1046, rfl⟩
abbrev main_v1042 : Ref sig .tc := ⟨.hbm, 1047, rfl⟩
abbrev main_v1043 : Ref sig .tc := ⟨.hbm, 1048, rfl⟩
abbrev main_v1044 : Ref sig .tc := ⟨.hbm, 1049, rfl⟩
abbrev main_v1045 : Ref sig .tc := ⟨.hbm, 1050, rfl⟩
abbrev main_v1046 : Ref sig .tc := ⟨.hbm, 1051, rfl⟩
abbrev main_v1047 : Ref sig .tc := ⟨.hbm, 1052, rfl⟩
abbrev main_v1048 : Ref sig .tc := ⟨.hbm, 1053, rfl⟩
abbrev main_v1049 : Ref sig .tc := ⟨.hbm, 1054, rfl⟩
abbrev main_v1050 : Ref sig .tc := ⟨.hbm, 1055, rfl⟩
abbrev main_v1051 : Ref sig .tc := ⟨.hbm, 1056, rfl⟩
abbrev main_v1052 : Ref sig .tc := ⟨.hbm, 1057, rfl⟩
abbrev main_v1053 : Ref sig .tc := ⟨.hbm, 1058, rfl⟩
abbrev main_v1054 : Ref sig .tc := ⟨.hbm, 1059, rfl⟩
abbrev main_v1055 : Ref sig .tc := ⟨.hbm, 1060, rfl⟩
abbrev main_v1056 : Ref sig .tc := ⟨.hbm, 1061, rfl⟩
abbrev main_v1057 : Ref sig .tc := ⟨.hbm, 1062, rfl⟩
abbrev main_v1058 : Ref sig .tc := ⟨.hbm, 1063, rfl⟩
abbrev main_v1059 : Ref sig .tc := ⟨.hbm, 1064, rfl⟩
abbrev main_v1060 : Ref sig .tc := ⟨.hbm, 1065, rfl⟩
abbrev main_v1061 : Ref sig .tc := ⟨.hbm, 1066, rfl⟩
abbrev main_v1062 : Ref sig .tc := ⟨.hbm, 1067, rfl⟩
abbrev main_v1063 : Ref sig .tc := ⟨.hbm, 1068, rfl⟩
abbrev main_v1064 : Ref sig .tc := ⟨.hbm, 1069, rfl⟩
abbrev main_v1065 : Ref sig .tc := ⟨.hbm, 1070, rfl⟩
abbrev main_v1066 : Ref sig .tc := ⟨.hbm, 1071, rfl⟩
abbrev main_v1067 : Ref sig .tc := ⟨.hbm, 1072, rfl⟩
abbrev main_v1068 : Ref sig .tc := ⟨.hbm, 1073, rfl⟩
abbrev main_v1069 : Ref sig .tc := ⟨.hbm, 1074, rfl⟩
abbrev main_v1070 : Ref sig .tc := ⟨.hbm, 1075, rfl⟩
abbrev main_v1071 : Ref sig .tc := ⟨.hbm, 1076, rfl⟩
abbrev main_v1072 : Ref sig .tc := ⟨.hbm, 1077, rfl⟩
abbrev main_v1073 : Ref sig .tc := ⟨.hbm, 1078, rfl⟩
abbrev main_v1074 : Ref sig .tc := ⟨.hbm, 1079, rfl⟩
abbrev main_v1075 : Ref sig .tc := ⟨.hbm, 1080, rfl⟩
abbrev main_v1076 : Ref sig .tc := ⟨.hbm, 1081, rfl⟩
abbrev main_v1077 : Ref sig .tc := ⟨.hbm, 1082, rfl⟩
abbrev main_v1078 : Ref sig .tc := ⟨.hbm, 1083, rfl⟩
abbrev main_v1079 : Ref sig .tc := ⟨.hbm, 1084, rfl⟩
abbrev main_v1080 : Ref sig .tc := ⟨.hbm, 1085, rfl⟩
abbrev main_v1081 : Ref sig .tc := ⟨.hbm, 1086, rfl⟩
abbrev main_v1082 : Ref sig .tc := ⟨.hbm, 1087, rfl⟩
abbrev main_v1083 : Ref sig .tc := ⟨.hbm, 1088, rfl⟩
abbrev main_v1084 : Ref sig .tc := ⟨.hbm, 1089, rfl⟩
abbrev main_v1085 : Ref sig .tc := ⟨.hbm, 1090, rfl⟩
abbrev main_v1086 : Ref sig .tc := ⟨.hbm, 1091, rfl⟩
abbrev main_v1087 : Ref sig .tc := ⟨.hbm, 1092, rfl⟩
abbrev main_v1088 : Ref sig .tc := ⟨.hbm, 1093, rfl⟩
abbrev main_v1089 : Ref sig .tc := ⟨.hbm, 1094, rfl⟩
abbrev main_v1090 : Ref sig .tc := ⟨.hbm, 1095, rfl⟩
abbrev main_v1091 : Ref sig .tc := ⟨.hbm, 1096, rfl⟩
abbrev main_v1092 : Ref sig .tc := ⟨.hbm, 1097, rfl⟩
abbrev main_v1093 : Ref sig .tc := ⟨.hbm, 1098, rfl⟩
abbrev main_v1094 : Ref sig .tc := ⟨.hbm, 1099, rfl⟩
abbrev main_v1095 : Ref sig .tc := ⟨.hbm, 1100, rfl⟩
abbrev main_v1096 : Ref sig .tc := ⟨.hbm, 1101, rfl⟩
abbrev main_v1097 : Ref sig .tc := ⟨.hbm, 1102, rfl⟩
abbrev main_v1098 : Ref sig .tc := ⟨.hbm, 1103, rfl⟩
abbrev main_v1099 : Ref sig .tc := ⟨.hbm, 1104, rfl⟩
abbrev main_v1100 : Ref sig .tc := ⟨.hbm, 1105, rfl⟩
abbrev main_v1101 : Ref sig .tc := ⟨.hbm, 1106, rfl⟩
abbrev main_v1102 : Ref sig .tc := ⟨.hbm, 1107, rfl⟩
abbrev main_v1103 : Ref sig .tc := ⟨.hbm, 1108, rfl⟩
abbrev main_v1104 : Ref sig .tc := ⟨.hbm, 1109, rfl⟩
abbrev main_v1105 : Ref sig .tc := ⟨.hbm, 1110, rfl⟩
abbrev main_v1106 : Ref sig .tc := ⟨.hbm, 1111, rfl⟩
abbrev main_v1107 : Ref sig .tc := ⟨.hbm, 1112, rfl⟩
abbrev main_v1108 : Ref sig .tc := ⟨.hbm, 1113, rfl⟩
abbrev main_v1109 : Ref sig .tc := ⟨.hbm, 1114, rfl⟩
abbrev main_v1110 : Ref sig .tc := ⟨.hbm, 1115, rfl⟩
abbrev main_v1111 : Ref sig .tc := ⟨.hbm, 1116, rfl⟩
abbrev main_v1112 : Ref sig .tc := ⟨.hbm, 1117, rfl⟩
abbrev main_v1113 : Ref sig .tc := ⟨.hbm, 1118, rfl⟩
abbrev main_v1114 : Ref sig .tc := ⟨.hbm, 1119, rfl⟩
abbrev main_v1115 : Ref sig .tc := ⟨.hbm, 1120, rfl⟩
abbrev main_v1116 : Ref sig .tc := ⟨.hbm, 1121, rfl⟩
abbrev main_v1117 : Ref sig .tc := ⟨.hbm, 1122, rfl⟩
abbrev main_v1118 : Ref sig .tc := ⟨.hbm, 1123, rfl⟩
abbrev main_v1119 : Ref sig .tc := ⟨.hbm, 1124, rfl⟩
abbrev main_v1120 : Ref sig .tc := ⟨.hbm, 1125, rfl⟩
abbrev main_v1121 : Ref sig .tc := ⟨.hbm, 1126, rfl⟩
abbrev main_v1122 : Ref sig .tc := ⟨.hbm, 1127, rfl⟩
abbrev main_v1123 : Ref sig .tc := ⟨.hbm, 1128, rfl⟩
abbrev main_v1124 : Ref sig .tc := ⟨.hbm, 1129, rfl⟩
abbrev main_v1125 : Ref sig .tc := ⟨.hbm, 1130, rfl⟩
abbrev main_v1126 : Ref sig .tc := ⟨.hbm, 1131, rfl⟩
abbrev main_v1127 : Ref sig .tc := ⟨.hbm, 1132, rfl⟩
abbrev main_v1128 : Ref sig .tc := ⟨.hbm, 1133, rfl⟩
abbrev main_v1129 : Ref sig .tc := ⟨.hbm, 1134, rfl⟩
abbrev main_v1130 : Ref sig .tc := ⟨.hbm, 1135, rfl⟩
abbrev main_v1131 : Ref sig .tc := ⟨.hbm, 1136, rfl⟩
abbrev main_v1132 : Ref sig .tc := ⟨.hbm, 1137, rfl⟩
abbrev main_v1133 : Ref sig .tc := ⟨.hbm, 1138, rfl⟩
abbrev main_v1134 : Ref sig .tc := ⟨.hbm, 1139, rfl⟩
abbrev main_v1135 : Ref sig .tc := ⟨.hbm, 1140, rfl⟩
abbrev main_v1136 : Ref sig .tc := ⟨.hbm, 1141, rfl⟩
abbrev main_v1137 : Ref sig .tc := ⟨.hbm, 1142, rfl⟩
abbrev main_v1138 : Ref sig .tc := ⟨.hbm, 1143, rfl⟩
abbrev main_v1139 : Ref sig .tc := ⟨.hbm, 1144, rfl⟩
abbrev main_v1140 : Ref sig .tc := ⟨.hbm, 1145, rfl⟩
abbrev main_v1141 : Ref sig .tc := ⟨.hbm, 1146, rfl⟩
abbrev main_v1142 : Ref sig .tc := ⟨.hbm, 1147, rfl⟩
abbrev main_v1143 : Ref sig .tc := ⟨.hbm, 1148, rfl⟩
abbrev main_v1144 : Ref sig .tc := ⟨.hbm, 1149, rfl⟩
abbrev main_v1145 : Ref sig .tc := ⟨.hbm, 1150, rfl⟩
abbrev main_v1146 : Ref sig .tc := ⟨.hbm, 1151, rfl⟩
abbrev main_v1147 : Ref sig .tc := ⟨.hbm, 1152, rfl⟩
abbrev main_v1148 : Ref sig .tc := ⟨.hbm, 1153, rfl⟩
abbrev main_v1149 : Ref sig .tc := ⟨.hbm, 1154, rfl⟩
abbrev main_v1150 : Ref sig .tc := ⟨.hbm, 1155, rfl⟩
abbrev main_v1151 : Ref sig .tc := ⟨.hbm, 1156, rfl⟩
abbrev main_v1152 : Ref sig .tc := ⟨.hbm, 1157, rfl⟩
abbrev main_v1153 : Ref sig .tc := ⟨.hbm, 1158, rfl⟩
abbrev main_v1154 : Ref sig .tc := ⟨.hbm, 1159, rfl⟩
abbrev main_v1155 : Ref sig .tc := ⟨.hbm, 1160, rfl⟩
abbrev main_v1156 : Ref sig .tc := ⟨.hbm, 1161, rfl⟩
abbrev main_v1157 : Ref sig .tc := ⟨.hbm, 1162, rfl⟩
abbrev main_v1158 : Ref sig .tc := ⟨.hbm, 1163, rfl⟩
abbrev main_v1159 : Ref sig .tc := ⟨.hbm, 1164, rfl⟩
abbrev main_v1160 : Ref sig .tc := ⟨.hbm, 1165, rfl⟩
abbrev main_v1161 : Ref sig .tc := ⟨.hbm, 1166, rfl⟩
abbrev main_v1162 : Ref sig .tc := ⟨.hbm, 1167, rfl⟩
abbrev main_v1163 : Ref sig .tc := ⟨.hbm, 1168, rfl⟩
abbrev main_v1164 : Ref sig .tc := ⟨.hbm, 1169, rfl⟩
abbrev main_v1165 : Ref sig .tc := ⟨.hbm, 1170, rfl⟩
abbrev main_v1166 : Ref sig .tc := ⟨.hbm, 1171, rfl⟩
abbrev main_v1167 : Ref sig .tc := ⟨.hbm, 1172, rfl⟩
abbrev main_v1168 : Ref sig .tc := ⟨.hbm, 1173, rfl⟩
abbrev main_v1169 : Ref sig .tc := ⟨.hbm, 1174, rfl⟩
abbrev main_v1170 : Ref sig .tc := ⟨.hbm, 1175, rfl⟩
abbrev main_v1171 : Ref sig .tc := ⟨.hbm, 1176, rfl⟩
abbrev main_v1172 : Ref sig .tc := ⟨.hbm, 1177, rfl⟩
abbrev main_v1173 : Ref sig .tc := ⟨.hbm, 1178, rfl⟩
abbrev main_v1174 : Ref sig .tc := ⟨.hbm, 1179, rfl⟩
abbrev main_v1175 : Ref sig .tc := ⟨.hbm, 1180, rfl⟩
abbrev main_v1176 : Ref sig .tc := ⟨.hbm, 1181, rfl⟩
abbrev main_v1177 : Ref sig .tc := ⟨.hbm, 1182, rfl⟩
abbrev main_v1178 : Ref sig .tc := ⟨.hbm, 1183, rfl⟩
abbrev main_v1179 : Ref sig .tc := ⟨.hbm, 1184, rfl⟩
abbrev main_v1180 : Ref sig .tc := ⟨.hbm, 1185, rfl⟩
abbrev main_v1181 : Ref sig .tc := ⟨.hbm, 1186, rfl⟩
abbrev main_v1182 : Ref sig .tc := ⟨.hbm, 1187, rfl⟩
abbrev main_v1183 : Ref sig .tc := ⟨.hbm, 1188, rfl⟩
abbrev main_v1184 : Ref sig .tc := ⟨.hbm, 1189, rfl⟩
abbrev main_v1185 : Ref sig .tc := ⟨.hbm, 1190, rfl⟩
abbrev main_v1186 : Ref sig .tc := ⟨.hbm, 1191, rfl⟩
abbrev main_v1187 : Ref sig .tc := ⟨.hbm, 1192, rfl⟩
abbrev main_v1188 : Ref sig .tc := ⟨.hbm, 1193, rfl⟩
abbrev main_v1189 : Ref sig .tc := ⟨.hbm, 1194, rfl⟩
abbrev main_v1190 : Ref sig .tc := ⟨.hbm, 1195, rfl⟩
abbrev main_v1191 : Ref sig .tc := ⟨.hbm, 1196, rfl⟩
abbrev main_v1192 : Ref sig .tc := ⟨.hbm, 1197, rfl⟩
abbrev main_v1193 : Ref sig .tc := ⟨.hbm, 1198, rfl⟩
abbrev main_v1194 : Ref sig .tc := ⟨.hbm, 1199, rfl⟩
abbrev main_v1195 : Ref sig .tc := ⟨.hbm, 1200, rfl⟩
abbrev main_v1196 : Ref sig .tc := ⟨.hbm, 1201, rfl⟩
abbrev main_v1197 : Ref sig .tc := ⟨.hbm, 1202, rfl⟩
abbrev main_v1198 : Ref sig .tc := ⟨.hbm, 1203, rfl⟩
abbrev main_v1199 : Ref sig .tc := ⟨.hbm, 1204, rfl⟩
abbrev main_v1200 : Ref sig .tc := ⟨.hbm, 1205, rfl⟩
abbrev main_v1201 : Ref sig .tc := ⟨.hbm, 1206, rfl⟩
abbrev main_v1202 : Ref sig .tc := ⟨.hbm, 1207, rfl⟩
abbrev main_v1203 : Ref sig .tc := ⟨.hbm, 1208, rfl⟩
abbrev main_v1204 : Ref sig .tc := ⟨.hbm, 1209, rfl⟩
abbrev main_v1205 : Ref sig .tc := ⟨.hbm, 1210, rfl⟩
abbrev main_v1206 : Ref sig .tc := ⟨.hbm, 1211, rfl⟩
abbrev main_v1207 : Ref sig .tc := ⟨.hbm, 1212, rfl⟩
abbrev main_v1208 : Ref sig .tc := ⟨.hbm, 1213, rfl⟩
abbrev main_v1209 : Ref sig .tc := ⟨.hbm, 1214, rfl⟩
abbrev main_v1210 : Ref sig .tc := ⟨.hbm, 1215, rfl⟩
abbrev main_v1211 : Ref sig .tc := ⟨.hbm, 1216, rfl⟩
abbrev main_v1212 : Ref sig .tc := ⟨.hbm, 1217, rfl⟩
abbrev main_v1213 : Ref sig .tc := ⟨.hbm, 1218, rfl⟩
abbrev main_v1214 : Ref sig .tc := ⟨.hbm, 1219, rfl⟩
abbrev main_v1215 : Ref sig .tc := ⟨.hbm, 1220, rfl⟩
abbrev main_v1216 : Ref sig .tc := ⟨.hbm, 1221, rfl⟩
abbrev main_v1217 : Ref sig .tc := ⟨.hbm, 1222, rfl⟩
abbrev main_v1218 : Ref sig .tc := ⟨.hbm, 1223, rfl⟩
abbrev main_v1219 : Ref sig .tc := ⟨.hbm, 1224, rfl⟩
abbrev main_v1220 : Ref sig .tc := ⟨.hbm, 1225, rfl⟩
abbrev main_v1221 : Ref sig .tc := ⟨.hbm, 1226, rfl⟩
abbrev main_v1222 : Ref sig .tc := ⟨.hbm, 1227, rfl⟩
abbrev main_v1223 : Ref sig .tc := ⟨.hbm, 1228, rfl⟩
abbrev main_v1224 : Ref sig .tc := ⟨.hbm, 1229, rfl⟩
abbrev main_v1225 : Ref sig .tc := ⟨.hbm, 1230, rfl⟩
abbrev main_v1226 : Ref sig .tc := ⟨.hbm, 1231, rfl⟩
abbrev main_v1227 : Ref sig .tc := ⟨.hbm, 1232, rfl⟩
abbrev main_v1228 : Ref sig .tc := ⟨.hbm, 1233, rfl⟩
abbrev main_v1229 : Ref sig .tc := ⟨.hbm, 1234, rfl⟩
abbrev main_v1230 : Ref sig .tc := ⟨.hbm, 1235, rfl⟩
abbrev main_v1231 : Ref sig .tc := ⟨.hbm, 1236, rfl⟩
abbrev main_v1232 : Ref sig .tc := ⟨.hbm, 1237, rfl⟩
abbrev main_v1233 : Ref sig .tc := ⟨.hbm, 1238, rfl⟩
abbrev main_v1234 : Ref sig .tc := ⟨.hbm, 1239, rfl⟩
abbrev main_v1235 : Ref sig .tc := ⟨.hbm, 1240, rfl⟩
abbrev main_v1236 : Ref sig .tc := ⟨.hbm, 1241, rfl⟩
abbrev main_v1237 : Ref sig .tc := ⟨.hbm, 1242, rfl⟩
abbrev main_v1238 : Ref sig .tc := ⟨.hbm, 1243, rfl⟩
abbrev main_v1239 : Ref sig .tc := ⟨.hbm, 1244, rfl⟩
abbrev main_v1240 : Ref sig .tc := ⟨.hbm, 1245, rfl⟩
abbrev main_v1241 : Ref sig .tc := ⟨.hbm, 1246, rfl⟩
abbrev main_v1242 : Ref sig .tc := ⟨.hbm, 1247, rfl⟩
abbrev main_v1243 : Ref sig .tc := ⟨.hbm, 1248, rfl⟩
abbrev main_v1244 : Ref sig .tc := ⟨.hbm, 1249, rfl⟩
abbrev main_v1245 : Ref sig .tc := ⟨.hbm, 1250, rfl⟩
abbrev main_v1246 : Ref sig .tc := ⟨.hbm, 1251, rfl⟩
abbrev main_v1247 : Ref sig .tc := ⟨.hbm, 1252, rfl⟩
abbrev main_v1248 : Ref sig .tc := ⟨.hbm, 1253, rfl⟩
abbrev main_v1249 : Ref sig .tc := ⟨.hbm, 1254, rfl⟩
abbrev main_v1250 : Ref sig .tc := ⟨.hbm, 1255, rfl⟩
abbrev main_v1251 : Ref sig .tc := ⟨.hbm, 1256, rfl⟩
abbrev main_v1252 : Ref sig .tc := ⟨.hbm, 1257, rfl⟩
abbrev main_v1253 : Ref sig .tc := ⟨.hbm, 1258, rfl⟩
abbrev main_v1254 : Ref sig .tc := ⟨.hbm, 1259, rfl⟩
abbrev main_v1255 : Ref sig .tc := ⟨.hbm, 1260, rfl⟩
abbrev main_v1256 : Ref sig .tc := ⟨.hbm, 1261, rfl⟩
abbrev main_v1257 : Ref sig .tc := ⟨.hbm, 1262, rfl⟩
abbrev main_v1258 : Ref sig .tc := ⟨.hbm, 1263, rfl⟩
abbrev main_v1259 : Ref sig .tc := ⟨.hbm, 1264, rfl⟩
abbrev main_v1260 : Ref sig .tc := ⟨.hbm, 1265, rfl⟩
abbrev main_v1261 : Ref sig .tc := ⟨.hbm, 1266, rfl⟩
abbrev main_v1262 : Ref sig .tc := ⟨.hbm, 1267, rfl⟩
abbrev main_v1263 : Ref sig .tc := ⟨.hbm, 1268, rfl⟩
abbrev main_v1264 : Ref sig .tc := ⟨.hbm, 1269, rfl⟩
abbrev main_v1265 : Ref sig .tc := ⟨.hbm, 1270, rfl⟩
abbrev main_v1266 : Ref sig .tc := ⟨.hbm, 1271, rfl⟩
abbrev main_v1267 : Ref sig .tc := ⟨.hbm, 1272, rfl⟩
abbrev main_v1268 : Ref sig .tc := ⟨.hbm, 1273, rfl⟩
abbrev main_v1269 : Ref sig .tc := ⟨.hbm, 1274, rfl⟩
abbrev main_v1270 : Ref sig .tc := ⟨.hbm, 1275, rfl⟩
abbrev main_v1271 : Ref sig .tc := ⟨.hbm, 1276, rfl⟩
abbrev main_v1272 : Ref sig .tc := ⟨.hbm, 1277, rfl⟩
abbrev main_v1273 : Ref sig .tc := ⟨.hbm, 1278, rfl⟩
abbrev main_v1274 : Ref sig .tc := ⟨.hbm, 1279, rfl⟩
abbrev main_v1275 : Ref sig .tc := ⟨.hbm, 1280, rfl⟩
abbrev main_v1276 : Ref sig .tc := ⟨.hbm, 1281, rfl⟩
abbrev main_v1277 : Ref sig .tc := ⟨.hbm, 1282, rfl⟩
abbrev main_v1278 : Ref sig .tc := ⟨.hbm, 1283, rfl⟩
abbrev main_v1279 : Ref sig .tc := ⟨.hbm, 1284, rfl⟩
abbrev main_v1280 : Ref sig .tc := ⟨.hbm, 1285, rfl⟩
abbrev main_v1281 : Ref sig .tc := ⟨.hbm, 1286, rfl⟩
abbrev main_v1282 : Ref sig .tc := ⟨.hbm, 1287, rfl⟩
abbrev main_v1283 : Ref sig .tc := ⟨.hbm, 1288, rfl⟩
abbrev main_v1284 : Ref sig .tc := ⟨.hbm, 1289, rfl⟩
abbrev main_v1285 : Ref sig .tc := ⟨.hbm, 1290, rfl⟩
abbrev main_v1286 : Ref sig .tc := ⟨.hbm, 1291, rfl⟩
abbrev main_v1287 : Ref sig .tc := ⟨.hbm, 1292, rfl⟩
abbrev main_v1288 : Ref sig .tc := ⟨.hbm, 1293, rfl⟩
abbrev main_v1289 : Ref sig .tc := ⟨.hbm, 1294, rfl⟩
abbrev main_v1290 : Ref sig .tc := ⟨.hbm, 1295, rfl⟩
abbrev main_v1291 : Ref sig .tc := ⟨.hbm, 1296, rfl⟩
abbrev main_v1292 : Ref sig .tc := ⟨.hbm, 1297, rfl⟩
abbrev main_v1293 : Ref sig .tc := ⟨.hbm, 1298, rfl⟩
abbrev main_v1294 : Ref sig .tc := ⟨.hbm, 1299, rfl⟩
abbrev main_v1295 : Ref sig .tc := ⟨.hbm, 1300, rfl⟩
abbrev main_v1296 : Ref sig .tc := ⟨.hbm, 1301, rfl⟩
abbrev main_v1297 : Ref sig .tc := ⟨.hbm, 1302, rfl⟩
abbrev main_v1298 : Ref sig .tc := ⟨.hbm, 1303, rfl⟩
abbrev main_v1299 : Ref sig .tc := ⟨.hbm, 1304, rfl⟩
abbrev main_v1300 : Ref sig .tc := ⟨.hbm, 1305, rfl⟩
abbrev main_v1301 : Ref sig .tc := ⟨.hbm, 1306, rfl⟩
abbrev main_v1302 : Ref sig .tc := ⟨.hbm, 1307, rfl⟩
abbrev main_v1303 : Ref sig .tc := ⟨.hbm, 1308, rfl⟩
abbrev main_v1304 : Ref sig .tc := ⟨.hbm, 1309, rfl⟩
abbrev main_v1305 : Ref sig .tc := ⟨.hbm, 1310, rfl⟩
abbrev main_v1306 : Ref sig .tc := ⟨.hbm, 1311, rfl⟩
abbrev main_v1307 : Ref sig .tc := ⟨.hbm, 1312, rfl⟩
abbrev main_v1308 : Ref sig .tc := ⟨.hbm, 1313, rfl⟩
abbrev main_v1309 : Ref sig .tc := ⟨.hbm, 1314, rfl⟩
abbrev main_v1310 : Ref sig .tc := ⟨.hbm, 1315, rfl⟩
abbrev main_v1311 : Ref sig .tc := ⟨.hbm, 1316, rfl⟩
abbrev main_v1312 : Ref sig .tc := ⟨.hbm, 1317, rfl⟩
abbrev main_v1313 : Ref sig .tc := ⟨.hbm, 1318, rfl⟩
abbrev main_v1314 : Ref sig .tc := ⟨.hbm, 1319, rfl⟩
abbrev main_v1315 : Ref sig .tc := ⟨.hbm, 1320, rfl⟩
abbrev main_v1316 : Ref sig .tc := ⟨.hbm, 1321, rfl⟩
abbrev main_v1317 : Ref sig .tc := ⟨.hbm, 1322, rfl⟩
abbrev main_v1318 : Ref sig .tc := ⟨.hbm, 1323, rfl⟩
abbrev main_v1319 : Ref sig .tc := ⟨.hbm, 1324, rfl⟩
abbrev main_v1320 : Ref sig .tc := ⟨.hbm, 1325, rfl⟩
abbrev main_v1321 : Ref sig .tc := ⟨.hbm, 1326, rfl⟩
abbrev main_v1322 : Ref sig .tc := ⟨.hbm, 1327, rfl⟩
abbrev main_v1323 : Ref sig .tc := ⟨.hbm, 1328, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  shapeCasts_S2048x4096_S2048x2048x2 : S2048x4096.ShapeCasts S2048x2048x2
  slices_S12x2x4096_S1x2x2_0_0_0 : S12x2x4096.Slices ![0, 0, 0] S1x2x2
  shapeCasts_S1x2x2_S2x2 : S1x2x2.ShapeCasts S2x2
  slices_S2048x2048x2_S2048x2048x1_0_0_0 : S2048x2048x2.Slices ![0, 0, 0] S2048x2048x1
  slices_S2048x2048x2_S2048x2048x1_0_0_1 : S2048x2048x2.Slices ![0, 0, 1] S2048x2048x1
  slices_S2x2_S1x1_0_0 : S2x2.Slices ![0, 0] S1x1
  shapeCasts_S1x1_S1 : S1x1.ShapeCasts S1
  bcast_S1_S1x1x1_2 : S1.BroadcastsInDim S1x1x1 (![2] : Fin 1 → Fin S1x1x1.rank)
  bcast_S1x1x1_S2048x2048x1_0_1_2 : S1x1x1.BroadcastsInDim S2048x2048x1 (![0, 1, 2] : Fin 3 → Fin S2048x2048x1.rank)
  slices_S2x2_S1x1_1_0 : S2x2.Slices ![1, 0] S1x1
  slices_S2x2_S1x1_0_1 : S2x2.Slices ![0, 1] S1x1
  slices_S2x2_S1x1_1_1 : S2x2.Slices ![1, 1] S1x1
  concatenates_S2048x2048x1_S2048x2048x1_S2048x2048x2_d2 : Shape.Concatenates [S2048x2048x1, S2048x2048x1] S2048x2048x2 2
  shapeCasts_S2048x2048x2_S2048x4096 : S2048x2048x2.ShapeCasts S2048x4096
  shapeCasts_S2048x4096_S2048x1024x4 : S2048x4096.ShapeCasts S2048x1024x4
  slices_S12x2x4096_S1x2x4_1_0_0 : S12x2x4096.Slices ![1, 0, 0] S1x2x4
  shapeCasts_S1x2x4_S2x4 : S1x2x4.ShapeCasts S2x4
  slices_S2048x1024x4_S2048x1024x2_0_0_0 : S2048x1024x4.Slices ![0, 0, 0] S2048x1024x2
  slices_S2048x1024x4_S2048x1024x2_0_0_2 : S2048x1024x4.Slices ![0, 0, 2] S2048x1024x2
  slices_S2x4_S1x2_0_0 : S2x4.Slices ![0, 0] S1x2
  shapeCasts_S1x2_S2 : S1x2.ShapeCasts S2
  bcast_S2_S1x1x2_2 : S2.BroadcastsInDim S1x1x2 (![2] : Fin 1 → Fin S1x1x2.rank)
  bcast_S1x1x2_S2048x1024x2_0_1_2 : S1x1x2.BroadcastsInDim S2048x1024x2 (![0, 1, 2] : Fin 3 → Fin S2048x1024x2.rank)
  slices_S2x4_S1x2_1_0 : S2x4.Slices ![1, 0] S1x2
  slices_S2x4_S1x2_0_2 : S2x4.Slices ![0, 2] S1x2
  slices_S2x4_S1x2_1_2 : S2x4.Slices ![1, 2] S1x2
  concatenates_S2048x1024x2_S2048x1024x2_S2048x1024x4_d2 : Shape.Concatenates [S2048x1024x2, S2048x1024x2] S2048x1024x4 2
  shapeCasts_S2048x1024x4_S2048x4096 : S2048x1024x4.ShapeCasts S2048x4096
  shapeCasts_S2048x4096_S2048x512x8 : S2048x4096.ShapeCasts S2048x512x8
  slices_S12x2x4096_S1x2x8_2_0_0 : S12x2x4096.Slices ![2, 0, 0] S1x2x8
  shapeCasts_S1x2x8_S2x8 : S1x2x8.ShapeCasts S2x8
  slices_S2048x512x8_S2048x512x4_0_0_0 : S2048x512x8.Slices ![0, 0, 0] S2048x512x4
  slices_S2048x512x8_S2048x512x4_0_0_4 : S2048x512x8.Slices ![0, 0, 4] S2048x512x4
  slices_S2x8_S1x4_0_0 : S2x8.Slices ![0, 0] S1x4
  shapeCasts_S1x4_S4 : S1x4.ShapeCasts S4
  bcast_S4_S1x1x4_2 : S4.BroadcastsInDim S1x1x4 (![2] : Fin 1 → Fin S1x1x4.rank)
  bcast_S1x1x4_S2048x512x4_0_1_2 : S1x1x4.BroadcastsInDim S2048x512x4 (![0, 1, 2] : Fin 3 → Fin S2048x512x4.rank)
  slices_S2x8_S1x4_1_0 : S2x8.Slices ![1, 0] S1x4
  slices_S2x8_S1x4_0_4 : S2x8.Slices ![0, 4] S1x4
  slices_S2x8_S1x4_1_4 : S2x8.Slices ![1, 4] S1x4
  concatenates_S2048x512x4_S2048x512x4_S2048x512x8_d2 : Shape.Concatenates [S2048x512x4, S2048x512x4] S2048x512x8 2
  shapeCasts_S2048x512x8_S2048x4096 : S2048x512x8.ShapeCasts S2048x4096
  shapeCasts_S2048x4096_S2048x256x16 : S2048x4096.ShapeCasts S2048x256x16
  slices_S12x2x4096_S1x2x16_3_0_0 : S12x2x4096.Slices ![3, 0, 0] S1x2x16
  shapeCasts_S1x2x16_S2x16 : S1x2x16.ShapeCasts S2x16
  slices_S2048x256x16_S2048x256x8_0_0_0 : S2048x256x16.Slices ![0, 0, 0] S2048x256x8
  slices_S2048x256x16_S2048x256x8_0_0_8 : S2048x256x16.Slices ![0, 0, 8] S2048x256x8
  slices_S2x16_S1x8_0_0 : S2x16.Slices ![0, 0] S1x8
  shapeCasts_S1x8_S8 : S1x8.ShapeCasts S8
  bcast_S8_S1x1x8_2 : S8.BroadcastsInDim S1x1x8 (![2] : Fin 1 → Fin S1x1x8.rank)
  bcast_S1x1x8_S2048x256x8_0_1_2 : S1x1x8.BroadcastsInDim S2048x256x8 (![0, 1, 2] : Fin 3 → Fin S2048x256x8.rank)
  slices_S2x16_S1x8_1_0 : S2x16.Slices ![1, 0] S1x8
  slices_S2x16_S1x8_0_8 : S2x16.Slices ![0, 8] S1x8
  slices_S2x16_S1x8_1_8 : S2x16.Slices ![1, 8] S1x8
  concatenates_S2048x256x8_S2048x256x8_S2048x256x16_d2 : Shape.Concatenates [S2048x256x8, S2048x256x8] S2048x256x16 2
  shapeCasts_S2048x256x16_S2048x4096 : S2048x256x16.ShapeCasts S2048x4096
  shapeCasts_S2048x4096_S2048x128x32 : S2048x4096.ShapeCasts S2048x128x32
  slices_S12x2x4096_S1x2x32_4_0_0 : S12x2x4096.Slices ![4, 0, 0] S1x2x32
  shapeCasts_S1x2x32_S2x32 : S1x2x32.ShapeCasts S2x32
  slices_S2048x128x32_S2048x128x16_0_0_0 : S2048x128x32.Slices ![0, 0, 0] S2048x128x16
  slices_S2048x128x32_S2048x128x16_0_0_16 : S2048x128x32.Slices ![0, 0, 16] S2048x128x16
  slices_S2x32_S1x16_0_0 : S2x32.Slices ![0, 0] S1x16
  shapeCasts_S1x16_S16 : S1x16.ShapeCasts S16
  bcast_S16_S1x1x16_2 : S16.BroadcastsInDim S1x1x16 (![2] : Fin 1 → Fin S1x1x16.rank)
  bcast_S1x1x16_S2048x128x16_0_1_2 : S1x1x16.BroadcastsInDim S2048x128x16 (![0, 1, 2] : Fin 3 → Fin S2048x128x16.rank)
  slices_S2x32_S1x16_1_0 : S2x32.Slices ![1, 0] S1x16
  slices_S2x32_S1x16_0_16 : S2x32.Slices ![0, 16] S1x16
  slices_S2x32_S1x16_1_16 : S2x32.Slices ![1, 16] S1x16
  concatenates_S2048x128x16_S2048x128x16_S2048x128x32_d2 : Shape.Concatenates [S2048x128x16, S2048x128x16] S2048x128x32 2
  shapeCasts_S2048x128x32_S2048x4096 : S2048x128x32.ShapeCasts S2048x4096
  shapeCasts_S2048x4096_S2048x64x64 : S2048x4096.ShapeCasts S2048x64x64
  slices_S12x2x4096_S1x2x64_5_0_0 : S12x2x4096.Slices ![5, 0, 0] S1x2x64
  shapeCasts_S1x2x64_S2x64 : S1x2x64.ShapeCasts S2x64
  slices_S2048x64x64_S2048x64x32_0_0_0 : S2048x64x64.Slices ![0, 0, 0] S2048x64x32
  slices_S2048x64x64_S2048x64x32_0_0_32 : S2048x64x64.Slices ![0, 0, 32] S2048x64x32
  slices_S2x64_S1x32_0_0 : S2x64.Slices ![0, 0] S1x32
  shapeCasts_S1x32_S32 : S1x32.ShapeCasts S32
  bcast_S32_S1x1x32_2 : S32.BroadcastsInDim S1x1x32 (![2] : Fin 1 → Fin S1x1x32.rank)
  bcast_S1x1x32_S2048x64x32_0_1_2 : S1x1x32.BroadcastsInDim S2048x64x32 (![0, 1, 2] : Fin 3 → Fin S2048x64x32.rank)
  slices_S2x64_S1x32_1_0 : S2x64.Slices ![1, 0] S1x32
  slices_S2x64_S1x32_0_32 : S2x64.Slices ![0, 32] S1x32
  slices_S2x64_S1x32_1_32 : S2x64.Slices ![1, 32] S1x32
  concatenates_S2048x64x32_S2048x64x32_S2048x64x64_d2 : Shape.Concatenates [S2048x64x32, S2048x64x32] S2048x64x64 2
  shapeCasts_S2048x64x64_S2048x4096 : S2048x64x64.ShapeCasts S2048x4096
  shapeCasts_S2048x4096_S2048x32x128 : S2048x4096.ShapeCasts S2048x32x128
  slices_S12x2x4096_S1x2x128_6_0_0 : S12x2x4096.Slices ![6, 0, 0] S1x2x128
  shapeCasts_S1x2x128_S2x128 : S1x2x128.ShapeCasts S2x128
  slices_S2048x32x128_S2048x32x64_0_0_0 : S2048x32x128.Slices ![0, 0, 0] S2048x32x64
  slices_S2048x32x128_S2048x32x64_0_0_64 : S2048x32x128.Slices ![0, 0, 64] S2048x32x64
  slices_S2x128_S1x64_0_0 : S2x128.Slices ![0, 0] S1x64
  shapeCasts_S1x64_S64 : S1x64.ShapeCasts S64
  bcast_S64_S1x1x64_2 : S64.BroadcastsInDim S1x1x64 (![2] : Fin 1 → Fin S1x1x64.rank)
  bcast_S1x1x64_S2048x32x64_0_1_2 : S1x1x64.BroadcastsInDim S2048x32x64 (![0, 1, 2] : Fin 3 → Fin S2048x32x64.rank)
  slices_S2x128_S1x64_1_0 : S2x128.Slices ![1, 0] S1x64
  slices_S2x128_S1x64_0_64 : S2x128.Slices ![0, 64] S1x64
  slices_S2x128_S1x64_1_64 : S2x128.Slices ![1, 64] S1x64
  concatenates_S2048x32x64_S2048x32x64_S2048x32x128_d2 : Shape.Concatenates [S2048x32x64, S2048x32x64] S2048x32x128 2
  shapeCasts_S2048x32x128_S2048x4096 : S2048x32x128.ShapeCasts S2048x4096
  shapeCasts_S2048x4096_S2048x16x256 : S2048x4096.ShapeCasts S2048x16x256
  slices_S12x2x4096_S1x2x256_7_0_0 : S12x2x4096.Slices ![7, 0, 0] S1x2x256
  shapeCasts_S1x2x256_S2x256 : S1x2x256.ShapeCasts S2x256
  slices_S2048x16x256_S2048x16x128_0_0_0 : S2048x16x256.Slices ![0, 0, 0] S2048x16x128
  slices_S2048x16x256_S2048x16x128_0_0_128 : S2048x16x256.Slices ![0, 0, 128] S2048x16x128
  slices_S2x256_S1x128_0_0 : S2x256.Slices ![0, 0] S1x128
  shapeCasts_S1x128_S128 : S1x128.ShapeCasts S128
  bcast_S128_S1x1x128_2 : S128.BroadcastsInDim S1x1x128 (![2] : Fin 1 → Fin S1x1x128.rank)
  bcast_S1x1x128_S2048x16x128_0_1_2 : S1x1x128.BroadcastsInDim S2048x16x128 (![0, 1, 2] : Fin 3 → Fin S2048x16x128.rank)
  slices_S2x256_S1x128_1_0 : S2x256.Slices ![1, 0] S1x128
  slices_S2x256_S1x128_0_128 : S2x256.Slices ![0, 128] S1x128
  slices_S2x256_S1x128_1_128 : S2x256.Slices ![1, 128] S1x128
  concatenates_S2048x16x128_S2048x16x128_S2048x16x256_d2 : Shape.Concatenates [S2048x16x128, S2048x16x128] S2048x16x256 2
  shapeCasts_S2048x16x256_S2048x4096 : S2048x16x256.ShapeCasts S2048x4096
  shapeCasts_S2048x4096_S2048x8x512 : S2048x4096.ShapeCasts S2048x8x512
  slices_S12x2x4096_S1x2x512_8_0_0 : S12x2x4096.Slices ![8, 0, 0] S1x2x512
  shapeCasts_S1x2x512_S2x512 : S1x2x512.ShapeCasts S2x512
  slices_S2048x8x512_S2048x8x256_0_0_0 : S2048x8x512.Slices ![0, 0, 0] S2048x8x256
  slices_S2048x8x512_S2048x8x256_0_0_256 : S2048x8x512.Slices ![0, 0, 256] S2048x8x256
  slices_S2x512_S1x256_0_0 : S2x512.Slices ![0, 0] S1x256
  shapeCasts_S1x256_S256 : S1x256.ShapeCasts S256
  bcast_S256_S1x1x256_2 : S256.BroadcastsInDim S1x1x256 (![2] : Fin 1 → Fin S1x1x256.rank)
  bcast_S1x1x256_S2048x8x256_0_1_2 : S1x1x256.BroadcastsInDim S2048x8x256 (![0, 1, 2] : Fin 3 → Fin S2048x8x256.rank)
  slices_S2x512_S1x256_1_0 : S2x512.Slices ![1, 0] S1x256
  slices_S2x512_S1x256_0_256 : S2x512.Slices ![0, 256] S1x256
  slices_S2x512_S1x256_1_256 : S2x512.Slices ![1, 256] S1x256
  concatenates_S2048x8x256_S2048x8x256_S2048x8x512_d2 : Shape.Concatenates [S2048x8x256, S2048x8x256] S2048x8x512 2
  shapeCasts_S2048x8x512_S2048x4096 : S2048x8x512.ShapeCasts S2048x4096
  shapeCasts_S2048x4096_S2048x4x1024 : S2048x4096.ShapeCasts S2048x4x1024
  slices_S12x2x4096_S1x2x1024_9_0_0 : S12x2x4096.Slices ![9, 0, 0] S1x2x1024
  shapeCasts_S1x2x1024_S2x1024 : S1x2x1024.ShapeCasts S2x1024
  slices_S2048x4x1024_S2048x4x512_0_0_0 : S2048x4x1024.Slices ![0, 0, 0] S2048x4x512
  slices_S2048x4x1024_S2048x4x512_0_0_512 : S2048x4x1024.Slices ![0, 0, 512] S2048x4x512
  slices_S2x1024_S1x512_0_0 : S2x1024.Slices ![0, 0] S1x512
  shapeCasts_S1x512_S512 : S1x512.ShapeCasts S512
  bcast_S512_S1x1x512_2 : S512.BroadcastsInDim S1x1x512 (![2] : Fin 1 → Fin S1x1x512.rank)
  bcast_S1x1x512_S2048x4x512_0_1_2 : S1x1x512.BroadcastsInDim S2048x4x512 (![0, 1, 2] : Fin 3 → Fin S2048x4x512.rank)
  slices_S2x1024_S1x512_1_0 : S2x1024.Slices ![1, 0] S1x512
  slices_S2x1024_S1x512_0_512 : S2x1024.Slices ![0, 512] S1x512
  slices_S2x1024_S1x512_1_512 : S2x1024.Slices ![1, 512] S1x512
  concatenates_S2048x4x512_S2048x4x512_S2048x4x1024_d2 : Shape.Concatenates [S2048x4x512, S2048x4x512] S2048x4x1024 2
  shapeCasts_S2048x4x1024_S2048x4096 : S2048x4x1024.ShapeCasts S2048x4096
  shapeCasts_S2048x4096_S2048x2x2048 : S2048x4096.ShapeCasts S2048x2x2048
  slices_S12x2x4096_S1x2x2048_10_0_0 : S12x2x4096.Slices ![10, 0, 0] S1x2x2048
  shapeCasts_S1x2x2048_S2x2048 : S1x2x2048.ShapeCasts S2x2048
  slices_S2048x2x2048_S2048x2x1024_0_0_0 : S2048x2x2048.Slices ![0, 0, 0] S2048x2x1024
  slices_S2048x2x2048_S2048x2x1024_0_0_1024 : S2048x2x2048.Slices ![0, 0, 1024] S2048x2x1024
  slices_S2x2048_S1x1024_0_0 : S2x2048.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  slices_S2x2048_S1x1024_1_0 : S2x2048.Slices ![1, 0] S1x1024
  slices_S2x2048_S1x1024_0_1024 : S2x2048.Slices ![0, 1024] S1x1024
  slices_S2x2048_S1x1024_1_1024 : S2x2048.Slices ![1, 1024] S1x1024
  concatenates_S2048x2x1024_S2048x2x1024_S2048x2x2048_d2 : Shape.Concatenates [S2048x2x1024, S2048x2x1024] S2048x2x2048 2
  shapeCasts_S2048x2x2048_S2048x4096 : S2048x2x2048.ShapeCasts S2048x4096
  shapeCasts_S2048x4096_S2048x1x4096 : S2048x4096.ShapeCasts S2048x1x4096
  slices_S12x2x4096_S1x2x4096_11_0_0 : S12x2x4096.Slices ![11, 0, 0] S1x2x4096
  shapeCasts_S1x2x4096_S2x4096 : S1x2x4096.ShapeCasts S2x4096
  slices_S2048x1x4096_S2048x1x2048_0_0_0 : S2048x1x4096.Slices ![0, 0, 0] S2048x1x2048
  slices_S2048x1x4096_S2048x1x2048_0_0_2048 : S2048x1x4096.Slices ![0, 0, 2048] S2048x1x2048
  slices_S2x4096_S1x2048_0_0 : S2x4096.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S2048x1x2048_0_1_2 : S1x1x2048.BroadcastsInDim S2048x1x2048 (![0, 1, 2] : Fin 3 → Fin S2048x1x2048.rank)
  slices_S2x4096_S1x2048_1_0 : S2x4096.Slices ![1, 0] S1x2048
  slices_S2x4096_S1x2048_0_2048 : S2x4096.Slices ![0, 2048] S1x2048
  slices_S2x4096_S1x2048_1_2048 : S2x4096.Slices ![1, 2048] S1x2048
  concatenates_S2048x1x2048_S2048x1x2048_S2048x1x4096_d2 : Shape.Concatenates [S2048x1x2048, S2048x1x2048] S2048x1x4096 2
  shapeCasts_S2048x1x4096_S2048x4096 : S2048x1x4096.ShapeCasts S2048x4096
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.K.Mid.lean ====
/-
  The host operations of @main between the two kernel regions, as one list in program order: the 372 operations that
  build the five full-width weight arrays (own-lane and partner-lane weights for the real and the imaginary tables, and
  the 0/1 mask of the lower half of each block) from `rconvs` and `iconvs`.
-/
import proofs.«135697_j83099027243546_2_alg».proof.Proof.Gen.Kernel.Launch

set_option maxRecDepth 3072

noncomputable section

namespace Cert.Kernel.Hand

open Idealize.ShloMosaic Idealize.ShloMosaic.TcCoe Cert.Kernel Cert.Kernel.Gen

variable {F : FTy → Type} [FloatOps F]

/-- The middle stretches of @main, in order. -/
abbrev opsMid : List (HloOp τ sig (Elt F)) :=
  List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60]

end Cert.Kernel.Hand

end
-- ==== Proof.K.MidFacts.lean ====
/-
  Bookkeeping of the host operations of @main around and between the two kernel regions, at any float instance:
  every operation touches TensorCore references only and allocates nothing, and each stretch leaves the buffers it does
  not write as they were. For the last, every operation of a stretch writes exactly ONE reference, and that reference is
  none of a short list (the four arguments; for the middle stretches also the first region's output): a buffer on the
  list therefore reads after the stretch what it read before.
-/
import proofs.«135697_j83099027243546_2_alg».proof.Proof.K.Mid

set_option maxRecDepth 16384

noncomputable section

namespace Cert.Kernel.Hand

open Idealize.ShloMosaic Idealize.ShloMosaic.TcCoe Cert.Kernel Cert.Kernel.Gen

variable {F : FTy → Type} [FloatOps F]

/-- A property of every element of every list holds of every element of the concatenation. -/
theorem forall_flatten {α : Type _} {p : α → Prop} (L : List (List α)) (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

/-- Every operation writes exactly one TensorCore reference, and that one is not on the list `avoid`. -/
abbrev WritesAway (avoid : List (Ref sig .tc)) (ops : List (HloOp τ sig (Elt F))) : Prop :=
  ops.Forall fun op => ∃ y : Ref sig .tc, op.writes = {Proc.devRef .tc y} ∧ y ∉ avoid

/-- A reference on the list reads after the operations what it read before: none of them writes it. -/
theorem keeps_of_away {avoid : List (Ref sig .tc)} {ops : List (HloOp τ sig (Elt F))} (h : WritesAway avoid ops)
    (x : Ref sig .tc) (hx : x ∈ avoid) (U : Valuation τ sig (Elt F)) :
    StableHlo.after ops U (Proc.devRef .tc x) = U (Proc.devRef .tc x) :=
  StableHlo.after_of_forall_not_mem ops U fun op hop hb => by
    obtain ⟨y, hw, hy⟩ := List.forall_iff_forall_mem.mp h op hop
    rw [hw, Finset.mem_singleton] at hb
    exact hy (Proc.devRef_injective _ hb ▸ hx)

/-! ## Only TensorCore references -/

/-- The middle stretches touch TensorCore references only: stretch by stretch, from the generated facts. -/
theorem opsMid_sub : (opsMid : List (HloOp τ sig (Elt F))).Forall fun op => op.bufs ⊆ StableHlo.tcRefs τ sig :=
  forall_flatten _
    ⟨hostOps1_sub, hostOps1_1_sub, hostOps1_2_sub, hostOps1_3_sub, hostOps1_4_sub, hostOps1_5_sub, hostOps1_6_sub,
     hostOps1_7_sub, hostOps1_8_sub, hostOps1_9_sub, hostOps1_10_sub, hostOps1_11_sub, hostOps1_12_sub,
     hostOps1_13_sub, hostOps1_14_sub, hostOps1_15_sub, hostOps1_16_sub, hostOps1_17_sub, hostOps1_18_sub,
     hostOps1_19_sub, hostOps1_20_sub, hostOps1_21_sub, hostOps1_22_sub, hostOps1_23_sub, hostOps1_24_sub,
     hostOps1_25_sub, hostOps1_26_sub, hostOps1_27_sub, hostOps1_28_sub, hostOps1_29_sub, hostOps1_30_sub,
     hostOps1_31_sub, hostOps1_32_sub, hostOps1_33_sub, hostOps1_34_sub, hostOps1_35_sub, hostOps1_36_sub,
     hostOps1_37_sub, hostOps1_38_sub, hostOps1_39_sub, hostOps1_40_sub, hostOps1_41_sub, hostOps1_42_sub,
     hostOps1_43_sub, hostOps1_44_sub, hostOps1_45_sub, hostOps1_46_sub, hostOps1_47_sub, hostOps1_48_sub,
     hostOps1_49_sub, hostOps1_50_sub, hostOps1_51_sub, hostOps1_52_sub, hostOps1_53_sub, hostOps1_54_sub,
     hostOps1_55_sub, hostOps1_56_sub, hostOps1_57_sub, hostOps1_58_sub, hostOps1_59_sub, hostOps1_60_sub⟩

/-! ## Nothing is allocated -/

/-- No operation before the first region allocates a buffer. -/
theorem hostOps0_fresh : (hostOps0 : List (HloOp τ sig (Elt F))).Forall fun op => op.fresh = ∅ := by
  simp only [List.Forall]; repeat' constructor

/-- No operation after the second region allocates a buffer. -/
theorem hostOps2_fresh : (hostOps2 : List (HloOp τ sig (Elt F))).Forall fun op => op.fresh = ∅ := by
  simp only [List.Forall]; repeat' constructor

set_option maxHeartbeats 4000000 in
/-- No operation between the regions allocates a buffer. -/
theorem opsMid_fresh : (opsMid : List (HloOp τ sig (Elt F))).Forall fun op => op.fresh = ∅ := by
  refine forall_flatten _ ?_
  simp only [List.Forall]
  repeat' constructor

/-! ## What each stretch leaves alone -/

/-- The two converts before the first region write neither argument. -/
theorem hostOps0_away : WritesAway (F := F) [main_arg0, main_arg1, main_arg2, main_arg3] hostOps0 := by
  simp only [List.Forall]
  repeat' apply And.intro
  all_goals exact ⟨_, rfl, by decide⟩

/-- The two reshapes after the second region write neither argument. -/
theorem hostOps2_away : WritesAway (F := F) [main_arg0, main_arg1, main_arg2, main_arg3] hostOps2 := by
  simp only [List.Forall]
  repeat' apply And.intro
  all_goals exact ⟨_, rfl, by decide⟩

set_option maxHeartbeats 4000000 in
/-- The operations between the regions write neither an argument nor the first region's output. -/
theorem opsMid_away : WritesAway (F := F) [main_arg0, main_arg1, main_arg2, main_arg3, main_v2] opsMid := by
  refine forall_flatten _ ?_
  simp only [List.Forall]
  repeat' apply And.intro
  all_goals exact ⟨_, rfl, by decide⟩

variable (U : Valuation τ sig (Elt F))

theorem opsMid_keeps_arg0 : StableHlo.after opsMid U (Proc.devRef .tc main_arg0) = U (Proc.devRef .tc main_arg0) :=
  keeps_of_away opsMid_away main_arg0 (by decide) U
theorem opsMid_keeps_arg1 : StableHlo.after opsMid U (Proc.devRef .tc main_arg1) = U (Proc.devRef .tc main_arg1) :=
  keeps_of_away opsMid_away main_arg1 (by decide) U
theorem opsMid_keeps_arg2 : StableHlo.after opsMid U (Proc.devRef .tc main_arg2) = U (Proc.devRef .tc main_arg2) :=
  keeps_of_away opsMid_away main_arg2 (by decide) U
theorem opsMid_keeps_arg3 : StableHlo.after opsMid U (Proc.devRef .tc main_arg3) = U (Proc.devRef .tc main_arg3) :=
  keeps_of_away opsMid_away main_arg3 (by decide) U
theorem opsMid_keeps_v2 : StableHlo.after opsMid U (Proc.devRef .tc main_v2) = U (Proc.devRef .tc main_v2) :=
  keeps_of_away opsMid_away main_v2 (by decide) U

theorem hostOps0_keeps_arg0 : StableHlo.after hostOps0 U (Proc.devRef .tc main_arg0) = U (Proc.devRef .tc main_arg0) :=
  keeps_of_away hostOps0_away main_arg0 (by decide) U
theorem hostOps0_keeps_arg1 : StableHlo.after hostOps0 U (Proc.devRef .tc main_arg1) = U (Proc.devRef .tc main_arg1) :=
  keeps_of_away hostOps0_away main_arg1 (by decide) U
theorem hostOps0_keeps_arg2 : StableHlo.after hostOps0 U (Proc.devRef .tc main_arg2) = U (Proc.devRef .tc main_arg2) :=
  keeps_of_away hostOps0_away main_arg2 (by decide) U
theorem hostOps0_keeps_arg3 : StableHlo.after hostOps0 U (Proc.devRef .tc main_arg3) = U (Proc.devRef .tc main_arg3) :=
  keeps_of_away hostOps0_away main_arg3 (by decide) U

theorem hostOps2_keeps_arg0 : StableHlo.after hostOps2 U (Proc.devRef .tc main_arg0) = U (Proc.devRef .tc main_arg0) :=
  keeps_of_away hostOps2_away main_arg0 (by decide) U
theorem hostOps2_keeps_arg1 : StableHlo.after hostOps2 U (Proc.devRef .tc main_arg1) = U (Proc.devRef .tc main_arg1) :=
  keeps_of_away hostOps2_away main_arg1 (by decide) U
theorem hostOps2_keeps_arg2 : StableHlo.after hostOps2 U (Proc.devRef .tc main_arg2) = U (Proc.devRef .tc main_arg2) :=
  keeps_of_away hostOps2_away main_arg2 (by decide) U
theorem hostOps2_keeps_arg3 : StableHlo.after hostOps2 U (Proc.devRef .tc main_arg3) = U (Proc.devRef .tc main_arg3) :=
  keeps_of_away hostOps2_away main_arg3 (by decide) U

end Cert.Kernel.Hand

end
-- ==== Proof.K.Body0.lean ====
/-
  REGION 0 of the kernel program: the K-blocked matrix product.

  The grid is 8 × 4: point `n` is the pair (i, k) with `k = n % 4` the position along the contraction axis. The body keeps a
  scratch accumulator of the output block's shape. At `k = 0` it first stores zeros into the scratch; at every point it then
  stores `scratch + A·B` back into the scratch (A the [256,1024] block of the left operand, B the [1024,4096] block of the
  right operand) and copies the scratch into the output window's buffer. So after point `n` the scratch — and the output
  buffer — hold `accAt0 n`: the partial sum of the products of the k-blocks met so far in the current row of blocks.

  The scratch is carried from point to point by the region's invariant `Φ`: before the first point the invariant is the
  launch's (every scoped buffer that is no staging buffer at some contents, the generator register at some state); after
  point `n` it holds the scratch at `accAt0 n`, the other scoped buffers at some contents and the generator register.
-/
import proofs.«135697_j83099027243546_2_alg».proof.Proof.Gen.Kernel.Launch
import proofs.«135697_j83099027243546_2_alg».proof.Proof.Gen.Kernel.Skeleton
import proofs.«135697_j83099027243546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

theorem hz : (![0, 0] : Fin 2 → Nat) = fun _ => 0 := funext fun a => by fin_cases a <;> rfl

/-- A load of the whole buffer after stores the last of which filled it reads that store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What stores the last of which filled the buffer leave reads as that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, View.mem_set_unit_zero rfl inb y⟩),
    View.canon_cons_unit_zero rfl]

/-! ## The body's conditional -/

/-- The condition of the body's conditional, from the grid coordinates: the position along the contraction axis is zero. -/
abbrev cond0 (i : grid0.Coords) : Prop :=
  (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-! ## The body's triple, in its two cases -/

set_option maxHeartbeats 1000000 in
/-- At the first point of a row of blocks: the scratch, at anything, is zeroed, then receives `0 + A·B`, which the output's
    buffer receives too. -/
theorem sound_kernel0_reset (c : Dev nD) (E : Set ℕ) (i : grid0.Coords)
    (arg2 : Memref sig .tc .vmem S256x1024 .bf16) (harg2 : arg2.IsWhole) (arg3 : Memref sig .tc .vmem S1024x4096 .bf16) (harg3 : arg3.IsWhole)
    (arg4 : Memref sig .tc .vmem S256x4096 .f32) (harg4 : arg4.IsWhole) (arg5 : Memref sig .tc .vmem S256x4096 .f32) (harg5 : arg5.IsWhole)
    (hc : cond0 i) (x0 : Vec F S256x1024 .bf16) (x1 : Vec F S1024x4096 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 (k0_pay1 (F := F)) x0 x1)
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_cons_whole _ _ hz, readCov_cons_whole _ hz, View.readCov_unit_zero _ hz]
    simp only [View.readAt_eq_ld, View.ld_unit_zero (S := S256x1024) hz, View.ld_unit_zero (S := S1024x4096) hz]
  iexists _; isplitr
  swap; · iexact H5
  ipureintro
  sl_unfold_words
  rw [read_writes_cons_whole _ _ hz, View.readCov_unit_zero _ hz]
  simp only [View.readAt_eq_ld, View.ld_unit_zero (S := S256x1024) hz, View.ld_unit_zero (S := S1024x4096) hz]

set_option maxHeartbeats 1000000 in
/-- At the other points: the scratch, holding `xs`, receives `xs + A·B`, which the output's buffer receives too. -/
theorem sound_kernel0_acc (c : Dev nD) (E : Set ℕ) (i : grid0.Coords)
    (arg2 : Memref sig .tc .vmem S256x1024 .bf16) (harg2 : arg2.IsWhole) (arg3 : Memref sig .tc .vmem S1024x4096 .bf16) (harg3 : arg3.IsWhole)
    (arg4 : Memref sig .tc .vmem S256x4096 .f32) (harg4 : arg4.IsWhole) (arg5 : Memref sig .tc .vmem S256x4096 .f32) (harg5 : arg5.IsWhole)
    (hc : ¬cond0 i) (x0 : Vec F S256x1024 .bf16) (x1 : Vec F S1024x4096 .bf16) (xs : Vec F S256x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 xs x0 x1)
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_cons_whole _ _ hz, View.readCov_unit_zero _ hz]
    simp only [View.readAt_eq_ld, View.ld_unit_zero (S := S256x1024) hz, View.ld_unit_zero (S := S1024x4096) hz, View.ld_unit_zero (S := S256x4096) hz]
  iexists _; isplitr
  swap; · iexact H5
  ipureintro
  sl_unfold_words
  rw [read_writes_cons_whole _ _ hz]
  simp only [View.readAt_eq_ld, View.ld_unit_zero (S := S256x1024) hz, View.ld_unit_zero (S := S1024x4096) hz, View.ld_unit_zero (S := S256x4096) hz]

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch after point `n`: the sum so far of the products of the k-blocks of the current row of blocks. At a point
    with `n % 4 = 0` the sum starts from the zero block, elsewhere from what the point before left. -/
def accAt0 (c : Dev nD) : (n : ℕ) → n < cfg0.N → Vec F S256x4096 .f32
  | 0, hn => k0_pay2 (k0_pay1 (F := F)) (iblk0 V c 0 ⟨0, hn⟩) (iblk0 V c 1 ⟨0, hn⟩)
  | n + 1, hn =>
    k0_pay2 (if (n + 1) % 4 = 0 then k0_pay1 (F := F) else accAt0 c n (Nat.lt_of_succ_lt hn))
      (iblk0 V c 0 ⟨n + 1, hn⟩) (iblk0 V c 1 ⟨n + 1, hn⟩)

/-- At the first point of a row of blocks the sum starts from zero. -/
theorem accAt0_reset (c : Dev nD) (t : Fin cfg0.N) (h : t.val % 4 = 0) :
    accAt0 V c t.val t.isLt = k0_pay2 (k0_pay1 (F := F)) (iblk0 V c 0 t) (iblk0 V c 1 t) := by
  obtain ⟨n, hn⟩ := t
  cases n with
  | zero => rfl
  | succ n =>
    have h' : (n + 1) % 4 = 0 := h
    show k0_pay2 (if (n + 1) % 4 = 0 then k0_pay1 (F := F) else accAt0 V c n (Nat.lt_of_succ_lt hn)) _ _ = _
    rw [if_pos h']

/-- At the other points it goes on from what the point before left. -/
theorem accAt0_acc (c : Dev nD) (t : Fin cfg0.N) (h : t.val % 4 ≠ 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod 4) h
  | succ n =>
    have h' : ¬(n + 1) % 4 = 0 := h
    show k0_pay2 (if (n + 1) % 4 = 0 then k0_pay1 (F := F) else accAt0 V c n (Nat.lt_of_succ_lt hn)) _ _ = _
    rw [if_neg h']; rfl

/-! ## The invariant -/

/-- The scratch operand: a whole scoped buffer of the kernel's own. -/
abbrev scM0 : Memref sig .tc .vmem S256x4096 .f32 := Memref.whole cc0_scratch0

/-- The scoped buffers that are neither a staging buffer of this call nor its scratch, each at some contents: they pass
    through the region unread. -/
abbrev others0 (c : Dev nD) : sProp 𝕄 :=
  Pipeline.scopedRestBut (Ix := Unit) (Name := ℕ) (U := UR sig nD τ) (Lvl := ℕ) (Val := Elt F) spec0 c [cc0_scratch0]

/-- The scoped rest is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 (F := F) c) := by
  rw [Pipeline.scopedRest_split_of_list spec0 c [cc0_scratch0] (by decide) (by decide), BI.bigSepL_singleton]
  simp only [scM0, owns_whole]; try rfl

/-- The launch's invariant with the scratch split out. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA; rw [scopedRest0_split]

/-- The region's invariant before position `n`: the launch's before the first point; afterwards the scratch at what the
    point before left in it. -/
def Phi0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (accAt0 V c n hn) ∗ others0 (F := F) c) ∗ (∃ r, prngReg c r)) := rfl

theorem Phi0_pos (c : Dev nD) (n : ℕ) (h : n ≤ cfg0.N) (hz : n ≠ 0) :
    Phi0 V c n h = iprop((owns (c : Thread nD τ) scM0 fullShare (accAt0 V c (n - 1) (by omega)) ∗ others0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at the accumulator; the invariant carries the scratch; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- The invariant at a point's start, restated at `t.val`. -/
theorem Phi0_castSucc (c : Dev nD) (t : Fin cfg0.N) :
    (dat0 V c).Φ t.castSucc = Phi0 V c t.val (Nat.le_of_lt t.isLt) := by
  dsimp only [dat0]; simp only [Fin.coe_castSucc]

/-! ## The body obligation, at a generic point -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point, by cases on the position along the contraction axis: at position zero the invariant hands the
    scratch over at some contents (the launch's, or what the row of blocks before left) and the reset case runs; elsewhere
    it hands the scratch over at the sum so far and the accumulating case runs. Either way the scratch goes back into the
    invariant at this point's sum and the output's buffer holds the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ,
    after0_0, after0_1, after0_2, Phi0_castSucc]
  by_cases h0 : t.val % 4 = 0
  · rw [accAt0_reset V c t h0]
    have hpre : Phi0 V c t.val (Nat.le_of_lt t.isLt)
        ⊢ iprop(((∃ d, owns (c : Thread nD τ) scM0 fullShare d) ∗ others0 (F := F) c) ∗ (∃ r, prngReg c r)) := by
      by_cases hz0 : t.val = 0
      · rw [Phi0_zero V c _ _ hz0, PhiA0_eq]
      · rw [Phi0_pos V c _ _ hz0]
        iintro ⟨⟨HS, Ho⟩, Hg⟩
        isplitr [Hg]
        · isplitl [HS]; · iexists _; iexact HS
          iexact Ho
        iexact Hg
    iintro ⟨HΦ, Ho, ⟨%d0, H0⟩, ⟨%d1, H1⟩, ⟨%d2, H2⟩⟩
    ihave HΦ' := hpre $$ HΦ
    icases HΦ' with ⟨⟨⟨%ds, HS⟩, Hoth⟩, Hg⟩
    iapply (sound_kernel0_reset c Set.univ (grid0.coords t) _ _ _ _ _ _ _ _ ((hcond0 t).mpr h0) (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexact H2
  · rw [accAt0_acc V c t h0]
    have hz0 : t.val ≠ 0 := fun e => h0 (by rw [e])
    rw [Phi0_pos V c _ _ hz0]
    iintro ⟨⟨⟨HS, Hoth⟩, Hg⟩, Ho, ⟨%d0, H0⟩, ⟨%d1, H1⟩, ⟨%d2, H2⟩⟩
    iapply (sound_kernel0_acc c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point (whatever rides beside it is dropped). -/
theorem hin0 (c : Dev nD) (P : sProp 𝕄) :
    iprop((∃ r, prngReg c r) ∗ P
        ∗ Pipeline.scopedRest (Ix := Unit) (Name := ℕ) (U := UR sig nD τ) (Lvl := ℕ) (Val := Elt F) spec0 c)
      ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives the scoped buffers back, the scratch's contents forgotten. -/
theorem hout0' (c : Dev nD) :
    (dat0 V c).Φ (Fin.last cfg0.N)
      ⊢ iprop((∃ r, prngReg c r) ∗ (BI.emp : sProp 𝕄)
        ∗ Pipeline.scopedRest (Ix := Unit) (Name := ℕ) (U := UR sig nD τ) (Lvl := ℕ) (Val := Elt F) spec0 c) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨⟨HS, Hoth⟩, Hg⟩
  isplitl [Hg]; · iexact Hg
  isplitr; · iempintro
  isplitl [HS]; · iexists _; iexact HS
  iexact Hoth

/-- The same with the kernel's own semaphores (it has none) spelt as the region asks. -/
theorem hout0 (c : Dev nD) :
    (dat0 V c).Φ (Fin.last cfg0.N)
      ⊢ iprop((∃ r, prngReg c r) ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [Pipeline.ownSems0_none]; exact hout0' V c

end Region0

end Cert.Kernel.Hand

end
-- ==== Proof.K.VStage.lean ====
/-
  One stage of the butterfly network on a block of 128 rows, and the twelve stages in a row, as functions of the
  block and of the five weight blocks — the value the second kernel's body computes, operation for operation.

  A stage takes the pair (real part `rx`, imaginary part `ix`), two lane-rotation amounts and five full-width rows:
  own-lane and partner-lane weights of the real table (`sr`, `pr`) and of the imaginary table (`si`, `pi`), and the
  0/1 mask `mk` of the lower half of each block of lanes. The partner lane is taken from both sides and blended by the
  mask, `mk · rot_up v + (1 − mk) · rot_dn v`; a butterfly is `sf · v + pt · partner v`; the stage sends the pair to
  `(bfly_r rx − bfly_i ix, bfly_r ix + bfly_i rx)`. Stage `i` of the network rotates by `4096 − 2^i` and `2^i` and reads
  row `i` of each weight block; the network starts from `(x, 0)`.
-/
import proofs.«135697_j83099027243546_2_alg».proof.Proof.Gen.Kernel
import Idealize.ShloMosaic.Lib.Pipeline.FrameBody

noncomputable section

namespace Cert.Kernel.Hand

open Idealize.ShloMosaic Cert.Kernel Cert.Kernel.Gen

variable {F : FTy → Type} [FloatOps F]

/-- The partner lane of every lane of `v`: the row rotated by `up` where the mask is one, by `dn` where it is zero. -/
def vpartner (up dn : BitVec 32) (mk : FVec F S1x4096 .f32) (v : FVec F S128x4096 .f32) : FVec F S128x4096 .f32 :=
  have a : FVec F S128x4096 .f32 := dynamicRotate 1 up none v rotates_S128x4096_d1
  have b : FVec F S128x4096 .f32 := dynamicRotate 1 dn none v rotates_S128x4096_d1
  have ma : FVec F S128x4096 .f32 := mulf (broadcastTo S128x4096 mk broadcasts_S1x4096_S128x4096) a
  have one : FVec F S1x4096 .f32 := broadcast S1x4096 (Scalar.ofBits .f32 0x3F800000#32)
  have nm : FVec F S1x4096 .f32 := subf one mk
  have mb : FVec F S128x4096 .f32 := mulf (broadcastTo S128x4096 nm broadcasts_S1x4096_S128x4096) b
  addf ma mb

/-- A butterfly over own-lane weights `sf` and partner-lane weights `pt`: `sf · v + pt · p`, `p` the partner lanes. -/
def vbfly (sf pt : FVec F S1x4096 .f32) (v p : FVec F S128x4096 .f32) : FVec F S128x4096 .f32 :=
  addf (mulf (broadcastTo S128x4096 sf broadcasts_S1x4096_S128x4096) v)
    (mulf (broadcastTo S128x4096 pt broadcasts_S1x4096_S128x4096) p)

/-- One stage: the two partner blends, then the four butterflies, real part their difference, imaginary part their
    sum. -/
def vstage (up dn : BitVec 32) (sr pr si pi mk : FVec F S1x4096 .f32) (rx ix : FVec F S128x4096 .f32) :
    FVec F S128x4096 .f32 × FVec F S128x4096 .f32 :=
  have prx : FVec F S128x4096 .f32 := vpartner up dn mk rx
  have pix : FVec F S128x4096 .f32 := vpartner up dn mk ix
  (subf (vbfly sr pr rx prx) (vbfly si pi ix pix), addf (vbfly sr pr ix pix) (vbfly si pi rx prx))

/-- Row `i` of a `[12, 4096]` weight block lies inside it. -/
theorem inb_row (i : Fin 12) : ∀ a, (![i.val, 0] : Fin 2 → Nat) a + S1x4096.size a ≤ S12x4096.size a := by
  intro a
  fin_cases a
  · show i.val + 1 ≤ 12
    omega
  · show 0 + 4096 ≤ 4096
    omega

/-- Row `i` of a weight block, as the full-width row a stage reads. -/
def vrow (w : Vec F S12x4096 .f32) (i : Fin 12) : FVec F S1x4096 .f32 :=
  shapeCast S1x4096 (View.ld w (Rect.unit (s := S12x4096) ![i.val, 0] S1x4096.size (inb_row i))) shapeCasts_S1x4096_S1x4096

/-- Where the network starts: the block as real part, zero as imaginary part. -/
def vinit (x : Vec F S128x4096 .f32) : FVec F S128x4096 .f32 × FVec F S128x4096 .f32 :=
  (shapeCast S128x4096 x shapeCasts_S128x4096_S128x4096, broadcast S128x4096 (Scalar.ofBits .f32 0x00000000#32))

/-- Stage `i` of the network on a pair: rotations by `4096 − 2^i` and `2^i`, row `i` of each weight block. -/
def vstageAt (w2 w3 w4 w5 w6 : Vec F S12x4096 .f32) (i : Fin 12)
    (s : FVec F S128x4096 .f32 × FVec F S128x4096 .f32) : FVec F S128x4096 .f32 × FVec F S128x4096 .f32 :=
  vstage (BitVec.ofNat 32 (4096 - 2 ^ i.val)) (BitVec.ofNat 32 (2 ^ i.val))
    (vrow w2 i) (vrow w3 i) (vrow w4 i) (vrow w5 i) (vrow w6 i) s.1 s.2

/-- The pair after the first `n` stages. -/
def vnetUpTo (w2 w3 w4 w5 w6 : Vec F S12x4096 .f32) (x : Vec F S128x4096 .f32) :
    ℕ → FVec F S128x4096 .f32 × FVec F S128x4096 .f32
  | 0 => vinit x
  | n + 1 => if h : n < 12 then vstageAt w2 w3 w4 w5 w6 ⟨n, h⟩ (vnetUpTo w2 w3 w4 w5 w6 x n) else vnetUpTo w2 w3 w4 w5 w6 x n

/-- The twelve stages in a row, each bound once. -/
def vnet (w2 w3 w4 w5 w6 : Vec F S12x4096 .f32) (x : Vec F S128x4096 .f32) :
    FVec F S128x4096 .f32 × FVec F S128x4096 .f32 :=
  have s0 := vinit x
  have s1 := vstageAt w2 w3 w4 w5 w6 0 s0
  have s2 := vstageAt w2 w3 w4 w5 w6 1 s1
  have s3 := vstageAt w2 w3 w4 w5 w6 2 s2
  have s4 := vstageAt w2 w3 w4 w5 w6 3 s3
  have s5 := vstageAt w2 w3 w4 w5 w6 4 s4
  have s6 := vstageAt w2 w3 w4 w5 w6 5 s5
  have s7 := vstageAt w2 w3 w4 w5 w6 6 s6
  have s8 := vstageAt w2 w3 w4 w5 w6 7 s7
  have s9 := vstageAt w2 w3 w4 w5 w6 8 s8
  have s10 := vstageAt w2 w3 w4 w5 w6 9 s9
  have s11 := vstageAt w2 w3 w4 w5 w6 10 s10
  vstageAt w2 w3 w4 w5 w6 11 s11

/-- The network is the twelfth step of the stage-by-stage recursion. -/
theorem vnet_eq_upTo (w2 w3 w4 w5 w6 : Vec F S12x4096 .f32) (x : Vec F S128x4096 .f32) :
    vnet w2 w3 w4 w5 w6 x = vnetUpTo w2 w3 w4 w5 w6 x 12 := rfl

/-- Stage 0 with the printed constants: the rotation amounts and the row are the literals of the body's text. -/
example (w2 w3 w4 w5 w6 : Vec F S12x4096 .f32) (s : FVec F S128x4096 .f32 × FVec F S128x4096 .f32) :
    vstageAt w2 w3 w4 w5 w6 0 s
      = vstage 4095#32 1#32
          (shapeCast S1x4096 (View.ld w2 (Rect.unit (s := S12x4096) ![0, 0] S1x4096.size inb_S12x4096_S1x4096_0_0)) shapeCasts_S1x4096_S1x4096)
          (shapeCast S1x4096 (View.ld w3 (Rect.unit (s := S12x4096) ![0, 0] S1x4096.size inb_S12x4096_S1x4096_0_0)) shapeCasts_S1x4096_S1x4096)
          (shapeCast S1x4096 (View.ld w4 (Rect.unit (s := S12x4096) ![0, 0] S1x4096.size inb_S12x4096_S1x4096_0_0)) shapeCasts_S1x4096_S1x4096)
          (shapeCast S1x4096 (View.ld w5 (Rect.unit (s := S12x4096) ![0, 0] S1x4096.size inb_S12x4096_S1x4096_0_0)) shapeCasts_S1x4096_S1x4096)
          (shapeCast S1x4096 (View.ld w6 (Rect.unit (s := S12x4096) ![0, 0] S1x4096.size inb_S12x4096_S1x4096_0_0)) shapeCasts_S1x4096_S1x4096)
          s.1 s.2 := rfl

end Cert.Kernel.Hand

end
-- ==== Proof.K.In1.lean ====
/-
  The values the butterfly kernel's body hands from part to part, each under a name.

  The body is twelve butterfly stages over a block of 128 rows of 4096 lanes, printed in 13 parts; stage i reads
  row i of each of the five weight blocks. Every value a part returns to the next is one definition here, over the
  bundled six input blocks, with the payload it is computed by applied to the NAMES of the values it reads: a
  stage's result is read eight times by the next, so no term here ever holds another stage's term.
-/
import proofs.«135697_j83099027243546_2_alg».proof.Proof.Gen.Kernel.Skeleton
import Idealize.ShloMosaic.Lib.Pipeline.FrameBody
import Idealize.ShloMosaic.Lib.Pipeline.Value

-- membership in a rectangle of these extents recurses once per coordinate of the long axis
set_option maxRecDepth 16384

noncomputable section

namespace Cert.Kernel.Hand

open Cert.Kernel Cert.Kernel.Gen
open Idealize.ShloMosaic Idealize.SL.Sem

variable {F : FTy → Type} [FloatOps F]

/-! ## The body's accesses -/

/-- The whole block of 128 rows. -/
abbrev r1_x : Rect S128x4096 := Rect.unit (s := S128x4096) ![0, 0] S128x4096.size inb_S128x4096_S128x4096_0_0
/-- Row i of a weight block of 12 rows. -/
abbrev r1_w0 : Rect S12x4096 := Rect.unit (s := S12x4096) ![0, 0] S1x4096.size inb_S12x4096_S1x4096_0_0
abbrev r1_w1 : Rect S12x4096 := Rect.unit (s := S12x4096) ![1, 0] S1x4096.size inb_S12x4096_S1x4096_1_0
abbrev r1_w2 : Rect S12x4096 := Rect.unit (s := S12x4096) ![2, 0] S1x4096.size inb_S12x4096_S1x4096_2_0
abbrev r1_w3 : Rect S12x4096 := Rect.unit (s := S12x4096) ![3, 0] S1x4096.size inb_S12x4096_S1x4096_3_0
abbrev r1_w4 : Rect S12x4096 := Rect.unit (s := S12x4096) ![4, 0] S1x4096.size inb_S12x4096_S1x4096_4_0
abbrev r1_w5 : Rect S12x4096 := Rect.unit (s := S12x4096) ![5, 0] S1x4096.size inb_S12x4096_S1x4096_5_0
abbrev r1_w6 : Rect S12x4096 := Rect.unit (s := S12x4096) ![6, 0] S1x4096.size inb_S12x4096_S1x4096_6_0
abbrev r1_w7 : Rect S12x4096 := Rect.unit (s := S12x4096) ![7, 0] S1x4096.size inb_S12x4096_S1x4096_7_0
abbrev r1_w8 : Rect S12x4096 := Rect.unit (s := S12x4096) ![8, 0] S1x4096.size inb_S12x4096_S1x4096_8_0
abbrev r1_w9 : Rect S12x4096 := Rect.unit (s := S12x4096) ![9, 0] S1x4096.size inb_S12x4096_S1x4096_9_0
abbrev r1_w10 : Rect S12x4096 := Rect.unit (s := S12x4096) ![10, 0] S1x4096.size inb_S12x4096_S1x4096_10_0
abbrev r1_w11 : Rect S12x4096 := Rect.unit (s := S12x4096) ![11, 0] S1x4096.size inb_S12x4096_S1x4096_11_0

/-! ## The values the parts hand on, each under a name -/

/-- The six input blocks of the body: the data block and the five weight blocks (own-lane real, partner-lane real,
    own-lane imaginary, partner-lane imaginary, the lower-half mask). -/
structure In (F : FTy → Type) where
  x0 : Vec F S128x4096 .f32
  x1 : Vec F S12x4096 .f32
  x2 : Vec F S12x4096 .f32
  x3 : Vec F S12x4096 .f32
  x4 : Vec F S12x4096 .f32
  x5 : Vec F S12x4096 .f32

namespace In
variable (X : In F)

/-- Row r of weight block k, as the body's load reads it. -/
abbrev w1 (r : Rect S12x4096) : r.shape.Idx → Elt F .f32 := View.ld X.x1 r
abbrev w2 (r : Rect S12x4096) : r.shape.Idx → Elt F .f32 := View.ld X.x2 r
abbrev w3 (r : Rect S12x4096) : r.shape.Idx → Elt F .f32 := View.ld X.x3 r
abbrev w4 (r : Rect S12x4096) : r.shape.Idx → Elt F .f32 := View.ld X.x4 r
abbrev w5 (r : Rect S12x4096) : r.shape.Idx → Elt F .f32 := View.ld X.x5 r
/-- The data block, as the body's load reads it. -/
abbrev v0 : Vec F S128x4096 .f32 := View.ld X.x0 r1_x

/- part 1: the start (the block itself, zero) and stage 0 up to its four products -/
def v1 : FVec F S128x4096 .f32 := k1_pay3 X.v0
def v2 (_X : In F) : FVec F S128x4096 .f32 := k1_pay4 (F := F)
def v4 : FVec F S1x4096 .f32 := k1_pay5 (X.w1 r1_w0)
def v6 : FVec F S1x4096 .f32 := k1_pay6 (X.w2 r1_w0)
def v8 : FVec F S1x4096 .f32 := k1_pay7 (X.w3 r1_w0)
def v10 : FVec F S1x4096 .f32 := k1_pay8 (X.w4 r1_w0)
def v21 : FVec F S128x4096 .f32 := k1_pay10 X.v0 (X.w5 r1_w0)
def v30 : FVec F S128x4096 .f32 := k1_pay11 (X.w5 r1_w0)
def v35 : FVec F S128x4096 .f32 := k1_pay12 X.v0 (X.w1 r1_w0) (X.w2 r1_w0) (X.w5 r1_w0)
def v37 : FVec F S128x4096 .f32 := k1_pay13 (X.w3 r1_w0)
def v39 : FVec F S128x4096 .f32 := k1_pay14 (X.w4 r1_w0) (X.w5 r1_w0)
/- part 2: stage 0's results and the head of stage 1 -/
def v41 : FVec F S128x4096 .f32 := k1_pay15 X.v35 X.v37 X.v39
def v52 : FVec F S128x4096 .f32 := k1_pay16 X.v1 X.v2 X.v4 X.v6 X.v8 X.v10 X.v21 X.v30
def v54 : FVec F S1x4096 .f32 := k1_pay17 (X.w1 r1_w1)
def v56 : FVec F S1x4096 .f32 := k1_pay18 (X.w2 r1_w1)
def v58 : FVec F S1x4096 .f32 := k1_pay19 (X.w3 r1_w1)
def v60 : FVec F S1x4096 .f32 := k1_pay20 (X.w4 r1_w1)
def v71 : FVec F S128x4096 .f32 := k1_pay22 X.v35 X.v37 X.v39 (X.w5 r1_w1)
def v80 : FVec F S128x4096 .f32 := k1_pay23 X.v1 X.v2 X.v4 X.v6 X.v8 X.v10 X.v21 X.v30 (X.w5 r1_w1)
def v82 : FVec F S128x4096 .f32 := k1_pay24 X.v35 X.v37 X.v39 (X.w1 r1_w1)
def v83 : FVec F S128x4096 .f32 := k1_pay25 (X.w2 r1_w1)
/- part 3: stage 1's results and the head of stage 2 -/
def v91 : FVec F S128x4096 .f32 := k1_pay26 X.v52 X.v58 X.v60 X.v71 X.v80 X.v82 X.v83
def v102 : FVec F S128x4096 .f32 := k1_pay27 X.v41 X.v52 X.v54 X.v56 X.v58 X.v60 X.v71 X.v80
def v104 : FVec F S1x4096 .f32 := k1_pay28 (X.w1 r1_w2)
def v106 : FVec F S1x4096 .f32 := k1_pay29 (X.w2 r1_w2)
def v108 : FVec F S1x4096 .f32 := k1_pay30 (X.w3 r1_w2)
def v110 : FVec F S1x4096 .f32 := k1_pay31 (X.w4 r1_w2)
def v121 : FVec F S128x4096 .f32 := k1_pay33 X.v52 X.v58 X.v60 X.v71 X.v80 X.v82 X.v83 (X.w5 r1_w2)
def v123 : FVec F S128x4096 .f32 := k1_pay34 X.v41 X.v52 X.v54 X.v56 X.v58 X.v60 X.v71 X.v80
def v125 : FVec F S128x4096 .f32 := k1_pay35 X.v41 X.v52 X.v54 X.v56 X.v58 X.v60 X.v71 X.v80 (X.w5 r1_w2)
def v127 : FVec F S1x4096 .f32 := k1_pay36 (X.w5 r1_w2)
/- part 4: stage 2's results and the head of stage 3 -/
def v141 : FVec F S128x4096 .f32 := k1_pay38 X.v91 X.v102 X.v104 X.v106 X.v108 X.v110 X.v121 X.v123 X.v125 X.v127
def v152 : FVec F S128x4096 .f32 := k1_pay39 X.v91 X.v102 X.v104 X.v106 X.v108 X.v110 X.v121 X.v123 X.v125 X.v127
def v154 : FVec F S1x4096 .f32 := k1_pay40 (X.w1 r1_w3)
def v156 : FVec F S1x4096 .f32 := k1_pay41 (X.w2 r1_w3)
def v158 : FVec F S1x4096 .f32 := k1_pay42 (X.w3 r1_w3)
def v160 : FVec F S1x4096 .f32 := k1_pay43 (X.w4 r1_w3)
def v162 : FVec F S1x4096 .f32 := k1_pay44 (X.w5 r1_w3)
def v171 : FVec F S128x4096 .f32 := k1_pay45 X.v91 X.v102 X.v104 X.v106 X.v108 X.v110 X.v121 X.v123 X.v125 X.v127 (X.w5 r1_w3)
def v172 : FVec F S128x4096 .f32 := k1_pay46 X.v91 X.v102 X.v104 X.v106 X.v108 X.v110 X.v121 X.v123 X.v125 X.v127
/- part 5: stage 3's results and the head of stage 4 (the shift of stage 3 travels as a word) -/
def v191 : FVec F S128x4096 .f32 := k1_pay48 X.v141 X.v152 X.v154 X.v156 X.v158 X.v160 X.v162 X.v171 X.v172 8#32
def v202 : FVec F S128x4096 .f32 := k1_pay49 X.v141 X.v152 X.v154 X.v156 X.v158 X.v160 X.v162 X.v171 X.v172 8#32
def v204 : FVec F S1x4096 .f32 := k1_pay50 (X.w1 r1_w4)
def v206 : FVec F S1x4096 .f32 := k1_pay51 (X.w2 r1_w4)
def v208 : FVec F S1x4096 .f32 := k1_pay52 (X.w3 r1_w4)
def v210 : FVec F S1x4096 .f32 := k1_pay53 (X.w4 r1_w4)
def v212 : FVec F S1x4096 .f32 := k1_pay54 (X.w5 r1_w4)
def v214 : FVec F S128x4096 .f32 := k1_pay55 X.v141 X.v152 X.v154 X.v156 X.v158 X.v160 X.v162 X.v171 X.v172 8#32
def v216 : FVec F S128x4096 .f32 := k1_pay56 X.v141 X.v152 X.v154 X.v156 X.v158 X.v160 X.v162 X.v171 X.v172 8#32 (X.w5 r1_w4)
def v218 : FVec F S1x4096 .f32 := k1_pay57 (X.w5 r1_w4)
/- part 6: stage 4's results and the head of stage 5 -/
def v241 : FVec F S128x4096 .f32 := k1_pay60 X.v191 X.v202 X.v204 X.v206 X.v208 X.v210 X.v212 X.v214 X.v216 X.v218
def v252 : FVec F S128x4096 .f32 := k1_pay61 X.v191 X.v202 X.v204 X.v206 X.v208 X.v210 X.v212 X.v214 X.v216 X.v218
def v254 : FVec F S1x4096 .f32 := k1_pay62 (X.w1 r1_w5)
def v256 : FVec F S1x4096 .f32 := k1_pay63 (X.w2 r1_w5)
def v258 : FVec F S1x4096 .f32 := k1_pay64 (X.w3 r1_w5)
def v260 : FVec F S1x4096 .f32 := k1_pay65 (X.w4 r1_w5)
def v262 : FVec F S1x4096 .f32 := k1_pay66 (X.w5 r1_w5)
def v263 : FVec F S128x4096 .f32 := k1_pay67 X.v191 X.v202 X.v204 X.v206 X.v208 X.v210 X.v212 X.v214 X.v216 X.v218
/- part 7: stage 5's results and four of stage 6's rows -/
def v291 : FVec F S128x4096 .f32 := k1_pay70 X.v241 X.v252 X.v254 X.v256 X.v258 X.v260 X.v262 X.v263 32#32
def v302 : FVec F S128x4096 .f32 := k1_pay71 X.v241 X.v252 X.v254 X.v256 X.v258 X.v260 X.v262 X.v263 32#32
def v304 : FVec F S1x4096 .f32 := k1_pay72 (X.w1 r1_w6)
def v306 : FVec F S1x4096 .f32 := k1_pay73 (X.w2 r1_w6)
def v308 : FVec F S1x4096 .f32 := k1_pay74 (X.w3 r1_w6)
def v310 : FVec F S1x4096 .f32 := k1_pay75 (X.w4 r1_w6)
/- part 8: stage 6's results and three of stage 7's rows (the third as loaded) -/
def v341 : FVec F S128x4096 .f32 := k1_pay79 X.v291 X.v302 X.v304 X.v306 X.v308 X.v310 (X.w5 r1_w6)
def v352 : FVec F S128x4096 .f32 := k1_pay80 X.v291 X.v302 X.v304 X.v306 X.v308 X.v310 (X.w5 r1_w6)
def v354 : FVec F S1x4096 .f32 := k1_pay81 (X.w1 r1_w7)
def v356 : FVec F S1x4096 .f32 := k1_pay82 (X.w2 r1_w7)
def v357 : Vec F S1x4096 .f32 := X.w3 r1_w7
/- part 9: stage 7's results and the first row of stage 8 -/
def v391 : FVec F S128x4096 .f32 := k1_pay88 X.v341 X.v352 X.v354 X.v356 X.v357 (X.w4 r1_w7) (X.w5 r1_w7)
def v402 : FVec F S128x4096 .f32 := k1_pay89 X.v341 X.v352 X.v354 X.v356 X.v357 (X.w4 r1_w7) (X.w5 r1_w7)
def v404 : FVec F S1x4096 .f32 := k1_pay90 (X.w1 r1_w8)
/- part 10: stage 8's real result and the two halves of its imaginary one -/
def v441 : FVec F S128x4096 .f32 := k1_pay97 X.v391 X.v402 X.v404 (X.w2 r1_w8) (X.w3 r1_w8) (X.w4 r1_w8) (X.w5 r1_w8)
def v446 : FVec F S128x4096 .f32 := k1_pay98 X.v402 X.v404 (X.w2 r1_w8) (X.w5 r1_w8)
def v451 : FVec F S128x4096 .f32 := k1_pay99 X.v391 (X.w3 r1_w8) (X.w4 r1_w8) (X.w5 r1_w8)
/- part 11: stage 9 up to its real result -/
def v458 : FVec F S1x4096 .f32 := k1_pay103 (X.w3 r1_w9)
def v460 : FVec F S1x4096 .f32 := k1_pay104 (X.w4 r1_w9)
def v471 : FVec F S128x4096 .f32 := k1_pay106 X.v441 (X.w5 r1_w9)
def v491 : FVec F S128x4096 .f32 := k1_pay108 X.v441 X.v446 X.v451 (X.w1 r1_w9) (X.w2 r1_w9) (X.w3 r1_w9) (X.w4 r1_w9) (X.w5 r1_w9)
def v493 : FVec F S128x4096 .f32 := k1_pay109 X.v446 X.v451 (X.w1 r1_w9)
def v495 : FVec F S128x4096 .f32 := k1_pay110 X.v446 X.v451 (X.w2 r1_w9) (X.w5 r1_w9)
/- part 12: stage 9's imaginary result and stage 10 up to its four products -/
def v502 : FVec F S128x4096 .f32 := k1_pay111 X.v441 X.v458 X.v460 X.v471 X.v493 X.v495
def v504 : FVec F S1x4096 .f32 := k1_pay112 (X.w1 r1_w10)
def v506 : FVec F S1x4096 .f32 := k1_pay113 (X.w2 r1_w10)
def v508 : FVec F S1x4096 .f32 := k1_pay114 (X.w3 r1_w10)
def v510 : FVec F S1x4096 .f32 := k1_pay115 (X.w4 r1_w10)
def v521 : FVec F S128x4096 .f32 := k1_pay117 X.v491 (X.w5 r1_w10)
def v530 : FVec F S128x4096 .f32 := k1_pay118 X.v441 X.v458 X.v460 X.v471 X.v493 X.v495 (X.w5 r1_w10)
def v535 : FVec F S128x4096 .f32 := k1_pay119 X.v491 (X.w1 r1_w10) (X.w2 r1_w10) (X.w5 r1_w10)
def v537 : FVec F S128x4096 .f32 := k1_pay120 X.v441 X.v458 X.v460 X.v471 X.v493 X.v495 (X.w3 r1_w10)
def v539 : FVec F S128x4096 .f32 := k1_pay121 X.v441 X.v458 X.v460 X.v471 X.v493 X.v495 (X.w4 r1_w10) (X.w5 r1_w10)
/- part 13: stage 10's results and the head of stage 11 -/
def v541 : FVec F S128x4096 .f32 := k1_pay122 X.v535 X.v537 X.v539
def v552 : FVec F S128x4096 .f32 := k1_pay123 X.v491 X.v502 X.v504 X.v506 X.v508 X.v510 X.v521 X.v530
def v554 : FVec F S1x4096 .f32 := k1_pay124 (X.w1 r1_w11)
def v556 : FVec F S1x4096 .f32 := k1_pay125 (X.w2 r1_w11)
def v558 : FVec F S1x4096 .f32 := k1_pay126 (X.w3 r1_w11)
def v560 : FVec F S1x4096 .f32 := k1_pay127 (X.w4 r1_w11)
def v571 : FVec F S128x4096 .f32 := k1_pay129 X.v535 X.v537 X.v539 (X.w5 r1_w11)
def v580 : FVec F S128x4096 .f32 := k1_pay130 X.v491 X.v502 X.v504 X.v506 X.v508 X.v510 X.v521 X.v530 (X.w5 r1_w11)
def v582 : FVec F S128x4096 .f32 := k1_pay131 X.v535 X.v537 X.v539 (X.w1 r1_w11)
def v583 : FVec F S128x4096 .f32 := k1_pay132 (X.w2 r1_w11)
/- the root: stage 11's two results, the stored payloads -/
def v591 : FVec F S128x4096 .f32 := k1_pay1 X.v552 X.v558 X.v560 X.v571 X.v580 X.v582 X.v583
def v602 : FVec F S128x4096 .f32 := k1_pay2 X.v541 X.v552 X.v554 X.v556 X.v558 X.v560 X.v571 X.v580

end In

/-- The whole-block load reads the block. -/
theorem In.v0_eq (X : In F) : X.v0 = X.x0 :=
  View.ld_unit_zero (by funext a; fin_cases a <;> rfl) _ X.x0

end Cert.Kernel.Hand

end
-- ==== Proof.K.Net1Bridge.lean ====
/-
  The values the butterfly kernel's body stores are the twelve-stage network on the data block.

  The body's text, cut into parts, hands values from part to part under names; stage `i` of the network reads the pair
  the stage before left and row `i` of the five weight blocks. Stage by stage, the pair of named values a stage leaves is
  `vstageAt … i` of the pair it found — the same operations in the same order, so the two sides unfold to one term — and
  the start is the block itself with a zero imaginary part. Chaining the twelve equations gives the stored pair as `vnet`.
-/
import proofs.«135697_j83099027243546_2_alg».proof.Proof.K.In1
import proofs.«135697_j83099027243546_2_alg».proof.Proof.K.VStage

noncomputable section

namespace Cert.Kernel.Hand

open Cert.Kernel Cert.Kernel.Gen
open Idealize.ShloMosaic

variable {F : FTy → Type} [FloatOps F]

namespace In
variable (X : In F)

/-- The start: the block as loaded, and zero. -/
theorem start_eq : (X.v1, X.v2) = vinit X.x0 := by
  show vinit X.v0 = vinit X.x0
  rw [v0_eq]

/-- Stage 0: rotations by 4095 and 1, row 0 of the weight blocks. -/
theorem stage0_eq : (X.v41, X.v52) = vstageAt X.x1 X.x2 X.x3 X.x4 X.x5 0 (X.v1, X.v2) := rfl

/-- Stage 1: rotations by 4094 and 2, row 1. -/
theorem stage1_eq : (X.v91, X.v102) = vstageAt X.x1 X.x2 X.x3 X.x4 X.x5 1 (X.v41, X.v52) := rfl

/-- Stage 2: rotations by 4092 and 4, row 2. -/
theorem stage2_eq : (X.v141, X.v152) = vstageAt X.x1 X.x2 X.x3 X.x4 X.x5 2 (X.v91, X.v102) := rfl

/-- Stage 3: rotations by 4088 and 8, row 3. -/
theorem stage3_eq : (X.v191, X.v202) = vstageAt X.x1 X.x2 X.x3 X.x4 X.x5 3 (X.v141, X.v152) := rfl

/-- Stage 4: rotations by 4080 and 16, row 4. -/
theorem stage4_eq : (X.v241, X.v252) = vstageAt X.x1 X.x2 X.x3 X.x4 X.x5 4 (X.v191, X.v202) := rfl

/-- Stage 5: rotations by 4064 and 32, row 5. -/
theorem stage5_eq : (X.v291, X.v302) = vstageAt X.x1 X.x2 X.x3 X.x4 X.x5 5 (X.v241, X.v252) := rfl

/-- Stage 6: rotations by 4032 and 64, row 6. -/
theorem stage6_eq : (X.v341, X.v352) = vstageAt X.x1 X.x2 X.x3 X.x4 X.x5 6 (X.v291, X.v302) := rfl

/-- Stage 7: rotations by 3968 and 128, row 7. -/
theorem stage7_eq : (X.v391, X.v402) = vstageAt X.x1 X.x2 X.x3 X.x4 X.x5 7 (X.v341, X.v352) := rfl

/-- Stage 8: rotations by 3840 and 256, row 8. Its imaginary part crosses a cut of the text as its two summands. -/
theorem stage8_eq : (X.v441, addf X.v446 X.v451) = vstageAt X.x1 X.x2 X.x3 X.x4 X.x5 8 (X.v391, X.v402) := rfl

/-- Stage 9: rotations by 3584 and 512, row 9. -/
theorem stage9_eq : (X.v491, X.v502) = vstageAt X.x1 X.x2 X.x3 X.x4 X.x5 9 (X.v441, addf X.v446 X.v451) := rfl

/-- Stage 10: rotations by 3072 and 1024, row 10. -/
theorem stage10_eq : (X.v541, X.v552) = vstageAt X.x1 X.x2 X.x3 X.x4 X.x5 10 (X.v491, X.v502) := rfl

/-- Stage 11: rotations by 2048 both ways, row 11. -/
theorem stage11_eq : (X.v591, X.v602) = vstageAt X.x1 X.x2 X.x3 X.x4 X.x5 11 (X.v541, X.v552) := rfl

/-- The two values the body stores are the two parts of the twelve-stage network on the data block. -/
theorem net : (X.v591, X.v602) = vnet X.x1 X.x2 X.x3 X.x4 X.x5 X.x0 := by
  rw [stage11_eq, stage10_eq, stage9_eq, stage8_eq, stage7_eq, stage6_eq, stage5_eq, stage4_eq, stage3_eq, stage2_eq,
    stage1_eq, stage0_eq, start_eq]
  rfl

end In

end Cert.Kernel.Hand

end
-- ==== Proof.K.Body1.lean ====
/-
  REGION 1 of the kernel program, the frame half of the butterfly kernel: what its body leaves in the two output
  windows' buffers as terms over the six input blocks, the body's triple, the pipeline's proof data and the body
  obligation, all at a parameter V (the TensorCore's buffer contents when the region is entered) and at any F.

  The values the body's parts hand on are named in KI/In1.lean; the network they compute is KI/VStage.lean's.
-/
import proofs.«135697_j83099027243546_2_alg».proof.Proof.Gen.Kernel.Launch
import proofs.«135697_j83099027243546_2_alg».proof.Proof.Gen.Kernel.Skeleton
import proofs.«135697_j83099027243546_2_alg».proof.Proof.Gen.Kernel.Points
import proofs.«135697_j83099027243546_2_alg».proof.Proof.K.VStage
import proofs.«135697_j83099027243546_2_alg».proof.Proof.K.In1
import proofs.«135697_j83099027243546_2_alg».proof.Proof.K.Net1Bridge
import Idealize.ShloMosaic.Lib.Pipeline.FrameBody
import Idealize.ShloMosaic.Lib.Pipeline.Value
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer -/

/-- Window 6's staging buffer after the body, from the input windows' blocks: the real part of the twelve-stage
    network on the data block, left by the one whole-block store. -/
def out1_6 (x0 : Vec F S128x4096 .f32) (x1 x2 x3 x4 x5 : Vec F S12x4096 .f32) : Vec F S128x4096 .f32 :=
  View.canon [⟨r1_x, (vnet x1 x2 x3 x4 x5 x0).1⟩]
/-- Window 7's staging buffer after the body: the imaginary part. -/
def out1_7 (x0 : Vec F S128x4096 .f32) (x1 x2 x3 x4 x5 : Vec F S12x4096 .f32) : Vec F S128x4096 .f32 :=
  View.canon [⟨r1_x, (vnet x1 x2 x3 x4 x5 x0).2⟩]

/-- One store of the whole block leaves its payload: the outputs ARE the network's two parts. -/
theorem out1_eq_vnet (x0 : Vec F S128x4096 .f32) (x1 x2 x3 x4 x5 : Vec F S12x4096 .f32) :
    out1_6 x0 x1 x2 x3 x4 x5 = (vnet x1 x2 x3 x4 x5 x0).1 ∧ out1_7 x0 x1 x2 x3 x4 x5 = (vnet x1 x2 x3 x4 x5 x0).2 :=
  ⟨View.canon_unit_zero (by funext a; fin_cases a <;> rfl) _ _, View.canon_unit_zero (by funext a; fin_cases a <;> rfl) _ _⟩

/-- The one store is of the whole block, so it covers the buffer. -/
theorem cover1 (p0 : Vec F S128x4096 .f32) (y : S128x4096.Idx) :
    ∃ pc ∈ ([⟨r1_x, p0⟩] : List (View.Piece (Elt F) S128x4096 .f32)), y ∈ pc.1.set :=
  View.cover_of_tiled [⟨r1_x, p0⟩] S128x4096.size (by rfl) y

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple -/

-- one elaboration step over 808 statements in 13 parts
set_option maxHeartbeats 4000000 in
/-- The kernel body on whole staging memrefs, the six inputs' at read contents x0 … x5 and the two outputs' at
    anything, runs to the continuation holding the inputs' as they were and the outputs' at out1_6 / out1_7 of the
    inputs'. -/
theorem sound_kernel1 (c : Dev nD) (E : Set ℕ) (i : grid1.Coords) (arg1 : Memref sig .tc .vmem S128x4096 .f32) (harg1 : arg1.IsWhole) (arg2 : Memref sig .tc .vmem S12x4096 .f32) (harg2 : arg2.IsWhole) (arg3 : Memref sig .tc .vmem S12x4096 .f32) (harg3 : arg3.IsWhole) (arg4 : Memref sig .tc .vmem S12x4096 .f32) (harg4 : arg4.IsWhole) (arg5 : Memref sig .tc .vmem S12x4096 .f32) (harg5 : arg5.IsWhole) (arg6 : Memref sig .tc .vmem S12x4096 .f32) (harg6 : arg6.IsWhole) (arg7 : Memref sig .tc .vmem S128x4096 .f32) (harg7 : arg7.IsWhole) (arg8 : Memref sig .tc .vmem S128x4096 .f32) (harg8 : arg8.IsWhole)
    (x0 : Vec F S128x4096 .f32) (x1 x2 x3 x4 x5 : Vec F S12x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__butterfly_kernel i arg1 harg1 arg2 harg2 arg3 harg3 arg4 harg4 arg5 harg5 arg6 harg6 arg7 harg7 arg8 harg8) K := by
  simp only [cc1__butterfly_kernel_eq_skeleton]; unfold cc1__butterfly_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  -- the named values at these inputs are the network's two parts
  have hnet : (((In.mk (View.read (Elt F) arg1.view f1) (View.read (Elt F) arg2.view f2) (View.read (Elt F) arg3.view f3) (View.read (Elt F) arg4.view f4) (View.read (Elt F) arg5.view f5) (View.read (Elt F) arg6.view f6) : In F)).v591, ((In.mk (View.read (Elt F) arg1.view f1) (View.read (Elt F) arg2.view f2) (View.read (Elt F) arg3.view f3) (View.read (Elt F) arg4.view f4) (View.read (Elt F) arg5.view f5) (View.read (Elt F) arg6.view f6) : In F)).v602)
      = vnet (View.read (Elt F) arg2.view f2) (View.read (Elt F) arg3.view f3) (View.read (Elt F) arg4.view f4) (View.read (Elt F) arg5.view f5) (View.read (Elt F) arg6.view f6) (View.read (Elt F) arg1.view f1) :=
    In.net (In.mk (View.read (Elt F) arg1.view f1) (View.read (Elt F) arg2.view f2) (View.read (Elt F) arg3.view f3) (View.read (Elt F) arg4.view f4) (View.read (Elt F) arg5.view f5) (View.read (Elt F) arg6.view f6) : In F)
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    -- the one whole-block store leaves its payload; both sides of the last equation are the same term up to unfolding
    -- definitions (the comparison is the kernel's); the payload is the named value v591 (the run's names and the
    -- table's unfold to the same payloads over the same loads), which is the network's real part
    refine (View.read_writes_eq_canon _ _ _ (cover1 _)).trans ?_
    refine Eq.trans ?_ (congrArg (fun p => View.canon [(⟨r1_x, p⟩ : View.Piece (Elt F) S128x4096 .f32)]) (congrArg Prod.fst hnet))
    sl_kernel_rfl
  iexists _; isplitr
  swap; · iexact H8
  ipureintro
  -- the one whole-block store leaves its payload; both sides of the last equation are the same term up to unfolding
  -- definitions (the comparison is the kernel's); the payload is the named value v602 (the run's names and the
  -- table's unfold to the same payloads over the same loads), which is the network's imaginary part
  refine (View.read_writes_eq_canon _ _ _ (cover1 _)).trans ?_
  refine Eq.trans ?_ (congrArg (fun p => View.canon [(⟨r1_x, p⟩ : View.Piece (Elt F) S128x4096 .f32)]) (congrArg Prod.snd hnet))
  sl_kernel_rfl

/-! ## The pipeline's proof data -/

/-- The proof data of pipeline 1 on core c: the arrays as the region finds them; after the body at point t each
    input's buffer at its block and the two outputs' at out1_6 / out1_7 of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]

/-- Each input window's current staging buffer holds its block at every point, fetched there or not (the five
    weight blocks are fetched at the first point only: unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1 V c 5]; try rfl) t d).trans
    (by unfold Dat.fetched Dat.blockOf iblk1; rw [A_eq1 V c 5]; try rfl)

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Fold.lean ====
/-
  The buffer contents at each boundary of @main's five segments, as a fold from the launch memory: the two conversions
  to bf16, the product (region 0), the 372 host operations that build the five weight arrays (the 61 printed stretches
  as one list), the butterfly network (region 1), the two closing reshapes. A host stretch rewrites the buffers its
  operations write; a region leaves its arrays at what its write-backs fold to and every other buffer as entered. No
  operation and no region writes an argument array, so the fold at an argument walks back to the launch memory.
-/
import proofs.«135697_j83099027243546_2_alg».proof.Proof.K.MidFacts
import proofs.«135697_j83099027243546_2_alg».proof.Proof.K.Body0
import proofs.«135697_j83099027243546_2_alg».proof.Proof.K.Body1
import proofs.«135697_j83099027243546_2_alg».proof.Proof.Gen.Kernel.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the two conversions to bf16 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the 372 operations that build the five weight arrays (region 1's entry). -/
abbrev W3 : Dev nD → Valuation τ sig (Elt F) := fun c => StableHlo.after opsMid (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the two closing reshapes (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps2_keeps_arg0 _
    _ = W3 m ρ c (Proc.devRef .tc main_arg0) := W4_of_ne m ρ c main_arg0 (by decide)
    _ = W2 m ρ c (Proc.devRef .tc main_arg0) := opsMid_keeps_arg0 _
    _ = W1 m ρ c (Proc.devRef .tc main_arg0) := W2_of_ne m ρ c main_arg0 (by decide)
    _ = W0 m ρ c (Proc.devRef .tc main_arg0) := hostOps0_keeps_arg0 _
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps2_keeps_arg1 _
    _ = W3 m ρ c (Proc.devRef .tc main_arg1) := W4_of_ne m ρ c main_arg1 (by decide)
    _ = W2 m ρ c (Proc.devRef .tc main_arg1) := opsMid_keeps_arg1 _
    _ = W1 m ρ c (Proc.devRef .tc main_arg1) := W2_of_ne m ρ c main_arg1 (by decide)
    _ = W0 m ρ c (Proc.devRef .tc main_arg1) := hostOps0_keeps_arg1 _
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := hostOps2_keeps_arg2 _
    _ = W3 m ρ c (Proc.devRef .tc main_arg2) := W4_of_ne m ρ c main_arg2 (by decide)
    _ = W2 m ρ c (Proc.devRef .tc main_arg2) := opsMid_keeps_arg2 _
    _ = W1 m ρ c (Proc.devRef .tc main_arg2) := W2_of_ne m ρ c main_arg2 (by decide)
    _ = W0 m ρ c (Proc.devRef .tc main_arg2) := hostOps0_keeps_arg2 _
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := hostOps2_keeps_arg3 _
    _ = W3 m ρ c (Proc.devRef .tc main_arg3) := W4_of_ne m ρ c main_arg3 (by decide)
    _ = W2 m ρ c (Proc.devRef .tc main_arg3) := opsMid_keeps_arg3 _
    _ = W1 m ρ c (Proc.devRef .tc main_arg3) := W2_of_ne m ρ c main_arg3 (by decide)
    _ = W0 m ρ c (Proc.devRef .tc main_arg3) := hostOps0_keeps_arg3 _
    _ = m ((c : Thread nD τ).loc main_arg3) := rfl

end Cert.Kernel.Hand

end
-- ==== Proof.K.Run.lean ====
/-
  THE RUN of the kernel program: @main as five segments — the two conversions to bf16, the product (region 0), the 372
  host operations that build the five weight arrays (the 61 printed stretches as one), the butterfly network (region 1),
  the two closing reshapes — over the thread state "every unscoped buffer at the boundary's contents, the generator
  register at some state, nothing owed". Each region splits its arrays out of the unscoped buffers at entry and puts
  them back at the exit contents; region 0's invariant also carries the accumulator scratch, taken from the scoped
  buffers at entry and given back at exit. From the launch every weakly fair execution terminates and every final state
  holds, at each unscoped buffer, the last boundary's contents `W5`; the frame claim (the four argument arrays end as
  launched) is that statement read at the arguments.
-/
import proofs.«135697_j83099027243546_2_alg».proof.Proof.K.Fold
import proofs.«135697_j83099027243546_2_alg».proof.Proof.K.MidFacts
import proofs.«135697_j83099027243546_2_alg».proof.Proof.K.Body0
import proofs.«135697_j83099027243546_2_alg».proof.Proof.K.Body1
import proofs.«135697_j83099027243546_2_alg».proof.Proof.Gen.Kernel.Launch
import proofs.«135697_j83099027243546_2_alg».proof.Proof.Gen.Kernel.Skeleton
import proofs.«135697_j83099027243546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the launch facts' decided enumerations recurse once per reference
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at the fold of the stretch over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

-- unifying a library lemma stated over the pinned configuration with the printed one unfolds plain definitions in a
-- metavariable's type
set_option backward.isDefEq.respectTransparency.types false in
/-- REGION 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (V1 m ρ) c _
  hout c := hout0 (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- REGION 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the two conversions, the product, the 372 operations that build the weights (the 61
    printed stretches as one), the butterfly network, the two closing reshapes. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg opsMid opsMid_sub opsMid_fresh (W2 m ρ)),
    .region (reg1 m ρ),
    .host (hseg hostOps2 hostOps2_sub hostOps2_fresh (W4 m ρ)) ]
/-- @main IS the run of the segments: the printed chain of 65 items, then the segments' run against that chain — the
    same operations in the same order, the 61 middle items bound into one. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post that follows from the final contents: from any memory with zero counters every weakly fair
    execution of @main on the TensorCores terminates, nothing faulting, and in every final state each unscoped buffer of
    each core holds the last boundary's contents `W5`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- Every final state names every unscoped buffer's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_post m ρ fun _ h => h

/-- THE FRAME, at any `F`: @main runs and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.Kernel.Hand

end
-- ==== Proof.KI.Mid.lean ====
/-
  The host operations of @main between the two kernel regions, as one list in program order: the 372 operations that
  build the five full-width weight arrays (own-lane and partner-lane weights for the real and the imaginary tables, and
  the 0/1 mask of the lower half of each block) from `rconvs` and `iconvs`.
-/
import proofs.«135697_j83099027243546_2_alg».proof.Proof.Gen.KernelIdeal.Launch

set_option maxRecDepth 3072

noncomputable section

namespace Cert.KernelIdeal.Hand

open Idealize.ShloMosaic Idealize.ShloMosaic.TcCoe Cert.KernelIdeal Cert.KernelIdeal.Gen

variable {F : FTy → Type} [FloatOps F]

/-- The middle stretches of @main, in order. -/
abbrev opsMid : List (HloOp τ sig (Elt F)) :=
  List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60]

end Cert.KernelIdeal.Hand

end
-- ==== Proof.KI.MidFacts.lean ====
/-
  Bookkeeping of the host operations of @main around and between the two kernel regions, at any float instance:
  every operation touches TensorCore references only and allocates nothing, and each stretch leaves the buffers it does
  not write as they were. For the last, every operation of a stretch writes exactly ONE reference, and that reference is
  none of a short list (the four arguments; for the middle stretches also the first region's output): a buffer on the
  list therefore reads after the stretch what it read before.
-/
import proofs.«135697_j83099027243546_2_alg».proof.Proof.KI.Mid

set_option maxRecDepth 16384

noncomputable section

namespace Cert.KernelIdeal.Hand

open Idealize.ShloMosaic Idealize.ShloMosaic.TcCoe Cert.KernelIdeal Cert.KernelIdeal.Gen

variable {F : FTy → Type} [FloatOps F]

/-- A property of every element of every list holds of every element of the concatenation. -/
theorem forall_flatten {α : Type _} {p : α → Prop} (L : List (List α)) (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

/-- Every operation writes exactly one TensorCore reference, and that one is not on the list `avoid`. -/
abbrev WritesAway (avoid : List (Ref sig .tc)) (ops : List (HloOp τ sig (Elt F))) : Prop :=
  ops.Forall fun op => ∃ y : Ref sig .tc, op.writes = {Proc.devRef .tc y} ∧ y ∉ avoid

/-- A reference on the list reads after the operations what it read before: none of them writes it. -/
theorem keeps_of_away {avoid : List (Ref sig .tc)} {ops : List (HloOp τ sig (Elt F))} (h : WritesAway avoid ops)
    (x : Ref sig .tc) (hx : x ∈ avoid) (U : Valuation τ sig (Elt F)) :
    StableHlo.after ops U (Proc.devRef .tc x) = U (Proc.devRef .tc x) :=
  StableHlo.after_of_forall_not_mem ops U fun op hop hb => by
    obtain ⟨y, hw, hy⟩ := List.forall_iff_forall_mem.mp h op hop
    rw [hw, Finset.mem_singleton] at hb
    exact hy (Proc.devRef_injective _ hb ▸ hx)

/-! ## Only TensorCore references -/

/-- The middle stretches touch TensorCore references only: stretch by stretch, from the generated facts. -/
theorem opsMid_sub : (opsMid : List (HloOp τ sig (Elt F))).Forall fun op => op.bufs ⊆ StableHlo.tcRefs τ sig :=
  forall_flatten _
    ⟨hostOps1_sub, hostOps1_1_sub, hostOps1_2_sub, hostOps1_3_sub, hostOps1_4_sub, hostOps1_5_sub, hostOps1_6_sub,
     hostOps1_7_sub, hostOps1_8_sub, hostOps1_9_sub, hostOps1_10_sub, hostOps1_11_sub, hostOps1_12_sub,
     hostOps1_13_sub, hostOps1_14_sub, hostOps1_15_sub, hostOps1_16_sub, hostOps1_17_sub, hostOps1_18_sub,
     hostOps1_19_sub, hostOps1_20_sub, hostOps1_21_sub, hostOps1_22_sub, hostOps1_23_sub, hostOps1_24_sub,
     hostOps1_25_sub, hostOps1_26_sub, hostOps1_27_sub, hostOps1_28_sub, hostOps1_29_sub, hostOps1_30_sub,
     hostOps1_31_sub, hostOps1_32_sub, hostOps1_33_sub, hostOps1_34_sub, hostOps1_35_sub, hostOps1_36_sub,
     hostOps1_37_sub, hostOps1_38_sub, hostOps1_39_sub, hostOps1_40_sub, hostOps1_41_sub, hostOps1_42_sub,
     hostOps1_43_sub, hostOps1_44_sub, hostOps1_45_sub, hostOps1_46_sub, hostOps1_47_sub, hostOps1_48_sub,
     hostOps1_49_sub, hostOps1_50_sub, hostOps1_51_sub, hostOps1_52_sub, hostOps1_53_sub, hostOps1_54_sub,
     hostOps1_55_sub, hostOps1_56_sub, hostOps1_57_sub, hostOps1_58_sub, hostOps1_59_sub, hostOps1_60_sub⟩

/-! ## Nothing is allocated -/

/-- No operation before the first region allocates a buffer. -/
theorem hostOps0_fresh : (hostOps0 : List (HloOp τ sig (Elt F))).Forall fun op => op.fresh = ∅ := by
  simp only [List.Forall]; repeat' constructor

/-- No operation after the second region allocates a buffer. -/
theorem hostOps2_fresh : (hostOps2 : List (HloOp τ sig (Elt F))).Forall fun op => op.fresh = ∅ := by
  simp only [List.Forall]; repeat' constructor

set_option maxHeartbeats 4000000 in
/-- No operation between the regions allocates a buffer. -/
theorem opsMid_fresh : (opsMid : List (HloOp τ sig (Elt F))).Forall fun op => op.fresh = ∅ := by
  refine forall_flatten _ ?_
  simp only [List.Forall]
  repeat' constructor

/-! ## What each stretch leaves alone -/

/-- The two converts before the first region write neither argument. -/
theorem hostOps0_away : WritesAway (F := F) [main_arg0, main_arg1, main_arg2, main_arg3] hostOps0 := by
  simp only [List.Forall]
  repeat' apply And.intro
  all_goals exact ⟨_, rfl, by decide⟩

/-- The two reshapes after the second region write neither argument. -/
theorem hostOps2_away : WritesAway (F := F) [main_arg0, main_arg1, main_arg2, main_arg3] hostOps2 := by
  simp only [List.Forall]
  repeat' apply And.intro
  all_goals exact ⟨_, rfl, by decide⟩

set_option maxHeartbeats 4000000 in
/-- The operations between the regions write neither an argument nor the first region's output. -/
theorem opsMid_away : WritesAway (F := F) [main_arg0, main_arg1, main_arg2, main_arg3, main_v2] opsMid := by
  refine forall_flatten _ ?_
  simp only [List.Forall]
  repeat' apply And.intro
  all_goals exact ⟨_, rfl, by decide⟩

variable (U : Valuation τ sig (Elt F))

theorem opsMid_keeps_arg0 : StableHlo.after opsMid U (Proc.devRef .tc main_arg0) = U (Proc.devRef .tc main_arg0) :=
  keeps_of_away opsMid_away main_arg0 (by decide) U
theorem opsMid_keeps_arg1 : StableHlo.after opsMid U (Proc.devRef .tc main_arg1) = U (Proc.devRef .tc main_arg1) :=
  keeps_of_away opsMid_away main_arg1 (by decide) U
theorem opsMid_keeps_arg2 : StableHlo.after opsMid U (Proc.devRef .tc main_arg2) = U (Proc.devRef .tc main_arg2) :=
  keeps_of_away opsMid_away main_arg2 (by decide) U
theorem opsMid_keeps_arg3 : StableHlo.after opsMid U (Proc.devRef .tc main_arg3) = U (Proc.devRef .tc main_arg3) :=
  keeps_of_away opsMid_away main_arg3 (by decide) U
theorem opsMid_keeps_v2 : StableHlo.after opsMid U (Proc.devRef .tc main_v2) = U (Proc.devRef .tc main_v2) :=
  keeps_of_away opsMid_away main_v2 (by decide) U

theorem hostOps0_keeps_arg0 : StableHlo.after hostOps0 U (Proc.devRef .tc main_arg0) = U (Proc.devRef .tc main_arg0) :=
  keeps_of_away hostOps0_away main_arg0 (by decide) U
theorem hostOps0_keeps_arg1 : StableHlo.after hostOps0 U (Proc.devRef .tc main_arg1) = U (Proc.devRef .tc main_arg1) :=
  keeps_of_away hostOps0_away main_arg1 (by decide) U
theorem hostOps0_keeps_arg2 : StableHlo.after hostOps0 U (Proc.devRef .tc main_arg2) = U (Proc.devRef .tc main_arg2) :=
  keeps_of_away hostOps0_away main_arg2 (by decide) U
theorem hostOps0_keeps_arg3 : StableHlo.after hostOps0 U (Proc.devRef .tc main_arg3) = U (Proc.devRef .tc main_arg3) :=
  keeps_of_away hostOps0_away main_arg3 (by decide) U

theorem hostOps2_keeps_arg0 : StableHlo.after hostOps2 U (Proc.devRef .tc main_arg0) = U (Proc.devRef .tc main_arg0) :=
  keeps_of_away hostOps2_away main_arg0 (by decide) U
theorem hostOps2_keeps_arg1 : StableHlo.after hostOps2 U (Proc.devRef .tc main_arg1) = U (Proc.devRef .tc main_arg1) :=
  keeps_of_away hostOps2_away main_arg1 (by decide) U
theorem hostOps2_keeps_arg2 : StableHlo.after hostOps2 U (Proc.devRef .tc main_arg2) = U (Proc.devRef .tc main_arg2) :=
  keeps_of_away hostOps2_away main_arg2 (by decide) U
theorem hostOps2_keeps_arg3 : StableHlo.after hostOps2 U (Proc.devRef .tc main_arg3) = U (Proc.devRef .tc main_arg3) :=
  keeps_of_away hostOps2_away main_arg3 (by decide) U

end Cert.KernelIdeal.Hand

end
-- ==== Proof.KI.Body0.lean ====
/-
  REGION 0 of the kernel program: the K-blocked matrix product.

  The grid is 8 × 4: point `n` is the pair (i, k) with `k = n % 4` the position along the contraction axis. The body keeps a
  scratch accumulator of the output block's shape. At `k = 0` it first stores zeros into the scratch; at every point it then
  stores `scratch + A·B` back into the scratch (A the [256,1024] block of the left operand, B the [1024,4096] block of the
  right operand) and copies the scratch into the output window's buffer. So after point `n` the scratch — and the output
  buffer — hold `accAt0 n`: the partial sum of the products of the k-blocks met so far in the current row of blocks.

  The scratch is carried from point to point by the region's invariant `Φ`: before the first point the invariant is the
  launch's (every scoped buffer that is no staging buffer at some contents, the generator register at some state); after
  point `n` it holds the scratch at `accAt0 n`, the other scoped buffers at some contents and the generator register.
-/
import proofs.«135697_j83099027243546_2_alg».proof.Proof.Gen.KernelIdeal.Launch
import proofs.«135697_j83099027243546_2_alg».proof.Proof.Gen.KernelIdeal.Skeleton
import proofs.«135697_j83099027243546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

theorem hz : (![0, 0] : Fin 2 → Nat) = fun _ => 0 := funext fun a => by fin_cases a <;> rfl

/-- A load of the whole buffer after stores the last of which filled it reads that store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What stores the last of which filled the buffer leave reads as that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, View.mem_set_unit_zero rfl inb y⟩),
    View.canon_cons_unit_zero rfl]

/-! ## The body's conditional -/

/-- The condition of the body's conditional, from the grid coordinates: the position along the contraction axis is zero. -/
abbrev cond0 (i : grid0.Coords) : Prop :=
  (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-! ## The body's triple, in its two cases -/

set_option maxHeartbeats 1000000 in
/-- At the first point of a row of blocks: the scratch, at anything, is zeroed, then receives `0 + A·B`, which the output's
    buffer receives too. -/
theorem sound_kernel0_reset (c : Dev nD) (E : Set ℕ) (i : grid0.Coords)
    (arg2 : Memref sig .tc .vmem S256x1024 .bf16) (harg2 : arg2.IsWhole) (arg3 : Memref sig .tc .vmem S1024x4096 .bf16) (harg3 : arg3.IsWhole)
    (arg4 : Memref sig .tc .vmem S256x4096 .f32) (harg4 : arg4.IsWhole) (arg5 : Memref sig .tc .vmem S256x4096 .f32) (harg5 : arg5.IsWhole)
    (hc : cond0 i) (x0 : Vec F S256x1024 .bf16) (x1 : Vec F S1024x4096 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 (k0_pay1 (F := F)) x0 x1)
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_cons_whole _ _ hz, readCov_cons_whole _ hz, View.readCov_unit_zero _ hz]
    simp only [View.readAt_eq_ld, View.ld_unit_zero (S := S256x1024) hz, View.ld_unit_zero (S := S1024x4096) hz]
  iexists _; isplitr
  swap; · iexact H5
  ipureintro
  sl_unfold_words
  rw [read_writes_cons_whole _ _ hz, View.readCov_unit_zero _ hz]
  simp only [View.readAt_eq_ld, View.ld_unit_zero (S := S256x1024) hz, View.ld_unit_zero (S := S1024x4096) hz]

set_option maxHeartbeats 1000000 in
/-- At the other points: the scratch, holding `xs`, receives `xs + A·B`, which the output's buffer receives too. -/
theorem sound_kernel0_acc (c : Dev nD) (E : Set ℕ) (i : grid0.Coords)
    (arg2 : Memref sig .tc .vmem S256x1024 .bf16) (harg2 : arg2.IsWhole) (arg3 : Memref sig .tc .vmem S1024x4096 .bf16) (harg3 : arg3.IsWhole)
    (arg4 : Memref sig .tc .vmem S256x4096 .f32) (harg4 : arg4.IsWhole) (arg5 : Memref sig .tc .vmem S256x4096 .f32) (harg5 : arg5.IsWhole)
    (hc : ¬cond0 i) (x0 : Vec F S256x1024 .bf16) (x1 : Vec F S1024x4096 .bf16) (xs : Vec F S256x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 xs x0 x1)
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_cons_whole _ _ hz, View.readCov_unit_zero _ hz]
    simp only [View.readAt_eq_ld, View.ld_unit_zero (S := S256x1024) hz, View.ld_unit_zero (S := S1024x4096) hz, View.ld_unit_zero (S := S256x4096) hz]
  iexists _; isplitr
  swap; · iexact H5
  ipureintro
  sl_unfold_words
  rw [read_writes_cons_whole _ _ hz]
  simp only [View.readAt_eq_ld, View.ld_unit_zero (S := S256x1024) hz, View.ld_unit_zero (S := S1024x4096) hz, View.ld_unit_zero (S := S256x4096) hz]

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch after point `n`: the sum so far of the products of the k-blocks of the current row of blocks. At a point
    with `n % 4 = 0` the sum starts from the zero block, elsewhere from what the point before left. -/
def accAt0 (c : Dev nD) : (n : ℕ) → n < cfg0.N → Vec F S256x4096 .f32
  | 0, hn => k0_pay2 (k0_pay1 (F := F)) (iblk0 V c 0 ⟨0, hn⟩) (iblk0 V c 1 ⟨0, hn⟩)
  | n + 1, hn =>
    k0_pay2 (if (n + 1) % 4 = 0 then k0_pay1 (F := F) else accAt0 c n (Nat.lt_of_succ_lt hn))
      (iblk0 V c 0 ⟨n + 1, hn⟩) (iblk0 V c 1 ⟨n + 1, hn⟩)

/-- At the first point of a row of blocks the sum starts from zero. -/
theorem accAt0_reset (c : Dev nD) (t : Fin cfg0.N) (h : t.val % 4 = 0) :
    accAt0 V c t.val t.isLt = k0_pay2 (k0_pay1 (F := F)) (iblk0 V c 0 t) (iblk0 V c 1 t) := by
  obtain ⟨n, hn⟩ := t
  cases n with
  | zero => rfl
  | succ n =>
    have h' : (n + 1) % 4 = 0 := h
    show k0_pay2 (if (n + 1) % 4 = 0 then k0_pay1 (F := F) else accAt0 V c n (Nat.lt_of_succ_lt hn)) _ _ = _
    rw [if_pos h']

/-- At the other points it goes on from what the point before left. -/
theorem accAt0_acc (c : Dev nD) (t : Fin cfg0.N) (h : t.val % 4 ≠ 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod 4) h
  | succ n =>
    have h' : ¬(n + 1) % 4 = 0 := h
    show k0_pay2 (if (n + 1) % 4 = 0 then k0_pay1 (F := F) else accAt0 V c n (Nat.lt_of_succ_lt hn)) _ _ = _
    rw [if_neg h']; rfl

/-! ## The invariant -/

/-- The scratch operand: a whole scoped buffer of the kernel's own. -/
abbrev scM0 : Memref sig .tc .vmem S256x4096 .f32 := Memref.whole cc0_scratch0

/-- The scoped buffers that are neither a staging buffer of this call nor its scratch, each at some contents: they pass
    through the region unread. -/
abbrev others0 (c : Dev nD) : sProp 𝕄 :=
  Pipeline.scopedRestBut (Ix := Unit) (Name := ℕ) (U := UR sig nD τ) (Lvl := ℕ) (Val := Elt F) spec0 c [cc0_scratch0]

/-- The scoped rest is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 (F := F) c) := by
  rw [Pipeline.scopedRest_split_of_list spec0 c [cc0_scratch0] (by decide) (by decide), BI.bigSepL_singleton]
  simp only [scM0, owns_whole]; try rfl

/-- The launch's invariant with the scratch split out. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA; rw [scopedRest0_split]

/-- The region's invariant before position `n`: the launch's before the first point; afterwards the scratch at what the
    point before left in it. -/
def Phi0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (accAt0 V c n hn) ∗ others0 (F := F) c) ∗ (∃ r, prngReg c r)) := rfl

theorem Phi0_pos (c : Dev nD) (n : ℕ) (h : n ≤ cfg0.N) (hz : n ≠ 0) :
    Phi0 V c n h = iprop((owns (c : Thread nD τ) scM0 fullShare (accAt0 V c (n - 1) (by omega)) ∗ others0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at the accumulator; the invariant carries the scratch; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- The invariant at a point's start, restated at `t.val`. -/
theorem Phi0_castSucc (c : Dev nD) (t : Fin cfg0.N) :
    (dat0 V c).Φ t.castSucc = Phi0 V c t.val (Nat.le_of_lt t.isLt) := by
  dsimp only [dat0]; simp only [Fin.coe_castSucc]

/-! ## The body obligation, at a generic point -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point, by cases on the position along the contraction axis: at position zero the invariant hands the
    scratch over at some contents (the launch's, or what the row of blocks before left) and the reset case runs; elsewhere
    it hands the scratch over at the sum so far and the accumulating case runs. Either way the scratch goes back into the
    invariant at this point's sum and the output's buffer holds the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ,
    after0_0, after0_1, after0_2, Phi0_castSucc]
  by_cases h0 : t.val % 4 = 0
  · rw [accAt0_reset V c t h0]
    have hpre : Phi0 V c t.val (Nat.le_of_lt t.isLt)
        ⊢ iprop(((∃ d, owns (c : Thread nD τ) scM0 fullShare d) ∗ others0 (F := F) c) ∗ (∃ r, prngReg c r)) := by
      by_cases hz0 : t.val = 0
      · rw [Phi0_zero V c _ _ hz0, PhiA0_eq]
      · rw [Phi0_pos V c _ _ hz0]
        iintro ⟨⟨HS, Ho⟩, Hg⟩
        isplitr [Hg]
        · isplitl [HS]; · iexists _; iexact HS
          iexact Ho
        iexact Hg
    iintro ⟨HΦ, Ho, ⟨%d0, H0⟩, ⟨%d1, H1⟩, ⟨%d2, H2⟩⟩
    ihave HΦ' := hpre $$ HΦ
    icases HΦ' with ⟨⟨⟨%ds, HS⟩, Hoth⟩, Hg⟩
    iapply (sound_kernel0_reset c Set.univ (grid0.coords t) _ _ _ _ _ _ _ _ ((hcond0 t).mpr h0) (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexact H2
  · rw [accAt0_acc V c t h0]
    have hz0 : t.val ≠ 0 := fun e => h0 (by rw [e])
    rw [Phi0_pos V c _ _ hz0]
    iintro ⟨⟨⟨HS, Hoth⟩, Hg⟩, Ho, ⟨%d0, H0⟩, ⟨%d1, H1⟩, ⟨%d2, H2⟩⟩
    iapply (sound_kernel0_acc c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point (whatever rides beside it is dropped). -/
theorem hin0 (c : Dev nD) (P : sProp 𝕄) :
    iprop((∃ r, prngReg c r) ∗ P
        ∗ Pipeline.scopedRest (Ix := Unit) (Name := ℕ) (U := UR sig nD τ) (Lvl := ℕ) (Val := Elt F) spec0 c)
      ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives the scoped buffers back, the scratch's contents forgotten. -/
theorem hout0' (c : Dev nD) :
    (dat0 V c).Φ (Fin.last cfg0.N)
      ⊢ iprop((∃ r, prngReg c r) ∗ (BI.emp : sProp 𝕄)
        ∗ Pipeline.scopedRest (Ix := Unit) (Name := ℕ) (U := UR sig nD τ) (Lvl := ℕ) (Val := Elt F) spec0 c) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨⟨HS, Hoth⟩, Hg⟩
  isplitl [Hg]; · iexact Hg
  isplitr; · iempintro
  isplitl [HS]; · iexists _; iexact HS
  iexact Hoth

/-- The same with the kernel's own semaphores (it has none) spelt as the region asks. -/
theorem hout0 (c : Dev nD) :
    (dat0 V c).Φ (Fin.last cfg0.N)
      ⊢ iprop((∃ r, prngReg c r) ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [Pipeline.ownSems0_none]; exact hout0' V c

end Region0

end Cert.KernelIdeal.Hand

end
-- ==== Proof.KI.VStage.lean ====
/-
  One stage of the butterfly network on a block of 128 rows, and the twelve stages in a row, as functions of the
  block and of the five weight blocks — the value the second kernel's body computes, operation for operation.

  A stage takes the pair (real part `rx`, imaginary part `ix`), two lane-rotation amounts and five full-width rows:
  own-lane and partner-lane weights of the real table (`sr`, `pr`) and of the imaginary table (`si`, `pi`), and the
  0/1 mask `mk` of the lower half of each block of lanes. The partner lane is taken from both sides and blended by the
  mask, `mk · rot_up v + (1 − mk) · rot_dn v`; a butterfly is `sf · v + pt · partner v`; the stage sends the pair to
  `(bfly_r rx − bfly_i ix, bfly_r ix + bfly_i rx)`. Stage `i` of the network rotates by `4096 − 2^i` and `2^i` and reads
  row `i` of each weight block; the network starts from `(x, 0)`.
-/
import proofs.«135697_j83099027243546_2_alg».proof.Proof.Gen.KernelIdeal
import Idealize.ShloMosaic.Lib.Pipeline.FrameBody

noncomputable section

namespace Cert.KernelIdeal.Hand

open Idealize.ShloMosaic Cert.KernelIdeal Cert.KernelIdeal.Gen

variable {F : FTy → Type} [FloatOps F]

/-- The partner lane of every lane of `v`: the row rotated by `up` where the mask is one, by `dn` where it is zero. -/
def vpartner (up dn : BitVec 32) (mk : FVec F S1x4096 .f32) (v : FVec F S128x4096 .f32) : FVec F S128x4096 .f32 :=
  have a : FVec F S128x4096 .f32 := dynamicRotate 1 up none v rotates_S128x4096_d1
  have b : FVec F S128x4096 .f32 := dynamicRotate 1 dn none v rotates_S128x4096_d1
  have ma : FVec F S128x4096 .f32 := mulf (broadcastTo S128x4096 mk broadcasts_S1x4096_S128x4096) a
  have one : FVec F S1x4096 .f32 := broadcast S1x4096 (Scalar.ofBits .f32 0x3F800000#32)
  have nm : FVec F S1x4096 .f32 := subf one mk
  have mb : FVec F S128x4096 .f32 := mulf (broadcastTo S128x4096 nm broadcasts_S1x4096_S128x4096) b
  addf ma mb

/-- A butterfly over own-lane weights `sf` and partner-lane weights `pt`: `sf · v + pt · p`, `p` the partner lanes. -/
def vbfly (sf pt : FVec F S1x4096 .f32) (v p : FVec F S128x4096 .f32) : FVec F S128x4096 .f32 :=
  addf (mulf (broadcastTo S128x4096 sf broadcasts_S1x4096_S128x4096) v)
    (mulf (broadcastTo S128x4096 pt broadcasts_S1x4096_S128x4096) p)

/-- One stage: the two partner blends, then the four butterflies, real part their difference, imaginary part their
    sum. -/
def vstage (up dn : BitVec 32) (sr pr si pi mk : FVec F S1x4096 .f32) (rx ix : FVec F S128x4096 .f32) :
    FVec F S128x4096 .f32 × FVec F S128x4096 .f32 :=
  have prx : FVec F S128x4096 .f32 := vpartner up dn mk rx
  have pix : FVec F S128x4096 .f32 := vpartner up dn mk ix
  (subf (vbfly sr pr rx prx) (vbfly si pi ix pix), addf (vbfly sr pr ix pix) (vbfly si pi rx prx))

/-- Row `i` of a `[12, 4096]` weight block lies inside it. -/
theorem inb_row (i : Fin 12) : ∀ a, (![i.val, 0] : Fin 2 → Nat) a + S1x4096.size a ≤ S12x4096.size a := by
  intro a
  fin_cases a
  · show i.val + 1 ≤ 12
    omega
  · show 0 + 4096 ≤ 4096
    omega

/-- Row `i` of a weight block, as the full-width row a stage reads. -/
def vrow (w : Vec F S12x4096 .f32) (i : Fin 12) : FVec F S1x4096 .f32 :=
  shapeCast S1x4096 (View.ld w (Rect.unit (s := S12x4096) ![i.val, 0] S1x4096.size (inb_row i))) shapeCasts_S1x4096_S1x4096

/-- Where the network starts: the block as real part, zero as imaginary part. -/
def vinit (x : Vec F S128x4096 .f32) : FVec F S128x4096 .f32 × FVec F S128x4096 .f32 :=
  (shapeCast S128x4096 x shapeCasts_S128x4096_S128x4096, broadcast S128x4096 (Scalar.ofBits .f32 0x00000000#32))

/-- Stage `i` of the network on a pair: rotations by `4096 − 2^i` and `2^i`, row `i` of each weight block. -/
def vstageAt (w2 w3 w4 w5 w6 : Vec F S12x4096 .f32) (i : Fin 12)
    (s : FVec F S128x4096 .f32 × FVec F S128x4096 .f32) : FVec F S128x4096 .f32 × FVec F S128x4096 .f32 :=
  vstage (BitVec.ofNat 32 (4096 - 2 ^ i.val)) (BitVec.ofNat 32 (2 ^ i.val))
    (vrow w2 i) (vrow w3 i) (vrow w4 i) (vrow w5 i) (vrow w6 i) s.1 s.2

/-- The pair after the first `n` stages. -/
def vnetUpTo (w2 w3 w4 w5 w6 : Vec F S12x4096 .f32) (x : Vec F S128x4096 .f32) :
    ℕ → FVec F S128x4096 .f32 × FVec F S128x4096 .f32
  | 0 => vinit x
  | n + 1 => if h : n < 12 then vstageAt w2 w3 w4 w5 w6 ⟨n, h⟩ (vnetUpTo w2 w3 w4 w5 w6 x n) else vnetUpTo w2 w3 w4 w5 w6 x n

/-- The twelve stages in a row, each bound once. -/
def vnet (w2 w3 w4 w5 w6 : Vec F S12x4096 .f32) (x : Vec F S128x4096 .f32) :
    FVec F S128x4096 .f32 × FVec F S128x4096 .f32 :=
  have s0 := vinit x
  have s1 := vstageAt w2 w3 w4 w5 w6 0 s0
  have s2 := vstageAt w2 w3 w4 w5 w6 1 s1
  have s3 := vstageAt w2 w3 w4 w5 w6 2 s2
  have s4 := vstageAt w2 w3 w4 w5 w6 3 s3
  have s5 := vstageAt w2 w3 w4 w5 w6 4 s4
  have s6 := vstageAt w2 w3 w4 w5 w6 5 s5
  have s7 := vstageAt w2 w3 w4 w5 w6 6 s6
  have s8 := vstageAt w2 w3 w4 w5 w6 7 s7
  have s9 := vstageAt w2 w3 w4 w5 w6 8 s8
  have s10 := vstageAt w2 w3 w4 w5 w6 9 s9
  have s11 := vstageAt w2 w3 w4 w5 w6 10 s10
  vstageAt w2 w3 w4 w5 w6 11 s11

/-- The network is the twelfth step of the stage-by-stage recursion. -/
theorem vnet_eq_upTo (w2 w3 w4 w5 w6 : Vec F S12x4096 .f32) (x : Vec F S128x4096 .f32) :
    vnet w2 w3 w4 w5 w6 x = vnetUpTo w2 w3 w4 w5 w6 x 12 := rfl

/-- Stage 0 with the printed constants: the rotation amounts and the row are the literals of the body's text. -/
example (w2 w3 w4 w5 w6 : Vec F S12x4096 .f32) (s : FVec F S128x4096 .f32 × FVec F S128x4096 .f32) :
    vstageAt w2 w3 w4 w5 w6 0 s
      = vstage 4095#32 1#32
          (shapeCast S1x4096 (View.ld w2 (Rect.unit (s := S12x4096) ![0, 0] S1x4096.size inb_S12x4096_S1x4096_0_0)) shapeCasts_S1x4096_S1x4096)
          (shapeCast S1x4096 (View.ld w3 (Rect.unit (s := S12x4096) ![0, 0] S1x4096.size inb_S12x4096_S1x4096_0_0)) shapeCasts_S1x4096_S1x4096)
          (shapeCast S1x4096 (View.ld w4 (Rect.unit (s := S12x4096) ![0, 0] S1x4096.size inb_S12x4096_S1x4096_0_0)) shapeCasts_S1x4096_S1x4096)
          (shapeCast S1x4096 (View.ld w5 (Rect.unit (s := S12x4096) ![0, 0] S1x4096.size inb_S12x4096_S1x4096_0_0)) shapeCasts_S1x4096_S1x4096)
          (shapeCast S1x4096 (View.ld w6 (Rect.unit (s := S12x4096) ![0, 0] S1x4096.size inb_S12x4096_S1x4096_0_0)) shapeCasts_S1x4096_S1x4096)
          s.1 s.2 := rfl

end Cert.KernelIdeal.Hand

end
-- ==== Proof.KI.In1.lean ====
/-
  The values the butterfly kernel's body hands from part to part, each under a name.

  The body is twelve butterfly stages over a block of 128 rows of 4096 lanes, printed in 13 parts; stage i reads
  row i of each of the five weight blocks. Every value a part returns to the next is one definition here, over the
  bundled six input blocks, with the payload it is computed by applied to the NAMES of the values it reads: a
  stage's result is read eight times by the next, so no term here ever holds another stage's term.
-/
import proofs.«135697_j83099027243546_2_alg».proof.Proof.Gen.KernelIdeal.Skeleton
import Idealize.ShloMosaic.Lib.Pipeline.FrameBody
import Idealize.ShloMosaic.Lib.Pipeline.Value

-- membership in a rectangle of these extents recurses once per coordinate of the long axis
set_option maxRecDepth 16384

noncomputable section

namespace Cert.KernelIdeal.Hand

open Cert.KernelIdeal Cert.KernelIdeal.Gen
open Idealize.ShloMosaic Idealize.SL.Sem

variable {F : FTy → Type} [FloatOps F]

/-! ## The body's accesses -/

/-- The whole block of 128 rows. -/
abbrev r1_x : Rect S128x4096 := Rect.unit (s := S128x4096) ![0, 0] S128x4096.size inb_S128x4096_S128x4096_0_0
/-- Row i of a weight block of 12 rows. -/
abbrev r1_w0 : Rect S12x4096 := Rect.unit (s := S12x4096) ![0, 0] S1x4096.size inb_S12x4096_S1x4096_0_0
abbrev r1_w1 : Rect S12x4096 := Rect.unit (s := S12x4096) ![1, 0] S1x4096.size inb_S12x4096_S1x4096_1_0
abbrev r1_w2 : Rect S12x4096 := Rect.unit (s := S12x4096) ![2, 0] S1x4096.size inb_S12x4096_S1x4096_2_0
abbrev r1_w3 : Rect S12x4096 := Rect.unit (s := S12x4096) ![3, 0] S1x4096.size inb_S12x4096_S1x4096_3_0
abbrev r1_w4 : Rect S12x4096 := Rect.unit (s := S12x4096) ![4, 0] S1x4096.size inb_S12x4096_S1x4096_4_0
abbrev r1_w5 : Rect S12x4096 := Rect.unit (s := S12x4096) ![5, 0] S1x4096.size inb_S12x4096_S1x4096_5_0
abbrev r1_w6 : Rect S12x4096 := Rect.unit (s := S12x4096) ![6, 0] S1x4096.size inb_S12x4096_S1x4096_6_0
abbrev r1_w7 : Rect S12x4096 := Rect.unit (s := S12x4096) ![7, 0] S1x4096.size inb_S12x4096_S1x4096_7_0
abbrev r1_w8 : Rect S12x4096 := Rect.unit (s := S12x4096) ![8, 0] S1x4096.size inb_S12x4096_S1x4096_8_0
abbrev r1_w9 : Rect S12x4096 := Rect.unit (s := S12x4096) ![9, 0] S1x4096.size inb_S12x4096_S1x4096_9_0
abbrev r1_w10 : Rect S12x4096 := Rect.unit (s := S12x4096) ![10, 0] S1x4096.size inb_S12x4096_S1x4096_10_0
abbrev r1_w11 : Rect S12x4096 := Rect.unit (s := S12x4096) ![11, 0] S1x4096.size inb_S12x4096_S1x4096_11_0

/-! ## The values the parts hand on, each under a name -/

/-- The six input blocks of the body: the data block and the five weight blocks (own-lane real, partner-lane real,
    own-lane imaginary, partner-lane imaginary, the lower-half mask). -/
structure In (F : FTy → Type) where
  x0 : Vec F S128x4096 .f32
  x1 : Vec F S12x4096 .f32
  x2 : Vec F S12x4096 .f32
  x3 : Vec F S12x4096 .f32
  x4 : Vec F S12x4096 .f32
  x5 : Vec F S12x4096 .f32

namespace In
variable (X : In F)

/-- Row r of weight block k, as the body's load reads it. -/
abbrev w1 (r : Rect S12x4096) : r.shape.Idx → Elt F .f32 := View.ld X.x1 r
abbrev w2 (r : Rect S12x4096) : r.shape.Idx → Elt F .f32 := View.ld X.x2 r
abbrev w3 (r : Rect S12x4096) : r.shape.Idx → Elt F .f32 := View.ld X.x3 r
abbrev w4 (r : Rect S12x4096) : r.shape.Idx → Elt F .f32 := View.ld X.x4 r
abbrev w5 (r : Rect S12x4096) : r.shape.Idx → Elt F .f32 := View.ld X.x5 r
/-- The data block, as the body's load reads it. -/
abbrev v0 : Vec F S128x4096 .f32 := View.ld X.x0 r1_x

/- part 1: the start (the block itself, zero) and stage 0 up to its four products -/
def v1 : FVec F S128x4096 .f32 := k1_pay3 X.v0
def v2 (_X : In F) : FVec F S128x4096 .f32 := k1_pay4 (F := F)
def v4 : FVec F S1x4096 .f32 := k1_pay5 (X.w1 r1_w0)
def v6 : FVec F S1x4096 .f32 := k1_pay6 (X.w2 r1_w0)
def v8 : FVec F S1x4096 .f32 := k1_pay7 (X.w3 r1_w0)
def v10 : FVec F S1x4096 .f32 := k1_pay8 (X.w4 r1_w0)
def v21 : FVec F S128x4096 .f32 := k1_pay10 X.v0 (X.w5 r1_w0)
def v30 : FVec F S128x4096 .f32 := k1_pay11 (X.w5 r1_w0)
def v35 : FVec F S128x4096 .f32 := k1_pay12 X.v0 (X.w1 r1_w0) (X.w2 r1_w0) (X.w5 r1_w0)
def v37 : FVec F S128x4096 .f32 := k1_pay13 (X.w3 r1_w0)
def v39 : FVec F S128x4096 .f32 := k1_pay14 (X.w4 r1_w0) (X.w5 r1_w0)
/- part 2: stage 0's results and the head of stage 1 -/
def v41 : FVec F S128x4096 .f32 := k1_pay15 X.v35 X.v37 X.v39
def v52 : FVec F S128x4096 .f32 := k1_pay16 X.v1 X.v2 X.v4 X.v6 X.v8 X.v10 X.v21 X.v30
def v54 : FVec F S1x4096 .f32 := k1_pay17 (X.w1 r1_w1)
def v56 : FVec F S1x4096 .f32 := k1_pay18 (X.w2 r1_w1)
def v58 : FVec F S1x4096 .f32 := k1_pay19 (X.w3 r1_w1)
def v60 : FVec F S1x4096 .f32 := k1_pay20 (X.w4 r1_w1)
def v71 : FVec F S128x4096 .f32 := k1_pay22 X.v35 X.v37 X.v39 (X.w5 r1_w1)
def v80 : FVec F S128x4096 .f32 := k1_pay23 X.v1 X.v2 X.v4 X.v6 X.v8 X.v10 X.v21 X.v30 (X.w5 r1_w1)
def v82 : FVec F S128x4096 .f32 := k1_pay24 X.v35 X.v37 X.v39 (X.w1 r1_w1)
def v83 : FVec F S128x4096 .f32 := k1_pay25 (X.w2 r1_w1)
/- part 3: stage 1's results and the head of stage 2 -/
def v91 : FVec F S128x4096 .f32 := k1_pay26 X.v52 X.v58 X.v60 X.v71 X.v80 X.v82 X.v83
def v102 : FVec F S128x4096 .f32 := k1_pay27 X.v41 X.v52 X.v54 X.v56 X.v58 X.v60 X.v71 X.v80
def v104 : FVec F S1x4096 .f32 := k1_pay28 (X.w1 r1_w2)
def v106 : FVec F S1x4096 .f32 := k1_pay29 (X.w2 r1_w2)
def v108 : FVec F S1x4096 .f32 := k1_pay30 (X.w3 r1_w2)
def v110 : FVec F S1x4096 .f32 := k1_pay31 (X.w4 r1_w2)
def v121 : FVec F S128x4096 .f32 := k1_pay33 X.v52 X.v58 X.v60 X.v71 X.v80 X.v82 X.v83 (X.w5 r1_w2)
def v123 : FVec F S128x4096 .f32 := k1_pay34 X.v41 X.v52 X.v54 X.v56 X.v58 X.v60 X.v71 X.v80
def v125 : FVec F S128x4096 .f32 := k1_pay35 X.v41 X.v52 X.v54 X.v56 X.v58 X.v60 X.v71 X.v80 (X.w5 r1_w2)
def v127 : FVec F S1x4096 .f32 := k1_pay36 (X.w5 r1_w2)
/- part 4: stage 2's results and the head of stage 3 -/
def v141 : FVec F S128x4096 .f32 := k1_pay38 X.v91 X.v102 X.v104 X.v106 X.v108 X.v110 X.v121 X.v123 X.v125 X.v127
def v152 : FVec F S128x4096 .f32 := k1_pay39 X.v91 X.v102 X.v104 X.v106 X.v108 X.v110 X.v121 X.v123 X.v125 X.v127
def v154 : FVec F S1x4096 .f32 := k1_pay40 (X.w1 r1_w3)
def v156 : FVec F S1x4096 .f32 := k1_pay41 (X.w2 r1_w3)
def v158 : FVec F S1x4096 .f32 := k1_pay42 (X.w3 r1_w3)
def v160 : FVec F S1x4096 .f32 := k1_pay43 (X.w4 r1_w3)
def v162 : FVec F S1x4096 .f32 := k1_pay44 (X.w5 r1_w3)
def v171 : FVec F S128x4096 .f32 := k1_pay45 X.v91 X.v102 X.v104 X.v106 X.v108 X.v110 X.v121 X.v123 X.v125 X.v127 (X.w5 r1_w3)
def v172 : FVec F S128x4096 .f32 := k1_pay46 X.v91 X.v102 X.v104 X.v106 X.v108 X.v110 X.v121 X.v123 X.v125 X.v127
/- part 5: stage 3's results and the head of stage 4 (the shift of stage 3 travels as a word) -/
def v191 : FVec F S128x4096 .f32 := k1_pay48 X.v141 X.v152 X.v154 X.v156 X.v158 X.v160 X.v162 X.v171 X.v172 8#32
def v202 : FVec F S128x4096 .f32 := k1_pay49 X.v141 X.v152 X.v154 X.v156 X.v158 X.v160 X.v162 X.v171 X.v172 8#32
def v204 : FVec F S1x4096 .f32 := k1_pay50 (X.w1 r1_w4)
def v206 : FVec F S1x4096 .f32 := k1_pay51 (X.w2 r1_w4)
def v208 : FVec F S1x4096 .f32 := k1_pay52 (X.w3 r1_w4)
def v210 : FVec F S1x4096 .f32 := k1_pay53 (X.w4 r1_w4)
def v212 : FVec F S1x4096 .f32 := k1_pay54 (X.w5 r1_w4)
def v214 : FVec F S128x4096 .f32 := k1_pay55 X.v141 X.v152 X.v154 X.v156 X.v158 X.v160 X.v162 X.v171 X.v172 8#32
def v216 : FVec F S128x4096 .f32 := k1_pay56 X.v141 X.v152 X.v154 X.v156 X.v158 X.v160 X.v162 X.v171 X.v172 8#32 (X.w5 r1_w4)
def v218 : FVec F S1x4096 .f32 := k1_pay57 (X.w5 r1_w4)
/- part 6: stage 4's results and the head of stage 5 -/
def v241 : FVec F S128x4096 .f32 := k1_pay60 X.v191 X.v202 X.v204 X.v206 X.v208 X.v210 X.v212 X.v214 X.v216 X.v218
def v252 : FVec F S128x4096 .f32 := k1_pay61 X.v191 X.v202 X.v204 X.v206 X.v208 X.v210 X.v212 X.v214 X.v216 X.v218
def v254 : FVec F S1x4096 .f32 := k1_pay62 (X.w1 r1_w5)
def v256 : FVec F S1x4096 .f32 := k1_pay63 (X.w2 r1_w5)
def v258 : FVec F S1x4096 .f32 := k1_pay64 (X.w3 r1_w5)
def v260 : FVec F S1x4096 .f32 := k1_pay65 (X.w4 r1_w5)
def v262 : FVec F S1x4096 .f32 := k1_pay66 (X.w5 r1_w5)
def v263 : FVec F S128x4096 .f32 := k1_pay67 X.v191 X.v202 X.v204 X.v206 X.v208 X.v210 X.v212 X.v214 X.v216 X.v218
/- part 7: stage 5's results and four of stage 6's rows -/
def v291 : FVec F S128x4096 .f32 := k1_pay70 X.v241 X.v252 X.v254 X.v256 X.v258 X.v260 X.v262 X.v263 32#32
def v302 : FVec F S128x4096 .f32 := k1_pay71 X.v241 X.v252 X.v254 X.v256 X.v258 X.v260 X.v262 X.v263 32#32
def v304 : FVec F S1x4096 .f32 := k1_pay72 (X.w1 r1_w6)
def v306 : FVec F S1x4096 .f32 := k1_pay73 (X.w2 r1_w6)
def v308 : FVec F S1x4096 .f32 := k1_pay74 (X.w3 r1_w6)
def v310 : FVec F S1x4096 .f32 := k1_pay75 (X.w4 r1_w6)
/- part 8: stage 6's results and three of stage 7's rows (the third as loaded) -/
def v341 : FVec F S128x4096 .f32 := k1_pay79 X.v291 X.v302 X.v304 X.v306 X.v308 X.v310 (X.w5 r1_w6)
def v352 : FVec F S128x4096 .f32 := k1_pay80 X.v291 X.v302 X.v304 X.v306 X.v308 X.v310 (X.w5 r1_w6)
def v354 : FVec F S1x4096 .f32 := k1_pay81 (X.w1 r1_w7)
def v356 : FVec F S1x4096 .f32 := k1_pay82 (X.w2 r1_w7)
def v357 : Vec F S1x4096 .f32 := X.w3 r1_w7
/- part 9: stage 7's results and the first row of stage 8 -/
def v391 : FVec F S128x4096 .f32 := k1_pay88 X.v341 X.v352 X.v354 X.v356 X.v357 (X.w4 r1_w7) (X.w5 r1_w7)
def v402 : FVec F S128x4096 .f32 := k1_pay89 X.v341 X.v352 X.v354 X.v356 X.v357 (X.w4 r1_w7) (X.w5 r1_w7)
def v404 : FVec F S1x4096 .f32 := k1_pay90 (X.w1 r1_w8)
/- part 10: stage 8's real result and the two halves of its imaginary one -/
def v441 : FVec F S128x4096 .f32 := k1_pay97 X.v391 X.v402 X.v404 (X.w2 r1_w8) (X.w3 r1_w8) (X.w4 r1_w8) (X.w5 r1_w8)
def v446 : FVec F S128x4096 .f32 := k1_pay98 X.v402 X.v404 (X.w2 r1_w8) (X.w5 r1_w8)
def v451 : FVec F S128x4096 .f32 := k1_pay99 X.v391 (X.w3 r1_w8) (X.w4 r1_w8) (X.w5 r1_w8)
/- part 11: stage 9 up to its real result -/
def v458 : FVec F S1x4096 .f32 := k1_pay103 (X.w3 r1_w9)
def v460 : FVec F S1x4096 .f32 := k1_pay104 (X.w4 r1_w9)
def v471 : FVec F S128x4096 .f32 := k1_pay106 X.v441 (X.w5 r1_w9)
def v491 : FVec F S128x4096 .f32 := k1_pay108 X.v441 X.v446 X.v451 (X.w1 r1_w9) (X.w2 r1_w9) (X.w3 r1_w9) (X.w4 r1_w9) (X.w5 r1_w9)
def v493 : FVec F S128x4096 .f32 := k1_pay109 X.v446 X.v451 (X.w1 r1_w9)
def v495 : FVec F S128x4096 .f32 := k1_pay110 X.v446 X.v451 (X.w2 r1_w9) (X.w5 r1_w9)
/- part 12: stage 9's imaginary result and stage 10 up to its four products -/
def v502 : FVec F S128x4096 .f32 := k1_pay111 X.v441 X.v458 X.v460 X.v471 X.v493 X.v495
def v504 : FVec F S1x4096 .f32 := k1_pay112 (X.w1 r1_w10)
def v506 : FVec F S1x4096 .f32 := k1_pay113 (X.w2 r1_w10)
def v508 : FVec F S1x4096 .f32 := k1_pay114 (X.w3 r1_w10)
def v510 : FVec F S1x4096 .f32 := k1_pay115 (X.w4 r1_w10)
def v521 : FVec F S128x4096 .f32 := k1_pay117 X.v491 (X.w5 r1_w10)
def v530 : FVec F S128x4096 .f32 := k1_pay118 X.v441 X.v458 X.v460 X.v471 X.v493 X.v495 (X.w5 r1_w10)
def v535 : FVec F S128x4096 .f32 := k1_pay119 X.v491 (X.w1 r1_w10) (X.w2 r1_w10) (X.w5 r1_w10)
def v537 : FVec F S128x4096 .f32 := k1_pay120 X.v441 X.v458 X.v460 X.v471 X.v493 X.v495 (X.w3 r1_w10)
def v539 : FVec F S128x4096 .f32 := k1_pay121 X.v441 X.v458 X.v460 X.v471 X.v493 X.v495 (X.w4 r1_w10) (X.w5 r1_w10)
/- part 13: stage 10's results and the head of stage 11 -/
def v541 : FVec F S128x4096 .f32 := k1_pay122 X.v535 X.v537 X.v539
def v552 : FVec F S128x4096 .f32 := k1_pay123 X.v491 X.v502 X.v504 X.v506 X.v508 X.v510 X.v521 X.v530
def v554 : FVec F S1x4096 .f32 := k1_pay124 (X.w1 r1_w11)
def v556 : FVec F S1x4096 .f32 := k1_pay125 (X.w2 r1_w11)
def v558 : FVec F S1x4096 .f32 := k1_pay126 (X.w3 r1_w11)
def v560 : FVec F S1x4096 .f32 := k1_pay127 (X.w4 r1_w11)
def v571 : FVec F S128x4096 .f32 := k1_pay129 X.v535 X.v537 X.v539 (X.w5 r1_w11)
def v580 : FVec F S128x4096 .f32 := k1_pay130 X.v491 X.v502 X.v504 X.v506 X.v508 X.v510 X.v521 X.v530 (X.w5 r1_w11)
def v582 : FVec F S128x4096 .f32 := k1_pay131 X.v535 X.v537 X.v539 (X.w1 r1_w11)
def v583 : FVec F S128x4096 .f32 := k1_pay132 (X.w2 r1_w11)
/- the root: stage 11's two results, the stored payloads -/
def v591 : FVec F S128x4096 .f32 := k1_pay1 X.v552 X.v558 X.v560 X.v571 X.v580 X.v582 X.v583
def v602 : FVec F S128x4096 .f32 := k1_pay2 X.v541 X.v552 X.v554 X.v556 X.v558 X.v560 X.v571 X.v580

end In

/-- The whole-block load reads the block. -/
theorem In.v0_eq (X : In F) : X.v0 = X.x0 :=
  View.ld_unit_zero (by funext a; fin_cases a <;> rfl) _ X.x0

end Cert.KernelIdeal.Hand

end
-- ==== Proof.KI.Net1Bridge.lean ====
/-
  The values the butterfly kernel's body stores are the twelve-stage network on the data block.

  The body's text, cut into parts, hands values from part to part under names; stage `i` of the network reads the pair
  the stage before left and row `i` of the five weight blocks. Stage by stage, the pair of named values a stage leaves is
  `vstageAt … i` of the pair it found — the same operations in the same order, so the two sides unfold to one term — and
  the start is the block itself with a zero imaginary part. Chaining the twelve equations gives the stored pair as `vnet`.
-/
import proofs.«135697_j83099027243546_2_alg».proof.Proof.KI.In1
import proofs.«135697_j83099027243546_2_alg».proof.Proof.KI.VStage

noncomputable section

namespace Cert.KernelIdeal.Hand

open Cert.KernelIdeal Cert.KernelIdeal.Gen
open Idealize.ShloMosaic

variable {F : FTy → Type} [FloatOps F]

namespace In
variable (X : In F)

/-- The start: the block as loaded, and zero. -/
theorem start_eq : (X.v1, X.v2) = vinit X.x0 := by
  show vinit X.v0 = vinit X.x0
  rw [v0_eq]

/-- Stage 0: rotations by 4095 and 1, row 0 of the weight blocks. -/
theorem stage0_eq : (X.v41, X.v52) = vstageAt X.x1 X.x2 X.x3 X.x4 X.x5 0 (X.v1, X.v2) := rfl

/-- Stage 1: rotations by 4094 and 2, row 1. -/
theorem stage1_eq : (X.v91, X.v102) = vstageAt X.x1 X.x2 X.x3 X.x4 X.x5 1 (X.v41, X.v52) := rfl

/-- Stage 2: rotations by 4092 and 4, row 2. -/
theorem stage2_eq : (X.v141, X.v152) = vstageAt X.x1 X.x2 X.x3 X.x4 X.x5 2 (X.v91, X.v102) := rfl

/-- Stage 3: rotations by 4088 and 8, row 3. -/
theorem stage3_eq : (X.v191, X.v202) = vstageAt X.x1 X.x2 X.x3 X.x4 X.x5 3 (X.v141, X.v152) := rfl

/-- Stage 4: rotations by 4080 and 16, row 4. -/
theorem stage4_eq : (X.v241, X.v252) = vstageAt X.x1 X.x2 X.x3 X.x4 X.x5 4 (X.v191, X.v202) := rfl

/-- Stage 5: rotations by 4064 and 32, row 5. -/
theorem stage5_eq : (X.v291, X.v302) = vstageAt X.x1 X.x2 X.x3 X.x4 X.x5 5 (X.v241, X.v252) := rfl

/-- Stage 6: rotations by 4032 and 64, row 6. -/
theorem stage6_eq : (X.v341, X.v352) = vstageAt X.x1 X.x2 X.x3 X.x4 X.x5 6 (X.v291, X.v302) := rfl

/-- Stage 7: rotations by 3968 and 128, row 7. -/
theorem stage7_eq : (X.v391, X.v402) = vstageAt X.x1 X.x2 X.x3 X.x4 X.x5 7 (X.v341, X.v352) := rfl

/-- Stage 8: rotations by 3840 and 256, row 8. Its imaginary part crosses a cut of the text as its two summands. -/
theorem stage8_eq : (X.v441, addf X.v446 X.v451) = vstageAt X.x1 X.x2 X.x3 X.x4 X.x5 8 (X.v391, X.v402) := rfl

/-- Stage 9: rotations by 3584 and 512, row 9. -/
theorem stage9_eq : (X.v491, X.v502) = vstageAt X.x1 X.x2 X.x3 X.x4 X.x5 9 (X.v441, addf X.v446 X.v451) := rfl

/-- Stage 10: rotations by 3072 and 1024, row 10. -/
theorem stage10_eq : (X.v541, X.v552) = vstageAt X.x1 X.x2 X.x3 X.x4 X.x5 10 (X.v491, X.v502) := rfl

/-- Stage 11: rotations by 2048 both ways, row 11. -/
theorem stage11_eq : (X.v591, X.v602) = vstageAt X.x1 X.x2 X.x3 X.x4 X.x5 11 (X.v541, X.v552) := rfl

/-- The two values the body stores are the two parts of the twelve-stage network on the data block. -/
theorem net : (X.v591, X.v602) = vnet X.x1 X.x2 X.x3 X.x4 X.x5 X.x0 := by
  rw [stage11_eq, stage10_eq, stage9_eq, stage8_eq, stage7_eq, stage6_eq, stage5_eq, stage4_eq, stage3_eq, stage2_eq,
    stage1_eq, stage0_eq, start_eq]
  rfl

end In

end Cert.KernelIdeal.Hand

end
-- ==== Proof.KI.Body1.lean ====
/-
  REGION 1 of the kernel program, the frame half of the butterfly kernel: what its body leaves in the two output
  windows' buffers as terms over the six input blocks, the body's triple, the pipeline's proof data and the body
  obligation, all at a parameter V (the TensorCore's buffer contents when the region is entered) and at any F.

  The values the body's parts hand on are named in KI/In1.lean; the network they compute is KI/VStage.lean's.
-/
import proofs.«135697_j83099027243546_2_alg».proof.Proof.Gen.KernelIdeal.Launch
import proofs.«135697_j83099027243546_2_alg».proof.Proof.Gen.KernelIdeal.Skeleton
import proofs.«135697_j83099027243546_2_alg».proof.Proof.Gen.KernelIdeal.Points
import proofs.«135697_j83099027243546_2_alg».proof.Proof.KI.VStage
import proofs.«135697_j83099027243546_2_alg».proof.Proof.KI.In1
import proofs.«135697_j83099027243546_2_alg».proof.Proof.KI.Net1Bridge
import Idealize.ShloMosaic.Lib.Pipeline.FrameBody
import Idealize.ShloMosaic.Lib.Pipeline.Value
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer -/

/-- Window 6's staging buffer after the body, from the input windows' blocks: the real part of the twelve-stage
    network on the data block, left by the one whole-block store. -/
def out1_6 (x0 : Vec F S128x4096 .f32) (x1 x2 x3 x4 x5 : Vec F S12x4096 .f32) : Vec F S128x4096 .f32 :=
  View.canon [⟨r1_x, (vnet x1 x2 x3 x4 x5 x0).1⟩]
/-- Window 7's staging buffer after the body: the imaginary part. -/
def out1_7 (x0 : Vec F S128x4096 .f32) (x1 x2 x3 x4 x5 : Vec F S12x4096 .f32) : Vec F S128x4096 .f32 :=
  View.canon [⟨r1_x, (vnet x1 x2 x3 x4 x5 x0).2⟩]

/-- One store of the whole block leaves its payload: the outputs ARE the network's two parts. -/
theorem out1_eq_vnet (x0 : Vec F S128x4096 .f32) (x1 x2 x3 x4 x5 : Vec F S12x4096 .f32) :
    out1_6 x0 x1 x2 x3 x4 x5 = (vnet x1 x2 x3 x4 x5 x0).1 ∧ out1_7 x0 x1 x2 x3 x4 x5 = (vnet x1 x2 x3 x4 x5 x0).2 :=
  ⟨View.canon_unit_zero (by funext a; fin_cases a <;> rfl) _ _, View.canon_unit_zero (by funext a; fin_cases a <;> rfl) _ _⟩

/-- The one store is of the whole block, so it covers the buffer. -/
theorem cover1 (p0 : Vec F S128x4096 .f32) (y : S128x4096.Idx) :
    ∃ pc ∈ ([⟨r1_x, p0⟩] : List (View.Piece (Elt F) S128x4096 .f32)), y ∈ pc.1.set :=
  View.cover_of_tiled [⟨r1_x, p0⟩] S128x4096.size (by rfl) y

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple -/

-- one elaboration step over 808 statements in 13 parts
set_option maxHeartbeats 4000000 in
/-- The kernel body on whole staging memrefs, the six inputs' at read contents x0 … x5 and the two outputs' at
    anything, runs to the continuation holding the inputs' as they were and the outputs' at out1_6 / out1_7 of the
    inputs'. -/
theorem sound_kernel1 (c : Dev nD) (E : Set ℕ) (i : grid1.Coords) (arg1 : Memref sig .tc .vmem S128x4096 .f32) (harg1 : arg1.IsWhole) (arg2 : Memref sig .tc .vmem S12x4096 .f32) (harg2 : arg2.IsWhole) (arg3 : Memref sig .tc .vmem S12x4096 .f32) (harg3 : arg3.IsWhole) (arg4 : Memref sig .tc .vmem S12x4096 .f32) (harg4 : arg4.IsWhole) (arg5 : Memref sig .tc .vmem S12x4096 .f32) (harg5 : arg5.IsWhole) (arg6 : Memref sig .tc .vmem S12x4096 .f32) (harg6 : arg6.IsWhole) (arg7 : Memref sig .tc .vmem S128x4096 .f32) (harg7 : arg7.IsWhole) (arg8 : Memref sig .tc .vmem S128x4096 .f32) (harg8 : arg8.IsWhole)
    (x0 : Vec F S128x4096 .f32) (x1 x2 x3 x4 x5 : Vec F S12x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__butterfly_kernel i arg1 harg1 arg2 harg2 arg3 harg3 arg4 harg4 arg5 harg5 arg6 harg6 arg7 harg7 arg8 harg8) K := by
  simp only [cc1__butterfly_kernel_eq_skeleton]; unfold cc1__butterfly_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  -- the named values at these inputs are the network's two parts
  have hnet : (((In.mk (View.read (Elt F) arg1.view f1) (View.read (Elt F) arg2.view f2) (View.read (Elt F) arg3.view f3) (View.read (Elt F) arg4.view f4) (View.read (Elt F) arg5.view f5) (View.read (Elt F) arg6.view f6) : In F)).v591, ((In.mk (View.read (Elt F) arg1.view f1) (View.read (Elt F) arg2.view f2) (View.read (Elt F) arg3.view f3) (View.read (Elt F) arg4.view f4) (View.read (Elt F) arg5.view f5) (View.read (Elt F) arg6.view f6) : In F)).v602)
      = vnet (View.read (Elt F) arg2.view f2) (View.read (Elt F) arg3.view f3) (View.read (Elt F) arg4.view f4) (View.read (Elt F) arg5.view f5) (View.read (Elt F) arg6.view f6) (View.read (Elt F) arg1.view f1) :=
    In.net (In.mk (View.read (Elt F) arg1.view f1) (View.read (Elt F) arg2.view f2) (View.read (Elt F) arg3.view f3) (View.read (Elt F) arg4.view f4) (View.read (Elt F) arg5.view f5) (View.read (Elt F) arg6.view f6) : In F)
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    -- the one whole-block store leaves its payload; both sides of the last equation are the same term up to unfolding
    -- definitions (the comparison is the kernel's); the payload is the named value v591 (the run's names and the
    -- table's unfold to the same payloads over the same loads), which is the network's real part
    refine (View.read_writes_eq_canon _ _ _ (cover1 _)).trans ?_
    refine Eq.trans ?_ (congrArg (fun p => View.canon [(⟨r1_x, p⟩ : View.Piece (Elt F) S128x4096 .f32)]) (congrArg Prod.fst hnet))
    sl_kernel_rfl
  iexists _; isplitr
  swap; · iexact H8
  ipureintro
  -- the one whole-block store leaves its payload; both sides of the last equation are the same term up to unfolding
  -- definitions (the comparison is the kernel's); the payload is the named value v602 (the run's names and the
  -- table's unfold to the same payloads over the same loads), which is the network's imaginary part
  refine (View.read_writes_eq_canon _ _ _ (cover1 _)).trans ?_
  refine Eq.trans ?_ (congrArg (fun p => View.canon [(⟨r1_x, p⟩ : View.Piece (Elt F) S128x4096 .f32)]) (congrArg Prod.snd hnet))
  sl_kernel_rfl

/-! ## The pipeline's proof data -/

/-- The proof data of pipeline 1 on core c: the arrays as the region finds them; after the body at point t each
    input's buffer at its block and the two outputs' at out1_6 / out1_7 of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]

/-- Each input window's current staging buffer holds its block at every point, fetched there or not (the five
    weight blocks are fetched at the first point only: unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1 V c 5]; try rfl) t d).trans
    (by unfold Dat.fetched Dat.blockOf iblk1; rw [A_eq1 V c 5]; try rfl)

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Fold.lean ====
/-
  The buffer contents at each boundary of @main's five segments, as a fold from the launch memory: the two conversions
  to bf16, the product (region 0), the 372 host operations that build the five weight arrays (the 61 printed stretches
  as one list), the butterfly network (region 1), the two closing reshapes. A host stretch rewrites the buffers its
  operations write; a region leaves its arrays at what its write-backs fold to and every other buffer as entered. No
  operation and no region writes an argument array, so the fold at an argument walks back to the launch memory.
-/
import proofs.«135697_j83099027243546_2_alg».proof.Proof.KI.MidFacts
import proofs.«135697_j83099027243546_2_alg».proof.Proof.KI.Body0
import proofs.«135697_j83099027243546_2_alg».proof.Proof.KI.Body1
import proofs.«135697_j83099027243546_2_alg».proof.Proof.Gen.KernelIdeal.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the two conversions to bf16 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the 372 operations that build the five weight arrays (region 1's entry). -/
abbrev W3 : Dev nD → Valuation τ sig (Elt F) := fun c => StableHlo.after opsMid (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the two closing reshapes (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps2_keeps_arg0 _
    _ = W3 m ρ c (Proc.devRef .tc main_arg0) := W4_of_ne m ρ c main_arg0 (by decide)
    _ = W2 m ρ c (Proc.devRef .tc main_arg0) := opsMid_keeps_arg0 _
    _ = W1 m ρ c (Proc.devRef .tc main_arg0) := W2_of_ne m ρ c main_arg0 (by decide)
    _ = W0 m ρ c (Proc.devRef .tc main_arg0) := hostOps0_keeps_arg0 _
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps2_keeps_arg1 _
    _ = W3 m ρ c (Proc.devRef .tc main_arg1) := W4_of_ne m ρ c main_arg1 (by decide)
    _ = W2 m ρ c (Proc.devRef .tc main_arg1) := opsMid_keeps_arg1 _
    _ = W1 m ρ c (Proc.devRef .tc main_arg1) := W2_of_ne m ρ c main_arg1 (by decide)
    _ = W0 m ρ c (Proc.devRef .tc main_arg1) := hostOps0_keeps_arg1 _
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := hostOps2_keeps_arg2 _
    _ = W3 m ρ c (Proc.devRef .tc main_arg2) := W4_of_ne m ρ c main_arg2 (by decide)
    _ = W2 m ρ c (Proc.devRef .tc main_arg2) := opsMid_keeps_arg2 _
    _ = W1 m ρ c (Proc.devRef .tc main_arg2) := W2_of_ne m ρ c main_arg2 (by decide)
    _ = W0 m ρ c (Proc.devRef .tc main_arg2) := hostOps0_keeps_arg2 _
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := hostOps2_keeps_arg3 _
    _ = W3 m ρ c (Proc.devRef .tc main_arg3) := W4_of_ne m ρ c main_arg3 (by decide)
    _ = W2 m ρ c (Proc.devRef .tc main_arg3) := opsMid_keeps_arg3 _
    _ = W1 m ρ c (Proc.devRef .tc main_arg3) := W2_of_ne m ρ c main_arg3 (by decide)
    _ = W0 m ρ c (Proc.devRef .tc main_arg3) := hostOps0_keeps_arg3 _
    _ = m ((c : Thread nD τ).loc main_arg3) := rfl

end Cert.KernelIdeal.Hand

end
-- ==== Proof.KI.Run.lean ====
/-
  THE RUN of the kernel program: @main as five segments — the two conversions to bf16, the product (region 0), the 372
  host operations that build the five weight arrays (the 61 printed stretches as one), the butterfly network (region 1),
  the two closing reshapes — over the thread state "every unscoped buffer at the boundary's contents, the generator
  register at some state, nothing owed". Each region splits its arrays out of the unscoped buffers at entry and puts
  them back at the exit contents; region 0's invariant also carries the accumulator scratch, taken from the scoped
  buffers at entry and given back at exit. From the launch every weakly fair execution terminates and every final state
  holds, at each unscoped buffer, the last boundary's contents `W5`; the frame claim (the four argument arrays end as
  launched) is that statement read at the arguments.
-/
import proofs.«135697_j83099027243546_2_alg».proof.Proof.KI.Fold
import proofs.«135697_j83099027243546_2_alg».proof.Proof.KI.MidFacts
import proofs.«135697_j83099027243546_2_alg».proof.Proof.KI.Body0
import proofs.«135697_j83099027243546_2_alg».proof.Proof.KI.Body1
import proofs.«135697_j83099027243546_2_alg».proof.Proof.Gen.KernelIdeal.Launch
import proofs.«135697_j83099027243546_2_alg».proof.Proof.Gen.KernelIdeal.Skeleton
import proofs.«135697_j83099027243546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the launch facts' decided enumerations recurse once per reference
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at the fold of the stretch over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

-- unifying a library lemma stated over the pinned configuration with the printed one unfolds plain definitions in a
-- metavariable's type
set_option backward.isDefEq.respectTransparency.types false in
/-- REGION 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (V1 m ρ) c _
  hout c := hout0 (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- REGION 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the two conversions, the product, the 372 operations that build the weights (the 61
    printed stretches as one), the butterfly network, the two closing reshapes. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg opsMid opsMid_sub opsMid_fresh (W2 m ρ)),
    .region (reg1 m ρ),
    .host (hseg hostOps2 hostOps2_sub hostOps2_fresh (W4 m ρ)) ]
/-- @main IS the run of the segments: the printed chain of 65 items, then the segments' run against that chain — the
    same operations in the same order, the 61 middle items bound into one. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post that follows from the final contents: from any memory with zero counters every weakly fair
    execution of @main on the TensorCores terminates, nothing faulting, and in every final state each unscoped buffer of
    each core holds the last boundary's contents `W5`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- Every final state names every unscoped buffer's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_post m ρ fun _ h => h

/-- THE FRAME, at any `F`: @main runs and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.KernelIdeal.Hand

end
-- ==== Proof.KV.HostVals.lean ====
/-
  The host operations of @main around the two kernel regions, read as values on the extended reals.

  Before the first region the signal and the permutation matrix are converted to a shorter float format: on the
  extended reals a change of format is the identity, so the two converted arrays ARE the two arguments. After the second
  region each of its two output arrays `[2048, 4096]` is reshaped to `[2048, 1, 4096]`: entry `(b, 0, n)` of the result is
  entry `(b, n)` of the output (the same row-major position, `b * 4096 + n`).
-/
import proofs.«135697_j83099027243546_2_alg».proof.Proof.Gen.KernelIdeal.Launch
import Idealize.ShloMosaic.Lib.Pipeline.Value
import Idealize.ShloMosaic.Lib.ValueIdx

noncomputable section

namespace Cert.KernelIdeal.HandV

open Idealize.ShloMosaic Idealize.ShloMosaic.TcCoe Idealize.ShloMosaic.ValueIdx Cert.KernelIdeal Cert.KernelIdeal.Gen

variable (U : Valuation τ sig (Elt Ideal))

/-! ## Before the first region -/

/-- The converted signal is the signal. -/
theorem hostOps0_v0 :
    (StableHlo.after hostOps0 U (Proc.devRef .tc main_v0) : S2048x4096.Idx → EReal) = U (Proc.devRef .tc main_arg0) := by
  after_results; rfl

/-- The converted permutation matrix is the permutation matrix. -/
theorem hostOps0_v1 :
    (StableHlo.after hostOps0 U (Proc.devRef .tc main_v1) : S4096x4096.Idx → EReal) = U (Proc.devRef .tc main_arg1) := by
  after_results; rfl

/-! ## After the second region -/

/-- Entry `(b, z, n)` of `[2048, 1, 4096]` and entry `(b, n)` of `[2048, 4096]` sit at the same row-major position. -/
theorem pos_eq (b : Fin 2048) (z : Fin 1) (n : Fin 4096) :
    (S2048x4096.rowMajor (ix2 b n)).val = (S2048x1x4096.rowMajor (ix3 b z n)).val := by
  rw [Shape.rowMajor_val_two, Shape.rowMajor_val_three]
  show b.val * 4096 + n.val = (b.val * 1 + z.val) * 4096 + n.val
  have := z.isLt
  omega

/-- The first result at `(b, z, n)` is the second region's first output at `(b, n)`. -/
theorem hostOps2_v441 (b : Fin 2048) (z : Fin 1) (n : Fin 4096) :
    (StableHlo.after hostOps2 U (Proc.devRef .tc main_v441) : S2048x1x4096.Idx → EReal) (ix3 b z n)
      = (U (Proc.devRef .tc main_v440_0) : S2048x4096.Idx → EReal) (ix2 b n) := by
  have e : (StableHlo.after hostOps2 U (Proc.devRef .tc main_v441) : S2048x1x4096.Idx → EReal)
      = shapeCast S2048x1x4096 (U (Proc.devRef .tc main_v440_0) : S2048x4096.Idx → EReal)
          shapeCasts_S2048x4096_S2048x1x4096 := by
    after_results; rfl
  rw [e]
  exact shapeCast_apply _ _ (ix3 b z n) (ix2 b n) (pos_eq b z n)

/-- The second result at `(b, z, n)` is the second region's second output at `(b, n)`. -/
theorem hostOps2_v442 (b : Fin 2048) (z : Fin 1) (n : Fin 4096) :
    (StableHlo.after hostOps2 U (Proc.devRef .tc main_v442) : S2048x1x4096.Idx → EReal) (ix3 b z n)
      = (U (Proc.devRef .tc main_v440_1) : S2048x4096.Idx → EReal) (ix2 b n) := by
  have e : (StableHlo.after hostOps2 U (Proc.devRef .tc main_v442) : S2048x1x4096.Idx → EReal)
      = shapeCast S2048x1x4096 (U (Proc.devRef .tc main_v440_1) : S2048x4096.Idx → EReal)
          shapeCasts_S2048x4096_S2048x1x4096 := by
    after_results; rfl
  rw [e]
  exact shapeCast_apply _ _ (ix3 b z n) (ix2 b n) (pos_eq b z n)

end Cert.KernelIdeal.HandV

end
-- ==== Proof.Spec.lean ====
/-
  The radix-2 butterfly network that both programs compute, as ONE function of the four argument arrays on the
  extended reals.

  Stage `i` (`0 ≤ i < 12`) works on blocks of `2^(i+1)` consecutive lanes of a length-4096 row; `l = m % 2^(i+1)` is a
  lane's position inside its block and `2^i` the half-block. With two weight rows `w0 w1` read at `l`, a butterfly sends
  the row `v` to
      `w0 l * v m + w1 l * v (m + 2^i)`   on the lower half of a block (`l < 2^i`),
      `w0 l * v (m - 2^i) + w1 l * v m`   on the upper half.
  A stage sends the pair (real part, imaginary part) to
      `(bfly rc rx - bfly ic ix, bfly rc ix + bfly ic rx)`
  with `rc = rconvs[i]`, `ic = iconvs[i]`. The network starts from `(x · perm, 0)` and runs the twelve stages in order.

  The second form (`kbfly`) is the same butterfly written with full-width weight rows and a 0/1 mask: the partner
  lane is taken from BOTH sides, `mk m * v (m + 2^i) + (1 - mk m) * v (m - 2^i)` around the end of the row, and the weights
  come as "own lane" and "partner lane" rows. On the extended reals `1 * a = a`, `0 * a = 0`, `1 - 1 = 0`, `1 - 0 = 1` and
  `a + 0 = a` hold for every `a` (infinite ones too), so the two forms agree with no finiteness assumption: `kbfly_eq_bfly`.
-/
import Idealize.ShloMosaic.PureOps.Ideal
import Idealize.ShloMosaic.Lib.ValueIdx

noncomputable section

open scoped BigOperators

namespace Cert.Fft

open Idealize.ShloMosaic Idealize.ShloMosaic.ValueIdx

/-- The signal array, `[2048, 4096]`. -/
abbrev SX : Shape := ⟨2, ![2048, 4096]⟩
/-- The permutation matrix, `[4096, 4096]`. -/
abbrev SP : Shape := ⟨2, ![4096, 4096]⟩
/-- A weight array, `[12, 2, 4096]`: stage, weight row, position inside a block. -/
abbrev SW : Shape := ⟨3, ![12, 2, 4096]⟩
/-- A result array, `[2048, 1, 4096]`. -/
abbrev SO : Shape := ⟨3, ![2048, 1, 4096]⟩

/-- A length-4096 row read at a natural position; zero past the end (never read there by a stage). -/
def rd (v : Fin 4096 → EReal) (m : ℕ) : EReal := if h : m < 4096 then v ⟨m, h⟩ else 0

theorem rd_of_lt (v : Fin 4096 → EReal) (m : ℕ) (h : m < 4096) : rd v m = v ⟨m, h⟩ := dif_pos h

/-- Row `b` of a `[2048, 4096]` array. -/
def rowOf (a : SX.Idx → EReal) (b : Fin 2048) : ℕ → EReal := rd fun n => a (ix2 b n)

/-- Weight row `k` of stage `i`, read at a position inside a block. -/
def wt (w : SW.Idx → EReal) (i : Fin 12) (k : Fin 2) : ℕ → EReal := rd fun l => w (ix3 i k l)

/-- One butterfly of stage `i` on a row `v`, weights `w0 w1` read at the position inside the block. -/
def bfly (i : ℕ) (w0 w1 v : ℕ → EReal) (m : ℕ) : EReal :=
  if m % 2 ^ (i + 1) < 2 ^ i then w0 (m % 2 ^ (i + 1)) * v m + w1 (m % 2 ^ (i + 1)) * v (m + 2 ^ i)
  else w0 (m % 2 ^ (i + 1)) * v (m - 2 ^ i) + w1 (m % 2 ^ (i + 1)) * v m

/-- The real part after stage `i`. -/
def stepRe (i : ℕ) (r0 r1 i0 i1 rx ix : ℕ → EReal) (m : ℕ) : EReal := bfly i r0 r1 rx m - bfly i i0 i1 ix m
/-- The imaginary part after stage `i`. -/
def stepIm (i : ℕ) (r0 r1 i0 i1 rx ix : ℕ → EReal) (m : ℕ) : EReal := bfly i r0 r1 ix m + bfly i i0 i1 rx m

/-- Stage `i` on whole arrays, row by row. -/
def step (i : Fin 12) (rc ic : SW.Idx → EReal) (s : (SX.Idx → EReal) × (SX.Idx → EReal)) :
    (SX.Idx → EReal) × (SX.Idx → EReal) :=
  (fun j => stepRe i.val (wt rc i 0) (wt rc i 1) (wt ic i 0) (wt ic i 1) (rowOf s.1 (j 0)) (rowOf s.2 (j 0)) (j 1).val,
   fun j => stepIm i.val (wt rc i 0) (wt rc i 1) (wt ic i 0) (wt ic i 1) (rowOf s.1 (j 0)) (rowOf s.2 (j 0)) (j 1).val)

/-- The matrix product `x · perm` as a plain sum. -/
def mm (x : SX.Idx → EReal) (p : SP.Idx → EReal) : SX.Idx → EReal :=
  fun j => ∑ k : Fin 4096, x (ix2 (j 0) k) * p (ix2 k (j 1))

/-- The pair (real, imaginary) after the first `n` stages. -/
def state (x : SX.Idx → EReal) (p : SP.Idx → EReal) (rc ic : SW.Idx → EReal) :
    ℕ → (SX.Idx → EReal) × (SX.Idx → EReal)
  | 0 => (mm x p, fun _ => 0)
  | n + 1 => if h : n < 12 then step ⟨n, h⟩ rc ic (state x p rc ic n) else state x p rc ic n

/-- The two results: the state after all twelve stages, laid out `[2048, 1, 4096]`. -/
def outRe (x : SX.Idx → EReal) (p : SP.Idx → EReal) (rc ic : SW.Idx → EReal) : SO.Idx → EReal :=
  fun j => (state x p rc ic 12).1 (ix2 (j 0) (j 2))
def outIm (x : SX.Idx → EReal) (p : SP.Idx → EReal) (rc ic : SW.Idx → EReal) : SO.Idx → EReal :=
  fun j => (state x p rc ic 12).2 (ix2 (j 0) (j 2))

/-! ## The same butterfly with full-width weight rows and a mask -/

/-- The partner lane taken from both sides of the row and blended by a 0/1 mask. -/
def kpartner (i : ℕ) (mk v : ℕ → EReal) (m : ℕ) : EReal :=
  mk m * v ((m + 2 ^ i) % 4096) + (1 - mk m) * v ((m + 4096 - 2 ^ i) % 4096)

/-- The butterfly over "own lane" weights `sf`, "partner lane" weights `pt` and the mask `mk`. -/
def kbfly (i : ℕ) (sf pt mk v : ℕ → EReal) (m : ℕ) : EReal := sf m * v m + pt m * kpartner i mk v m

/-- Where the full-width rows are the block weights laid out by halves (own = `w0` below, `w1` above; partner the other
    one; mask one below, zero above), the masked form is the butterfly. No finiteness is used. -/
theorem kbfly_eq_bfly (i : ℕ) (hi : i < 12) (w0 w1 sf pt mk v : ℕ → EReal) (m : ℕ) (hm : m < 4096)
    (hsf : sf m = if m % 2 ^ (i + 1) < 2 ^ i then w0 (m % 2 ^ (i + 1)) else w1 (m % 2 ^ (i + 1)))
    (hpt : pt m = if m % 2 ^ (i + 1) < 2 ^ i then w1 (m % 2 ^ (i + 1)) else w0 (m % 2 ^ (i + 1)))
    (hmk : mk m = if m % 2 ^ (i + 1) < 2 ^ i then 1 else 0) :
    kbfly i sf pt mk v m = bfly i w0 w1 v m := by
  unfold kbfly kpartner bfly
  rw [hsf, hpt, hmk]
  by_cases hl : m % 2 ^ (i + 1) < 2 ^ i
  · -- lower half of a block: the block of 2^(i+1) lanes lies inside the row (2^(i+1) divides 4096), so the partner
    -- lane m + 2^i does not wrap; then 1 * a + (1 - 1) * b = a
    have hlt : m + 2 ^ i < 4096 := by
      interval_cases i <;> omega
    have h11 : (1 : EReal) - 1 = 0 := by
      rw [← EReal.coe_one, ← EReal.coe_sub, sub_self, EReal.coe_zero]
    simp only [if_pos hl]
    rw [Nat.mod_eq_of_lt hlt, h11, one_mul, zero_mul, add_zero]
  · -- upper half: 2^i ≤ m, so going round the row by 4096 - 2^i lands on m - 2^i; then 0 * a + (1 - 0) * b = b
    -- and the two summands come in the other order
    have hge : 2 ^ i ≤ m := le_trans (not_lt.mp hl) (Nat.mod_le _ _)
    have hwrap : (m + 4096 - 2 ^ i) % 4096 = m - 2 ^ i := by omega
    simp only [if_neg hl]
    rw [hwrap, zero_mul, sub_zero, one_mul, zero_add, add_comm]

end Cert.Fft

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KV.Mat.lean ====
/-
  The value of REGION 0 at the extended reals: the output array after the region is the matrix product of the two input
  arrays.

  Block `i` of the output (rows `256 i … 256 i + 255`) is written back once, after the last of the four points of its row of
  blocks; what is written is the accumulator there. The accumulator starts from the zero block and at position `s` along the
  contraction axis receives the product of the [256,1024] block (i, s) of the left array and the [1024,4096] block (s, 0) of
  the right array: at an element, the sum over the 1024 contraction indices of block `s`. Format changes are the identity on
  the extended reals and `0 + a = a`, so after the four positions the element holds the sum over 4 blocks of 1024, which is the
  sum over all 4096 contraction indices.
-/
import proofs.«135697_j83099027243546_2_alg».proof.Proof.KI.Body0
import proofs.«135697_j83099027243546_2_alg».proof.Proof.Spec
import proofs.«135697_j83099027243546_2_alg».proof.Proof.LibSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product of two blocks at an element -/

theorem offsets_zero : (![0, 0] : Fin 2 → Nat) = fun _ => 0 := funext fun a => by fin_cases a <;> rfl

/-- The left operand's index at output index `j` and contraction position `k`: row `j 0`, -/
theorem lhs_axis0 (j : S256x4096.Idx) (k : dot_S256x1024_S1024x4096_S256x4096_1_0_0_1_n_n.contr.Idx) :
    (dot_S256x1024_S1024x4096_S256x4096_1_0_0_1_n_n.lhsIdx j k (0 : Fin S256x1024.rank)).val = (j 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
/-- column the contraction position; -/
theorem lhs_axis1 (j : S256x4096.Idx) (k : dot_S256x1024_S1024x4096_S256x4096_1_0_0_1_n_n.contr.Idx) :
    (dot_S256x1024_S1024x4096_S256x4096_1_0_0_1_n_n.lhsIdx j k (1 : Fin S256x1024.rank)).val = (k ⟨0, by decide⟩).val :=
  DotDims.lhsIdx_val_of_single _ (cl := (1 : Fin S256x1024.rank)) rfl j k
/-- the right operand's: row the contraction position, -/
theorem rhs_axis0 (j : S256x4096.Idx) (k : dot_S256x1024_S1024x4096_S256x4096_1_0_0_1_n_n.contr.Idx) :
    (dot_S256x1024_S1024x4096_S256x4096_1_0_0_1_n_n.rhsIdx j k (0 : Fin S1024x4096.rank)).val = (k ⟨0, by decide⟩).val :=
  DotDims.rhsIdx_val_of_single _ (cr := (0 : Fin S1024x4096.rank)) rfl j k
/-- column `j 1`. -/
theorem rhs_axis1 (j : S256x4096.Idx) (k : dot_S256x1024_S1024x4096_S256x4096_1_0_0_1_n_n.contr.Idx) :
    (dot_S256x1024_S1024x4096_S256x4096_1_0_0_1_n_n.rhsIdx j k (1 : Fin S1024x4096.rank)).val = (j 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- The zero block reads zero. -/
theorem pay1_apply (j : S256x4096.Idx) : (k0_pay1 (F := Ideal)) j = 0 := by
  unfold k0_pay1
  simp only [shapeCast_self]
  exact Ideal.ofBits_zero_f32

/-- One step of the accumulation at an element: what was there plus the sum over the block's 1024 contraction indices. -/
theorem pay2_apply (acc : Vec Ideal S256x4096 .f32) (a : Vec Ideal S256x1024 .bf16) (b : Vec Ideal S1024x4096 .bf16)
    (j : S256x4096.Idx) :
    k0_pay2 (F := Ideal) acc a b j = acc j + ∑ k : Fin 1024, a (ix2 (j 0) k) * b (ix2 k (j 1)) := by
  unfold k0_pay2
  simp only [shapeCast_self, matmul]
  rw [addf_apply, Ideal.matmul_constant_zero_apply]
  congr 1
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  congr 1
  · refine congrArg a (funext fun d => Fin.ext ?_)
    match d with
    | ⟨0, _⟩ => exact lhs_axis0 _ _
    | ⟨1, _⟩ => exact (lhs_axis1 _ _).trans hk
  · refine congrArg b (funext fun d => Fin.ext ?_)
    match d with
    | ⟨0, _⟩ => exact (rhs_axis0 _ _).trans hk
    | ⟨1, _⟩ => exact rhs_axis1 _ _

/-! ## The blocks a point reads, in the arrays' coordinates -/

/-- The printed index maps, decided over the grid: point `t` is block row `t / 4`, position `t % 4` along the contraction axis. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

section Blocks
variable (V : (c : Dev nD) → (b : Ref sig .tc) → Buf (Elt Ideal) ((c : Thread nD τ).loc b))

/-- The left and right blocks of point `t`, as functions to the extended reals. -/
def blkA (c : Dev nD) (t : Fin cfg0.N) : S256x1024.Idx → EReal := iblk0 V c 0 t
def blkB (c : Dev nD) (t : Fin cfg0.N) : S1024x4096.Idx → EReal := iblk0 V c 1 t
/-- The left and right arrays as the region finds them. -/
def arrA (c : Dev nD) : S2048x4096.Idx → EReal := V c main_v0
def arrB (c : Dev nD) : S4096x4096.Idx → EReal := V c main_v1

/-- The left block of point `t` at (p, k) is the left array at row `256 (t / 4) + p`, column `1024 (t % 4) + k`. -/
theorem blkA_apply (c : Dev nD) (t : Fin cfg0.N) (p : Fin 256) (k : Fin 1024) (hr : 256 * (t.val / 4) + p.val < 2048)
    (hc : 1024 * (t.val % 4) + k.val < 4096) :
    blkA V c t (ix2 p k) = arrA V c (ix2 ⟨256 * (t.val / 4) + p.val, hr⟩ ⟨1024 * (t.val % 4) + k.val, hc⟩) := by
  obtain ⟨e0, e1, -, -, -, -⟩ := idx_facts t
  show arrA V c (((cfg0.win 0).blk t).view.emb (ix2 p k)) = _
  refine congrArg _ (funext fun a => Fin.ext ?_)
  match a with
  | ⟨0, _⟩ => show win0_0.index t (0 : Fin 2) * 256 + 1 * p.val = 256 * (t.val / 4) + p.val; omega
  | ⟨1, _⟩ => show win0_0.index t (1 : Fin 2) * 1024 + 1 * k.val = 1024 * (t.val % 4) + k.val; omega

/-- The right block of point `t` at (k, q) is the right array at row `1024 (t % 4) + k`, column `q`. -/
theorem blkB_apply (c : Dev nD) (t : Fin cfg0.N) (k : Fin 1024) (q : Fin 4096)
    (hc : 1024 * (t.val % 4) + k.val < 4096) :
    blkB V c t (ix2 k q) = arrB V c (ix2 ⟨1024 * (t.val % 4) + k.val, hc⟩ q) := by
  obtain ⟨-, -, e2, e3, -, -⟩ := idx_facts t
  show arrB V c (((cfg0.win 1).blk t).view.emb (ix2 k q)) = _
  refine congrArg _ (funext fun a => Fin.ext ?_)
  match a with
  | ⟨0, _⟩ => show win0_1.index t (0 : Fin 2) * 1024 + 1 * k.val = 1024 * (t.val % 4) + k.val; omega
  | ⟨1, _⟩ => show win0_1.index t (1 : Fin 2) * 4096 + 1 * q.val = q.val; omega

/-! ## The accumulator as a sum of four products -/

/-- The sum starts from the zero block plus the point's product, -/
def resetAt (c : Dev nD) (n : ℕ) (h : n < cfg0.N) : Vec Ideal S256x4096 .f32 :=
  k0_pay2 (F := Ideal) (k0_pay1 (F := Ideal)) (iblk0 V c 0 ⟨n, h⟩) (iblk0 V c 1 ⟨n, h⟩)
/-- and goes on from what the point before left plus the point's product. -/
def stepAt (c : Dev nD) (n : ℕ) (h : n < cfg0.N) (acc : Vec Ideal S256x4096 .f32) : Vec Ideal S256x4096 .f32 :=
  k0_pay2 (F := Ideal) acc (iblk0 V c 0 ⟨n, h⟩) (iblk0 V c 1 ⟨n, h⟩)

/-- The product of point `n`'s two blocks at an element (zero past the grid, where it is never read). -/
def addend (c : Dev nD) (n : ℕ) (j : S256x4096.Idx) : EReal :=
  if h : n < cfg0.N then
    ∑ k : Fin 1024, blkA V c ⟨n, h⟩ (ix2 (j 0) k) * blkB V c ⟨n, h⟩ (ix2 k (j 1))
  else 0

/-- At the last point of a row of blocks the accumulator is, at an element, zero plus the four positions' products. -/
theorem accAt0_last (c : Dev nD) (t : Fin cfg0.N) (h3 : t.val % 4 = 3) (j : S256x4096.Idx) :
    accAt0 V c t.val t.isLt j = 0 + ∑ s ∈ Finset.range 4, addend V c (4 * (t.val / 4) + s) j := by
  have h' : 4 * (t.val / 4) + t.val % 4 < cfg0.N := by rw [Nat.div_add_mod]; exact t.isLt
  rw [Pipeline.eq_accAt_of_mod (accAt0 V c) 4 (resetAt V c) (stepAt V c)
      (fun n h hm => accAt0_reset V c ⟨n, h⟩ hm)
      (fun n h hm => accAt0_acc V c ⟨n + 1, h⟩ hm)
      (by decide) t.val t.isLt h']
  have key := Pipeline.accAt_add_apply (resetAt V c) (stepAt V c) (fun _ => (0 : EReal)) (addend V c) (4 * (t.val / 4)) 3
    (fun h i => by unfold resetAt addend; rw [pay2_apply, pay1_apply, dif_pos h]; rfl)
    (fun n h acc i _ _ => by unfold stepAt addend; rw [pay2_apply, dif_pos h]; rfl)
    (t.val % 4) (by omega) h' j
  rw [key, h3]

/-- A position's product in the arrays' coordinates: the sum over the position's 1024 contraction indices. -/
theorem addend_eq (c : Dev nD) (r : Fin 8) (s : Fin 4) (j : S256x4096.Idx) (hr : 256 * r.val + (j 0).val < 2048) :
    addend V c (4 * r.val + s.val) j
      = ∑ k : Fin 1024, arrA V c (ix2 ⟨256 * r.val + (j 0).val, hr⟩ ⟨s.val * 1024 + k.val, Cert.LibSums.blocks_lt s k⟩)
          * arrB V c (ix2 ⟨s.val * 1024 + k.val, Cert.LibSums.blocks_lt s k⟩ (j 1)) := by
  have hN : cfg0.N = 32 := N_0
  have hlt : 4 * r.val + s.val < cfg0.N := by have := r.isLt; have := s.isLt; omega
  have hq : (4 * r.val + s.val) / 4 = r.val := by have := s.isLt; omega
  have hm : (4 * r.val + s.val) % 4 = s.val := by have := s.isLt; omega
  unfold addend
  rw [dif_pos hlt]
  refine Finset.sum_congr rfl fun k _ => ?_
  have hk : k.val < 1024 := k.isLt
  have hs : s.val < 4 := s.isLt
  rw [blkA_apply V c ⟨_, hlt⟩ (j 0) k (by dsimp only; omega) (by dsimp only; omega),
    blkB_apply V c ⟨_, hlt⟩ k (j 1) (by dsimp only; omega)]
  congr 1
  · refine congrArg _ (funext fun a => Fin.ext ?_)
    match a with
    | ⟨0, _⟩ => show 256 * ((4 * r.val + s.val) / 4) + (j 0).val = 256 * r.val + (j 0).val; rw [hq]
    | ⟨1, _⟩ => show 1024 * ((4 * r.val + s.val) % 4) + k.val = s.val * 1024 + k.val; rw [hm]; omega
  · refine congrArg _ (funext fun a => Fin.ext ?_)
    match a with
    | ⟨0, _⟩ => show 1024 * ((4 * r.val + s.val) % 4) + k.val = s.val * 1024 + k.val; rw [hm]; omega
    | ⟨1, _⟩ => rfl

/-! ## From blocks to the array -/

/-- An index of the output array is in point `t`'s block iff each coordinate is in the block's range on its axis. -/
theorem mem_blk (t : Fin cfg0.N) (i : S2048x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- What a point that writes back writes is its block of the matrix product. -/
theorem flushed_eq (c : Dev nD) (t : Fin cfg0.N) (hf : (cfg0.win 2).flush t = true) :
    (dat0 (F := Ideal) V c).flushed 2 t
      = ((cfg0.win 2).blk t).view.read (Elt Ideal) (Cert.Fft.mm (V c main_v0) (V c main_v1)) := by
  have hN : cfg0.N = 32 := N_0
  have h3 : t.val % 4 = 3 := (flush0_2 t).mp hf
  obtain ⟨-, -, -, -, e4, e5⟩ := idx_facts t
  show (cfg0.win 2).cut (grid0.coords t) ((dat0 (F := Ideal) V c).after 2 t) = _
  rw [after0_2]
  funext j
  have hj0 : (j 0).val < 256 := (j 0).isLt
  have hj1 : (j 1).val < 4096 := (j 1).isLt
  have ht : t.val < 32 := hN ▸ t.isLt
  have hrow : 256 * (t.val / 4) + (j 0).val < 2048 := by omega
  have hE : ((cfg0.win 2).blk t).view.emb j = ix2 (⟨256 * (t.val / 4) + (j 0).val, hrow⟩ : Fin 2048) (j 1) := by
    funext a; apply Fin.ext
    match a with
    | ⟨0, _⟩ => show win0_2.index t (0 : Fin 2) * 256 + 1 * (j 0).val = 256 * (t.val / 4) + (j 0).val; omega
    | ⟨1, _⟩ => show win0_2.index t (1 : Fin 2) * 4096 + 1 * (j 1).val = (j 1).val; omega
  show accAt0 V c t.val t.isLt j = Cert.Fft.mm (V c main_v0) (V c main_v1) (((cfg0.win 2).blk t).view.emb j)
  rw [hE, accAt0_last V c t h3 j, zero_add, Finset.sum_range]
  have hr8 : t.val / 4 < 8 := by omega
  have hadd : ∀ s : Fin 4, addend V c (4 * (t.val / 4) + s.val) j = _ := fun s => addend_eq V c ⟨t.val / 4, hr8⟩ s j hrow
  rw [Finset.sum_congr rfl fun s _ => hadd s]
  exact Cert.LibSums.sum_blocks 4 1024 fun k' : Fin (4 * 1024) =>
    arrA V c (ix2 ⟨256 * (t.val / 4) + (j 0).val, hrow⟩ k') * arrB V c (ix2 k' (j 1))

/-- Every index of the output array is in the block of a point that writes back: the last point of its row of blocks. -/
theorem covered (i : S2048x4096.Idx) : ∃ t : Fin cfg0.N, (cfg0.win 2).flush t = true ∧ i ∈ ((cfg0.win 2).blk t).view.set := by
  have hN : cfg0.N = 32 := N_0
  have hi0 : (i 0).val < 2048 := (i 0).isLt
  have hi1 : (i 1).val < 4096 := (i 1).isLt
  refine ⟨⟨4 * ((i 0).val / 256) + 3, by omega⟩, (flush0_2 _).mpr (by dsimp only; omega), ?_⟩
  rw [mem_blk]
  obtain ⟨-, -, -, -, e4, e5⟩ := idx_facts ⟨4 * ((i 0).val / 256) + 3, by omega⟩
  dsimp only at e4 e5
  intro a
  match a with
  | ⟨0, _⟩ =>
    show win0_2.index _ (0 : Fin 2) * 256 ≤ (i 0).val ∧ (i 0).val < win0_2.index _ (0 : Fin 2) * 256 + 256
    rw [e4]; omega
  | ⟨1, _⟩ =>
    show win0_2.index _ (1 : Fin 2) * 4096 ≤ (i 1).val ∧ (i 1).val < win0_2.index _ (1 : Fin 2) * 4096 + 4096
    rw [e5]; omega

/-- THE OUTPUT ARRAY after the region is the matrix product of the two input arrays. -/
theorem arrAt0_2 (c : Dev nD) :
    ((dat0 (F := Ideal) V c).arrAt 2 cfg0.N : S2048x4096.Idx → EReal) = Cert.Fft.mm (V c main_v0) (V c main_v1) :=
  (dat0 (F := Ideal) V c).arrAt_eq_of_cover 2 (Cert.Fft.mm (V c main_v0) (V c main_v1)) (flushed_eq V c) covered

end Blocks

end Cert.KernelIdeal.HandV

end
-- ==== Proof.SpecLemmas.lean ====
/-
  Unfolding lemmas for the butterfly network of `Spec`: the state after zero stages and after one more stage, a stage
  read at one index, a row and a weight row read inside their range, and the masked butterfly over STACKED weight
  arrays `[12, 4096]` (row `i` of each array is stage `i`'s full-width row).
-/
import proofs.«135697_j83099027243546_2_alg».proof.Proof.Spec

noncomputable section

namespace Cert.Fft

open Idealize.ShloMosaic Idealize.ShloMosaic.ValueIdx

/-- A stacked full-width weight array, `[12, 4096]`: stage, lane. -/
abbrev SK : Shape := ⟨2, ![12, 4096]⟩

/-- Past the end a row reads zero. -/
theorem rd_of_not_lt (v : Fin 4096 → EReal) (m : ℕ) (h : ¬ m < 4096) : rd v m = 0 := dif_neg h

/-- Before any stage: the matrix product and a zero imaginary part. -/
theorem state_zero (x : SX.Idx → EReal) (p : SP.Idx → EReal) (rc ic : SW.Idx → EReal) :
    state x p rc ic 0 = (mm x p, fun _ => 0) := rfl

/-- One more stage (`n < 12`) is `step` number `n` on the state so far. -/
theorem state_succ (x : SX.Idx → EReal) (p : SP.Idx → EReal) (rc ic : SW.Idx → EReal) (n : ℕ) (h : n < 12) :
    state x p rc ic (n + 1) = step ⟨n, h⟩ rc ic (state x p rc ic n) := by
  rw [state, dif_pos h]

/-- The matrix product at one index. -/
theorem mm_apply (x : SX.Idx → EReal) (p : SP.Idx → EReal) (b : Fin 2048) (n : Fin 4096) :
    mm x p (ix2 b n) = ∑ k : Fin 4096, x (ix2 b k) * p (ix2 k n) := rfl

/-- The real part of a stage at row `b`, lane `n`. -/
theorem step_fst_apply (i : Fin 12) (rc ic : SW.Idx → EReal) (s : (SX.Idx → EReal) × (SX.Idx → EReal))
    (b : Fin 2048) (n : Fin 4096) :
    (step i rc ic s).1 (ix2 b n)
      = stepRe i.val (wt rc i 0) (wt rc i 1) (wt ic i 0) (wt ic i 1) (rowOf s.1 b) (rowOf s.2 b) n.val := rfl

/-- The imaginary part of a stage at row `b`, lane `n`. -/
theorem step_snd_apply (i : Fin 12) (rc ic : SW.Idx → EReal) (s : (SX.Idx → EReal) × (SX.Idx → EReal))
    (b : Fin 2048) (n : Fin 4096) :
    (step i rc ic s).2 (ix2 b n)
      = stepIm i.val (wt rc i 0) (wt rc i 1) (wt ic i 0) (wt ic i 1) (rowOf s.1 b) (rowOf s.2 b) n.val := rfl

/-- A row read inside its range. -/
theorem rowOf_apply (a : SX.Idx → EReal) (b : Fin 2048) (m : ℕ) (h : m < 4096) :
    rowOf a b m = a (ix2 b ⟨m, h⟩) := rd_of_lt _ m h

/-- A weight row read inside its range. -/
theorem wt_apply (w : SW.Idx → EReal) (i : Fin 12) (k : Fin 2) (l : ℕ) (h : l < 4096) :
    wt w i k l = w (ix3 i k ⟨l, h⟩) := rd_of_lt _ l h

/-- The two results at one index. -/
theorem outRe_apply (x : SX.Idx → EReal) (p : SP.Idx → EReal) (rc ic : SW.Idx → EReal) (b : Fin 2048) (z : Fin 1)
    (n : Fin 4096) : outRe x p rc ic (ix3 b z n) = (state x p rc ic 12).1 (ix2 b n) := rfl

theorem outIm_apply (x : SX.Idx → EReal) (p : SP.Idx → EReal) (rc ic : SW.Idx → EReal) (b : Fin 2048) (z : Fin 1)
    (n : Fin 4096) : outIm x p rc ic (ix3 b z n) = (state x p rc ic 12).2 (ix2 b n) := rfl

/-- The masked butterfly over stacked weight arrays. Where row `i` of `SR` holds the block weights laid out by halves
    (`w0` on the lower half of each block, `w1` on the upper), row `i` of `PR` the other way round, and row `i` of `MK` is one
    on the lower halves and zero on the upper, the masked form on those three rows is stage `i`'s butterfly. -/
theorem kbfly_rows_eq_bfly (SR PR MK : SK.Idx → EReal) (i : Fin 12) (w : SW.Idx → EReal)
    (hSR : ∀ n : Fin 4096, SR (ix2 i n) =
      if n.val % 2 ^ (i.val + 1) < 2 ^ i.val then wt w i 0 (n.val % 2 ^ (i.val + 1))
      else wt w i 1 (n.val % 2 ^ (i.val + 1)))
    (hPR : ∀ n : Fin 4096, PR (ix2 i n) =
      if n.val % 2 ^ (i.val + 1) < 2 ^ i.val then wt w i 1 (n.val % 2 ^ (i.val + 1))
      else wt w i 0 (n.val % 2 ^ (i.val + 1)))
    (hMK : ∀ n : Fin 4096, MK (ix2 i n) = if n.val % 2 ^ (i.val + 1) < 2 ^ i.val then 1 else 0)
    (v : ℕ → EReal) (m : ℕ) (hm : m < 4096) :
    kbfly i.val (rd fun n => SR (ix2 i n)) (rd fun n => PR (ix2 i n)) (rd fun n => MK (ix2 i n)) v m
      = bfly i.val (wt w i 0) (wt w i 1) v m := by
  -- inside the row each of the three rows reads the stacked array at lane m, where the hypotheses speak
  refine kbfly_eq_bfly i.val i.isLt (wt w i 0) (wt w i 1) _ _ _ v m hm ?_ ?_ ?_
  · rw [rd_of_lt _ m hm]; exact hSR ⟨m, hm⟩
  · rw [rd_of_lt _ m hm]; exact hPR ⟨m, hm⟩
  · rw [rd_of_lt _ m hm]; exact hMK ⟨m, hm⟩

end Cert.Fft

end
-- ==== Proof.SpecNet.lean ====
/-
  The butterfly network in its masked form, on ONE row: twelve stages, stage `i` reading row `i` of five stacked
  full-width weight arrays (own-lane and partner-lane weights of the real and of the imaginary weight, and the 0/1 mask).
  Where the five arrays hold the block weights laid out by halves, the masked network on row `b` of `x · perm` is row `b`
  of the network of `Spec`, stage by stage, and after twelve stages it is row `b` of the two results.
-/
import proofs.«135697_j83099027243546_2_alg».proof.Proof.SpecLemmas

noncomputable section

namespace Cert.Fft

open Idealize.ShloMosaic Idealize.ShloMosaic.ValueIdx

/-- The real part after stage `i` in the masked form: own-lane / partner-lane rows `sr pr` (real weight), `si pi`
    (imaginary weight), mask `mk`. -/
def kstepRe (i : ℕ) (sr pr si pi mk rx ix : ℕ → EReal) (m : ℕ) : EReal :=
  kbfly i sr pr mk rx m - kbfly i si pi mk ix m
/-- The imaginary part after stage `i` in the masked form. -/
def kstepIm (i : ℕ) (sr pr si pi mk rx ix : ℕ → EReal) (m : ℕ) : EReal :=
  kbfly i sr pr mk ix m + kbfly i si pi mk rx m

/-- Row `i` of a stacked weight array. -/
def krow (A : SK.Idx → EReal) (i : Fin 12) : ℕ → EReal := rd fun n => A (ix2 i n)

/-- A stacked row read inside its range. -/
theorem krow_apply (A : SK.Idx → EReal) (i : Fin 12) (m : ℕ) (h : m < 4096) : krow A i m = A (ix2 i ⟨m, h⟩) :=
  rd_of_lt _ m h

/-- The pair (real row, imaginary row) after the first `n` masked stages, from the row `r0` and a zero imaginary row.
    Past the end of the row every stage reads zero, as `rowOf` does. -/
def kstate (SR PR SI PI MK : SK.Idx → EReal) (r0 : ℕ → EReal) : ℕ → (ℕ → EReal) × (ℕ → EReal)
  | 0 => (r0, fun _ => 0)
  | n + 1 =>
    if h : n < 12 then
      (fun m => if m < 4096 then
          kstepRe n (krow SR ⟨n, h⟩) (krow PR ⟨n, h⟩) (krow SI ⟨n, h⟩) (krow PI ⟨n, h⟩) (krow MK ⟨n, h⟩)
            (kstate SR PR SI PI MK r0 n).1 (kstate SR PR SI PI MK r0 n).2 m
        else 0,
       fun m => if m < 4096 then
          kstepIm n (krow SR ⟨n, h⟩) (krow PR ⟨n, h⟩) (krow SI ⟨n, h⟩) (krow PI ⟨n, h⟩) (krow MK ⟨n, h⟩)
            (kstate SR PR SI PI MK r0 n).1 (kstate SR PR SI PI MK r0 n).2 m
        else 0)
    else kstate SR PR SI PI MK r0 n

theorem kstate_zero (SR PR SI PI MK : SK.Idx → EReal) (r0 : ℕ → EReal) :
    kstate SR PR SI PI MK r0 0 = (r0, fun _ => 0) := rfl

/-- One more masked stage (`n < 12`). -/
theorem kstate_succ (SR PR SI PI MK : SK.Idx → EReal) (r0 : ℕ → EReal) (n : ℕ) (h : n < 12) :
    kstate SR PR SI PI MK r0 (n + 1) =
      (fun m => if m < 4096 then
          kstepRe n (krow SR ⟨n, h⟩) (krow PR ⟨n, h⟩) (krow SI ⟨n, h⟩) (krow PI ⟨n, h⟩) (krow MK ⟨n, h⟩)
            (kstate SR PR SI PI MK r0 n).1 (kstate SR PR SI PI MK r0 n).2 m
        else 0,
       fun m => if m < 4096 then
          kstepIm n (krow SR ⟨n, h⟩) (krow PR ⟨n, h⟩) (krow SI ⟨n, h⟩) (krow PI ⟨n, h⟩) (krow MK ⟨n, h⟩)
            (kstate SR PR SI PI MK r0 n).1 (kstate SR PR SI PI MK r0 n).2 m
        else 0) := by
  rw [kstate, dif_pos h]

/-- One more masked stage read inside the row: the real part. -/
theorem kstate_succ_fst_apply (SR PR SI PI MK : SK.Idx → EReal) (r0 : ℕ → EReal) (n : ℕ) (h : n < 12) (m : ℕ)
    (hm : m < 4096) :
    (kstate SR PR SI PI MK r0 (n + 1)).1 m =
      kstepRe n (krow SR ⟨n, h⟩) (krow PR ⟨n, h⟩) (krow SI ⟨n, h⟩) (krow PI ⟨n, h⟩) (krow MK ⟨n, h⟩)
        (kstate SR PR SI PI MK r0 n).1 (kstate SR PR SI PI MK r0 n).2 m := by
  rw [kstate_succ SR PR SI PI MK r0 n h]; exact if_pos hm

/-- One more masked stage read inside the row: the imaginary part. -/
theorem kstate_succ_snd_apply (SR PR SI PI MK : SK.Idx → EReal) (r0 : ℕ → EReal) (n : ℕ) (h : n < 12) (m : ℕ)
    (hm : m < 4096) :
    (kstate SR PR SI PI MK r0 (n + 1)).2 m =
      kstepIm n (krow SR ⟨n, h⟩) (krow PR ⟨n, h⟩) (krow SI ⟨n, h⟩) (krow PI ⟨n, h⟩) (krow MK ⟨n, h⟩)
        (kstate SR PR SI PI MK r0 n).1 (kstate SR PR SI PI MK r0 n).2 m := by
  rw [kstate_succ SR PR SI PI MK r0 n h]; exact if_pos hm

/-- Stage `i` in the masked form over the stacked arrays is stage `i` of `Spec`: the real part. -/
theorem kstepRe_eq_stepRe (SR PR SI PI MK : SK.Idx → EReal) (i : Fin 12) (rc ic : SW.Idx → EReal)
    (hSR : ∀ n : Fin 4096, SR (ix2 i n) =
      if n.val % 2 ^ (i.val + 1) < 2 ^ i.val then wt rc i 0 (n.val % 2 ^ (i.val + 1))
      else wt rc i 1 (n.val % 2 ^ (i.val + 1)))
    (hPR : ∀ n : Fin 4096, PR (ix2 i n) =
      if n.val % 2 ^ (i.val + 1) < 2 ^ i.val then wt rc i 1 (n.val % 2 ^ (i.val + 1))
      else wt rc i 0 (n.val % 2 ^ (i.val + 1)))
    (hSI : ∀ n : Fin 4096, SI (ix2 i n) =
      if n.val % 2 ^ (i.val + 1) < 2 ^ i.val then wt ic i 0 (n.val % 2 ^ (i.val + 1))
      else wt ic i 1 (n.val % 2 ^ (i.val + 1)))
    (hPI : ∀ n : Fin 4096, PI (ix2 i n) =
      if n.val % 2 ^ (i.val + 1) < 2 ^ i.val then wt ic i 1 (n.val % 2 ^ (i.val + 1))
      else wt ic i 0 (n.val % 2 ^ (i.val + 1)))
    (hMK : ∀ n : Fin 4096, MK (ix2 i n) = if n.val % 2 ^ (i.val + 1) < 2 ^ i.val then 1 else 0)
    (rx ix : ℕ → EReal) (m : ℕ) (hm : m < 4096) :
    kstepRe i.val (krow SR i) (krow PR i) (krow SI i) (krow PI i) (krow MK i) rx ix m
      = stepRe i.val (wt rc i 0) (wt rc i 1) (wt ic i 0) (wt ic i 1) rx ix m := by
  unfold kstepRe stepRe krow
  rw [kbfly_rows_eq_bfly SR PR MK i rc hSR hPR hMK rx m hm, kbfly_rows_eq_bfly SI PI MK i ic hSI hPI hMK ix m hm]

/-- Stage `i` in the masked form over the stacked arrays is stage `i` of `Spec`: the imaginary part. -/
theorem kstepIm_eq_stepIm (SR PR SI PI MK : SK.Idx → EReal) (i : Fin 12) (rc ic : SW.Idx → EReal)
    (hSR : ∀ n : Fin 4096, SR (ix2 i n) =
      if n.val % 2 ^ (i.val + 1) < 2 ^ i.val then wt rc i 0 (n.val % 2 ^ (i.val + 1))
      else wt rc i 1 (n.val % 2 ^ (i.val + 1)))
    (hPR : ∀ n : Fin 4096, PR (ix2 i n) =
      if n.val % 2 ^ (i.val + 1) < 2 ^ i.val then wt rc i 1 (n.val % 2 ^ (i.val + 1))
      else wt rc i 0 (n.val % 2 ^ (i.val + 1)))
    (hSI : ∀ n : Fin 4096, SI (ix2 i n) =
      if n.val % 2 ^ (i.val + 1) < 2 ^ i.val then wt ic i 0 (n.val % 2 ^ (i.val + 1))
      else wt ic i 1 (n.val % 2 ^ (i.val + 1)))
    (hPI : ∀ n : Fin 4096, PI (ix2 i n) =
      if n.val % 2 ^ (i.val + 1) < 2 ^ i.val then wt ic i 1 (n.val % 2 ^ (i.val + 1))
      else wt ic i 0 (n.val % 2 ^ (i.val + 1)))
    (hMK : ∀ n : Fin 4096, MK (ix2 i n) = if n.val % 2 ^ (i.val + 1) < 2 ^ i.val then 1 else 0)
    (rx ix : ℕ → EReal) (m : ℕ) (hm : m < 4096) :
    kstepIm i.val (krow SR i) (krow PR i) (krow SI i) (krow PI i) (krow MK i) rx ix m
      = stepIm i.val (wt rc i 0) (wt rc i 1) (wt ic i 0) (wt ic i 1) rx ix m := by
  unfold kstepIm stepIm krow
  rw [kbfly_rows_eq_bfly SR PR MK i rc hSR hPR hMK ix m hm, kbfly_rows_eq_bfly SI PI MK i ic hSI hPI hMK rx m hm]

/-- The masked network on row `b` of `x · perm` is row `b` of the network of `Spec`, after every number of stages up to
    twelve. Induction on the number of stages; inside the row a stage is `kstepRe_eq_stepRe` / `kstepIm_eq_stepIm`, past
    the end both sides are zero. -/
theorem kstate_eq_state (x : SX.Idx → EReal) (p : SP.Idx → EReal) (rc ic : SW.Idx → EReal)
    (SR PR SI PI MK : SK.Idx → EReal)
    (hSR : ∀ (i : Fin 12) (n : Fin 4096), SR (ix2 i n) =
      if n.val % 2 ^ (i.val + 1) < 2 ^ i.val then wt rc i 0 (n.val % 2 ^ (i.val + 1))
      else wt rc i 1 (n.val % 2 ^ (i.val + 1)))
    (hPR : ∀ (i : Fin 12) (n : Fin 4096), PR (ix2 i n) =
      if n.val % 2 ^ (i.val + 1) < 2 ^ i.val then wt rc i 1 (n.val % 2 ^ (i.val + 1))
      else wt rc i 0 (n.val % 2 ^ (i.val + 1)))
    (hSI : ∀ (i : Fin 12) (n : Fin 4096), SI (ix2 i n) =
      if n.val % 2 ^ (i.val + 1) < 2 ^ i.val then wt ic i 0 (n.val % 2 ^ (i.val + 1))
      else wt ic i 1 (n.val % 2 ^ (i.val + 1)))
    (hPI : ∀ (i : Fin 12) (n : Fin 4096), PI (ix2 i n) =
      if n.val % 2 ^ (i.val + 1) < 2 ^ i.val then wt ic i 1 (n.val % 2 ^ (i.val + 1))
      else wt ic i 0 (n.val % 2 ^ (i.val + 1)))
    (hMK : ∀ (i : Fin 12) (n : Fin 4096), MK (ix2 i n) = if n.val % 2 ^ (i.val + 1) < 2 ^ i.val then 1 else 0)
    (b : Fin 2048) (n : ℕ) (hn : n ≤ 12) :
    (kstate SR PR SI PI MK (rowOf (mm x p) b) n).1 = rowOf (state x p rc ic n).1 b ∧
    (kstate SR PR SI PI MK (rowOf (mm x p) b) n).2 = rowOf (state x p rc ic n).2 b := by
  induction n with
  | zero =>
    refine ⟨rfl, ?_⟩
    -- a zero array reads zero in every row, inside and past the end
    funext m
    rw [kstate_zero, state_zero]
    by_cases hm : m < 4096
    · rw [rowOf_apply _ b m hm]
    · unfold rowOf; rw [rd_of_not_lt _ m hm]
  | succ n ih =>
    have h : n < 12 := hn
    obtain ⟨ih1, ih2⟩ := ih (Nat.le_of_lt h)
    rw [kstate_succ SR PR SI PI MK _ n h, state_succ x p rc ic n h]
    constructor
    · funext m
      by_cases hm : m < 4096
      · rw [rowOf_apply _ b m hm, step_fst_apply, ih1, ih2]
        simp only [if_pos hm]
        exact kstepRe_eq_stepRe SR PR SI PI MK ⟨n, h⟩ rc ic (hSR _) (hPR _) (hSI _) (hPI _) (hMK _) _ _ m hm
      · simp only [if_neg hm]
        unfold rowOf; rw [rd_of_not_lt _ m hm]
    · funext m
      by_cases hm : m < 4096
      · rw [rowOf_apply _ b m hm, step_snd_apply, ih1, ih2]
        simp only [if_pos hm]
        exact kstepIm_eq_stepIm SR PR SI PI MK ⟨n, h⟩ rc ic (hSR _) (hPR _) (hSI _) (hPI _) (hMK _) _ _ m hm
      · simp only [if_neg hm]
        unfold rowOf; rw [rd_of_not_lt _ m hm]

/-- After the twelve stages the masked network on row `b` of `x · perm`, read at lane `n`, is the two results at
    `(b, 0, n)`. -/
theorem kstate_eq_out (x : SX.Idx → EReal) (p : SP.Idx → EReal) (rc ic : SW.Idx → EReal)
    (SR PR SI PI MK : SK.Idx → EReal)
    (hSR : ∀ (i : Fin 12) (n : Fin 4096), SR (ix2 i n) =
      if n.val % 2 ^ (i.val + 1) < 2 ^ i.val then wt rc i 0 (n.val % 2 ^ (i.val + 1))
      else wt rc i 1 (n.val % 2 ^ (i.val + 1)))
    (hPR : ∀ (i : Fin 12) (n : Fin 4096), PR (ix2 i n) =
      if n.val % 2 ^ (i.val + 1) < 2 ^ i.val then wt rc i 1 (n.val % 2 ^ (i.val + 1))
      else wt rc i 0 (n.val % 2 ^ (i.val + 1)))
    (hSI : ∀ (i : Fin 12) (n : Fin 4096), SI (ix2 i n) =
      if n.val % 2 ^ (i.val + 1) < 2 ^ i.val then wt ic i 0 (n.val % 2 ^ (i.val + 1))
      else wt ic i 1 (n.val % 2 ^ (i.val + 1)))
    (hPI : ∀ (i : Fin 12) (n : Fin 4096), PI (ix2 i n) =
      if n.val % 2 ^ (i.val + 1) < 2 ^ i.val then wt ic i 1 (n.val % 2 ^ (i.val + 1))
      else wt ic i 0 (n.val % 2 ^ (i.val + 1)))
    (hMK : ∀ (i : Fin 12) (n : Fin 4096), MK (ix2 i n) = if n.val % 2 ^ (i.val + 1) < 2 ^ i.val then 1 else 0)
    (b : Fin 2048) (z : Fin 1) (n : Fin 4096) :
    (kstate SR PR SI PI MK (rowOf (mm x p) b) 12).1 n.val = outRe x p rc ic (ix3 b z n) ∧
    (kstate SR PR SI PI MK (rowOf (mm x p) b) 12).2 n.val = outIm x p rc ic (ix3 b z n) := by
  obtain ⟨h1, h2⟩ := kstate_eq_state x p rc ic SR PR SI PI MK hSR hPR hSI hPI hMK b 12 (le_refl 12)
  rw [h1, h2, outRe_apply, outIm_apply, rowOf_apply _ b n.val n.isLt, rowOf_apply _ b n.val n.isLt]
  exact ⟨rfl, rfl⟩

end Cert.Fft

end
-- ==== Proof.KV.Butterfly.lean ====
/-
  The value of the butterfly network on a block of 128 rows, read at an index, on the extended reals.

  A full-width row is read as a function of the lane (`lane`), a row of the block likewise (`brow`), both zero past
  the end as the rows of `Spec` are. At an index `(r, n)` the partner blend of a stage is `kpartner` of row `r` (a
  rotation by `4096 − 2^i` reads the lane `2^i` above, one by `2^i` the lane `2^i` below, both around the end; the word
  `0x3F800000` is one), a butterfly over it is `kbfly`, and a stage is `kstepRe` / `kstepIm` of the rows. By induction
  on the number of stages, row `r` of the network's two outputs is the masked network's state on row `r` of the
  block; where the block's row is a row of `x · perm` and the five weight blocks hold the block weights laid out by
  halves, that is the row of `Spec`'s state after twelve stages.
-/
import proofs.«135697_j83099027243546_2_alg».proof.Proof.KI.VStage
import proofs.«135697_j83099027243546_2_alg».proof.Proof.SpecNet
import Idealize.ShloMosaic.Lib.Pipeline.Value
import Idealize.ShloMosaic.Lib.ValueIdx
import Idealize.ShloMosaic.Lib.KernelVsHost
import Idealize.ShloMosaic.Lib.IdealHost

noncomputable section

namespace Cert.KernelIdeal.HandV

open Idealize.ShloMosaic Idealize.ShloMosaic.ValueIdx Cert.KernelIdeal Cert.KernelIdeal.Gen Cert.KernelIdeal.Hand Cert.Fft

/-- A full-width row read at a natural lane. -/
def lane (w : FVec Ideal S1x4096 .f32) : ℕ → EReal := rd fun n => w (ix2 (0 : Fin 1) n)

/-- Row `r` of a block of 128 rows read at a natural lane. -/
def brow (v : FVec Ideal S128x4096 .f32) (r : Fin 128) : ℕ → EReal := rd fun n => v (ix2 r n)

theorem lane_apply (w : FVec Ideal S1x4096 .f32) (n : Fin 4096) : lane w n.val = w (ix2 (0 : Fin 1) n) :=
  rd_of_lt _ n.val n.isLt

theorem brow_apply (v : FVec Ideal S128x4096 .f32) (r : Fin 128) (n : Fin 4096) : brow v r n.val = v (ix2 r n) :=
  rd_of_lt _ n.val n.isLt

theorem bcast_row_apply (w : FVec Ideal S1x4096 .f32) (r : Fin 128) (n : Fin 4096) :
    broadcastTo S128x4096 w broadcasts_S1x4096_S128x4096 (ix2 r n) = w (ix2 (0 : Fin 1) n) := by
  refine broadcastTo_apply w _ (ix2 r n) (ix2 (0 : Fin 1) n) ?_
  intro a
  fin_cases a
  · rfl
  · rfl

theorem rot_apply (sb : BitVec 32) (v : FVec Ideal S128x4096 .f32) (r : Fin 128) (n : Fin 4096) :
    dynamicRotate 1 sb none v rotates_S128x4096_d1 (ix2 r n)
      = v (ix2 r ⟨(n.val + 4096 - sb.toNat % 4096) % 4096, Nat.mod_lt _ (by norm_num)⟩) := by
  refine dynamicRotate_apply 1 sb v _ (ix2 r n) _ ?_
  intro b
  fin_cases b
  · rfl
  · rfl

/-- Half a block of stage `i` is between 1 and 2048. -/
theorem half_bounds (i : ℕ) (hi : i < 12) : 1 ≤ 2 ^ i ∧ 2 ^ i ≤ 2048 :=
  ⟨Nat.one_le_two_pow, (Nat.pow_le_pow_right (by norm_num) (by omega : i ≤ 11)).trans (by norm_num)⟩

/-- The partner blend at an index: the mask times the lane `2^i` above, plus one minus the mask times the lane `2^i`
    below, both around the end of the row. -/
theorem vpartner_apply (i : ℕ) (hi : i < 12) (mk : FVec Ideal S1x4096 .f32) (v : FVec Ideal S128x4096 .f32)
    (r : Fin 128) (n : Fin 4096) :
    vpartner (BitVec.ofNat 32 (4096 - 2 ^ i)) (BitVec.ofNat 32 (2 ^ i)) mk v (ix2 r n)
      = kpartner i (lane mk) (brow v r) n.val := by
  obtain ⟨h1, h2⟩ := half_bounds i hi
  have hn := n.isLt
  unfold vpartner kpartner
  rw [addf_apply, mulf_apply, mulf_apply, bcast_row_apply, bcast_row_apply, subf_apply, broadcast_apply,
    rot_apply, rot_apply, ← lane_apply mk n, BitVec.toNat_ofNat, BitVec.toNat_ofNat]
  have e1 : (n.val + 4096 - (4096 - 2 ^ i) % 2 ^ 32 % 4096) % 4096 = (n.val + 2 ^ i) % 4096 := by
    generalize 2 ^ i = h at h1 h2 ⊢
    omega
  have e2 : (n.val + 4096 - 2 ^ i % 2 ^ 32 % 4096) % 4096 = (n.val + 4096 - 2 ^ i) % 4096 := by
    generalize 2 ^ i = h at h1 h2 ⊢
    omega
  have o : (Scalar.ofBits .f32 0x3F800000#32 : Ideal .f32) = 1 := Ideal.ofBits_one_f32
  rw [o]
  have b1 : v (ix2 r ⟨(n.val + 4096 - (4096 - 2 ^ i) % 2 ^ 32 % 4096) % 4096, Nat.mod_lt _ (by norm_num)⟩)
      = brow v r ((n.val + 2 ^ i) % 4096) := by
    rw [← e1]; exact (brow_apply v r ⟨_, _⟩).symm
  have b2 : v (ix2 r ⟨(n.val + 4096 - 2 ^ i % 2 ^ 32 % 4096) % 4096, Nat.mod_lt _ (by norm_num)⟩)
      = brow v r ((n.val + 4096 - 2 ^ i) % 4096) := by
    rw [← e2]; exact (brow_apply v r ⟨_, _⟩).symm
  rw [b1, b2]

/-- A butterfly at an index. -/
theorem vbfly_apply (sf pt : FVec Ideal S1x4096 .f32) (v p : FVec Ideal S128x4096 .f32) (r : Fin 128) (n : Fin 4096) :
    vbfly sf pt v p (ix2 r n) = lane sf n.val * v (ix2 r n) + lane pt n.val * p (ix2 r n) := by
  unfold vbfly
  rw [addf_apply, mulf_apply, mulf_apply, bcast_row_apply, bcast_row_apply, lane_apply, lane_apply]

/-- A butterfly over the partner blend at an index is the masked butterfly of the rows. -/
theorem vbfly_partner_apply (i : ℕ) (hi : i < 12) (sf pt mk : FVec Ideal S1x4096 .f32) (v : FVec Ideal S128x4096 .f32)
    (r : Fin 128) (n : Fin 4096) :
    vbfly sf pt v (vpartner (BitVec.ofNat 32 (4096 - 2 ^ i)) (BitVec.ofNat 32 (2 ^ i)) mk v) (ix2 r n)
      = kbfly i (lane sf) (lane pt) (lane mk) (brow v r) n.val := by
  rw [vbfly_apply, vpartner_apply i hi, ← brow_apply v r n]
  rfl

/-- One stage at an index: the real part. -/
theorem vstage_fst_apply (i : ℕ) (hi : i < 12) (sr pr si pi mk : FVec Ideal S1x4096 .f32)
    (rx ix : FVec Ideal S128x4096 .f32) (r : Fin 128) (n : Fin 4096) :
    (vstage (BitVec.ofNat 32 (4096 - 2 ^ i)) (BitVec.ofNat 32 (2 ^ i)) sr pr si pi mk rx ix).1 (ix2 r n)
      = kstepRe i (lane sr) (lane pr) (lane si) (lane pi) (lane mk) (brow rx r) (brow ix r) n.val := by
  show subf _ _ (ix2 r n) = _
  rw [subf_apply, vbfly_partner_apply i hi, vbfly_partner_apply i hi]
  rfl

/-- One stage at an index: the imaginary part. -/
theorem vstage_snd_apply (i : ℕ) (hi : i < 12) (sr pr si pi mk : FVec Ideal S1x4096 .f32)
    (rx ix : FVec Ideal S128x4096 .f32) (r : Fin 128) (n : Fin 4096) :
    (vstage (BitVec.ofNat 32 (4096 - 2 ^ i)) (BitVec.ofNat 32 (2 ^ i)) sr pr si pi mk rx ix).2 (ix2 r n)
      = kstepIm i (lane sr) (lane pr) (lane si) (lane pi) (lane mk) (brow rx r) (brow ix r) n.val := by
  show addf _ _ (ix2 r n) = _
  rw [addf_apply, vbfly_partner_apply i hi, vbfly_partner_apply i hi]
  rfl

/-- Past the end a row of a block reads zero. -/
theorem brow_of_not_lt (v : FVec Ideal S128x4096 .f32) (r : Fin 128) (m : ℕ) (h : ¬ m < 4096) : brow v r m = 0 :=
  rd_of_not_lt _ m h

/-- Row `i` of a weight block, as the row a stage reads, is row `i` of the stacked array. -/
theorem vrow_apply (w : Vec Ideal S12x4096 .f32) (i : Fin 12) (z : Fin 1) (n : Fin 4096) :
    vrow w i (ix2 z n) = w (ix2 i n) := by
  unfold vrow
  refine (congrFun (shapeCast_self (s := S1x4096) _ shapeCasts_S1x4096_S1x4096) (ix2 z n)).trans ?_
  show w _ = w _
  refine congrArg w (funext fun a => Fin.ext ?_)
  have hz : z.val = 0 := by omega
  match a with
  | ⟨0, _⟩ => show i.val + 1 * z.val = i.val; omega
  | ⟨1, _⟩ => show 0 + 1 * n.val = n.val; omega

/-- So its lanes are the stacked array's row. -/
theorem lane_vrow (w : Vec Ideal S12x4096 .f32) (i : Fin 12) : lane (vrow w i) = krow w i := by
  unfold lane krow
  exact congrArg rd (funext fun n => vrow_apply w i 0 n)

theorem vnetUpTo_succ (w2 w3 w4 w5 w6 : Vec Ideal S12x4096 .f32) (x : Vec Ideal S128x4096 .f32) (k : ℕ) (h : k < 12) :
    vnetUpTo w2 w3 w4 w5 w6 x (k + 1) = vstageAt w2 w3 w4 w5 w6 ⟨k, h⟩ (vnetUpTo w2 w3 w4 w5 w6 x k) := by
  rw [vnetUpTo, dif_pos h]

/-- The first `k` stages on a block, row by row: row `r` of the two outputs is the masked network's state after `k`
    stages from row `r` of the block. Induction on `k`; inside the row a stage at an index is the masked stage of the
    rows, past the end both sides read zero. -/
theorem vnetUpTo_rows (w2 w3 w4 w5 w6 : Vec Ideal S12x4096 .f32) (x : Vec Ideal S128x4096 .f32) (r : Fin 128)
    (k : ℕ) (hk : k ≤ 12) :
    brow (vnetUpTo w2 w3 w4 w5 w6 x k).1 r = (kstate w2 w3 w4 w5 w6 (brow x r) k).1 ∧
    brow (vnetUpTo w2 w3 w4 w5 w6 x k).2 r = (kstate w2 w3 w4 w5 w6 (brow x r) k).2 := by
  induction k with
  | zero =>
    rw [kstate_zero]
    constructor
    · show brow (shapeCast S128x4096 x shapeCasts_S128x4096_S128x4096) r = brow x r
      rw [shapeCast_self]
    · funext m
      by_cases hm : m < 4096
      · show brow _ r (⟨m, hm⟩ : Fin 4096).val = 0
        rw [brow_apply]
        exact Ideal.ofBits_zero_f32
      · exact brow_of_not_lt _ r m hm
  | succ k ih =>
    have h : k < 12 := hk
    obtain ⟨ih1, ih2⟩ := ih (Nat.le_of_lt h)
    rw [vnetUpTo_succ w2 w3 w4 w5 w6 x k h, kstate_succ _ _ _ _ _ _ k h]
    unfold vstageAt
    constructor
    · funext m
      by_cases hm : m < 4096
      · simp only [if_pos hm]
        show brow _ r (⟨m, hm⟩ : Fin 4096).val = _
        rw [brow_apply, vstage_fst_apply k h, ih1, ih2, lane_vrow, lane_vrow, lane_vrow, lane_vrow, lane_vrow]
      · simp only [if_neg hm]
        exact brow_of_not_lt _ r m hm
    · funext m
      by_cases hm : m < 4096
      · simp only [if_pos hm]
        show brow _ r (⟨m, hm⟩ : Fin 4096).val = _
        rw [brow_apply, vstage_snd_apply k h, ih1, ih2, lane_vrow, lane_vrow, lane_vrow, lane_vrow, lane_vrow]
      · simp only [if_neg hm]
        exact brow_of_not_lt _ r m hm

/-- The twelve stages at an index: the masked network's state after twelve stages from the block's row. -/
theorem vnet_apply (w2 w3 w4 w5 w6 : Vec Ideal S12x4096 .f32) (x : Vec Ideal S128x4096 .f32) (r : Fin 128)
    (n : Fin 4096) :
    (vnet w2 w3 w4 w5 w6 x).1 (ix2 r n) = (kstate w2 w3 w4 w5 w6 (brow x r) 12).1 n.val ∧
    (vnet w2 w3 w4 w5 w6 x).2 (ix2 r n) = (kstate w2 w3 w4 w5 w6 (brow x r) 12).2 n.val := by
  obtain ⟨h1, h2⟩ := vnetUpTo_rows w2 w3 w4 w5 w6 x r 12 (le_refl 12)
  rw [vnet_eq_upTo, ← h1, ← h2, brow_apply, brow_apply]
  exact ⟨rfl, rfl⟩

/-- Where row `r` of the block is row `b` of `x · perm` and the five weight blocks hold the block weights laid out by
    halves, the network's outputs at `(r, n)` are `Spec`'s state after the twelve stages at `(b, n)`. -/
theorem vnet_eq_state (X : SX.Idx → EReal) (P : SP.Idx → EReal) (rc ic : SW.Idx → EReal)
    (w2 w3 w4 w5 w6 : Vec Ideal S12x4096 .f32)
    (hSR : ∀ (i : Fin 12) (n : Fin 4096), w2 (ix2 i n) =
      if n.val % 2 ^ (i.val + 1) < 2 ^ i.val then wt rc i 0 (n.val % 2 ^ (i.val + 1))
      else wt rc i 1 (n.val % 2 ^ (i.val + 1)))
    (hPR : ∀ (i : Fin 12) (n : Fin 4096), w3 (ix2 i n) =
      if n.val % 2 ^ (i.val + 1) < 2 ^ i.val then wt rc i 1 (n.val % 2 ^ (i.val + 1))
      else wt rc i 0 (n.val % 2 ^ (i.val + 1)))
    (hSI : ∀ (i : Fin 12) (n : Fin 4096), w4 (ix2 i n) =
      if n.val % 2 ^ (i.val + 1) < 2 ^ i.val then wt ic i 0 (n.val % 2 ^ (i.val + 1))
      else wt ic i 1 (n.val % 2 ^ (i.val + 1)))
    (hPI : ∀ (i : Fin 12) (n : Fin 4096), w5 (ix2 i n) =
      if n.val % 2 ^ (i.val + 1) < 2 ^ i.val then wt ic i 1 (n.val % 2 ^ (i.val + 1))
      else wt ic i 0 (n.val % 2 ^ (i.val + 1)))
    (hMK : ∀ (i : Fin 12) (n : Fin 4096), w6 (ix2 i n) = if n.val % 2 ^ (i.val + 1) < 2 ^ i.val then 1 else 0)
    (x : Vec Ideal S128x4096 .f32) (r : Fin 128) (b : Fin 2048)
    (hx : ∀ n : Fin 4096, x (ix2 r n) = mm X P (ix2 b n)) (n : Fin 4096) :
    (vnet w2 w3 w4 w5 w6 x).1 (ix2 r n) = (state X P rc ic 12).1 (ix2 b n) ∧
    (vnet w2 w3 w4 w5 w6 x).2 (ix2 r n) = (state X P rc ic 12).2 (ix2 b n) := by
  have hrow : brow x r = rowOf (mm X P) b := by
    unfold brow rowOf
    exact congrArg rd (funext hx)
  obtain ⟨v1, v2⟩ := vnet_apply w2 w3 w4 w5 w6 x r n
  obtain ⟨k1, k2⟩ := kstate_eq_state X P rc ic w2 w3 w4 w5 w6 hSR hPR hSI hPI hMK b 12 (le_refl 12)
  rw [v1, v2, hrow, k1, k2, rowOf_apply _ b n.val n.isLt, rowOf_apply _ b n.val n.isLt]
  exact ⟨rfl, rfl⟩

end Cert.KernelIdeal.HandV

end
-- ==== Proof.KV.Net1.lean ====
/-
  From blocks to arrays for the butterfly kernel's region: the two output arrays after the sixteen points, as whole-array
  functions.

  Point `t` of the grid works on rows `128·t … 128·t + 127` of the data array and on the five weight arrays whole, and
  writes its two blocks back to the same rows of the two output arrays. Where the data array is `x · perm` and the five
  weight arrays hold the block weights laid out by halves, the block point `t` writes back is rows `128·t …` of `Spec`'s
  state after the twelve stages; the sixteen blocks tile the 2048 rows, so the arrays end holding that state.
-/
import proofs.«135697_j83099027243546_2_alg».proof.Proof.KI.Body1
import proofs.«135697_j83099027243546_2_alg».proof.Proof.KV.Butterfly
import Idealize.ShloMosaic.Lib.Pipeline.Value

noncomputable section

namespace Cert.KernelIdeal.HandV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Fft

variable (V : (c : Dev nD) → (b : Ref sig .tc) → Buf (Elt Ideal) ((c : Thread nD τ).loc b))

/-- The printed index maps, decided over the grid: the data window and the two output windows sit at block row `t`,
    the five weight windows at the one block there is. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The grid has sixteen points. -/
theorem N1 : cfg1.N = 16 := rfl

/-- The data window's block at point `t` is rows `128·t … 128·t + 127` of the data array. -/
theorem iblk1_x_apply (c : Dev nD) (t : Fin cfg1.N) (r : Fin 128) (n : Fin 4096) (b : Fin 2048)
    (hb : b.val = 128 * t.val + r.val) :
    (iblk1 V c 0 t : Vec Ideal S128x4096 .f32) (ix2 r n) = (V c main_v2 : S2048x4096.Idx → EReal) (ix2 b n) := by
  obtain ⟨e0, e1, -⟩ := idx_facts1 t
  unfold iblk1
  rw [View.read_apply]
  show V c main_v2 _ = V c main_v2 _
  congr 1
  funext a
  apply Fin.ext
  match a with
  | ⟨0, _⟩ => show win1_0.index t (0 : Fin 2) * 128 + 1 * r.val = b.val; rw [e0, hb]; omega
  | ⟨1, _⟩ => show win1_0.index t (1 : Fin 2) * 4096 + 1 * n.val = n.val; rw [e1]; omega

/-- A weight window's block at any point is its whole array. -/
theorem iblk1_w1_apply (c : Dev nD) (t : Fin cfg1.N) (i : Fin 12) (n : Fin 4096) :
    (iblk1 V c 1 t : Vec Ideal S12x4096 .f32) (ix2 i n) = (V c main_v387 : S12x4096.Idx → EReal) (ix2 i n) := by
  obtain ⟨-, -, e0, e1, -⟩ := idx_facts1 t
  unfold iblk1
  rw [View.read_apply]
  show V c main_v387 _ = V c main_v387 _
  congr 1
  funext a
  apply Fin.ext
  match a with
  | ⟨0, _⟩ => show win1_1.index t (0 : Fin 2) * 12 + 1 * i.val = i.val; rw [e0]; omega
  | ⟨1, _⟩ => show win1_1.index t (1 : Fin 2) * 4096 + 1 * n.val = n.val; rw [e1]; omega

theorem iblk1_w2_apply (c : Dev nD) (t : Fin cfg1.N) (i : Fin 12) (n : Fin 4096) :
    (iblk1 V c 2 t : Vec Ideal S12x4096 .f32) (ix2 i n) = (V c main_v400 : S12x4096.Idx → EReal) (ix2 i n) := by
  obtain ⟨-, -, -, -, e0, e1, -⟩ := idx_facts1 t
  unfold iblk1
  rw [View.read_apply]
  show V c main_v400 _ = V c main_v400 _
  congr 1
  funext a
  apply Fin.ext
  match a with
  | ⟨0, _⟩ => show win1_2.index t (0 : Fin 2) * 12 + 1 * i.val = i.val; rw [e0]; omega
  | ⟨1, _⟩ => show win1_2.index t (1 : Fin 2) * 4096 + 1 * n.val = n.val; rw [e1]; omega

theorem iblk1_w3_apply (c : Dev nD) (t : Fin cfg1.N) (i : Fin 12) (n : Fin 4096) :
    (iblk1 V c 3 t : Vec Ideal S12x4096 .f32) (ix2 i n) = (V c main_v413 : S12x4096.Idx → EReal) (ix2 i n) := by
  obtain ⟨-, -, -, -, -, -, e0, e1, -⟩ := idx_facts1 t
  unfold iblk1
  rw [View.read_apply]
  show V c main_v413 _ = V c main_v413 _
  congr 1
  funext a
  apply Fin.ext
  match a with
  | ⟨0, _⟩ => show win1_3.index t (0 : Fin 2) * 12 + 1 * i.val = i.val; rw [e0]; omega
  | ⟨1, _⟩ => show win1_3.index t (1 : Fin 2) * 4096 + 1 * n.val = n.val; rw [e1]; omega

theorem iblk1_w4_apply (c : Dev nD) (t : Fin cfg1.N) (i : Fin 12) (n : Fin 4096) :
    (iblk1 V c 4 t : Vec Ideal S12x4096 .f32) (ix2 i n) = (V c main_v426 : S12x4096.Idx → EReal) (ix2 i n) := by
  obtain ⟨-, -, -, -, -, -, -, -, e0, e1, -⟩ := idx_facts1 t
  unfold iblk1
  rw [View.read_apply]
  show V c main_v426 _ = V c main_v426 _
  congr 1
  funext a
  apply Fin.ext
  match a with
  | ⟨0, _⟩ => show win1_4.index t (0 : Fin 2) * 12 + 1 * i.val = i.val; rw [e0]; omega
  | ⟨1, _⟩ => show win1_4.index t (1 : Fin 2) * 4096 + 1 * n.val = n.val; rw [e1]; omega

theorem iblk1_w5_apply (c : Dev nD) (t : Fin cfg1.N) (i : Fin 12) (n : Fin 4096) :
    (iblk1 V c 5 t : Vec Ideal S12x4096 .f32) (ix2 i n) = (V c main_v439 : S12x4096.Idx → EReal) (ix2 i n) := by
  obtain ⟨-, -, -, -, -, -, -, -, -, -, e0, e1, -⟩ := idx_facts1 t
  unfold iblk1
  rw [View.read_apply]
  show V c main_v439 _ = V c main_v439 _
  congr 1
  funext a
  apply Fin.ext
  match a with
  | ⟨0, _⟩ => show win1_5.index t (0 : Fin 2) * 12 + 1 * i.val = i.val; rw [e0]; omega
  | ⟨1, _⟩ => show win1_5.index t (1 : Fin 2) * 4096 + 1 * n.val = n.val; rw [e1]; omega

section Arrays

variable (X : SX.Idx → EReal) (P : SP.Idx → EReal) (rc ic : SW.Idx → EReal) (c : Dev nD)
  (hx : ∀ (b : Fin 2048) (n : Fin 4096), (V c main_v2 : S2048x4096.Idx → EReal) (ix2 b n) = mm X P (ix2 b n))
  (hSR : ∀ (i : Fin 12) (n : Fin 4096), (V c main_v387 : S12x4096.Idx → EReal) (ix2 i n) =
    if n.val % 2 ^ (i.val + 1) < 2 ^ i.val then wt rc i 0 (n.val % 2 ^ (i.val + 1))
    else wt rc i 1 (n.val % 2 ^ (i.val + 1)))
  (hPR : ∀ (i : Fin 12) (n : Fin 4096), (V c main_v400 : S12x4096.Idx → EReal) (ix2 i n) =
    if n.val % 2 ^ (i.val + 1) < 2 ^ i.val then wt rc i 1 (n.val % 2 ^ (i.val + 1))
    else wt rc i 0 (n.val % 2 ^ (i.val + 1)))
  (hSI : ∀ (i : Fin 12) (n : Fin 4096), (V c main_v413 : S12x4096.Idx → EReal) (ix2 i n) =
    if n.val % 2 ^ (i.val + 1) < 2 ^ i.val then wt ic i 0 (n.val % 2 ^ (i.val + 1))
    else wt ic i 1 (n.val % 2 ^ (i.val + 1)))
  (hPI : ∀ (i : Fin 12) (n : Fin 4096), (V c main_v426 : S12x4096.Idx → EReal) (ix2 i n) =
    if n.val % 2 ^ (i.val + 1) < 2 ^ i.val then wt ic i 1 (n.val % 2 ^ (i.val + 1))
    else wt ic i 0 (n.val % 2 ^ (i.val + 1)))
  (hMK : ∀ (i : Fin 12) (n : Fin 4096), (V c main_v439 : S12x4096.Idx → EReal) (ix2 i n) =
    if n.val % 2 ^ (i.val + 1) < 2 ^ i.val then (1 : EReal) else 0)

include hx hSR hPR hSI hPI hMK

/-- What the body leaves at point `t`, read at `(r, n)`: `Spec`'s state after the twelve stages at row `128·t + r`. -/
theorem point_apply (t : Fin cfg1.N) (r : Fin 128) (n : Fin 4096) (b : Fin 2048) (hb : b.val = 128 * t.val + r.val) :
    (vnet (iblk1 V c 1 t) (iblk1 V c 2 t) (iblk1 V c 3 t) (iblk1 V c 4 t) (iblk1 V c 5 t) (iblk1 V c 0 t)).1 (ix2 r n)
        = (state X P rc ic 12).1 (ix2 b n) ∧
    (vnet (iblk1 V c 1 t) (iblk1 V c 2 t) (iblk1 V c 3 t) (iblk1 V c 4 t) (iblk1 V c 5 t) (iblk1 V c 0 t)).2 (ix2 r n)
        = (state X P rc ic 12).2 (ix2 b n) :=
  vnet_eq_state X P rc ic _ _ _ _ _
    (fun i n => (iblk1_w1_apply V c t i n).trans (hSR i n))
    (fun i n => (iblk1_w2_apply V c t i n).trans (hPR i n))
    (fun i n => (iblk1_w3_apply V c t i n).trans (hSI i n))
    (fun i n => (iblk1_w4_apply V c t i n).trans (hPI i n))
    (fun i n => (iblk1_w5_apply V c t i n).trans (hMK i n))
    (iblk1 V c 0 t) r b (fun n => (iblk1_x_apply V c t r n b hb).trans (hx b n)) n

/-- WHAT POINT `t` WRITES BACK to the real output is block `t` of `Spec`'s real state after the twelve stages. -/
theorem flushed1_6_eq (t : Fin cfg1.N) :
    (dat1 V c).flushed 6 t
      = ((cfg1.win 6).blk t).view.read (Elt Ideal) ((state X P rc ic 12).1 : S2048x4096.Idx → EReal) := by
  obtain ⟨-, -, -, -, -, -, -, -, -, -, -, -, e0, e1, -⟩ := idx_facts1 t
  show (cfg1.win 6).cut (grid1.coords t) ((dat1 V c).after 6 t) = _
  rw [after1_6, (out1_eq_vnet _ _ _ _ _ _).1]
  funext y
  obtain ⟨r, n, rfl⟩ : ∃ (r : Fin 128) (n : Fin 4096), y = ix2 r n := ⟨y 0, y 1, eq_ix2 (n0 := 128) (n1 := 4096) y⟩
  have ht : t.val < 16 := t.isLt
  have hb : 128 * t.val + r.val < 2048 := by have := r.isLt; omega
  have hemb : ((cfg1.win 6).blk t).view.emb (ix2 r n) = ix2 (⟨128 * t.val + r.val, hb⟩ : Fin 2048) n := by
    funext a
    apply Fin.ext
    match a with
    | ⟨0, _⟩ => show win1_6.index t (0 : Fin 2) * 128 + 1 * r.val = 128 * t.val + r.val; rw [e0]; omega
    | ⟨1, _⟩ => show win1_6.index t (1 : Fin 2) * 4096 + 1 * n.val = n.val; rw [e1]; omega
  rw [View.read_apply]
  show _ = (state X P rc ic 12).1 (((cfg1.win 6).blk t).view.emb (ix2 r n))
  rw [hemb]
  exact (point_apply V X P rc ic c hx hSR hPR hSI hPI hMK t r n ⟨_, hb⟩ rfl).1

/-- … and to the imaginary output block `t` of the imaginary state. -/
theorem flushed1_7_eq (t : Fin cfg1.N) :
    (dat1 V c).flushed 7 t
      = ((cfg1.win 7).blk t).view.read (Elt Ideal) ((state X P rc ic 12).2 : S2048x4096.Idx → EReal) := by
  obtain ⟨-, -, -, -, -, -, -, -, -, -, -, -, -, -, e0, e1⟩ := idx_facts1 t
  show (cfg1.win 7).cut (grid1.coords t) ((dat1 V c).after 7 t) = _
  rw [after1_7, (out1_eq_vnet _ _ _ _ _ _).2]
  funext y
  obtain ⟨r, n, rfl⟩ : ∃ (r : Fin 128) (n : Fin 4096), y = ix2 r n := ⟨y 0, y 1, eq_ix2 (n0 := 128) (n1 := 4096) y⟩
  have ht : t.val < 16 := t.isLt
  have hb : 128 * t.val + r.val < 2048 := by have := r.isLt; omega
  have hemb : ((cfg1.win 7).blk t).view.emb (ix2 r n) = ix2 (⟨128 * t.val + r.val, hb⟩ : Fin 2048) n := by
    funext a
    apply Fin.ext
    match a with
    | ⟨0, _⟩ => show win1_7.index t (0 : Fin 2) * 128 + 1 * r.val = 128 * t.val + r.val; rw [e0]; omega
    | ⟨1, _⟩ => show win1_7.index t (1 : Fin 2) * 4096 + 1 * n.val = n.val; rw [e1]; omega
  rw [View.read_apply]
  show _ = (state X P rc ic 12).2 (((cfg1.win 7).blk t).view.emb (ix2 r n))
  rw [hemb]
  exact (point_apply V X P rc ic c hx hSR hPR hSI hPI hMK t r n ⟨_, hb⟩ rfl).2

omit hx hSR hPR hSI hPI hMK in
/-- Row `i₀` of an output array lies in the block of point `i₀ / 128`: the sixteen blocks tile the array. -/
theorem cover1_6 (i : S2048x4096.Idx) :
    ∃ t : Fin cfg1.N, (cfg1.win 6).flush t = true ∧ i ∈ ((cfg1.win 6).blk t).view.set := by
  have h0 : (i 0).val < 2048 := (i 0).isLt
  have h1 : (i 1).val < 4096 := (i 1).isLt
  have hq : (i 0).val / 128 < 16 := by omega
  refine ⟨⟨(i 0).val / 128, hq⟩, flush1_6 _, ?_⟩
  obtain ⟨-, -, -, -, -, -, -, -, -, -, -, -, e0, e1, -⟩ := idx_facts1 ⟨(i 0).val / 128, hq⟩
  show i ∈ ((View.whole main_v440_0).slice (win1_6.rect ⟨(i 0).val / 128, hq⟩)).set
  rw [View.set_slice_whole, Rect.mem_set_unit]
  intro a
  match a with
  | ⟨0, _⟩ =>
    show win1_6.index ⟨(i 0).val / 128, hq⟩ (0 : Fin 2) * 128 ≤ (i 0).val
      ∧ (i 0).val < win1_6.index ⟨(i 0).val / 128, hq⟩ (0 : Fin 2) * 128 + 128
    rw [e0]; show (i 0).val / 128 * 128 ≤ (i 0).val ∧ (i 0).val < (i 0).val / 128 * 128 + 128; omega
  | ⟨1, _⟩ =>
    show win1_6.index ⟨(i 0).val / 128, hq⟩ (1 : Fin 2) * 4096 ≤ (i 1).val
      ∧ (i 1).val < win1_6.index ⟨(i 0).val / 128, hq⟩ (1 : Fin 2) * 4096 + 4096
    rw [e1]; omega

omit hx hSR hPR hSI hPI hMK in
theorem cover1_7 (i : S2048x4096.Idx) :
    ∃ t : Fin cfg1.N, (cfg1.win 7).flush t = true ∧ i ∈ ((cfg1.win 7).blk t).view.set := by
  have h0 : (i 0).val < 2048 := (i 0).isLt
  have h1 : (i 1).val < 4096 := (i 1).isLt
  have hq : (i 0).val / 128 < 16 := by omega
  refine ⟨⟨(i 0).val / 128, hq⟩, flush1_7 _, ?_⟩
  obtain ⟨-, -, -, -, -, -, -, -, -, -, -, -, -, -, e0, e1⟩ := idx_facts1 ⟨(i 0).val / 128, hq⟩
  show i ∈ ((View.whole main_v440_1).slice (win1_7.rect ⟨(i 0).val / 128, hq⟩)).set
  rw [View.set_slice_whole, Rect.mem_set_unit]
  intro a
  match a with
  | ⟨0, _⟩ =>
    show win1_7.index ⟨(i 0).val / 128, hq⟩ (0 : Fin 2) * 128 ≤ (i 0).val
      ∧ (i 0).val < win1_7.index ⟨(i 0).val / 128, hq⟩ (0 : Fin 2) * 128 + 128
    rw [e0]; show (i 0).val / 128 * 128 ≤ (i 0).val ∧ (i 0).val < (i 0).val / 128 * 128 + 128; omega
  | ⟨1, _⟩ =>
    show win1_7.index ⟨(i 0).val / 128, hq⟩ (1 : Fin 2) * 4096 ≤ (i 1).val
      ∧ (i 1).val < win1_7.index ⟨(i 0).val / 128, hq⟩ (1 : Fin 2) * 4096 + 4096
    rw [e1]; omega

/-- THE TWO OUTPUT ARRAYS after the region: `Spec`'s state after the twelve stages. -/
theorem arrAt1_6 : ((dat1 V c).arrAt 6 cfg1.N : S2048x4096.Idx → EReal) = (state X P rc ic 12).1 :=
  (dat1 V c).arrAt_eq_of_cover 6 ((state X P rc ic 12).1 : S2048x4096.Idx → EReal)
    (fun t _ => flushed1_6_eq V X P rc ic c hx hSR hPR hSI hPI hMK t) cover1_6

theorem arrAt1_7 : ((dat1 V c).arrAt 7 cfg1.N : S2048x4096.Idx → EReal) = (state X P rc ic 12).2 :=
  (dat1 V c).arrAt_eq_of_cover 7 ((state X P rc ic 12).2 : S2048x4096.Idx → EReal)
    (fun t _ => flushed1_7_eq V X P rc ic c hx hSR hPR hSI hPI hMK t) cover1_7

end Arrays

/-- REGION 1, in one statement: where the data array is `x · perm` and the five weight arrays hold the block weights
    laid out by halves, the two output arrays end holding `Spec`'s state after the twelve stages. -/
theorem net1 (c : Dev nD) (X : SX.Idx → EReal) (P : SP.Idx → EReal) (rc ic : SW.Idx → EReal)
    (hx : (V c main_v2 : SX.Idx → EReal) = mm X P)
    (hSR : ∀ (i : Fin 12) (n : Fin 4096), (V c main_v387 : S12x4096.Idx → EReal) (ix2 i n) =
      if n.val % 2 ^ (i.val + 1) < 2 ^ i.val then wt rc i 0 (n.val % 2 ^ (i.val + 1))
      else wt rc i 1 (n.val % 2 ^ (i.val + 1)))
    (hPR : ∀ (i : Fin 12) (n : Fin 4096), (V c main_v400 : S12x4096.Idx → EReal) (ix2 i n) =
      if n.val % 2 ^ (i.val + 1) < 2 ^ i.val then wt rc i 1 (n.val % 2 ^ (i.val + 1))
      else wt rc i 0 (n.val % 2 ^ (i.val + 1)))
    (hSI : ∀ (i : Fin 12) (n : Fin 4096), (V c main_v413 : S12x4096.Idx → EReal) (ix2 i n) =
      if n.val % 2 ^ (i.val + 1) < 2 ^ i.val then wt ic i 0 (n.val % 2 ^ (i.val + 1))
      else wt ic i 1 (n.val % 2 ^ (i.val + 1)))
    (hPI : ∀ (i : Fin 12) (n : Fin 4096), (V c main_v426 : S12x4096.Idx → EReal) (ix2 i n) =
      if n.val % 2 ^ (i.val + 1) < 2 ^ i.val then wt ic i 1 (n.val % 2 ^ (i.val + 1))
      else wt ic i 0 (n.val % 2 ^ (i.val + 1)))
    (hMK : ∀ (i : Fin 12) (n : Fin 4096), (V c main_v439 : S12x4096.Idx → EReal) (ix2 i n) =
      if n.val % 2 ^ (i.val + 1) < 2 ^ i.val then (1 : EReal) else (0 : EReal)) :
    ((dat1 (F := Ideal) V c).arrAt 6 cfg1.N : SX.Idx → EReal) = (state X P rc ic 12).1 ∧
    ((dat1 (F := Ideal) V c).arrAt 7 cfg1.N : SX.Idx → EReal) = (state X P rc ic 12).2 :=
  ⟨arrAt1_6 V X P rc ic c (fun b n => congrFun hx (ix2 b n)) hSR hPR hSI hPI hMK,
   arrAt1_7 V X P rc ic c (fun b n => congrFun hx (ix2 b n)) hSR hPR hSI hPI hMK⟩

end Cert.KernelIdeal.HandV

end
-- ==== Proof.KV.PrepTile.lean ====
/-
  Reading one stage's weight rows, over plain functions and any block size.

  A stage of block size `s` (half-block `h`) takes two weight rows of length `s` out of a `[12, 2, 4096]` table, blends
  them by the mask "position below `h`", and lays the blended row of length `s` end to end `reps` times along a row of
  `N = reps * s` lanes, so that lane `n` holds the blended row at position `n % s`. Each lemma reads one of these
  operations at an index; the last ones read the whole chain at a lane.
-/
import Idealize.ShloMosaic.PureOps.Ideal
import Idealize.ShloMosaic.Lib.ValueIdx
import Idealize.ShloMosaic.Lib.Pipeline.Value
import Idealize.ShloMosaic.Lib.StableHlo.Predicate

noncomputable section

namespace Cert.KernelIdeal.HandV

open Idealize.ShloMosaic Idealize.ShloMosaic.ValueIdx Idealize.ShloMosaic.StableHlo.Predicate

section Tile
variable {α : Type}

/-- A row of `s` entries laid end to end `reps` times (as a `[1, s]` row repeated down `reps` rows, read row-major):
    lane `n` holds entry `n % s`. -/
theorem tile_apply {s reps N : ℕ} (hN : reps * s = N) (v : (⟨1, ![s]⟩ : Shape).Idx → α)
    (h1 : (⟨1, ![s]⟩ : Shape).ShapeCasts ⟨2, ![1, s]⟩)
    (h2 : (⟨2, ![1, s]⟩ : Shape).BroadcastsInDim ⟨2, ![reps, s]⟩ ![0, 1])
    (h3 : (⟨2, ![reps, s]⟩ : Shape).ShapeCasts ⟨1, ![N]⟩) (n : Fin N) (l : Fin s) (hl : l.val = n.val % s) :
    shapeCast ⟨1, ![N]⟩ (broadcastInDim ⟨2, ![reps, s]⟩ ![0, 1] h2 (shapeCast ⟨2, ![1, s]⟩ v h1)) h3 (ix1 n) = v (ix1 l) := by
  have hs : 0 < s := Nat.pos_of_ne_zero fun h0 => by subst h0; exact absurd l.isLt (Nat.not_lt_zero _)
  have hp : n.val / s < reps := by
    rw [Nat.div_lt_iff_lt_mul hs, hN]; exact n.isLt
  rw [shapeCast_apply _ h3 (ix1 n) (ij (⟨n.val / s, hp⟩ : Fin reps) l) (by
    rw [Shape.rowMajor_val_two, Shape.rowMajor_val_one]
    show n.val / s * s + l.val = n.val
    rw [hl]; exact Nat.div_add_mod' _ _)]
  rw [bcast_of_row]
  exact shapeCast_apply v h1 (i1q l) (ix1 l) (by
    rw [Shape.rowMajor_val_one, Shape.rowMajor_val_two]
    show l.val = 0 * s + l.val
    omega)

/-- A length-`s` piece `[i, k, 0 : s]` of a `[R, K, M]` table, kept as a vector: entry `l` is the table at `(i, k, l)`. -/
theorem piece_apply {R K M s : ℕ} (w : (⟨3, ![R, K, M]⟩ : Shape).Idx → α) (i k : ℕ)
    (hsl : (⟨3, ![R, K, M]⟩ : Shape).Slices ![i, k, 0] ⟨3, ![1, 1, s]⟩)
    (hsc : (⟨3, ![1, 1, s]⟩ : Shape).ShapeCasts ⟨1, ![s]⟩) (l : Fin s)
    (i' : Fin R) (k' : Fin K) (l' : Fin M) (hi : i'.val = i) (hk : k'.val = k) (hl : l'.val = l.val) :
    shapeCast ⟨1, ![s]⟩ (extractStridedSlice ⟨3, ![1, 1, s]⟩ ![i, k, 0] w hsl) hsc (ix1 l) = w (ix3 i' k' l') := by
  rw [shapeCast_apply _ hsc (ix1 l) (ix3 (0 : Fin 1) (0 : Fin 1) l) (by
    rw [Shape.rowMajor_val_three, Shape.rowMajor_val_one]
    show (0 * 1 + 0) * s + l.val = l.val
    omega)]
  exact extractStridedSlice_apply _ w hsl _ (ix3 i' k' l') fun a => by
    match a with
    | ⟨0, _⟩ => show i'.val = i + 0; omega
    | ⟨1, _⟩ => show k'.val = k + 0; omega
    | ⟨2, _⟩ => show l'.val = 0 + l.val; omega

end Tile

section Mask

/-- The mask "position below `c`" of a length-`s` vector of positions, read at position `l`. -/
theorem below_apply {s : ℕ} (c : BitVec 32) (hb : (⟨0, ![]⟩ : Shape).BroadcastsInDim ⟨1, ![s]⟩ ![]) (l : Fin s)
    (hs : s ≤ 2 ^ 31) (hc : c.toNat < 2 ^ 31) :
    (cmpi .slt (iotaInDim ⟨1, ![s]⟩ 32 0) (broadcastInDim ⟨1, ![s]⟩ ![] hb (constantI ⟨0, ![]⟩ 32 c)) : IVec ⟨1, ![s]⟩ 1) (ix1 l)
      = if l.val < c.toNat then 1#1 else 0#1 := by
  show IntOp.cmpi .slt (BitVec.ofNat 32 l.val) c = _
  have hl : (BitVec.ofNat 32 l.val).toNat = l.val := by
    rw [BitVec.toNat_ofNat]; exact Nat.mod_eq_of_lt (by have := l.isLt; omega)
  have hl' : (BitVec.ofNat 32 l.val).toNat < 2 ^ 31 := by rw [hl]; have := l.isLt; omega
  by_cases h : l.val < c.toNat
  · rw [if_pos h]; exact (slt_iff_toNat hl' hc).mpr (by rw [hl]; exact h)
  · rw [if_neg h]; exact eq_zero_of_ne_one fun h1 => h (by have := (slt_iff_toNat hl' hc).mp h1; rwa [hl] at this)

/-- A choice between two values on a decided bit. -/
theorem select_bit {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- The bit as a number: one or zero. -/
theorem uitofp_bit (p : Prop) [Decidable p] :
    (FloatOps.uitofp (F := Ideal) .f32 (if p then 1#1 else 0#1 : BitVec 1) : EReal) = if p then 1 else 0 := by
  by_cases h : p
  · rw [if_pos h, if_pos h]; show (((1#1 : BitVec 1).toNat : ℝ) : EReal) = 1; norm_num
  · rw [if_neg h, if_neg h]; show (((0#1 : BitVec 1).toNat : ℝ) : EReal) = 0; norm_num

end Mask

section Stack
variable {α : Type}

/-- A row of `N` lanes kept as a `[1, N]` array. -/
theorem lift_apply {N : ℕ} (row : (⟨1, ![N]⟩ : Shape).Idx → α)
    (h : (⟨1, ![N]⟩ : Shape).BroadcastsInDim ⟨2, ![1, N]⟩ ![1]) (n : Fin N) :
    broadcastInDim ⟨2, ![1, N]⟩ ![1] h row (ix2 (0 : Fin 1) n) = row (ix1 n) :=
  broadcastInDim_apply _ h row _ (ix1 n) fun a => by
    match a with
    | ⟨0, _⟩ =>
      show n.val = if N = 1 then 0 else n.val
      split
      · have := n.isLt; omega
      · rfl

/-- Twelve `[1, N]` rows stacked into a `[12, N]` array: row `i` is the `i`-th of them. -/
theorem stack_apply {N : ℕ} (u : Fin 12 → (⟨2, ![1, N]⟩ : Shape).Idx → α)
    (hc : Shape.Concatenates [⟨2, ![1, N]⟩, ⟨2, ![1, N]⟩, ⟨2, ![1, N]⟩, ⟨2, ![1, N]⟩, ⟨2, ![1, N]⟩, ⟨2, ![1, N]⟩, ⟨2, ![1, N]⟩, ⟨2, ![1, N]⟩,
      ⟨2, ![1, N]⟩, ⟨2, ![1, N]⟩, ⟨2, ![1, N]⟩, ⟨2, ![1, N]⟩] ⟨2, ![12, N]⟩ 0) (i : Fin 12) (n : Fin N) :
    concatenate ⟨2, ![12, N]⟩ 0 [⟨⟨2, ![1, N]⟩, u 0⟩, ⟨⟨2, ![1, N]⟩, u 1⟩, ⟨⟨2, ![1, N]⟩, u 2⟩, ⟨⟨2, ![1, N]⟩, u 3⟩, ⟨⟨2, ![1, N]⟩, u 4⟩,
      ⟨⟨2, ![1, N]⟩, u 5⟩, ⟨⟨2, ![1, N]⟩, u 6⟩, ⟨⟨2, ![1, N]⟩, u 7⟩, ⟨⟨2, ![1, N]⟩, u 8⟩, ⟨⟨2, ![1, N]⟩, u 9⟩, ⟨⟨2, ![1, N]⟩, u 10⟩,
      ⟨⟨2, ![1, N]⟩, u 11⟩] hc (ix2 i n) = u i (ix2 (0 : Fin 1) n) := by
  have hof : (List.ofFn fun k : Fin 12 => (⟨⟨2, ![1, N]⟩, u k⟩ : (s : Shape) × (s.Idx → α)))
      = [⟨⟨2, ![1, N]⟩, u 0⟩, ⟨⟨2, ![1, N]⟩, u 1⟩, ⟨⟨2, ![1, N]⟩, u 2⟩, ⟨⟨2, ![1, N]⟩, u 3⟩, ⟨⟨2, ![1, N]⟩, u 4⟩,
      ⟨⟨2, ![1, N]⟩, u 5⟩, ⟨⟨2, ![1, N]⟩, u 6⟩, ⟨⟨2, ![1, N]⟩, u 7⟩, ⟨⟨2, ![1, N]⟩, u 8⟩, ⟨⟨2, ![1, N]⟩, u 9⟩, ⟨⟨2, ![1, N]⟩, u 10⟩,
      ⟨⟨2, ![1, N]⟩, u 11⟩] := by
    simp only [List.ofFn_succ, List.ofFn_zero]; rfl
  have key := concatenate_ofFn_unit_apply (t := ⟨2, ![12, N]⟩) (s₁ := ⟨2, ![1, N]⟩) 0 u (by rw [hof]; exact hc) rfl rfl
    (ix2 i n) i rfl (ix2 (0 : Fin 1) n) (fun b hb => by
      match b with
      | ⟨0, _⟩ => exact absurd rfl hb
      | ⟨1, _⟩ => rfl)
  rw [← key]
  congr 1

end Stack

section Rows

/-- A stage's blended weight row laid along the lanes: lane `n`, at position `l = n % s` of its block, holds table row
    `ka` at `l` on the lower half of the block (`l` below the half-block `c`) and table row `kb` at `l` on the upper half. -/
theorem blend_row_apply {α : Type} {s reps N R K M : ℕ} (hN : reps * s = N) (w : (⟨3, ![R, K, M]⟩ : Shape).Idx → α)
    (i ka kb : ℕ) (c : BitVec 32)
    (hsla : (⟨3, ![R, K, M]⟩ : Shape).Slices ![i, ka, 0] ⟨3, ![1, 1, s]⟩)
    (hslb : (⟨3, ![R, K, M]⟩ : Shape).Slices ![i, kb, 0] ⟨3, ![1, 1, s]⟩)
    (hsc : (⟨3, ![1, 1, s]⟩ : Shape).ShapeCasts ⟨1, ![s]⟩)
    (hb : (⟨0, ![]⟩ : Shape).BroadcastsInDim ⟨1, ![s]⟩ ![])
    (h1 : (⟨1, ![s]⟩ : Shape).ShapeCasts ⟨2, ![1, s]⟩)
    (h2 : (⟨2, ![1, s]⟩ : Shape).BroadcastsInDim ⟨2, ![reps, s]⟩ ![0, 1])
    (h3 : (⟨2, ![reps, s]⟩ : Shape).ShapeCasts ⟨1, ![N]⟩)
    (hs : s ≤ 2 ^ 31) (hc : c.toNat < 2 ^ 31) (n : Fin N)
    (i' : Fin R) (ka' kb' : Fin K) (l' : Fin M) (hi : i'.val = i) (hka : ka'.val = ka) (hkb : kb'.val = kb)
    (hl : l'.val = n.val % s) :
    shapeCast ⟨1, ![N]⟩ (broadcastInDim ⟨2, ![reps, s]⟩ ![0, 1] h2 (shapeCast ⟨2, ![1, s]⟩
      (select (cmpi .slt (iotaInDim ⟨1, ![s]⟩ 32 0) (broadcastInDim ⟨1, ![s]⟩ ![] hb (constantI ⟨0, ![]⟩ 32 c)))
        (shapeCast ⟨1, ![s]⟩ (extractStridedSlice ⟨3, ![1, 1, s]⟩ ![i, ka, 0] w hsla) hsc)
        (shapeCast ⟨1, ![s]⟩ (extractStridedSlice ⟨3, ![1, 1, s]⟩ ![i, kb, 0] w hslb) hsc)) h1)) h3 (ix1 n)
      = if n.val % s < c.toNat then w (ix3 i' ka' l') else w (ix3 i' kb' l') := by
  have hs0 : 0 < s := Nat.pos_of_ne_zero fun h0 => by
    subst h0; rw [Nat.mul_zero] at hN; subst hN; exact n.elim0
  rw [tile_apply hN _ h1 h2 h3 n ⟨n.val % s, Nat.mod_lt _ hs0⟩ rfl, select_apply,
    below_apply c hb ⟨n.val % s, Nat.mod_lt _ hs0⟩ hs hc, select_bit,
    piece_apply w i ka hsla hsc ⟨n.val % s, Nat.mod_lt _ hs0⟩ i' ka' l' hi hka hl,
    piece_apply w i kb hslb hsc ⟨n.val % s, Nat.mod_lt _ hs0⟩ i' kb' l' hi hkb hl]

/-- A stage's mask row laid along the lanes: one on the lower half of each block, zero on the upper half. -/
theorem mask_row_apply {s reps N : ℕ} (hN : reps * s = N) (c : BitVec 32)
    (hb : (⟨0, ![]⟩ : Shape).BroadcastsInDim ⟨1, ![s]⟩ ![])
    (h1 : (⟨1, ![s]⟩ : Shape).ShapeCasts ⟨2, ![1, s]⟩)
    (h2 : (⟨2, ![1, s]⟩ : Shape).BroadcastsInDim ⟨2, ![reps, s]⟩ ![0, 1])
    (h3 : (⟨2, ![reps, s]⟩ : Shape).ShapeCasts ⟨1, ![N]⟩)
    (hs : s ≤ 2 ^ 31) (hc : c.toNat < 2 ^ 31) (n : Fin N) :
    shapeCast ⟨1, ![N]⟩ (broadcastInDim ⟨2, ![reps, s]⟩ ![0, 1] h2 (shapeCast ⟨2, ![1, s]⟩
      (uitofp (F := Ideal) .f32 (cmpi .slt (iotaInDim ⟨1, ![s]⟩ 32 0) (broadcastInDim ⟨1, ![s]⟩ ![] hb (constantI ⟨0, ![]⟩ 32 c))))
      h1)) h3 (ix1 n)
      = (if n.val % s < c.toNat then 1 else 0 : EReal) := by
  have hs0 : 0 < s := Nat.pos_of_ne_zero fun h0 => by
    subst h0; rw [Nat.mul_zero] at hN; subst hN; exact n.elim0
  rw [tile_apply hN _ h1 h2 h3 n ⟨n.val % s, Nat.mod_lt _ hs0⟩ rfl]
  show FloatOps.uitofp (F := Ideal) .f32 (_ : BitVec 1) = _
  rw [below_apply c hb ⟨n.val % s, Nat.mod_lt _ hs0⟩ hs hc]
  exact uitofp_bit _

end Rows

end Cert.KernelIdeal.HandV

end
-- ==== Proof.KV.PrepGen.lean ====
/-
  The five weight arrays the kernel's program builds between its two regions, read entry by entry as functions of the
  two weight tables.

  Row `i` of each array belongs to stage `i` (block size `2^(i+1)`, half-block `2^i`). Lane `n` of that row sits at
  position `l = n % 2^(i+1)` of its block. The "own lane" arrays hold table row 0 at `l` on the lower half of a block
  (`l < 2^i`) and table row 1 at `l` on the upper half; the "partner lane" arrays the other way round; the mask holds
  one on the lower half and zero on the upper half. The program makes each row by slicing the two table rows of length
  `2^(i+1)`, blending them by the mask "position below `2^i`", and laying the blended row end to end along the 4096
  lanes; the twelve rows of a kind are then stacked. Everything here holds from ANY contents of the buffers: only the
  two tables are read.
-/
import proofs.«135697_j83099027243546_2_alg».proof.Proof.Spec
import proofs.«135697_j83099027243546_2_alg».proof.Proof.KI.Mid
import proofs.«135697_j83099027243546_2_alg».proof.Proof.KV.PrepTile
import Mathlib.Tactic.FinCases

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

/-! ## A stage's rows in the specification's words -/

/-- A weight row of the specification read inside the table. -/
theorem wt_of_lt (w : Cert.Fft.SW.Idx → EReal) (i : Fin 12) (k : Fin 2) (m : ℕ) (hm : m < 4096) :
    Cert.Fft.wt w i k m = w (ix3 i k ⟨m, hm⟩) := Cert.Fft.rd_of_lt _ m hm

/-- A block size that divides the row length is at most the row length. -/
theorem block_le {s reps : ℕ} (hN : reps * s = 4096) : s ≤ 4096 := by
  rcases Nat.eq_zero_or_pos reps with h0 | h0
  · subst h0; omega
  · calc s = 1 * s := (Nat.one_mul s).symm
      _ ≤ reps * s := Nat.mul_le_mul_right s h0
      _ = 4096 := hN

/-- Stage `i`'s blended weight row in the specification's words: lane `n` holds weight row `ka` at the lane's position in
    its block on the lower half of the block and weight row `kb` there on the upper half. -/
theorem blend_row_wt {s reps : ℕ} (hN : reps * s = 4096) (w : Cert.Fft.SW.Idx → EReal) (i : Fin 12) (ka kb : Fin 2)
    (c : BitVec 32)
    (hsla : Cert.Fft.SW.Slices ![i.val, ka.val, 0] ⟨3, ![1, 1, s]⟩)
    (hslb : Cert.Fft.SW.Slices ![i.val, kb.val, 0] ⟨3, ![1, 1, s]⟩)
    (hsc : (⟨3, ![1, 1, s]⟩ : Shape).ShapeCasts ⟨1, ![s]⟩)
    (hb : (⟨0, ![]⟩ : Shape).BroadcastsInDim ⟨1, ![s]⟩ ![])
    (h1 : (⟨1, ![s]⟩ : Shape).ShapeCasts ⟨2, ![1, s]⟩)
    (h2 : (⟨2, ![1, s]⟩ : Shape).BroadcastsInDim ⟨2, ![reps, s]⟩ ![0, 1])
    (h3 : (⟨2, ![reps, s]⟩ : Shape).ShapeCasts ⟨1, ![4096]⟩)
    (hs : s = 2 ^ (i.val + 1)) (hc : c.toNat = 2 ^ i.val) (n : Fin 4096) :
    shapeCast ⟨1, ![4096]⟩ (broadcastInDim ⟨2, ![reps, s]⟩ ![0, 1] h2 (shapeCast ⟨2, ![1, s]⟩
      (select (cmpi .slt (iotaInDim ⟨1, ![s]⟩ 32 0) (broadcastInDim ⟨1, ![s]⟩ ![] hb (constantI ⟨0, ![]⟩ 32 c)))
        (shapeCast ⟨1, ![s]⟩ (extractStridedSlice ⟨3, ![1, 1, s]⟩ ![i.val, ka.val, 0] w hsla) hsc)
        (shapeCast ⟨1, ![s]⟩ (extractStridedSlice ⟨3, ![1, 1, s]⟩ ![i.val, kb.val, 0] w hslb) hsc)) h1)) h3 (ix1 n)
      = if n.val % 2 ^ (i.val + 1) < 2 ^ i.val then Cert.Fft.wt w i ka (n.val % 2 ^ (i.val + 1))
        else Cert.Fft.wt w i kb (n.val % 2 ^ (i.val + 1)) := by
  have hle := block_le hN
  have hi : 2 ^ i.val < 2 ^ 31 := Nat.pow_lt_pow_right (by norm_num) (by have := i.isLt; omega)
  have hpos : 0 < s := by rw [hs]; exact Nat.two_pow_pos _
  have hm : n.val % s < 4096 := lt_of_lt_of_le (Nat.mod_lt _ hpos) hle
  rw [← hs, ← hc, wt_of_lt w i ka _ hm, wt_of_lt w i kb _ hm]
  exact blend_row_apply hN w i.val ka.val kb.val c hsla hslb hsc hb h1 h2 h3 (by omega) (by rw [hc]; exact hi) n
    i ka kb ⟨n.val % s, hm⟩ rfl rfl rfl rfl

/-- Stage `i`'s mask row in the specification's words: one on the lower half of each block, zero on the upper half. -/
theorem mask_row_wt {s reps : ℕ} (hN : reps * s = 4096) (i : Fin 12) (c : BitVec 32)
    (hb : (⟨0, ![]⟩ : Shape).BroadcastsInDim ⟨1, ![s]⟩ ![])
    (h1 : (⟨1, ![s]⟩ : Shape).ShapeCasts ⟨2, ![1, s]⟩)
    (h2 : (⟨2, ![1, s]⟩ : Shape).BroadcastsInDim ⟨2, ![reps, s]⟩ ![0, 1])
    (h3 : (⟨2, ![reps, s]⟩ : Shape).ShapeCasts ⟨1, ![4096]⟩)
    (hs : s = 2 ^ (i.val + 1)) (hc : c.toNat = 2 ^ i.val) (n : Fin 4096) :
    shapeCast ⟨1, ![4096]⟩ (broadcastInDim ⟨2, ![reps, s]⟩ ![0, 1] h2 (shapeCast ⟨2, ![1, s]⟩
      (uitofp (F := Ideal) .f32 (cmpi .slt (iotaInDim ⟨1, ![s]⟩ 32 0) (broadcastInDim ⟨1, ![s]⟩ ![] hb (constantI ⟨0, ![]⟩ 32 c))))
      h1)) h3 (ix1 n)
      = (if n.val % 2 ^ (i.val + 1) < 2 ^ i.val then 1 else 0 : EReal) := by
  have hle := block_le hN
  have hi : 2 ^ i.val < 2 ^ 31 := Nat.pow_lt_pow_right (by norm_num) (by have := i.isLt; omega)
  rw [← hs, ← hc]
  exact mask_row_apply hN c hb h1 h2 h3 (by omega) (by rw [hc]; exact hi) n

/-! ## The stack of the twelve rows -/

/-- Twelve rows of `N` lanes, each kept as a `[1, N]` array, stacked: entry `(i, n)` is row `i` at lane `n`. -/
theorem stack_rows_apply {α : Type} {N : ℕ} (r0 r1 r2 r3 r4 r5 r6 r7 r8 r9 r10 r11 : (⟨1, ![N]⟩ : Shape).Idx → α)
    (h : (⟨1, ![N]⟩ : Shape).BroadcastsInDim ⟨2, ![1, N]⟩ ![1])
    (hc : Shape.Concatenates [⟨2, ![1, N]⟩, ⟨2, ![1, N]⟩, ⟨2, ![1, N]⟩, ⟨2, ![1, N]⟩, ⟨2, ![1, N]⟩, ⟨2, ![1, N]⟩, ⟨2, ![1, N]⟩, ⟨2, ![1, N]⟩,
      ⟨2, ![1, N]⟩, ⟨2, ![1, N]⟩, ⟨2, ![1, N]⟩, ⟨2, ![1, N]⟩] ⟨2, ![12, N]⟩ 0) (i : Fin 12) (n : Fin N) :
    concatenate ⟨2, ![12, N]⟩ 0 [⟨⟨2, ![1, N]⟩, broadcastInDim ⟨2, ![1, N]⟩ ![1] h r0⟩, ⟨⟨2, ![1, N]⟩, broadcastInDim ⟨2, ![1, N]⟩ ![1] h r1⟩,
      ⟨⟨2, ![1, N]⟩, broadcastInDim ⟨2, ![1, N]⟩ ![1] h r2⟩, ⟨⟨2, ![1, N]⟩, broadcastInDim ⟨2, ![1, N]⟩ ![1] h r3⟩,
      ⟨⟨2, ![1, N]⟩, broadcastInDim ⟨2, ![1, N]⟩ ![1] h r4⟩, ⟨⟨2, ![1, N]⟩, broadcastInDim ⟨2, ![1, N]⟩ ![1] h r5⟩,
      ⟨⟨2, ![1, N]⟩, broadcastInDim ⟨2, ![1, N]⟩ ![1] h r6⟩, ⟨⟨2, ![1, N]⟩, broadcastInDim ⟨2, ![1, N]⟩ ![1] h r7⟩,
      ⟨⟨2, ![1, N]⟩, broadcastInDim ⟨2, ![1, N]⟩ ![1] h r8⟩, ⟨⟨2, ![1, N]⟩, broadcastInDim ⟨2, ![1, N]⟩ ![1] h r9⟩,
      ⟨⟨2, ![1, N]⟩, broadcastInDim ⟨2, ![1, N]⟩ ![1] h r10⟩, ⟨⟨2, ![1, N]⟩, broadcastInDim ⟨2, ![1, N]⟩ ![1] h r11⟩] hc (ix2 i n)
      = (![r0, r1, r2, r3, r4, r5, r6, r7, r8, r9, r10, r11] i) (ix1 n) := by
  have key := stack_apply (fun k : Fin 12 => broadcastInDim ⟨2, ![1, N]⟩ ![1] h (![r0, r1, r2, r3, r4, r5, r6, r7, r8, r9, r10, r11] k)) hc i n
  exact key.trans (lift_apply _ h n)

/-- A statement about the twelve stages holds if it holds of each. -/
theorem fin12_cases {P : Fin 12 → Prop} (h0 : P 0) (h1 : P 1) (h2 : P 2) (h3 : P 3) (h4 : P 4) (h5 : P 5) (h6 : P 6) (h7 : P 7)
    (h8 : P 8) (h9 : P 9) (h10 : P 10) (h11 : P 11) : ∀ i, P i := by
  intro i; fin_cases i <;> assumption

/-! ## The middle stretches, stretch by stretch -/

/-- The buffers after the middle operations are the buffers after the last stretch run from those after the one before,
    and so on down to the first. -/
theorem after_opsMid {F : FTy → Type} [FloatOps F] (U : Valuation τ sig (Elt F)) :
    StableHlo.after (opsMid (F := F)) U = StableHlo.after hostOps1_60 (StableHlo.after hostOps1_59 (StableHlo.after hostOps1_58 (StableHlo.after hostOps1_57 (StableHlo.after hostOps1_56 (StableHlo.after hostOps1_55 (StableHlo.after hostOps1_54 (StableHlo.after hostOps1_53 (StableHlo.after hostOps1_52 (StableHlo.after hostOps1_51 (StableHlo.after hostOps1_50 (StableHlo.after hostOps1_49 (StableHlo.after hostOps1_48 (StableHlo.after hostOps1_47 (StableHlo.after hostOps1_46 (StableHlo.after hostOps1_45 (StableHlo.after hostOps1_44 (StableHlo.after hostOps1_43 (StableHlo.after hostOps1_42 (StableHlo.after hostOps1_41 (StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (U))))))))))))))))))))))))))))))))))))))))))))))))))))))))))))) := by
  simp only [opsMid, List.flatten_cons, List.flatten_nil, List.append_nil, StableHlo.after_append]

end Cert.KernelIdeal.HandV

end
-- ==== Proof.KV.PrepSr.lean ====
/-
  The own-lane real weights: row `i`, lane `n` holds weight row 0 of `rconvs[i]` at the lane's position in its block on the lower half of the block, weight row 1 there on the upper half.
  The stacked array read at `(i, n)` is row `i` of the stack at lane `n`; row `i` is stage `i`'s blended row of length
  `2^(i+1)` laid end to end along the 4096 lanes, so the lane reads the blend at `n % 2^(i+1)`.
-/
import proofs.«135697_j83099027243546_2_alg».proof.Proof.KV.PrepGen

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

set_option maxHeartbeats 8000000 in
/-- The own-lane real weights: row `i`, lane `n` holds weight row 0 of `rconvs[i]` at the lane's position in its block on the lower half of the block, weight row 1 there on the upper half. Holds from any contents `U` of the buffers. -/
theorem prep_sr (U : Valuation τ sig (Elt Ideal)) (i : Fin 12) (n : Fin 4096) :
    (StableHlo.after (opsMid (F := Ideal)) U (Proc.devRef .tc main_v387) : S12x4096.Idx → EReal) (ix2 i n)
      = if n.val % 2 ^ (i.val + 1) < 2 ^ i.val then Cert.Fft.wt (U (Proc.devRef .tc main_arg2)) i 0 (n.val % 2 ^ (i.val + 1))
        else Cert.Fft.wt (U (Proc.devRef .tc main_arg2)) i 1 (n.val % 2 ^ (i.val + 1)) := by
  -- the array as the stack of the twelve rows, each row as its chain of operations over the tables
  rw [after_opsMid]
  simp (disch := decide) only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60,
    StableHlo.after_cons, StableHlo.after_nil, StableHlo.nullary_result', StableHlo.unary_result', StableHlo.binary_result',
    StableHlo.ternary_result', StableHlo.reshape_result', StableHlo.nary_result', StableHlo.nullary_result_ne',
    StableHlo.unary_result_ne', StableHlo.binary_result_ne', StableHlo.ternary_result_ne', StableHlo.reshape_result_ne',
    StableHlo.nary_result_ne', Matrix.cons_val]
  -- entry (i, n) of the stack is row i at lane n
  refine (stack_rows_apply _ _ _ _ _ _ _ _ _ _ _ _ _ _ i n).trans ?_
  -- stage by stage: block size 2^(i+1), half-block 2^i
  revert i
  refine fin12_cases ?_ ?_ ?_ ?_ ?_ ?_ ?_ ?_ ?_ ?_ ?_ ?_ <;> dsimp only [Matrix.cons_val]
  · exact blend_row_wt (s := 2) (reps := 2048) (by norm_num) (U (Proc.devRef .tc main_arg2)) (0 : Fin 12) 0 1 1#32 _ _ _ _ _ _ _
      (by rfl) (by rfl) n
  · exact blend_row_wt (s := 4) (reps := 1024) (by norm_num) (U (Proc.devRef .tc main_arg2)) (1 : Fin 12) 0 1 2#32 _ _ _ _ _ _ _
      (by rfl) (by rfl) n
  · exact blend_row_wt (s := 8) (reps := 512) (by norm_num) (U (Proc.devRef .tc main_arg2)) (2 : Fin 12) 0 1 4#32 _ _ _ _ _ _ _
      (by rfl) (by rfl) n
  · exact blend_row_wt (s := 16) (reps := 256) (by norm_num) (U (Proc.devRef .tc main_arg2)) (3 : Fin 12) 0 1 8#32 _ _ _ _ _ _ _
      (by rfl) (by rfl) n
  · exact blend_row_wt (s := 32) (reps := 128) (by norm_num) (U (Proc.devRef .tc main_arg2)) (4 : Fin 12) 0 1 16#32 _ _ _ _ _ _ _
      (by rfl) (by rfl) n
  · exact blend_row_wt (s := 64) (reps := 64) (by norm_num) (U (Proc.devRef .tc main_arg2)) (5 : Fin 12) 0 1 32#32 _ _ _ _ _ _ _
      (by rfl) (by rfl) n
  · exact blend_row_wt (s := 128) (reps := 32) (by norm_num) (U (Proc.devRef .tc main_arg2)) (6 : Fin 12) 0 1 64#32 _ _ _ _ _ _ _
      (by rfl) (by rfl) n
  · exact blend_row_wt (s := 256) (reps := 16) (by norm_num) (U (Proc.devRef .tc main_arg2)) (7 : Fin 12) 0 1 128#32 _ _ _ _ _ _ _
      (by rfl) (by rfl) n
  · exact blend_row_wt (s := 512) (reps := 8) (by norm_num) (U (Proc.devRef .tc main_arg2)) (8 : Fin 12) 0 1 256#32 _ _ _ _ _ _ _
      (by rfl) (by rfl) n
  · exact blend_row_wt (s := 1024) (reps := 4) (by norm_num) (U (Proc.devRef .tc main_arg2)) (9 : Fin 12) 0 1 512#32 _ _ _ _ _ _ _
      (by rfl) (by rfl) n
  · exact blend_row_wt (s := 2048) (reps := 2) (by norm_num) (U (Proc.devRef .tc main_arg2)) (10 : Fin 12) 0 1 1024#32 _ _ _ _ _ _ _
      (by rfl) (by rfl) n
  · exact blend_row_wt (s := 4096) (reps := 1) (by norm_num) (U (Proc.devRef .tc main_arg2)) (11 : Fin 12) 0 1 2048#32 _ _ _ _ _ _ _
      (by rfl) (by rfl) n

end Cert.KernelIdeal.HandV

end
-- ==== Proof.KV.PrepPr.lean ====
/-
  The partner-lane real weights: row `i`, lane `n` holds weight row 1 of `rconvs[i]` at the lane's position in its block on the lower half of the block, weight row 0 there on the upper half.
  The stacked array read at `(i, n)` is row `i` of the stack at lane `n`; row `i` is stage `i`'s blended row of length
  `2^(i+1)` laid end to end along the 4096 lanes, so the lane reads the blend at `n % 2^(i+1)`.
-/
import proofs.«135697_j83099027243546_2_alg».proof.Proof.KV.PrepGen

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

set_option maxHeartbeats 8000000 in
/-- The partner-lane real weights: row `i`, lane `n` holds weight row 1 of `rconvs[i]` at the lane's position in its block on the lower half of the block, weight row 0 there on the upper half. Holds from any contents `U` of the buffers. -/
theorem prep_pr (U : Valuation τ sig (Elt Ideal)) (i : Fin 12) (n : Fin 4096) :
    (StableHlo.after (opsMid (F := Ideal)) U (Proc.devRef .tc main_v400) : S12x4096.Idx → EReal) (ix2 i n)
      = if n.val % 2 ^ (i.val + 1) < 2 ^ i.val then Cert.Fft.wt (U (Proc.devRef .tc main_arg2)) i 1 (n.val % 2 ^ (i.val + 1))
        else Cert.Fft.wt (U (Proc.devRef .tc main_arg2)) i 0 (n.val % 2 ^ (i.val + 1)) := by
  -- the array as the stack of the twelve rows, each row as its chain of operations over the tables
  rw [after_opsMid]
  simp (disch := decide) only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60,
    StableHlo.after_cons, StableHlo.after_nil, StableHlo.nullary_result', StableHlo.unary_result', StableHlo.binary_result',
    StableHlo.ternary_result', StableHlo.reshape_result', StableHlo.nary_result', StableHlo.nullary_result_ne',
    StableHlo.unary_result_ne', StableHlo.binary_result_ne', StableHlo.ternary_result_ne', StableHlo.reshape_result_ne',
    StableHlo.nary_result_ne', Matrix.cons_val]
  -- entry (i, n) of the stack is row i at lane n
  refine (stack_rows_apply _ _ _ _ _ _ _ _ _ _ _ _ _ _ i n).trans ?_
  -- stage by stage: block size 2^(i+1), half-block 2^i
  revert i
  refine fin12_cases ?_ ?_ ?_ ?_ ?_ ?_ ?_ ?_ ?_ ?_ ?_ ?_ <;> dsimp only [Matrix.cons_val]
  · exact blend_row_wt (s := 2) (reps := 2048) (by norm_num) (U (Proc.devRef .tc main_arg2)) (0 : Fin 12) 1 0 1#32 _ _ _ _ _ _ _
      (by rfl) (by rfl) n
  · exact blend_row_wt (s := 4) (reps := 1024) (by norm_num) (U (Proc.devRef .tc main_arg2)) (1 : Fin 12) 1 0 2#32 _ _ _ _ _ _ _
      (by rfl) (by rfl) n
  · exact blend_row_wt (s := 8) (reps := 512) (by norm_num) (U (Proc.devRef .tc main_arg2)) (2 : Fin 12) 1 0 4#32 _ _ _ _ _ _ _
      (by rfl) (by rfl) n
  · exact blend_row_wt (s := 16) (reps := 256) (by norm_num) (U (Proc.devRef .tc main_arg2)) (3 : Fin 12) 1 0 8#32 _ _ _ _ _ _ _
      (by rfl) (by rfl) n
  · exact blend_row_wt (s := 32) (reps := 128) (by norm_num) (U (Proc.devRef .tc main_arg2)) (4 : Fin 12) 1 0 16#32 _ _ _ _ _ _ _
      (by rfl) (by rfl) n
  · exact blend_row_wt (s := 64) (reps := 64) (by norm_num) (U (Proc.devRef .tc main_arg2)) (5 : Fin 12) 1 0 32#32 _ _ _ _ _ _ _
      (by rfl) (by rfl) n
  · exact blend_row_wt (s := 128) (reps := 32) (by norm_num) (U (Proc.devRef .tc main_arg2)) (6 : Fin 12) 1 0 64#32 _ _ _ _ _ _ _
      (by rfl) (by rfl) n
  · exact blend_row_wt (s := 256) (reps := 16) (by norm_num) (U (Proc.devRef .tc main_arg2)) (7 : Fin 12) 1 0 128#32 _ _ _ _ _ _ _
      (by rfl) (by rfl) n
  · exact blend_row_wt (s := 512) (reps := 8) (by norm_num) (U (Proc.devRef .tc main_arg2)) (8 : Fin 12) 1 0 256#32 _ _ _ _ _ _ _
      (by rfl) (by rfl) n
  · exact blend_row_wt (s := 1024) (reps := 4) (by norm_num) (U (Proc.devRef .tc main_arg2)) (9 : Fin 12) 1 0 512#32 _ _ _ _ _ _ _
      (by rfl) (by rfl) n
  · exact blend_row_wt (s := 2048) (reps := 2) (by norm_num) (U (Proc.devRef .tc main_arg2)) (10 : Fin 12) 1 0 1024#32 _ _ _ _ _ _ _
      (by rfl) (by rfl) n
  · exact blend_row_wt (s := 4096) (reps := 1) (by norm_num) (U (Proc.devRef .tc main_arg2)) (11 : Fin 12) 1 0 2048#32 _ _ _ _ _ _ _
      (by rfl) (by rfl) n

end Cert.KernelIdeal.HandV

end
-- ==== Proof.KV.PrepSi.lean ====
/-
  The own-lane imaginary weights: row `i`, lane `n` holds weight row 0 of `iconvs[i]` at the lane's position in its block on the lower half of the block, weight row 1 there on the upper half.
  The stacked array read at `(i, n)` is row `i` of the stack at lane `n`; row `i` is stage `i`'s blended row of length
  `2^(i+1)` laid end to end along the 4096 lanes, so the lane reads the blend at `n % 2^(i+1)`.
-/
import proofs.«135697_j83099027243546_2_alg».proof.Proof.KV.PrepGen

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

set_option maxHeartbeats 8000000 in
/-- The own-lane imaginary weights: row `i`, lane `n` holds weight row 0 of `iconvs[i]` at the lane's position in its block on the lower half of the block, weight row 1 there on the upper half. Holds from any contents `U` of the buffers. -/
theorem prep_si (U : Valuation τ sig (Elt Ideal)) (i : Fin 12) (n : Fin 4096) :
    (StableHlo.after (opsMid (F := Ideal)) U (Proc.devRef .tc main_v413) : S12x4096.Idx → EReal) (ix2 i n)
      = if n.val % 2 ^ (i.val + 1) < 2 ^ i.val then Cert.Fft.wt (U (Proc.devRef .tc main_arg3)) i 0 (n.val % 2 ^ (i.val + 1))
        else Cert.Fft.wt (U (Proc.devRef .tc main_arg3)) i 1 (n.val % 2 ^ (i.val + 1)) := by
  -- the array as the stack of the twelve rows, each row as its chain of operations over the tables
  rw [after_opsMid]
  simp (disch := decide) only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60,
    StableHlo.after_cons, StableHlo.after_nil, StableHlo.nullary_result', StableHlo.unary_result', StableHlo.binary_result',
    StableHlo.ternary_result', StableHlo.reshape_result', StableHlo.nary_result', StableHlo.nullary_result_ne',
    StableHlo.unary_result_ne', StableHlo.binary_result_ne', StableHlo.ternary_result_ne', StableHlo.reshape_result_ne',
    StableHlo.nary_result_ne', Matrix.cons_val]
  -- entry (i, n) of the stack is row i at lane n
  refine (stack_rows_apply _ _ _ _ _ _ _ _ _ _ _ _ _ _ i n).trans ?_
  -- stage by stage: block size 2^(i+1), half-block 2^i
  revert i
  refine fin12_cases ?_ ?_ ?_ ?_ ?_ ?_ ?_ ?_ ?_ ?_ ?_ ?_ <;> dsimp only [Matrix.cons_val]
  · exact blend_row_wt (s := 2) (reps := 2048) (by norm_num) (U (Proc.devRef .tc main_arg3)) (0 : Fin 12) 0 1 1#32 _ _ _ _ _ _ _
      (by rfl) (by rfl) n
  · exact blend_row_wt (s := 4) (reps := 1024) (by norm_num) (U (Proc.devRef .tc main_arg3)) (1 : Fin 12) 0 1 2#32 _ _ _ _ _ _ _
      (by rfl) (by rfl) n
  · exact blend_row_wt (s := 8) (reps := 512) (by norm_num) (U (Proc.devRef .tc main_arg3)) (2 : Fin 12) 0 1 4#32 _ _ _ _ _ _ _
      (by rfl) (by rfl) n
  · exact blend_row_wt (s := 16) (reps := 256) (by norm_num) (U (Proc.devRef .tc main_arg3)) (3 : Fin 12) 0 1 8#32 _ _ _ _ _ _ _
      (by rfl) (by rfl) n
  · exact blend_row_wt (s := 32) (reps := 128) (by norm_num) (U (Proc.devRef .tc main_arg3)) (4 : Fin 12) 0 1 16#32 _ _ _ _ _ _ _
      (by rfl) (by rfl) n
  · exact blend_row_wt (s := 64) (reps := 64) (by norm_num) (U (Proc.devRef .tc main_arg3)) (5 : Fin 12) 0 1 32#32 _ _ _ _ _ _ _
      (by rfl) (by rfl) n
  · exact blend_row_wt (s := 128) (reps := 32) (by norm_num) (U (Proc.devRef .tc main_arg3)) (6 : Fin 12) 0 1 64#32 _ _ _ _ _ _ _
      (by rfl) (by rfl) n
  · exact blend_row_wt (s := 256) (reps := 16) (by norm_num) (U (Proc.devRef .tc main_arg3)) (7 : Fin 12) 0 1 128#32 _ _ _ _ _ _ _
      (by rfl) (by rfl) n
  · exact blend_row_wt (s := 512) (reps := 8) (by norm_num) (U (Proc.devRef .tc main_arg3)) (8 : Fin 12) 0 1 256#32 _ _ _ _ _ _ _
      (by rfl) (by rfl) n
  · exact blend_row_wt (s := 1024) (reps := 4) (by norm_num) (U (Proc.devRef .tc main_arg3)) (9 : Fin 12) 0 1 512#32 _ _ _ _ _ _ _
      (by rfl) (by rfl) n
  · exact blend_row_wt (s := 2048) (reps := 2) (by norm_num) (U (Proc.devRef .tc main_arg3)) (10 : Fin 12) 0 1 1024#32 _ _ _ _ _ _ _
      (by rfl) (by rfl) n
  · exact blend_row_wt (s := 4096) (reps := 1) (by norm_num) (U (Proc.devRef .tc main_arg3)) (11 : Fin 12) 0 1 2048#32 _ _ _ _ _ _ _
      (by rfl) (by rfl) n

end Cert.KernelIdeal.HandV

end
-- ==== Proof.KV.PrepPi.lean ====
/-
  The partner-lane imaginary weights: row `i`, lane `n` holds weight row 1 of `iconvs[i]` at the lane's position in its block on the lower half of the block, weight row 0 there on the upper half.
  The stacked array read at `(i, n)` is row `i` of the stack at lane `n`; row `i` is stage `i`'s blended row of length
  `2^(i+1)` laid end to end along the 4096 lanes, so the lane reads the blend at `n % 2^(i+1)`.
-/
import proofs.«135697_j83099027243546_2_alg».proof.Proof.KV.PrepGen

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

set_option maxHeartbeats 8000000 in
/-- The partner-lane imaginary weights: row `i`, lane `n` holds weight row 1 of `iconvs[i]` at the lane's position in its block on the lower half of the block, weight row 0 there on the upper half. Holds from any contents `U` of the buffers. -/
theorem prep_pi (U : Valuation τ sig (Elt Ideal)) (i : Fin 12) (n : Fin 4096) :
    (StableHlo.after (opsMid (F := Ideal)) U (Proc.devRef .tc main_v426) : S12x4096.Idx → EReal) (ix2 i n)
      = if n.val % 2 ^ (i.val + 1) < 2 ^ i.val then Cert.Fft.wt (U (Proc.devRef .tc main_arg3)) i 1 (n.val % 2 ^ (i.val + 1))
        else Cert.Fft.wt (U (Proc.devRef .tc main_arg3)) i 0 (n.val % 2 ^ (i.val + 1)) := by
  -- the array as the stack of the twelve rows, each row as its chain of operations over the tables
  rw [after_opsMid]
  simp (disch := decide) only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60,
    StableHlo.after_cons, StableHlo.after_nil, StableHlo.nullary_result', StableHlo.unary_result', StableHlo.binary_result',
    StableHlo.ternary_result', StableHlo.reshape_result', StableHlo.nary_result', StableHlo.nullary_result_ne',
    StableHlo.unary_result_ne', StableHlo.binary_result_ne', StableHlo.ternary_result_ne', StableHlo.reshape_result_ne',
    StableHlo.nary_result_ne', Matrix.cons_val]
  -- entry (i, n) of the stack is row i at lane n
  refine (stack_rows_apply _ _ _ _ _ _ _ _ _ _ _ _ _ _ i n).trans ?_
  -- stage by stage: block size 2^(i+1), half-block 2^i
  revert i
  refine fin12_cases ?_ ?_ ?_ ?_ ?_ ?_ ?_ ?_ ?_ ?_ ?_ ?_ <;> dsimp only [Matrix.cons_val]
  · exact blend_row_wt (s := 2) (reps := 2048) (by norm_num) (U (Proc.devRef .tc main_arg3)) (0 : Fin 12) 1 0 1#32 _ _ _ _ _ _ _
      (by rfl) (by rfl) n
  · exact blend_row_wt (s := 4) (reps := 1024) (by norm_num) (U (Proc.devRef .tc main_arg3)) (1 : Fin 12) 1 0 2#32 _ _ _ _ _ _ _
      (by rfl) (by rfl) n
  · exact blend_row_wt (s := 8) (reps := 512) (by norm_num) (U (Proc.devRef .tc main_arg3)) (2 : Fin 12) 1 0 4#32 _ _ _ _ _ _ _
      (by rfl) (by rfl) n
  · exact blend_row_wt (s := 16) (reps := 256) (by norm_num) (U (Proc.devRef .tc main_arg3)) (3 : Fin 12) 1 0 8#32 _ _ _ _ _ _ _
      (by rfl) (by rfl) n
  · exact blend_row_wt (s := 32) (reps := 128) (by norm_num) (U (Proc.devRef .tc main_arg3)) (4 : Fin 12) 1 0 16#32 _ _ _ _ _ _ _
      (by rfl) (by rfl) n
  · exact blend_row_wt (s := 64) (reps := 64) (by norm_num) (U (Proc.devRef .tc main_arg3)) (5 : Fin 12) 1 0 32#32 _ _ _ _ _ _ _
      (by rfl) (by rfl) n
  · exact blend_row_wt (s := 128) (reps := 32) (by norm_num) (U (Proc.devRef .tc main_arg3)) (6 : Fin 12) 1 0 64#32 _ _ _ _ _ _ _
      (by rfl) (by rfl) n
  · exact blend_row_wt (s := 256) (reps := 16) (by norm_num) (U (Proc.devRef .tc main_arg3)) (7 : Fin 12) 1 0 128#32 _ _ _ _ _ _ _
      (by rfl) (by rfl) n
  · exact blend_row_wt (s := 512) (reps := 8) (by norm_num) (U (Proc.devRef .tc main_arg3)) (8 : Fin 12) 1 0 256#32 _ _ _ _ _ _ _
      (by rfl) (by rfl) n
  · exact blend_row_wt (s := 1024) (reps := 4) (by norm_num) (U (Proc.devRef .tc main_arg3)) (9 : Fin 12) 1 0 512#32 _ _ _ _ _ _ _
      (by rfl) (by rfl) n
  · exact blend_row_wt (s := 2048) (reps := 2) (by norm_num) (U (Proc.devRef .tc main_arg3)) (10 : Fin 12) 1 0 1024#32 _ _ _ _ _ _ _
      (by rfl) (by rfl) n
  · exact blend_row_wt (s := 4096) (reps := 1) (by norm_num) (U (Proc.devRef .tc main_arg3)) (11 : Fin 12) 1 0 2048#32 _ _ _ _ _ _ _
      (by rfl) (by rfl) n

end Cert.KernelIdeal.HandV

end
-- ==== Proof.KV.PrepMk.lean ====
/-
  The mask: row `i`, lane `n` holds one on the lower half of the lane's block and zero on the upper half.
  The stacked array read at `(i, n)` is row `i` of the stack at lane `n`; row `i` is stage `i`'s blended row of length
  `2^(i+1)` laid end to end along the 4096 lanes, so the lane reads the blend at `n % 2^(i+1)`.
-/
import proofs.«135697_j83099027243546_2_alg».proof.Proof.KV.PrepGen

set_option maxRecDepth 16384

noncomputable section

namespace Cert.KernelIdeal.HandV

open Idealize.ShloMosaic Idealize.ShloMosaic.TcCoe Idealize.ShloMosaic.StableHlo Cert.KernelIdeal Cert.KernelIdeal.Gen
  Cert.KernelIdeal.Hand Idealize.ShloMosaic.ValueIdx

set_option maxHeartbeats 8000000 in
/-- The mask: row `i`, lane `n` holds one on the lower half of the lane's block and zero on the upper half. Holds from any contents `U` of the buffers. -/
theorem prep_mk (U : Valuation τ sig (Elt Ideal)) (i : Fin 12) (n : Fin 4096) :
    (StableHlo.after (opsMid (F := Ideal)) U (Proc.devRef .tc main_v439) : S12x4096.Idx → EReal) (ix2 i n)
      = if n.val % 2 ^ (i.val + 1) < 2 ^ i.val then (1 : EReal) else (0 : EReal) := by
  -- the array as the stack of the twelve rows, each row as its chain of operations over the tables
  rw [after_opsMid]
  simp (disch := decide) only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60,
    StableHlo.after_cons, StableHlo.after_nil, StableHlo.nullary_result', StableHlo.unary_result', StableHlo.binary_result',
    StableHlo.ternary_result', StableHlo.reshape_result', StableHlo.nary_result', StableHlo.nullary_result_ne',
    StableHlo.unary_result_ne', StableHlo.binary_result_ne', StableHlo.ternary_result_ne', StableHlo.reshape_result_ne',
    StableHlo.nary_result_ne', Matrix.cons_val]
  -- entry (i, n) of the stack is row i at lane n
  refine (stack_rows_apply _ _ _ _ _ _ _ _ _ _ _ _ _ _ i n).trans ?_
  -- stage by stage: block size 2^(i+1), half-block 2^i
  revert i
  refine fin12_cases ?_ ?_ ?_ ?_ ?_ ?_ ?_ ?_ ?_ ?_ ?_ ?_ <;> dsimp only [Matrix.cons_val]
  · exact mask_row_wt (s := 2) (reps := 2048) (by norm_num) (0 : Fin 12) 1#32 _ _ _ _ (by rfl) (by rfl) n
  · exact mask_row_wt (s := 4) (reps := 1024) (by norm_num) (1 : Fin 12) 2#32 _ _ _ _ (by rfl) (by rfl) n
  · exact mask_row_wt (s := 8) (reps := 512) (by norm_num) (2 : Fin 12) 4#32 _ _ _ _ (by rfl) (by rfl) n
  · exact mask_row_wt (s := 16) (reps := 256) (by norm_num) (3 : Fin 12) 8#32 _ _ _ _ (by rfl) (by rfl) n
  · exact mask_row_wt (s := 32) (reps := 128) (by norm_num) (4 : Fin 12) 16#32 _ _ _ _ (by rfl) (by rfl) n
  · exact mask_row_wt (s := 64) (reps := 64) (by norm_num) (5 : Fin 12) 32#32 _ _ _ _ (by rfl) (by rfl) n
  · exact mask_row_wt (s := 128) (reps := 32) (by norm_num) (6 : Fin 12) 64#32 _ _ _ _ (by rfl) (by rfl) n
  · exact mask_row_wt (s := 256) (reps := 16) (by norm_num) (7 : Fin 12) 128#32 _ _ _ _ (by rfl) (by rfl) n
  · exact mask_row_wt (s := 512) (reps := 8) (by norm_num) (8 : Fin 12) 256#32 _ _ _ _ (by rfl) (by rfl) n
  · exact mask_row_wt (s := 1024) (reps := 4) (by norm_num) (9 : Fin 12) 512#32 _ _ _ _ (by rfl) (by rfl) n
  · exact mask_row_wt (s := 2048) (reps := 2) (by norm_num) (10 : Fin 12) 1024#32 _ _ _ _ (by rfl) (by rfl) n
  · exact mask_row_wt (s := 4096) (reps := 1) (by norm_num) (11 : Fin 12) 2048#32 _ _ _ _ (by rfl) (by rfl) n

end Cert.KernelIdeal.HandV

end
-- ==== Proof.KV.Prep.lean ====
/-
  The five weight arrays of the kernel's program as functions of the two weight tables: the facts `prep_sr`, `prep_pr`,
  `prep_si`, `prep_pi`, `prep_mk`, one module each, gathered here.
-/
import proofs.«135697_j83099027243546_2_alg».proof.Proof.KV.PrepSr
import proofs.«135697_j83099027243546_2_alg».proof.Proof.KV.PrepPr
import proofs.«135697_j83099027243546_2_alg».proof.Proof.KV.PrepSi
import proofs.«135697_j83099027243546_2_alg».proof.Proof.KV.PrepPi
import proofs.«135697_j83099027243546_2_alg».proof.Proof.KV.PrepMk
-- ==== Proof.KV.Final.lean ====
/-
  The kernel program's two results, as values on the extended reals: the butterfly network of `Spec` on the four
  arguments as launched.

  The buffer contents at the boundaries of @main's five segments are the fold's. Walking it from the end: the two
  closing reshapes only insert a unit axis, so the results are the second region's two output arrays; those are the
  network's state after twelve stages, once the region's data array is `x · perm` and its five weight arrays hold the
  block weights laid out by halves; the data array is the first region's output, which the middle stretches do not
  write, and that output is the matrix product of the two converted operands, which are the first two arguments; the
  five weight arrays are what the middle stretches build from the two weight tables, which are the last two arguments
  still, no stretch and no region having written them. The run then says every unscoped buffer ends at the last
  boundary's contents.
-/
import proofs.«135697_j83099027243546_2_alg».proof.Proof.KI.Fold
import proofs.«135697_j83099027243546_2_alg».proof.Proof.KI.MidFacts
import proofs.«135697_j83099027243546_2_alg».proof.Proof.KI.Run
import proofs.«135697_j83099027243546_2_alg».proof.Proof.KV.HostVals
import proofs.«135697_j83099027243546_2_alg».proof.Proof.KV.Mat
import proofs.«135697_j83099027243546_2_alg».proof.Proof.KV.Net1
import proofs.«135697_j83099027243546_2_alg».proof.Proof.KV.Prep
import proofs.«135697_j83099027243546_2_alg».proof.Proof.SpecNet
import Idealize.ShloMosaic.Lib.Pipeline.Value
import Idealize.ShloMosaic.Lib.ValueIdx

set_option maxRecDepth 16384

noncomputable section

namespace Cert.KernelIdeal.HandV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Fft

/-! ## From the contents at the segment boundaries to the two results

  `W0` is what the core's buffers hold at launch, `W2` at the first region's exit, `W4` at the second region's exit;
  between them run the host stretches. The facts about the two regions and about the middle stretches' five weight
  arrays come in as hypotheses of the shape their own modules state them in. -/

/-- The two results of @main, from the four arguments at launch.

    The converted signal and matrix are the arguments; the first region leaves `x · perm` in its output, which the
    middle stretches do not write; the middle stretches build the five stacked weight arrays out of the two weight
    tables (arguments still, no stretch and no region having written them); the second region runs the twelve masked
    stages on every row; the last two reshapes only insert a unit axis. -/
theorem results_of_boundaries
    (M0 : SX.Idx → EReal) (M1 : SP.Idx → EReal) (M2 M3 : SW.Idx → EReal)
    (W0 W2 W4 : Valuation τ sig (Elt Ideal))
    (h0 : (W0 (Proc.devRef .tc main_arg0) : SX.Idx → EReal) = M0)
    (h1 : (W0 (Proc.devRef .tc main_arg1) : SP.Idx → EReal) = M1)
    (h2 : (W0 (Proc.devRef .tc main_arg2) : SW.Idx → EReal) = M2)
    (h3 : (W0 (Proc.devRef .tc main_arg3) : SW.Idx → EReal) = M3)
    (hW2_v2 : (W2 (Proc.devRef .tc main_v2) : SX.Idx → EReal)
      = mm (StableHlo.after hostOps0 W0 (Proc.devRef .tc main_v0)) (StableHlo.after hostOps0 W0 (Proc.devRef .tc main_v1)))
    (hW2_arg2 : W2 (Proc.devRef .tc main_arg2) = StableHlo.after hostOps0 W0 (Proc.devRef .tc main_arg2))
    (hW2_arg3 : W2 (Proc.devRef .tc main_arg3) = StableHlo.after hostOps0 W0 (Proc.devRef .tc main_arg3))
    (hSR : ∀ (i : Fin 12) (n : Fin 4096),
      (StableHlo.after opsMid W2 (Proc.devRef .tc main_v387) : S12x4096.Idx → EReal) (ix2 i n) =
        if n.val % 2 ^ (i.val + 1) < 2 ^ i.val then wt (W2 (Proc.devRef .tc main_arg2)) i 0 (n.val % 2 ^ (i.val + 1))
        else wt (W2 (Proc.devRef .tc main_arg2)) i 1 (n.val % 2 ^ (i.val + 1)))
    (hPR : ∀ (i : Fin 12) (n : Fin 4096),
      (StableHlo.after opsMid W2 (Proc.devRef .tc main_v400) : S12x4096.Idx → EReal) (ix2 i n) =
        if n.val % 2 ^ (i.val + 1) < 2 ^ i.val then wt (W2 (Proc.devRef .tc main_arg2)) i 1 (n.val % 2 ^ (i.val + 1))
        else wt (W2 (Proc.devRef .tc main_arg2)) i 0 (n.val % 2 ^ (i.val + 1)))
    (hSI : ∀ (i : Fin 12) (n : Fin 4096),
      (StableHlo.after opsMid W2 (Proc.devRef .tc main_v413) : S12x4096.Idx → EReal) (ix2 i n) =
        if n.val % 2 ^ (i.val + 1) < 2 ^ i.val then wt (W2 (Proc.devRef .tc main_arg3)) i 0 (n.val % 2 ^ (i.val + 1))
        else wt (W2 (Proc.devRef .tc main_arg3)) i 1 (n.val % 2 ^ (i.val + 1)))
    (hPI : ∀ (i : Fin 12) (n : Fin 4096),
      (StableHlo.after opsMid W2 (Proc.devRef .tc main_v426) : S12x4096.Idx → EReal) (ix2 i n) =
        if n.val % 2 ^ (i.val + 1) < 2 ^ i.val then wt (W2 (Proc.devRef .tc main_arg3)) i 1 (n.val % 2 ^ (i.val + 1))
        else wt (W2 (Proc.devRef .tc main_arg3)) i 0 (n.val % 2 ^ (i.val + 1)))
    (hMK : ∀ (i : Fin 12) (n : Fin 4096),
      (StableHlo.after opsMid W2 (Proc.devRef .tc main_v439) : S12x4096.Idx → EReal) (ix2 i n) =
        if n.val % 2 ^ (i.val + 1) < 2 ^ i.val then (1 : EReal) else (0 : EReal))
    (hNet : ∀ (X : SX.Idx → EReal) (P : SP.Idx → EReal) (rc ic : SW.Idx → EReal),
        (StableHlo.after opsMid W2 (Proc.devRef .tc main_v2) : SX.Idx → EReal) = mm X P →
        (∀ (i : Fin 12) (n : Fin 4096),
          (StableHlo.after opsMid W2 (Proc.devRef .tc main_v387) : S12x4096.Idx → EReal) (ix2 i n) =
            if n.val % 2 ^ (i.val + 1) < 2 ^ i.val then wt rc i 0 (n.val % 2 ^ (i.val + 1))
            else wt rc i 1 (n.val % 2 ^ (i.val + 1))) →
        (∀ (i : Fin 12) (n : Fin 4096),
          (StableHlo.after opsMid W2 (Proc.devRef .tc main_v400) : S12x4096.Idx → EReal) (ix2 i n) =
            if n.val % 2 ^ (i.val + 1) < 2 ^ i.val then wt rc i 1 (n.val % 2 ^ (i.val + 1))
            else wt rc i 0 (n.val % 2 ^ (i.val + 1))) →
        (∀ (i : Fin 12) (n : Fin 4096),
          (StableHlo.after opsMid W2 (Proc.devRef .tc main_v413) : S12x4096.Idx → EReal) (ix2 i n) =
            if n.val % 2 ^ (i.val + 1) < 2 ^ i.val then wt ic i 0 (n.val % 2 ^ (i.val + 1))
            else wt ic i 1 (n.val % 2 ^ (i.val + 1))) →
        (∀ (i : Fin 12) (n : Fin 4096),
          (StableHlo.after opsMid W2 (Proc.devRef .tc main_v426) : S12x4096.Idx → EReal) (ix2 i n) =
            if n.val % 2 ^ (i.val + 1) < 2 ^ i.val then wt ic i 1 (n.val % 2 ^ (i.val + 1))
            else wt ic i 0 (n.val % 2 ^ (i.val + 1))) →
        (∀ (i : Fin 12) (n : Fin 4096),
          (StableHlo.after opsMid W2 (Proc.devRef .tc main_v439) : S12x4096.Idx → EReal) (ix2 i n) =
            if n.val % 2 ^ (i.val + 1) < 2 ^ i.val then (1 : EReal) else (0 : EReal)) →
        (W4 (Proc.devRef .tc main_v440_0) : SX.Idx → EReal) = (state X P rc ic 12).1 ∧
        (W4 (Proc.devRef .tc main_v440_1) : SX.Idx → EReal) = (state X P rc ic 12).2) :
    (StableHlo.after hostOps2 W4 (Proc.devRef .tc main_v441) : SO.Idx → EReal) = outRe M0 M1 M2 M3 ∧
    (StableHlo.after hostOps2 W4 (Proc.devRef .tc main_v442) : SO.Idx → EReal) = outIm M0 M1 M2 M3 := by
  -- the converted operands are the arguments
  have e0 : (StableHlo.after hostOps0 W0 (Proc.devRef .tc main_v0) : SX.Idx → EReal) = M0 := (hostOps0_v0 W0).trans h0
  have e1 : (StableHlo.after hostOps0 W0 (Proc.devRef .tc main_v1) : SP.Idx → EReal) = M1 := (hostOps0_v1 W0).trans h1
  -- the two weight tables reach the middle stretches as launched
  have e2 : (W2 (Proc.devRef .tc main_arg2) : SW.Idx → EReal) = M2 :=
    hW2_arg2.trans ((hostOps0_keeps_arg2 W0).trans h2)
  have e3 : (W2 (Proc.devRef .tc main_arg3) : SW.Idx → EReal) = M3 :=
    hW2_arg3.trans ((hostOps0_keeps_arg3 W0).trans h3)
  -- the first region's output reaches the second region as the first region left it
  have ex : (StableHlo.after opsMid W2 (Proc.devRef .tc main_v2) : SX.Idx → EReal) = mm M0 M1 := by
    rw [opsMid_keeps_v2 W2, hW2_v2, e0, e1]
  obtain ⟨n6, n7⟩ := hNet M0 M1 M2 M3 ex
    (fun i n => by rw [hSR i n, e2]) (fun i n => by rw [hPR i n, e2])
    (fun i n => by rw [hSI i n, e3]) (fun i n => by rw [hPI i n, e3]) hMK
  constructor
  · funext j
    obtain ⟨b, z, n, rfl⟩ : ∃ (b : Fin 2048) (z : Fin 1) (n : Fin 4096), j = ix3 b z n := ⟨j 0, j 1, j 2, eq_ix3 j⟩
    rw [hostOps2_v441 W4 b z n, n6, outRe_apply]
  · funext j
    obtain ⟨b, z, n, rfl⟩ : ∃ (b : Fin 2048) (z : Fin 1) (n : Fin 4096), j = ix3 b z n := ⟨j 0, j 1, j 2, eq_ix3 j⟩
    rw [hostOps2_v442 W4 b z n, n7, outIm_apply]

/-! ## The run's last boundary -/

section Run

variable (m : (ℓ : Loc nD τ sig) → Buf (Elt Ideal) ℓ) (ρ : Dev nD → PrngReg)

/-- What @main's two result buffers hold after the last segment: the butterfly network of `Spec` on the four
    arguments as launched. The boundaries are the fold's; the first region's output is `x · perm` of its two entry
    arrays, the five weight arrays are the middle stretches' (read at the first region's exit contents), and the second
    region's two outputs are the network's state after twelve stages where its data array is `x · perm` and its weight
    arrays hold the block weights laid out by halves. -/
theorem W5_results (c : Dev nD) :
    (W5 (F := Ideal) m ρ c (Proc.devRef .tc main_v441) : SO.Idx → EReal)
      = outRe (m ((c : Thread nD τ).loc main_arg0)) (m ((c : Thread nD τ).loc main_arg1))
          (m ((c : Thread nD τ).loc main_arg2)) (m ((c : Thread nD τ).loc main_arg3)) ∧
    (W5 (F := Ideal) m ρ c (Proc.devRef .tc main_v442) : SO.Idx → EReal)
      = outIm (m ((c : Thread nD τ).loc main_arg0)) (m ((c : Thread nD τ).loc main_arg1))
          (m ((c : Thread nD τ).loc main_arg2)) (m ((c : Thread nD τ).loc main_arg3)) :=
  results_of_boundaries _ _ _ _ (W0 m ρ c) (W2 m ρ c) (W4 m ρ c) rfl rfl rfl rfl
    ((W2_arr m ρ c 2).trans (arrAt0_2 (V1 m ρ) c))
    (W2_of_ne m ρ c main_arg2 (by decide)) (W2_of_ne m ρ c main_arg3 (by decide))
    (prep_sr (W2 m ρ c)) (prep_pr (W2 m ρ c)) (prep_si (W2 m ρ c)) (prep_pi (W2 m ρ c)) (prep_mk (W2 m ρ c))
    (fun X P rc ic hx a1 a2 a3 a4 a5 =>
      have h := net1 (V3 m ρ) c X P rc ic hx a1 a2 a3 a4 a5
      ⟨(W4_arr m ρ c 6).trans h.1, (W4_arr m ρ c 7).trans h.2⟩)

end Run

/-- The first result alone. -/
theorem W5_v441 (m : (ℓ : Loc nD τ sig) → Buf (Elt Ideal) ℓ) (ρ : Dev nD → PrngReg) (c : Dev nD) :
    (W5 (F := Ideal) m ρ c (Proc.devRef .tc main_v441) : SO.Idx → EReal)
      = outRe (m ((c : Thread nD τ).loc main_arg0)) (m ((c : Thread nD τ).loc main_arg1))
          (m ((c : Thread nD τ).loc main_arg2)) (m ((c : Thread nD τ).loc main_arg3)) := (W5_results m ρ c).1

/-- The second result alone. -/
theorem W5_v442 (m : (ℓ : Loc nD τ sig) → Buf (Elt Ideal) ℓ) (ρ : Dev nD → PrngReg) (c : Dev nD) :
    (W5 (F := Ideal) m ρ c (Proc.devRef .tc main_v442) : SO.Idx → EReal)
      = outIm (m ((c : Thread nD τ).loc main_arg0)) (m ((c : Thread nD τ).loc main_arg1))
          (m ((c : Thread nD τ).loc main_arg2)) (m ((c : Thread nD τ).loc main_arg3)) := (W5_results m ρ c).2

/-! ## The run -/

/-- THE KERNEL PROGRAM'S RUN on the extended reals: @main terminates without a fault, its two results are the butterfly
    network of `Spec` on the four arguments as launched, and the four arguments end as launched. Every unscoped buffer
    ends at the last boundary's contents; the two results are read off it by `W5_results`, the arguments by the fold's
    walk back to the launch memory. -/
theorem kernel_run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread nD τ).loc main_v441)
          = outRe (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_v442)
          = outIm (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  run_post m ρ fun s h c =>
    have hr := W5_results m ρ c
    ⟨(h c _ (mem_uc main_v441 (by decide))).trans hr.1,
     (h c _ (mem_uc main_v442 (by decide))).trans hr.2,
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.KernelIdeal.HandV

end
-- ==== Proof.RV.RefRun.lean ====
/-
  The reference program's host operations read back (the chain RunC0 … RunC7): its @main is the sequence `ops` of its 1325
  operations (`main_eq`), every operation touches TensorCore references only (`ops_sub`), and the buffer contents after
  the whole sequence are `val23` (`after_ops`), whose entries at the two result buffers are the named terms the stage
  lemmas speak of. The run itself is stated in RV/Final.lean.
-/
import proofs.«135697_j83099027243546_2_alg».proof.Proof.RV.RunC7

noncomputable section

namespace Cert.ReferenceIdeal.HandV

end Cert.ReferenceIdeal.HandV

end
-- ==== Proof.RV.Lay.lean ====
/-
  The blocked layout of the butterfly network's state. Stage `i` of the reference works on a `[2048, 4096]` array
  reshaped `[2048, Q, s]` with `s = 2^(i+1)` lanes to a block and `Q = 4096 / s` blocks to a row: element `(b, q, l)` is
  lane `q * s + l` of row `b`. `lay` is that reading; `st` is the specification's state of the four argument arrays;
  `bfly_block` reads the specification's butterfly at position `l` of block `q`.
-/
import proofs.«135697_j83099027243546_2_alg».proof.Proof.Gen.ReferenceIdeal
import proofs.«135697_j83099027243546_2_alg».proof.Proof.Spec
import Idealize.ShloMosaic.Lib.StableHlo.Run
import Idealize.ShloMosaic.Lib.ValueLayout

noncomputable section

namespace Cert.ReferenceIdeal.HandV

open Cert.ReferenceIdeal Idealize.ShloMosaic Idealize.ShloMosaic.ValueIdx Idealize.ShloMosaic.StableHlo

/-! ## The blocked layout of a row -/

/-- Position `l` of block `q`, blocks of `s` lanes, `Q` blocks to a row of 4096, is a lane of the row. -/
theorem lay_bound {Q s : ℕ} (hQs : Q * s = 4096) (q : Fin Q) (l : Fin s) : q.val * s + l.val < 4096 :=
  calc q.val * s + l.val < q.val * s + s := Nat.add_lt_add_left l.isLt _
    _ = (q.val + 1) * s := (Nat.succ_mul _ _).symm
    _ ≤ Q * s := Nat.mul_le_mul_right s q.isLt
    _ = 4096 := hQs

/-- A `[2048, 4096]` array laid out `[2048, Q, s]`: element `(b, q, l)` is lane `q * s + l` of row `b`. -/
def lay (Q s : ℕ) (hQs : Q * s = 4096) (a : Cert.Fft.SX.Idx → EReal) : (⟨3, ![2048, Q, s]⟩ : Shape).Idx → EReal :=
  fun j => a (ix2 (j 0 : Fin 2048) (⟨(j 1 : Fin Q).val * s + (j 2 : Fin s).val, lay_bound hQs (j 1) (j 2)⟩ : Fin 4096))

/-- The layout read at coordinates. -/
theorem lay_apply {Q s : ℕ} (hQs : Q * s = 4096) (a : Cert.Fft.SX.Idx → EReal) (b : Fin 2048) (q : Fin Q) (l : Fin s) :
    lay Q s hQs a (ix3 b q l) = a (ix2 b ⟨q.val * s + l.val, lay_bound hQs q l⟩) := rfl

/-- The layout read at coordinates, as a lane of the row. -/
theorem lay_apply_row {Q s : ℕ} (hQs : Q * s = 4096) (a : Cert.Fft.SX.Idx → EReal) (b : Fin 2048) (q : Fin Q) (l : Fin s) :
    lay Q s hQs a (ix3 b q l) = Cert.Fft.rowOf a b (q.val * s + l.val) := by
  rw [lay_apply, Cert.Fft.rowOf, Cert.Fft.rd_of_lt _ _ (lay_bound hQs q l)]

/-- Two arrays with the same blocked layout are equal. -/
theorem lay_ext {Q s : ℕ} (hQs : Q * s = 4096) (X : (⟨3, ![2048, Q, s]⟩ : Shape).Idx → EReal) (a : Cert.Fft.SX.Idx → EReal)
    (h : ∀ (b : Fin 2048) (q : Fin Q) (l : Fin s), X (ix3 b q l) = a (ix2 b ⟨q.val * s + l.val, lay_bound hQs q l⟩)) :
    X = lay Q s hQs a := by
  funext j
  rw [eq_ix3 j]
  exact h _ _ _

/-- The pair (real, imaginary) after the first `n` stages, of the launch contents of the four arguments. -/
abbrev st (V0 : Valuation τ sig (Elt Ideal)) (n : ℕ) : (Cert.Fft.SX.Idx → EReal) × (Cert.Fft.SX.Idx → EReal) :=
  Cert.Fft.state (V0 (Proc.devRef .tc main_arg0)) (V0 (Proc.devRef .tc main_arg1)) (V0 (Proc.devRef .tc main_arg2))
    (V0 (Proc.devRef .tc main_arg3)) n

/-! ## The butterfly at position `l` of block `q` -/

/-- A butterfly of stage `i` at lane `q * 2^(i+1) + l`, `l` inside the block: the position inside the block is `l`, the
    partner lane is in the same block, half a block above on the lower half and half a block below on the upper half. -/
theorem bfly_block (i : ℕ) (w0 w1 v : ℕ → EReal) (q l : ℕ) (hl : l < 2 ^ (i + 1)) :
    Cert.Fft.bfly i w0 w1 v (q * 2 ^ (i + 1) + l)
      = if l < 2 ^ i then w0 l * v (q * 2 ^ (i + 1) + l) + w1 l * v (q * 2 ^ (i + 1) + (l + 2 ^ i))
        else w0 l * v (q * 2 ^ (i + 1) + (l - 2 ^ i)) + w1 l * v (q * 2 ^ (i + 1) + l) := by
  have hmod : (q * 2 ^ (i + 1) + l) % 2 ^ (i + 1) = l := by
    rw [Nat.mul_comm, Nat.mul_add_mod, Nat.mod_eq_of_lt hl]
  unfold Cert.Fft.bfly
  rw [hmod]
  by_cases h : l < 2 ^ i
  · rw [if_pos h, if_pos h, Nat.add_assoc]
  · rw [if_neg h, if_neg h]
    have : q * 2 ^ (i + 1) + l - 2 ^ i = q * 2 ^ (i + 1) + (l - 2 ^ i) := by omega
    rw [this]

end Cert.ReferenceIdeal.HandV

end
-- ==== Proof.RV.StageGen.lean ====
/-
  One stage of the reference's butterfly network, once, for every block size. A stage takes the two arrays laid out
  `[2048, Q, s]` (`s = 2^(i+1)` lanes to a block, `h = 2^i` to a half-block), cuts each block into its lower and upper
  half, forms for each of the two weight arrays the butterfly
      lower half:  w[0, :h] * lower + w[1, :h] * upper,      upper half:  w[0, h:] * lower + w[1, h:] * upper,
  lays the two halves end to end, subtracts (real part) or adds (imaginary part) two such butterflies, flattens the
  row and cuts it into the next stage's blocks. Read at position `l` of block `q` that is the specification's butterfly at
  lane `q * s + l` (`Cert.Fft.bfly`), so the stage's two results are the blocked layouts of `Cert.Fft.step`: `stage_gen`,
  stated over the operations exactly as the program composes them, generic in the sizes. The layout operations read at
  coordinates come first; the weight rows (`wslice_apply`) last.
-/
import proofs.«135697_j83099027243546_2_alg».proof.Proof.RV.Lay

noncomputable section

namespace Cert.ReferenceIdeal.HandV

open Cert.ReferenceIdeal Idealize.ShloMosaic Idealize.ShloMosaic.ValueIdx Idealize.ShloMosaic.StableHlo

/-! ## The reference's layout operations read at coordinates -/

section Layout
variable {α : Type}

/-- A rank-3 array cut along its last axis from `o` reads, at `(a, c, j)`, the source at `(a, c, k)` with `k = o + j`. -/
theorem slice3_axis2_apply {n0 n1 n2 m : ℕ} (o : ℕ) (X : (⟨3, ![n0, n1, n2]⟩ : Shape).Idx → α)
    (hsl : (⟨3, ![n0, n1, n2]⟩ : Shape).Slices ![0, 0, o] ⟨3, ![n0, n1, m]⟩)
    (a : Fin n0) (c : Fin n1) (j : Fin m) (k : Fin n2) (hk : k.val = o + j.val) :
    extractStridedSlice ⟨3, ![n0, n1, m]⟩ ![0, 0, o] X hsl (ix3 a c j) = X (ix3 a c k) :=
  extractStridedSlice_apply _ _ _ _ _ (fun ax => by
    match ax with
    | ⟨0, _⟩ => exact (Nat.zero_add _).symm
    | ⟨1, _⟩ => exact (Nat.zero_add _).symm
    | ⟨2, _⟩ => exact hk)

/-- One row piece of a `[2, s]` weight array — row `k`, lanes `o … o + h` — stretched over every half-block of a
    `[2048, Q, h]` array: at `(b, q, l)` it is the weight at `(k, o + l)`. -/
theorem wpiece_apply {Q s h : ℕ} (w : (⟨2, ![2, s]⟩ : Shape).Idx → α) (k o : ℕ)
    (hsl : (⟨2, ![2, s]⟩ : Shape).Slices ![k, o] ⟨2, ![1, h]⟩)
    (hc : (⟨2, ![1, h]⟩ : Shape).ShapeCasts ⟨1, ![h]⟩)
    (hb1 : (⟨1, ![h]⟩ : Shape).BroadcastsInDim ⟨3, ![1, 1, h]⟩ (![2] : Fin 1 → Fin (⟨3, ![1, 1, h]⟩ : Shape).rank))
    (hb2 : (⟨3, ![1, 1, h]⟩ : Shape).BroadcastsInDim ⟨3, ![2048, Q, h]⟩ (![0, 1, 2] : Fin 3 → Fin (⟨3, ![2048, Q, h]⟩ : Shape).rank))
    (b : Fin 2048) (q : Fin Q) (l : Fin h) (k' : Fin 2) (l' : Fin s) (hk : k'.val = k) (hl : l'.val = o + l.val) :
    broadcastInDim ⟨3, ![2048, Q, h]⟩ ![0, 1, 2] hb2 (broadcastInDim ⟨3, ![1, 1, h]⟩ ![2] hb1
      (shapeCast ⟨1, ![h]⟩ (extractStridedSlice ⟨2, ![1, h]⟩ ![k, o] w hsl) hc)) (ix3 b q l) = w (ix2 k' l') := by
  have hl1 : l.val = if h = 1 then 0 else l.val := by
    split
    · have := l.isLt; omega
    · rfl
  refine (broadcastInDim_apply _ hb2 _ (ix3 b q l) (ix3 (0 : Fin 1) (0 : Fin 1) l) fun a => ?_).trans ?_
  · match a with
    | ⟨0, _⟩ => rfl
    | ⟨1, _⟩ => rfl
    | ⟨2, _⟩ => exact hl1
  refine (broadcastInDim_apply _ hb1 _ (ix3 (0 : Fin 1) (0 : Fin 1) l) (ix1 l) fun a => ?_).trans ?_
  · match a with
    | ⟨0, _⟩ => exact hl1
  refine (shapeCast_apply _ hc (ix1 l) (ix2 (0 : Fin 1) l) ?_).trans ?_
  · rw [Shape.rowMajor_val_two, Shape.rowMajor_val_one]
    show 0 * h + l.val = l.val
    rw [Nat.zero_mul, Nat.zero_add]
  exact extractStridedSlice_apply _ _ hsl (ix2 (0 : Fin 1) l) (ix2 k' l') fun a => by
    match a with
    | ⟨0, _⟩ => exact hk.trans (Nat.add_zero k).symm
    | ⟨1, _⟩ => exact hl

/-- Two half-blocks laid end to end along the last axis: the lower half of a block reads the first piece, the upper
    half the second piece half a block down. -/
theorem cat_apply {Q s h : ℕ} (hs : s = h + h) (x₁ x₂ : (⟨3, ![2048, Q, h]⟩ : Shape).Idx → α)
    (hcat : Shape.Concatenates [(⟨3, ![2048, Q, h]⟩ : Shape), ⟨3, ![2048, Q, h]⟩] ⟨3, ![2048, Q, s]⟩ 2)
    (b : Fin 2048) (q : Fin Q) (l : Fin s) :
    concatenate ⟨3, ![2048, Q, s]⟩ 2 [⟨⟨3, ![2048, Q, h]⟩, x₁⟩, ⟨⟨3, ![2048, Q, h]⟩, x₂⟩] hcat (ix3 b q l)
      = if hl : l.val < h then x₁ (ix3 b q ⟨l.val, hl⟩)
        else x₂ (ix3 b q ⟨l.val - h, by have := l.isLt; omega⟩) := by
  by_cases hl : l.val < h
  · rw [dif_pos hl]
    exact concatenate_pair_apply_left 2 x₁ x₂ hcat (ix3 b q l) rfl (ix3 b q ⟨l.val, hl⟩) fun a => by
      match a with
      | ⟨0, _⟩ => rfl
      | ⟨1, _⟩ => rfl
      | ⟨2, _⟩ => rfl
  · rw [dif_neg hl]
    exact concatenate_pair_apply_right 2 x₁ x₂ hcat (ix3 b q l) rfl rfl (ix3 b q ⟨l.val - h, by have := l.isLt; omega⟩)
      (fun a ha => by
        match a with
        | ⟨0, _⟩ => rfl
        | ⟨1, _⟩ => rfl
        | ⟨2, _⟩ => exact absurd rfl ha)
      (show l.val - h + h = l.val by omega)

/-- A `[2048, Q, s]` array flattened to `[2048, 4096]` and cut again into `[2048, Q', s']`: lane `m = q' * s' + l'` of
    row `b` sits at position `m % s` of block `m / s`. -/
theorem recast_apply {Q s Q' s' : ℕ} (hQs : Q * s = 4096) (hQs' : Q' * s' = 4096)
    (Z : (⟨3, ![2048, Q, s]⟩ : Shape).Idx → α)
    (hc1 : (⟨3, ![2048, Q, s]⟩ : Shape).ShapeCasts ⟨2, ![2048, 4096]⟩)
    (hc2 : (⟨2, ![2048, 4096]⟩ : Shape).ShapeCasts ⟨3, ![2048, Q', s']⟩)
    (b : Fin 2048) (q' : Fin Q') (l' : Fin s') (q : Fin Q) (l : Fin s)
    (hm : q.val * s + l.val = q'.val * s' + l'.val) :
    shapeCast ⟨3, ![2048, Q', s']⟩ (shapeCast ⟨2, ![2048, 4096]⟩ Z hc1) hc2 (ix3 b q' l') = Z (ix3 b q l) := by
  refine (shapeCast_apply _ hc2 (ix3 b q' l') (ix2 b ⟨q'.val * s' + l'.val, lay_bound hQs' q' l'⟩) ?_).trans ?_
  · rw [Shape.rowMajor_val_three, Shape.rowMajor_val_two]
    show b.val * 4096 + (q'.val * s' + l'.val) = (b.val * Q' + q'.val) * s' + l'.val
    rw [Nat.add_mul, Nat.mul_assoc, hQs', Nat.add_assoc]
  refine shapeCast_apply _ hc1 (ix2 b ⟨q'.val * s' + l'.val, lay_bound hQs' q' l'⟩) (ix3 b q l) ?_
  rw [Shape.rowMajor_val_three, Shape.rowMajor_val_two]
  show (b.val * Q + q.val) * s + l.val = b.val * 4096 + (q'.val * s' + l'.val)
  rw [Nat.add_mul, Nat.mul_assoc, hQs, Nat.add_assoc, hm]

end Layout

/-! ## One butterfly of the reference, and one stage -/

section Stage
open Cert.Fft

/-- `bfly_block` over named sizes: `s` lanes to a block, `h` to a half-block. -/
theorem bfly_block' (i : ℕ) {s h : ℕ} (hs : s = 2 ^ (i + 1)) (hh : h = 2 ^ i) (w0 w1 v : ℕ → EReal) (q l : ℕ) (hl : l < s) :
    bfly i w0 w1 v (q * s + l)
      = if l < h then w0 l * v (q * s + l) + w1 l * v (q * s + (h + l))
        else w0 l * v (q * s + (l - h)) + w1 l * v (q * s + l) := by
  subst hs hh
  rw [bfly_block i w0 w1 v q l hl, Nat.add_comm l (2 ^ i)]

variable {Q s h : ℕ}

/-- ONE BUTTERFLY of the reference read at position `l` of block `q` of row `b`: the weighted sum of the block's lower and
    upper half slices, the lower-half weights on the first piece and the upper-half weights on the second, the two
    pieces laid end to end. On the lower half it pairs the lane with the one half a block above, on the upper half
    with the one half a block below. -/
theorem bf_apply (hs : s = h + h) (w : FVec Ideal ⟨2, ![2, s]⟩ .f32) (Z : FVec Ideal ⟨3, ![2048, Q, s]⟩ .f32)
    (hw00 : (⟨2, ![2, s]⟩ : Shape).Slices ![0, 0] ⟨2, ![1, h]⟩) (hw10 : (⟨2, ![2, s]⟩ : Shape).Slices ![1, 0] ⟨2, ![1, h]⟩)
    (hw0h : (⟨2, ![2, s]⟩ : Shape).Slices ![0, h] ⟨2, ![1, h]⟩) (hw1h : (⟨2, ![2, s]⟩ : Shape).Slices ![1, h] ⟨2, ![1, h]⟩)
    (hc : (⟨2, ![1, h]⟩ : Shape).ShapeCasts ⟨1, ![h]⟩)
    (hb1 : (⟨1, ![h]⟩ : Shape).BroadcastsInDim ⟨3, ![1, 1, h]⟩ (![2] : Fin 1 → Fin (⟨3, ![1, 1, h]⟩ : Shape).rank))
    (hb2 : (⟨3, ![1, 1, h]⟩ : Shape).BroadcastsInDim ⟨3, ![2048, Q, h]⟩ (![0, 1, 2] : Fin 3 → Fin (⟨3, ![2048, Q, h]⟩ : Shape).rank))
    (hz0 : (⟨3, ![2048, Q, s]⟩ : Shape).Slices ![0, 0, 0] ⟨3, ![2048, Q, h]⟩) (hzh : (⟨3, ![2048, Q, s]⟩ : Shape).Slices ![0, 0, h] ⟨3, ![2048, Q, h]⟩)
    (hcat : Shape.Concatenates [(⟨3, ![2048, Q, h]⟩ : Shape), ⟨3, ![2048, Q, h]⟩] ⟨3, ![2048, Q, s]⟩ 2)
    (b : Fin 2048) (q : Fin Q) (l : Fin s) :
    (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] w hw00) hc))) (extractStridedSlice ⟨3, ![2048, Q, h]⟩ ![0, 0, 0] Z hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] w hw10) hc))) (extractStridedSlice ⟨3, ![2048, Q, h]⟩ ![0, 0, h] Z hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] w hw0h) hc))) (extractStridedSlice ⟨3, ![2048, Q, h]⟩ ![0, 0, 0] Z hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] w hw1h) hc))) (extractStridedSlice ⟨3, ![2048, Q, h]⟩ ![0, 0, h] Z hzh)))⟩] hcat) (ix3 b q l)
      = if hl : l.val < h then w (ix2 0 l) * Z (ix3 b q l) + w (ix2 1 l) * Z (ix3 b q ⟨h + l.val, by omega⟩)
        else w (ix2 0 l) * Z (ix3 b q ⟨l.val - h, by have := l.isLt; omega⟩) + w (ix2 1 l) * Z (ix3 b q l) := by
  rw [cat_apply hs]
  by_cases hl : l.val < h
  · rw [dif_pos hl, dif_pos hl, addf_apply, mulf_apply, mulf_apply]
    exact congrArg₂ (· + ·)
      (congrArg₂ (· * ·) (wpiece_apply w 0 0 hw00 hc hb1 hb2 b q ⟨l.val, hl⟩ 0 l rfl (Nat.zero_add _).symm)
        (slice3_axis2_apply 0 Z hz0 b q ⟨l.val, hl⟩ l (Nat.zero_add _).symm))
      (congrArg₂ (· * ·) (wpiece_apply w 1 0 hw10 hc hb1 hb2 b q ⟨l.val, hl⟩ 1 l rfl (Nat.zero_add _).symm)
        (slice3_axis2_apply h Z hzh b q ⟨l.val, hl⟩ ⟨h + l.val, by omega⟩ rfl))
  · rw [dif_neg hl, dif_neg hl, addf_apply, mulf_apply, mulf_apply]
    have hl' : l.val = h + (l.val - h) := by omega
    exact congrArg₂ (· + ·)
      (congrArg₂ (· * ·) (wpiece_apply w 0 h hw0h hc hb1 hb2 b q ⟨l.val - h, by have := l.isLt; omega⟩ 0 l rfl hl')
        (slice3_axis2_apply 0 Z hz0 b q ⟨l.val - h, by have := l.isLt; omega⟩ ⟨l.val - h, by have := l.isLt; omega⟩ (Nat.zero_add _).symm))
      (congrArg₂ (· * ·) (wpiece_apply w 1 h hw1h hc hb1 hb2 b q ⟨l.val - h, by have := l.isLt; omega⟩ 1 l rfl hl')
        (slice3_axis2_apply h Z hzh b q ⟨l.val - h, by have := l.isLt; omega⟩ l hl'))

/-- The same butterfly over the blocked layout of an array `a` and the weight rows of stage `i`: the specification's
    butterfly of row `b` at lane `q * s + l`. -/
theorem bf_lay (i : ℕ) (hi : i < 12) (hs : s = 2 ^ (i + 1)) (hh : h = 2 ^ i) (hQs : Q * s = 4096)
    (W : SW.Idx → EReal) (a : SX.Idx → EReal) (w : FVec Ideal ⟨2, ![2, s]⟩ .f32)
    (hw : ∀ (k : Fin 2) (l : Fin s), w (ix2 k l) = wt W ⟨i, hi⟩ k l.val)
    (hw00 : (⟨2, ![2, s]⟩ : Shape).Slices ![0, 0] ⟨2, ![1, h]⟩) (hw10 : (⟨2, ![2, s]⟩ : Shape).Slices ![1, 0] ⟨2, ![1, h]⟩)
    (hw0h : (⟨2, ![2, s]⟩ : Shape).Slices ![0, h] ⟨2, ![1, h]⟩) (hw1h : (⟨2, ![2, s]⟩ : Shape).Slices ![1, h] ⟨2, ![1, h]⟩)
    (hc : (⟨2, ![1, h]⟩ : Shape).ShapeCasts ⟨1, ![h]⟩)
    (hb1 : (⟨1, ![h]⟩ : Shape).BroadcastsInDim ⟨3, ![1, 1, h]⟩ (![2] : Fin 1 → Fin (⟨3, ![1, 1, h]⟩ : Shape).rank))
    (hb2 : (⟨3, ![1, 1, h]⟩ : Shape).BroadcastsInDim ⟨3, ![2048, Q, h]⟩ (![0, 1, 2] : Fin 3 → Fin (⟨3, ![2048, Q, h]⟩ : Shape).rank))
    (hz0 : (⟨3, ![2048, Q, s]⟩ : Shape).Slices ![0, 0, 0] ⟨3, ![2048, Q, h]⟩) (hzh : (⟨3, ![2048, Q, s]⟩ : Shape).Slices ![0, 0, h] ⟨3, ![2048, Q, h]⟩)
    (hcat : Shape.Concatenates [(⟨3, ![2048, Q, h]⟩ : Shape), ⟨3, ![2048, Q, h]⟩] ⟨3, ![2048, Q, s]⟩ 2)
    (b : Fin 2048) (q : Fin Q) (l : Fin s) :
    (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] w hw00) hc))) (extractStridedSlice ⟨3, ![2048, Q, h]⟩ ![0, 0, 0] (lay Q s hQs a) hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] w hw10) hc))) (extractStridedSlice ⟨3, ![2048, Q, h]⟩ ![0, 0, h] (lay Q s hQs a) hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] w hw0h) hc))) (extractStridedSlice ⟨3, ![2048, Q, h]⟩ ![0, 0, 0] (lay Q s hQs a) hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] w hw1h) hc))) (extractStridedSlice ⟨3, ![2048, Q, h]⟩ ![0, 0, h] (lay Q s hQs a) hzh)))⟩] hcat) (ix3 b q l)
      = bfly i (wt W ⟨i, hi⟩ 0) (wt W ⟨i, hi⟩ 1) (rowOf a b) (q.val * s + l.val) := by
  have hs2 : s = h + h := by rw [hs, hh, pow_succ, Nat.mul_two]
  rw [bf_apply hs2 w (lay Q s hQs a) hw00 hw10 hw0h hw1h hc hb1 hb2 hz0 hzh hcat b q l, bfly_block' i hs hh _ _ _ q.val l.val l.isLt]
  by_cases hl : l.val < h
  · rw [dif_pos hl, if_pos hl, hw, hw, lay_apply_row, lay_apply_row]
  · rw [dif_neg hl, if_neg hl, hw, hw, lay_apply_row, lay_apply_row]

/-- ONE STAGE of the reference. Where the two entering arrays are the blocked layouts of the specification's state
    after `i` stages and the two `[2, s]` weight arrays read the stage's weight rows, the stage's two results — the
    difference and the sum of two butterflies each, flattened to `[2048, 4096]` and cut into the next stage's blocks — are
    the blocked layouts of the state after `i + 1` stages. -/
theorem stage_gen (i : ℕ) (hi : i < 12) {Q' s' : ℕ} (hs : s = 2 ^ (i + 1)) (hh : h = 2 ^ i)
    (hQs : Q * s = 4096) (hQs' : Q' * s' = 4096)
    (x : SX.Idx → EReal) (p : SP.Idx → EReal) (rc ic : SW.Idx → EReal)
    (wr wi : FVec Ideal ⟨2, ![2, s]⟩ .f32)
    (hwr : ∀ (k : Fin 2) (l : Fin s), wr (ix2 k l) = wt rc ⟨i, hi⟩ k l.val)
    (hwi : ∀ (k : Fin 2) (l : Fin s), wi (ix2 k l) = wt ic ⟨i, hi⟩ k l.val)
    (X Y : FVec Ideal ⟨3, ![2048, Q, s]⟩ .f32)
    (hX : X = lay Q s hQs (state x p rc ic i).1) (hY : Y = lay Q s hQs (state x p rc ic i).2)
    (hw00 : (⟨2, ![2, s]⟩ : Shape).Slices ![0, 0] ⟨2, ![1, h]⟩) (hw10 : (⟨2, ![2, s]⟩ : Shape).Slices ![1, 0] ⟨2, ![1, h]⟩)
    (hw0h : (⟨2, ![2, s]⟩ : Shape).Slices ![0, h] ⟨2, ![1, h]⟩) (hw1h : (⟨2, ![2, s]⟩ : Shape).Slices ![1, h] ⟨2, ![1, h]⟩)
    (hc : (⟨2, ![1, h]⟩ : Shape).ShapeCasts ⟨1, ![h]⟩)
    (hb1 : (⟨1, ![h]⟩ : Shape).BroadcastsInDim ⟨3, ![1, 1, h]⟩ (![2] : Fin 1 → Fin (⟨3, ![1, 1, h]⟩ : Shape).rank))
    (hb2 : (⟨3, ![1, 1, h]⟩ : Shape).BroadcastsInDim ⟨3, ![2048, Q, h]⟩ (![0, 1, 2] : Fin 3 → Fin (⟨3, ![2048, Q, h]⟩ : Shape).rank))
    (hz0 : (⟨3, ![2048, Q, s]⟩ : Shape).Slices ![0, 0, 0] ⟨3, ![2048, Q, h]⟩) (hzh : (⟨3, ![2048, Q, s]⟩ : Shape).Slices ![0, 0, h] ⟨3, ![2048, Q, h]⟩)
    (hcat : Shape.Concatenates [(⟨3, ![2048, Q, h]⟩ : Shape), ⟨3, ![2048, Q, h]⟩] ⟨3, ![2048, Q, s]⟩ 2)
    (hc1 : (⟨3, ![2048, Q, s]⟩ : Shape).ShapeCasts ⟨2, ![2048, 4096]⟩)
    (hc2 : (⟨2, ![2048, 4096]⟩ : Shape).ShapeCasts ⟨3, ![2048, Q', s']⟩) :
    shapeCast ⟨3, ![2048, Q', s']⟩ (shapeCast ⟨2, ![2048, 4096]⟩ (subf (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] wr hw00) hc))) (extractStridedSlice ⟨3, ![2048, Q, h]⟩ ![0, 0, 0] X hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] wr hw10) hc))) (extractStridedSlice ⟨3, ![2048, Q, h]⟩ ![0, 0, h] X hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] wr hw0h) hc))) (extractStridedSlice ⟨3, ![2048, Q, h]⟩ ![0, 0, 0] X hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] wr hw1h) hc))) (extractStridedSlice ⟨3, ![2048, Q, h]⟩ ![0, 0, h] X hzh)))⟩] hcat) (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] wi hw00) hc))) (extractStridedSlice ⟨3, ![2048, Q, h]⟩ ![0, 0, 0] Y hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] wi hw10) hc))) (extractStridedSlice ⟨3, ![2048, Q, h]⟩ ![0, 0, h] Y hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] wi hw0h) hc))) (extractStridedSlice ⟨3, ![2048, Q, h]⟩ ![0, 0, 0] Y hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] wi hw1h) hc))) (extractStridedSlice ⟨3, ![2048, Q, h]⟩ ![0, 0, h] Y hzh)))⟩] hcat)) hc1) hc2
        = lay Q' s' hQs' (state x p rc ic (i + 1)).1
    ∧ shapeCast ⟨3, ![2048, Q', s']⟩ (shapeCast ⟨2, ![2048, 4096]⟩ (addf (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] wr hw00) hc))) (extractStridedSlice ⟨3, ![2048, Q, h]⟩ ![0, 0, 0] Y hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] wr hw10) hc))) (extractStridedSlice ⟨3, ![2048, Q, h]⟩ ![0, 0, h] Y hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] wr hw0h) hc))) (extractStridedSlice ⟨3, ![2048, Q, h]⟩ ![0, 0, 0] Y hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] wr hw1h) hc))) (extractStridedSlice ⟨3, ![2048, Q, h]⟩ ![0, 0, h] Y hzh)))⟩] hcat) (concatenate ⟨3, ![2048, Q, s]⟩ 2 [⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, 0] wi hw00) hc))) (extractStridedSlice ⟨3, ![2048, Q, h]⟩ ![0, 0, 0] X hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, 0] wi hw10) hc))) (extractStridedSlice ⟨3, ![2048, Q, h]⟩ ![0, 0, h] X hzh)))⟩, ⟨⟨3, ![2048, Q, h]⟩, (addf (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![0, h] wi hw0h) hc))) (extractStridedSlice ⟨3, ![2048, Q, h]⟩ ![0, 0, 0] X hz0)) (mulf (broadcastInDim ⟨3, ![2048, Q, h]⟩ ![0, 1, 2] hb2 (broadcastInDim ⟨3, ![1, 1, h]⟩ ![2] hb1 (shapeCast ⟨1, ![h]⟩ (extractStridedSlice ⟨2, ![1, h]⟩ ![1, h] wi hw1h) hc))) (extractStridedSlice ⟨3, ![2048, Q, h]⟩ ![0, 0, h] X hzh)))⟩] hcat)) hc1) hc2
        = lay Q' s' hQs' (state x p rc ic (i + 1)).2 := by
  subst hX hY
  have hspos : 0 < s := by rw [hs]; exact Nat.two_pow_pos _
  have hst : state x p rc ic (i + 1) = step ⟨i, hi⟩ rc ic (state x p rc ic i) := by
    rw [state, dif_pos hi]
  constructor
  · refine lay_ext hQs' _ _ fun b q' l' => ?_
    have hm : q'.val * s' + l'.val < Q * s := by rw [hQs]; exact lay_bound hQs' q' l'
    have hq : (q'.val * s' + l'.val) / s < Q := (Nat.div_lt_iff_lt_mul hspos).2 hm
    have hl : (q'.val * s' + l'.val) % s < s := Nat.mod_lt _ hspos
    have hdm : (q'.val * s' + l'.val) / s * s + (q'.val * s' + l'.val) % s = q'.val * s' + l'.val := Nat.div_add_mod' _ _
    rw [recast_apply hQs hQs' _ hc1 hc2 b q' l' ⟨(q'.val * s' + l'.val) / s, hq⟩ ⟨(q'.val * s' + l'.val) % s, hl⟩ hdm,
      subf_apply,
      bf_lay i hi hs hh hQs rc _ wr hwr hw00 hw10 hw0h hw1h hc hb1 hb2 hz0 hzh hcat b ⟨(q'.val * s' + l'.val) / s, hq⟩ ⟨(q'.val * s' + l'.val) % s, hl⟩,
      bf_lay i hi hs hh hQs ic _ wi hwi hw00 hw10 hw0h hw1h hc hb1 hb2 hz0 hzh hcat b ⟨(q'.val * s' + l'.val) / s, hq⟩ ⟨(q'.val * s' + l'.val) % s, hl⟩,
      hst]
    show _ = stepRe i _ _ _ _ _ _ (q'.val * s' + l'.val)
    rw [stepRe]
    exact congrArg₂ (· - ·) (congrArg _ hdm) (congrArg _ hdm)
  · refine lay_ext hQs' _ _ fun b q' l' => ?_
    have hm : q'.val * s' + l'.val < Q * s := by rw [hQs]; exact lay_bound hQs' q' l'
    have hq : (q'.val * s' + l'.val) / s < Q := (Nat.div_lt_iff_lt_mul hspos).2 hm
    have hl : (q'.val * s' + l'.val) % s < s := Nat.mod_lt _ hspos
    have hdm : (q'.val * s' + l'.val) / s * s + (q'.val * s' + l'.val) % s = q'.val * s' + l'.val := Nat.div_add_mod' _ _
    rw [recast_apply hQs hQs' _ hc1 hc2 b q' l' ⟨(q'.val * s' + l'.val) / s, hq⟩ ⟨(q'.val * s' + l'.val) % s, hl⟩ hdm,
      addf_apply,
      bf_lay i hi hs hh hQs rc _ wr hwr hw00 hw10 hw0h hw1h hc hb1 hb2 hz0 hzh hcat b ⟨(q'.val * s' + l'.val) / s, hq⟩ ⟨(q'.val * s' + l'.val) % s, hl⟩,
      bf_lay i hi hs hh hQs ic _ wi hwi hw00 hw10 hw0h hw1h hc hb1 hb2 hz0 hzh hcat b ⟨(q'.val * s' + l'.val) / s, hq⟩ ⟨(q'.val * s' + l'.val) % s, hl⟩,
      hst]
    show _ = stepIm i _ _ _ _ _ _ (q'.val * s' + l'.val)
    rw [stepIm]
    exact congrArg₂ (· + ·) (congrArg _ hdm) (congrArg _ hdm)

end Stage

/-! ## A stage's weight rows, and the network's first state -/

section Weights
open Cert.Fft

/-- Stage `i`'s `[2, s]` weight array — the first `s` lanes of the stage's two rows of a `[12, 2, 4096]` argument — reads
    the specification's weight row `k` at position `l`. -/
theorem wslice_apply (i : ℕ) (hi : i < 12) {s : ℕ} (hs4 : s ≤ 4096) (W : SW.Idx → EReal)
    (hsl : (⟨3, ![12, 2, 4096]⟩ : Shape).Slices ![i, 0, 0] ⟨3, ![1, 2, s]⟩)
    (hc : (⟨3, ![1, 2, s]⟩ : Shape).ShapeCasts ⟨2, ![2, s]⟩) (k : Fin 2) (l : Fin s) :
    shapeCast ⟨2, ![2, s]⟩ (extractStridedSlice ⟨3, ![1, 2, s]⟩ ![i, 0, 0] W hsl) hc (ix2 k l) = wt W ⟨i, hi⟩ k l.val := by
  have hl4 : l.val < 4096 := Nat.lt_of_lt_of_le l.isLt hs4
  refine (shapeCast_1ab_ab_apply _ hc k l).trans ?_
  refine (extractStridedSlice_apply _ _ hsl (ix3 (0 : Fin 1) k l) (ix3 (⟨i, hi⟩ : Fin 12) k (⟨l.val, hl4⟩ : Fin 4096)) fun a => ?_).trans ?_
  · match a with
    | ⟨0, _⟩ => exact (Nat.add_zero i).symm
    | ⟨1, _⟩ => exact (Nat.zero_add _).symm
    | ⟨2, _⟩ => exact (Nat.zero_add _).symm
  rw [wt, rd_of_lt _ _ hl4]

end Weights

end Cert.ReferenceIdeal.HandV

end
-- ==== Proof.RV.Base.lean ====
/-
  The state entering the first stage. The reference starts from `x · perm`, a `dot_general` with one contracted axis,
  and from a zero array, each cut into blocks of two lanes. At the ideal values the product read at an index is the plain
  sum of products `Cert.Fft.mm` (the contraction index is its one coordinate) and the zero word is the extended real zero:
  the two arrays are the blocked layouts of the specification's state after no stage.
-/
import proofs.«135697_j83099027243546_2_alg».proof.Proof.RV.Lay
import Idealize.ShloMosaic.PureOps.Ideal.Laws

noncomputable section

namespace Cert.ReferenceIdeal.HandV

open Cert.ReferenceIdeal Cert.ReferenceIdeal.Gen Idealize.ShloMosaic Idealize.ShloMosaic.ValueIdx Idealize.ShloMosaic.StableHlo

/-! ## The network's first state: the matrix product and the zero array -/

section Base
open Cert.Fft

theorem lhs_dot_0 (i : S2048x4096.Idx) (q : dot_S2048x4096_S4096x4096_S2048x4096_1_0_0_1_n_n.contr.Idx) :
    (dot_S2048x4096_S4096x4096_S2048x4096_1_0_0_1_n_n.lhsIdx i q 0).val = (i 0).val := by
  unfold DotDims.lhsIdx
  rw [dif_neg (show ¬(0 : Fin S2048x4096.rank) ∈ dot_S2048x4096_S4096x4096_S2048x4096_1_0_0_1_n_n.lhsBatch by decide),
    dif_pos (show (0 : Fin S2048x4096.rank) ∈ dot_S2048x4096_S4096x4096_S2048x4096_1_0_0_1_n_n.lhsNonContracting by decide)]
  rfl

theorem lhs_dot_1 (i : S2048x4096.Idx) (q : dot_S2048x4096_S4096x4096_S2048x4096_1_0_0_1_n_n.contr.Idx) :
    (dot_S2048x4096_S4096x4096_S2048x4096_1_0_0_1_n_n.lhsIdx i q 1).val = (q ⟨0, by decide⟩).val :=
  dot_S2048x4096_S4096x4096_S2048x4096_1_0_0_1_n_n.lhsIdx_val_of_single rfl i q

theorem rhs_dot_0 (i : S2048x4096.Idx) (q : dot_S2048x4096_S4096x4096_S2048x4096_1_0_0_1_n_n.contr.Idx) :
    (dot_S2048x4096_S4096x4096_S2048x4096_1_0_0_1_n_n.rhsIdx i q 0).val = (q ⟨0, by decide⟩).val :=
  dot_S2048x4096_S4096x4096_S2048x4096_1_0_0_1_n_n.rhsIdx_val_of_single rfl i q

theorem rhs_dot_1 (i : S2048x4096.Idx) (q : dot_S2048x4096_S4096x4096_S2048x4096_1_0_0_1_n_n.contr.Idx) :
    (dot_S2048x4096_S4096x4096_S2048x4096_1_0_0_1_n_n.rhsIdx i q 1).val = (i 1).val := by
  unfold DotDims.rhsIdx
  rw [dif_neg (show ¬(1 : Fin S4096x4096.rank) ∈ dot_S2048x4096_S4096x4096_S2048x4096_1_0_0_1_n_n.rhsBatch by decide),
    dif_pos (show (1 : Fin S4096x4096.rank) ∈ dot_S2048x4096_S4096x4096_S2048x4096_1_0_0_1_n_n.rhsNonContracting by decide)]
  rfl

/-- The reference's `dot_general` of the signal array and the permutation matrix, one contracted axis, is the plain
    sum of products `Cert.Fft.mm`: the contraction index is its one coordinate. -/
theorem dot_apply (x : FVec Ideal S2048x4096 .f32) (p : FVec Ideal S4096x4096 .f32) (b : Fin 2048) (n : Fin 4096) :
    Host.dotGeneral dot_S2048x4096_S4096x4096_S2048x4096_1_0_0_1_n_n none x p (ix2 b n) = mm x p (ix2 b n) := by
  simp only [Host.dotGeneral]
  rw [Ideal.dotGeneral_apply, ← Equiv.sum_comp (contrEquiv1 dot_S2048x4096_S4096x4096_S2048x4096_1_0_0_1_n_n 4096 rfl rfl).symm]
  show _ = ∑ k : Fin 4096, x (ix2 b k) * p (ix2 k n)
  refine Finset.sum_congr rfl fun k _ => ?_
  have hk := contrEquiv1_symm_val dot_S2048x4096_S4096x4096_S2048x4096_1_0_0_1_n_n 4096 rfl rfl k
  have el : dot_S2048x4096_S4096x4096_S2048x4096_1_0_0_1_n_n.lhsIdx (ix2 b n) ((contrEquiv1 dot_S2048x4096_S4096x4096_S2048x4096_1_0_0_1_n_n 4096 rfl rfl).symm k) = ix2 b k :=
    funext fun a => Fin.ext (by
      match a with
      | ⟨0, _⟩ => exact lhs_dot_0 _ _
      | ⟨1, _⟩ => exact (lhs_dot_1 _ _).trans hk)
  have er : dot_S2048x4096_S4096x4096_S2048x4096_1_0_0_1_n_n.rhsIdx (ix2 b n) ((contrEquiv1 dot_S2048x4096_S4096x4096_S2048x4096_1_0_0_1_n_n 4096 rfl rfl).symm k) = ix2 k n :=
    funext fun a => Fin.ext (by
      match a with
      | ⟨0, _⟩ => exact (rhs_dot_0 _ _).trans hk
      | ⟨1, _⟩ => exact rhs_dot_1 _ _)
  rw [el, er]

/-- A `[2048, 4096]` array cut into blocks of two lanes. -/
theorem cut2_apply {α : Type} (Z : S2048x4096.Idx → α) (hc : S2048x4096.ShapeCasts S2048x2048x2)
    (b : Fin 2048) (q : Fin 2048) (l : Fin 2) :
    shapeCast S2048x2048x2 Z hc (ix3 b q l) = Z (ix2 b ⟨q.val * 2 + l.val, lay_bound (by norm_num) q l⟩) := by
  refine shapeCast_apply _ hc (ix3 b q l) (ix2 b ⟨q.val * 2 + l.val, lay_bound (by norm_num) q l⟩) ?_
  rw [Shape.rowMajor_val_three, Shape.rowMajor_val_two]
  show b.val * 4096 + (q.val * 2 + l.val) = (b.val * 2048 + q.val) * 2 + l.val
  omega

/-- The real part entering the first stage: the matrix product in blocks of two lanes. -/
theorem base_re_term (x : FVec Ideal S2048x4096 .f32) (p : FVec Ideal S4096x4096 .f32) (rc ic : SW.Idx → EReal)
    (hc : S2048x4096.ShapeCasts S2048x2048x2) :
    shapeCast S2048x2048x2 (Host.dotGeneral dot_S2048x4096_S4096x4096_S2048x4096_1_0_0_1_n_n none x p) hc
      = lay 2048 2 (by norm_num) (state x p rc ic 0).1 := by
  refine lay_ext _ _ _ fun b q l => ?_
  rw [cut2_apply]
  exact dot_apply x p b _

/-- The imaginary part entering the first stage: the zero array in blocks of two lanes. -/
theorem base_im_term (x : FVec Ideal S2048x4096 .f32) (p : FVec Ideal S4096x4096 .f32) (rc ic : SW.Idx → EReal)
    (hc : S2048x4096.ShapeCasts S2048x2048x2)
    (hb : S_.BroadcastsInDim S2048x4096 (![] : Fin 0 → Fin S2048x4096.rank)) :
    shapeCast S2048x2048x2 (broadcastInDim S2048x4096 ![] hb (constant (F := Ideal) S_ .f32 0x00000000#32)) hc
      = lay 2048 2 (by norm_num) (state x p rc ic 0).2 := by
  refine lay_ext _ _ _ fun b q l => ?_
  rw [cut2_apply]
  refine (broadcastInDim_apply _ hb _ _ ix0 fun a => a.elim0).trans ?_
  rw [constant_apply]
  exact Ideal.ofBits_zero_f32

end Base

end Cert.ReferenceIdeal.HandV

end
-- ==== Proof.RV.Stage0_3.lean ====
/-
  The reference's run, stages 0 to 3, and the state it starts from. Each stage is one instance of `stage_gen`: the
  entering arrays are the blocked layouts of the specification's state, the stage's weight arrays read the stage's weight
  rows, and the stage's two results — named intermediate terms of the run — are the blocked layouts of the next state.
-/
import proofs.«135697_j83099027243546_2_alg».proof.Proof.RV.RefRun
import proofs.«135697_j83099027243546_2_alg».proof.Proof.RV.StageGen
import proofs.«135697_j83099027243546_2_alg».proof.Proof.RV.Base
import proofs.«135697_j83099027243546_2_alg».proof.Proof.SpecLemmas

noncomputable section

namespace Cert.ReferenceIdeal.HandV

open Cert.ReferenceIdeal Cert.ReferenceIdeal.Gen Cert.ReferenceIdeal.Value Idealize.ShloMosaic Idealize.ShloMosaic.ValueIdx
  Idealize.ShloMosaic.StableHlo

/-- The real part entering stage 0 is the matrix product in blocks of two lanes. -/
theorem base_re (V0 : Valuation τ sig (Elt Ideal)) : res_main_v2 V0 = lay 2048 2 (by norm_num) (st V0 0).1 :=
  base_re_term _ _ _ _ _

/-- The imaginary part entering stage 0 is the zero array in blocks of two lanes. -/
theorem base_im (V0 : Valuation τ sig (Elt Ideal)) : res_main_v3 V0 = lay 2048 2 (by norm_num) (st V0 0).2 :=
  base_im_term _ _ _ _ _ _

/-- Stage 0: blocks of 2 lanes in, blocks of 4 lanes out. -/
theorem stage0 (V0 : Valuation τ sig (Elt Ideal)) :
    (res_main_v2 V0 = lay 2048 2 (by norm_num) (st V0 0).1 ∧ res_main_v3 V0 = lay 2048 2 (by norm_num) (st V0 0).2) →
    (res_main_v112 V0 = lay 1024 4 (by norm_num) (st V0 1).1 ∧ res_main_v113 V0 = lay 1024 4 (by norm_num) (st V0 1).2) := by
  rintro ⟨hx, hy⟩
  exact stage_gen 0 (by norm_num) (Q := 2048) (s := 2) (h := 1) (Q' := 1024) (s' := 4) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v5 V0) (res_main_v7 V0)
    (fun k l => wslice_apply 0 (by norm_num) (by norm_num) _ _ _ k l)
    (fun k l => wslice_apply 0 (by norm_num) (by norm_num) _ _ _ k l)
    (res_main_v2 V0) (res_main_v3 V0) hx hy
    slices_S2x2_S1x1_0_0 slices_S2x2_S1x1_1_0 slices_S2x2_S1x1_0_1 slices_S2x2_S1x1_1_1 shapeCasts_S1x1_S1 bcast_S1_S1x1x1_2 bcast_S1x1x1_S2048x2048x1_0_1_2 slices_S2048x2048x2_S2048x2048x1_0_0_0 slices_S2048x2048x2_S2048x2048x1_0_0_1 concatenates_S2048x2048x1_S2048x2048x1_S2048x2048x2_d2 shapeCasts_S2048x2048x2_S2048x4096 shapeCasts_S2048x4096_S2048x1024x4

/-- Stage 1: blocks of 4 lanes in, blocks of 8 lanes out. -/
theorem stage1 (V0 : Valuation τ sig (Elt Ideal)) :
    (res_main_v112 V0 = lay 1024 4 (by norm_num) (st V0 1).1 ∧ res_main_v113 V0 = lay 1024 4 (by norm_num) (st V0 1).2) →
    (res_main_v222 V0 = lay 512 8 (by norm_num) (st V0 2).1 ∧ res_main_v223 V0 = lay 512 8 (by norm_num) (st V0 2).2) := by
  rintro ⟨hx, hy⟩
  exact stage_gen 1 (by norm_num) (Q := 1024) (s := 4) (h := 2) (Q' := 512) (s' := 8) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v115 V0) (res_main_v117 V0)
    (fun k l => wslice_apply 1 (by norm_num) (by norm_num) _ _ _ k l)
    (fun k l => wslice_apply 1 (by norm_num) (by norm_num) _ _ _ k l)
    (res_main_v112 V0) (res_main_v113 V0) hx hy
    slices_S2x4_S1x2_0_0 slices_S2x4_S1x2_1_0 slices_S2x4_S1x2_0_2 slices_S2x4_S1x2_1_2 shapeCasts_S1x2_S2 bcast_S2_S1x1x2_2 bcast_S1x1x2_S2048x1024x2_0_1_2 slices_S2048x1024x4_S2048x1024x2_0_0_0 slices_S2048x1024x4_S2048x1024x2_0_0_2 concatenates_S2048x1024x2_S2048x1024x2_S2048x1024x4_d2 shapeCasts_S2048x1024x4_S2048x4096 shapeCasts_S2048x4096_S2048x512x8

/-- Stage 2: blocks of 8 lanes in, blocks of 16 lanes out. -/
theorem stage2 (V0 : Valuation τ sig (Elt Ideal)) :
    (res_main_v222 V0 = lay 512 8 (by norm_num) (st V0 2).1 ∧ res_main_v223 V0 = lay 512 8 (by norm_num) (st V0 2).2) →
    (res_main_v332 V0 = lay 256 16 (by norm_num) (st V0 3).1 ∧ res_main_v333 V0 = lay 256 16 (by norm_num) (st V0 3).2) := by
  rintro ⟨hx, hy⟩
  exact stage_gen 2 (by norm_num) (Q := 512) (s := 8) (h := 4) (Q' := 256) (s' := 16) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v225 V0) (res_main_v227 V0)
    (fun k l => wslice_apply 2 (by norm_num) (by norm_num) _ _ _ k l)
    (fun k l => wslice_apply 2 (by norm_num) (by norm_num) _ _ _ k l)
    (res_main_v222 V0) (res_main_v223 V0) hx hy
    slices_S2x8_S1x4_0_0 slices_S2x8_S1x4_1_0 slices_S2x8_S1x4_0_4 slices_S2x8_S1x4_1_4 shapeCasts_S1x4_S4 bcast_S4_S1x1x4_2 bcast_S1x1x4_S2048x512x4_0_1_2 slices_S2048x512x8_S2048x512x4_0_0_0 slices_S2048x512x8_S2048x512x4_0_0_4 concatenates_S2048x512x4_S2048x512x4_S2048x512x8_d2 shapeCasts_S2048x512x8_S2048x4096 shapeCasts_S2048x4096_S2048x256x16

/-- Stage 3: blocks of 16 lanes in, blocks of 32 lanes out. -/
theorem stage3 (V0 : Valuation τ sig (Elt Ideal)) :
    (res_main_v332 V0 = lay 256 16 (by norm_num) (st V0 3).1 ∧ res_main_v333 V0 = lay 256 16 (by norm_num) (st V0 3).2) →
    (res_main_v442 V0 = lay 128 32 (by norm_num) (st V0 4).1 ∧ res_main_v443 V0 = lay 128 32 (by norm_num) (st V0 4).2) := by
  rintro ⟨hx, hy⟩
  exact stage_gen 3 (by norm_num) (Q := 256) (s := 16) (h := 8) (Q' := 128) (s' := 32) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v335 V0) (res_main_v337 V0)
    (fun k l => wslice_apply 3 (by norm_num) (by norm_num) _ _ _ k l)
    (fun k l => wslice_apply 3 (by norm_num) (by norm_num) _ _ _ k l)
    (res_main_v332 V0) (res_main_v333 V0) hx hy
    slices_S2x16_S1x8_0_0 slices_S2x16_S1x8_1_0 slices_S2x16_S1x8_0_8 slices_S2x16_S1x8_1_8 shapeCasts_S1x8_S8 bcast_S8_S1x1x8_2 bcast_S1x1x8_S2048x256x8_0_1_2 slices_S2048x256x16_S2048x256x8_0_0_0 slices_S2048x256x16_S2048x256x8_0_0_8 concatenates_S2048x256x8_S2048x256x8_S2048x256x16_d2 shapeCasts_S2048x256x16_S2048x4096 shapeCasts_S2048x4096_S2048x128x32

/-- Stages 0 to 3 in a row: the state entering stage 4. -/
theorem stages0_3 (V0 : Valuation τ sig (Elt Ideal)) :
    res_main_v442 V0 = lay 128 32 (by norm_num) (st V0 4).1 ∧ res_main_v443 V0 = lay 128 32 (by norm_num) (st V0 4).2 :=
  stage3 V0 (stage2 V0 (stage1 V0 (stage0 V0 ⟨base_re V0, base_im V0⟩)))

end Cert.ReferenceIdeal.HandV

end
-- ==== Proof.RV.Stage4_7.lean ====
/-
  The reference's run, stages 4 to 7. Stage i works on blocks of 2^(i+1) lanes, 4096 / 2^(i+1) blocks to a row. Each stage
  is one instance of the generic stage: the entering arrays are the blocked layouts of the specification's state after
  i stages, the stage's two weight arrays read the stage's weight rows, the eight half-block slices are slices of the
  entering arrays, and the stage's two results are the blocked layouts of the state after i + 1 stages. The four stages in
  a row take the state entering stage 4 (blocks of 32 lanes) to the state entering stage 8 (blocks of 512 lanes).
-/
import proofs.«135697_j83099027243546_2_alg».proof.Proof.RV.RefRun
import proofs.«135697_j83099027243546_2_alg».proof.Proof.RV.StageGen

noncomputable section

namespace Cert.ReferenceIdeal.HandV

open Cert.ReferenceIdeal Cert.ReferenceIdeal.Gen Cert.ReferenceIdeal.Value Idealize.ShloMosaic Idealize.ShloMosaic.ValueIdx
  Idealize.ShloMosaic.StableHlo

/-! ## Stage 4: blocks of 32 lanes, 128 to a row -/

/-- Stage 4: the state after 4 stages laid out [2048, 128, 32] goes to the state after 5 stages laid out
    [2048, 64, 64]. -/
theorem stage4 (V0 : Valuation τ sig (Elt Ideal)) :
    (res_main_v442 V0 = lay 128 32 rfl (st V0 4).1 ∧ res_main_v443 V0 = lay 128 32 rfl (st V0 4).2) →
    (res_main_v552 V0 = lay 64 64 rfl (st V0 5).1 ∧ res_main_v553 V0 = lay 64 64 rfl (st V0 5).2) := by
  rintro ⟨hx, hy⟩
  -- the stage's two weight arrays read the specification's weight rows of stage 4
  have hwr : ∀ (k : Fin 2) (l : Fin 32),
      res_main_v445 V0 (ix2 k l) = Cert.Fft.wt (V0 (Proc.devRef .tc main_arg2)) ⟨4, by omega⟩ k l.val := fun k l => by
    unfold res_main_v445
    exact wslice_apply 4 (by omega) (by omega) _ _ _ k l
  have hwi : ∀ (k : Fin 2) (l : Fin 32),
      res_main_v447 V0 (ix2 k l) = Cert.Fft.wt (V0 (Proc.devRef .tc main_arg3)) ⟨4, by omega⟩ k l.val := fun k l => by
    unfold res_main_v447
    exact wslice_apply 4 (by omega) (by omega) _ _ _ k l
  -- the two results over the eight half-block slices are the operations of one stage over the entering state
  unfold res_main_v552 res_main_v553 res_main_v448 res_main_v449 res_main_v473 res_main_v474 res_main_v499 res_main_v500
    res_main_v524 res_main_v525
  exact stage_gen 4 (by omega) (Q := 128) (s := 32) (h := 16) (Q' := 64) (s' := 64) rfl rfl rfl rfl
    (V0 (Proc.devRef .tc main_arg0)) (V0 (Proc.devRef .tc main_arg1)) (V0 (Proc.devRef .tc main_arg2))
    (V0 (Proc.devRef .tc main_arg3)) (res_main_v445 V0) (res_main_v447 V0) hwr hwi (res_main_v442 V0) (res_main_v443 V0) hx hy
    _ _ _ _ _ _ _ _ _ _ _ _

/-! ## Stage 5: blocks of 64 lanes, 64 to a row -/

/-- Stage 5: the state after 5 stages laid out [2048, 64, 64] goes to the state after 6 stages laid out
    [2048, 32, 128]. -/
theorem stage5 (V0 : Valuation τ sig (Elt Ideal)) :
    (res_main_v552 V0 = lay 64 64 rfl (st V0 5).1 ∧ res_main_v553 V0 = lay 64 64 rfl (st V0 5).2) →
    (res_main_v662 V0 = lay 32 128 rfl (st V0 6).1 ∧ res_main_v663 V0 = lay 32 128 rfl (st V0 6).2) := by
  rintro ⟨hx, hy⟩
  -- the stage's two weight arrays read the specification's weight rows of stage 5
  have hwr : ∀ (k : Fin 2) (l : Fin 64),
      res_main_v555 V0 (ix2 k l) = Cert.Fft.wt (V0 (Proc.devRef .tc main_arg2)) ⟨5, by omega⟩ k l.val := fun k l => by
    unfold res_main_v555
    exact wslice_apply 5 (by omega) (by omega) _ _ _ k l
  have hwi : ∀ (k : Fin 2) (l : Fin 64),
      res_main_v557 V0 (ix2 k l) = Cert.Fft.wt (V0 (Proc.devRef .tc main_arg3)) ⟨5, by omega⟩ k l.val := fun k l => by
    unfold res_main_v557
    exact wslice_apply 5 (by omega) (by omega) _ _ _ k l
  -- the two results over the eight half-block slices are the operations of one stage over the entering state
  unfold res_main_v662 res_main_v663 res_main_v558 res_main_v559 res_main_v583 res_main_v584 res_main_v609 res_main_v610
    res_main_v634 res_main_v635
  exact stage_gen 5 (by omega) (Q := 64) (s := 64) (h := 32) (Q' := 32) (s' := 128) rfl rfl rfl rfl
    (V0 (Proc.devRef .tc main_arg0)) (V0 (Proc.devRef .tc main_arg1)) (V0 (Proc.devRef .tc main_arg2))
    (V0 (Proc.devRef .tc main_arg3)) (res_main_v555 V0) (res_main_v557 V0) hwr hwi (res_main_v552 V0) (res_main_v553 V0) hx hy
    _ _ _ _ _ _ _ _ _ _ _ _

/-! ## Stage 6: blocks of 128 lanes, 32 to a row -/

/-- Stage 6: the state after 6 stages laid out [2048, 32, 128] goes to the state after 7 stages laid out
    [2048, 16, 256]. -/
theorem stage6 (V0 : Valuation τ sig (Elt Ideal)) :
    (res_main_v662 V0 = lay 32 128 rfl (st V0 6).1 ∧ res_main_v663 V0 = lay 32 128 rfl (st V0 6).2) →
    (res_main_v772 V0 = lay 16 256 rfl (st V0 7).1 ∧ res_main_v773 V0 = lay 16 256 rfl (st V0 7).2) := by
  rintro ⟨hx, hy⟩
  -- the stage's two weight arrays read the specification's weight rows of stage 6
  have hwr : ∀ (k : Fin 2) (l : Fin 128),
      res_main_v665 V0 (ix2 k l) = Cert.Fft.wt (V0 (Proc.devRef .tc main_arg2)) ⟨6, by omega⟩ k l.val := fun k l => by
    unfold res_main_v665
    exact wslice_apply 6 (by omega) (by omega) _ _ _ k l
  have hwi : ∀ (k : Fin 2) (l : Fin 128),
      res_main_v667 V0 (ix2 k l) = Cert.Fft.wt (V0 (Proc.devRef .tc main_arg3)) ⟨6, by omega⟩ k l.val := fun k l => by
    unfold res_main_v667
    exact wslice_apply 6 (by omega) (by omega) _ _ _ k l
  -- the two results over the eight half-block slices are the operations of one stage over the entering state
  unfold res_main_v772 res_main_v773 res_main_v668 res_main_v669 res_main_v693 res_main_v694 res_main_v719 res_main_v720
    res_main_v744 res_main_v745
  exact stage_gen 6 (by omega) (Q := 32) (s := 128) (h := 64) (Q' := 16) (s' := 256) rfl rfl rfl rfl
    (V0 (Proc.devRef .tc main_arg0)) (V0 (Proc.devRef .tc main_arg1)) (V0 (Proc.devRef .tc main_arg2))
    (V0 (Proc.devRef .tc main_arg3)) (res_main_v665 V0) (res_main_v667 V0) hwr hwi (res_main_v662 V0) (res_main_v663 V0) hx hy
    _ _ _ _ _ _ _ _ _ _ _ _

/-! ## Stage 7: blocks of 256 lanes, 16 to a row -/

/-- Stage 7: the state after 7 stages laid out [2048, 16, 256] goes to the state after 8 stages laid out
    [2048, 8, 512]. -/
theorem stage7 (V0 : Valuation τ sig (Elt Ideal)) :
    (res_main_v772 V0 = lay 16 256 rfl (st V0 7).1 ∧ res_main_v773 V0 = lay 16 256 rfl (st V0 7).2) →
    (res_main_v882 V0 = lay 8 512 rfl (st V0 8).1 ∧ res_main_v883 V0 = lay 8 512 rfl (st V0 8).2) := by
  rintro ⟨hx, hy⟩
  -- the stage's two weight arrays read the specification's weight rows of stage 7
  have hwr : ∀ (k : Fin 2) (l : Fin 256),
      res_main_v775 V0 (ix2 k l) = Cert.Fft.wt (V0 (Proc.devRef .tc main_arg2)) ⟨7, by omega⟩ k l.val := fun k l => by
    unfold res_main_v775
    exact wslice_apply 7 (by omega) (by omega) _ _ _ k l
  have hwi : ∀ (k : Fin 2) (l : Fin 256),
      res_main_v777 V0 (ix2 k l) = Cert.Fft.wt (V0 (Proc.devRef .tc main_arg3)) ⟨7, by omega⟩ k l.val := fun k l => by
    unfold res_main_v777
    exact wslice_apply 7 (by omega) (by omega) _ _ _ k l
  -- the two results over the eight half-block slices are the operations of one stage over the entering state
  unfold res_main_v882 res_main_v883 res_main_v778 res_main_v779 res_main_v803 res_main_v804 res_main_v829 res_main_v830
    res_main_v854 res_main_v855
  exact stage_gen 7 (by omega) (Q := 16) (s := 256) (h := 128) (Q' := 8) (s' := 512) rfl rfl rfl rfl
    (V0 (Proc.devRef .tc main_arg0)) (V0 (Proc.devRef .tc main_arg1)) (V0 (Proc.devRef .tc main_arg2))
    (V0 (Proc.devRef .tc main_arg3)) (res_main_v775 V0) (res_main_v777 V0) hwr hwi (res_main_v772 V0) (res_main_v773 V0) hx hy
    _ _ _ _ _ _ _ _ _ _ _ _

/-! ## The four stages in a row -/

/-- Stages 4 to 7 in a row: the state entering stage 4 goes to the state entering stage 8. -/
theorem stages4_7 (V0 : Valuation τ sig (Elt Ideal)) :
    (res_main_v442 V0 = lay 128 32 rfl (st V0 4).1 ∧ res_main_v443 V0 = lay 128 32 rfl (st V0 4).2) →
    (res_main_v882 V0 = lay 8 512 rfl (st V0 8).1 ∧ res_main_v883 V0 = lay 8 512 rfl (st V0 8).2) :=
  fun h => stage7 V0 (stage6 V0 (stage5 V0 (stage4 V0 h)))

end Cert.ReferenceIdeal.HandV

end
-- ==== Proof.RV.Stage8_11.lean ====
/-
  The reference's run, stages 8 to 11, and its two results. Each stage is one instance of `stage_gen`: the entering
  arrays are the blocked layouts of the specification's state, the stage's weight arrays read the stage's weight rows,
  and the stage's two results are the blocked layouts of the next state. Stages 8, 9 and 10 leave named intermediate
  terms of the run; stage 11 leaves the run's two result terms, laid out in one block of 4096 lanes to a row, which is
  the shape of the specification's outputs.
-/
import proofs.«135697_j83099027243546_2_alg».proof.Proof.RV.RefRun
import proofs.«135697_j83099027243546_2_alg».proof.Proof.RV.StageGen
import proofs.«135697_j83099027243546_2_alg».proof.Proof.SpecLemmas

noncomputable section

namespace Cert.ReferenceIdeal.HandV

open Cert.ReferenceIdeal Cert.ReferenceIdeal.Gen Cert.ReferenceIdeal.Value Idealize.ShloMosaic Idealize.ShloMosaic.ValueIdx
  Idealize.ShloMosaic.StableHlo

/-- Stage 8: blocks of 512 lanes in, blocks of 1024 lanes out. -/
theorem stage8 (V0 : Valuation τ sig (Elt Ideal)) :
    (res_main_v882 V0 = lay 8 512 (by norm_num) (st V0 8).1 ∧ res_main_v883 V0 = lay 8 512 (by norm_num) (st V0 8).2) →
    (res_main_v992 V0 = lay 4 1024 (by norm_num) (st V0 9).1 ∧ res_main_v993 V0 = lay 4 1024 (by norm_num) (st V0 9).2) := by
  rintro ⟨hx, hy⟩
  exact stage_gen 8 (by norm_num) (Q := 8) (s := 512) (h := 256) (Q' := 4) (s' := 1024) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v885 V0) (res_main_v887 V0)
    (fun k l => wslice_apply 8 (by norm_num) (by norm_num) _ _ _ k l)
    (fun k l => wslice_apply 8 (by norm_num) (by norm_num) _ _ _ k l)
    (res_main_v882 V0) (res_main_v883 V0) hx hy
    slices_S2x512_S1x256_0_0 slices_S2x512_S1x256_1_0 slices_S2x512_S1x256_0_256 slices_S2x512_S1x256_1_256 shapeCasts_S1x256_S256 bcast_S256_S1x1x256_2 bcast_S1x1x256_S2048x8x256_0_1_2 slices_S2048x8x512_S2048x8x256_0_0_0 slices_S2048x8x512_S2048x8x256_0_0_256 concatenates_S2048x8x256_S2048x8x256_S2048x8x512_d2 shapeCasts_S2048x8x512_S2048x4096 shapeCasts_S2048x4096_S2048x4x1024

/-- Stage 9: blocks of 1024 lanes in, blocks of 2048 lanes out. -/
theorem stage9 (V0 : Valuation τ sig (Elt Ideal)) :
    (res_main_v992 V0 = lay 4 1024 (by norm_num) (st V0 9).1 ∧ res_main_v993 V0 = lay 4 1024 (by norm_num) (st V0 9).2) →
    (res_main_v1102 V0 = lay 2 2048 (by norm_num) (st V0 10).1 ∧ res_main_v1103 V0 = lay 2 2048 (by norm_num) (st V0 10).2) := by
  rintro ⟨hx, hy⟩
  exact stage_gen 9 (by norm_num) (Q := 4) (s := 1024) (h := 512) (Q' := 2) (s' := 2048) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v995 V0) (res_main_v997 V0)
    (fun k l => wslice_apply 9 (by norm_num) (by norm_num) _ _ _ k l)
    (fun k l => wslice_apply 9 (by norm_num) (by norm_num) _ _ _ k l)
    (res_main_v992 V0) (res_main_v993 V0) hx hy
    slices_S2x1024_S1x512_0_0 slices_S2x1024_S1x512_1_0 slices_S2x1024_S1x512_0_512 slices_S2x1024_S1x512_1_512 shapeCasts_S1x512_S512 bcast_S512_S1x1x512_2 bcast_S1x1x512_S2048x4x512_0_1_2 slices_S2048x4x1024_S2048x4x512_0_0_0 slices_S2048x4x1024_S2048x4x512_0_0_512 concatenates_S2048x4x512_S2048x4x512_S2048x4x1024_d2 shapeCasts_S2048x4x1024_S2048x4096 shapeCasts_S2048x4096_S2048x2x2048

/-- Stage 10: blocks of 2048 lanes in, one block of 4096 lanes out. -/
theorem stage10 (V0 : Valuation τ sig (Elt Ideal)) :
    (res_main_v1102 V0 = lay 2 2048 (by norm_num) (st V0 10).1 ∧ res_main_v1103 V0 = lay 2 2048 (by norm_num) (st V0 10).2) →
    (res_main_v1212 V0 = lay 1 4096 (by norm_num) (st V0 11).1 ∧ res_main_v1213 V0 = lay 1 4096 (by norm_num) (st V0 11).2) := by
  rintro ⟨hx, hy⟩
  exact stage_gen 10 (by norm_num) (Q := 2) (s := 2048) (h := 1024) (Q' := 1) (s' := 4096) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v1105 V0) (res_main_v1107 V0)
    (fun k l => wslice_apply 10 (by norm_num) (by norm_num) _ _ _ k l)
    (fun k l => wslice_apply 10 (by norm_num) (by norm_num) _ _ _ k l)
    (res_main_v1102 V0) (res_main_v1103 V0) hx hy
    slices_S2x2048_S1x1024_0_0 slices_S2x2048_S1x1024_1_0 slices_S2x2048_S1x1024_0_1024 slices_S2x2048_S1x1024_1_1024 shapeCasts_S1x1024_S1024 bcast_S1024_S1x1x1024_2 bcast_S1x1x1024_S2048x2x1024_0_1_2 slices_S2048x2x2048_S2048x2x1024_0_0_0 slices_S2048x2x2048_S2048x2x1024_0_0_1024 concatenates_S2048x2x1024_S2048x2x1024_S2048x2x2048_d2 shapeCasts_S2048x2x2048_S2048x4096 shapeCasts_S2048x4096_S2048x1x4096

/-- Stage 11: one block of 4096 lanes in, and out: the run's two result terms. -/
theorem stage11 (V0 : Valuation τ sig (Elt Ideal)) :
    (res_main_v1212 V0 = lay 1 4096 (by norm_num) (st V0 11).1 ∧ res_main_v1213 V0 = lay 1 4096 (by norm_num) (st V0 11).2) →
    (val23 V0 (Proc.devRef .tc main_v1322) = lay 1 4096 (by norm_num) (st V0 12).1
      ∧ val23 V0 (Proc.devRef .tc main_v1323) = lay 1 4096 (by norm_num) (st V0 12).2) := by
  rintro ⟨hx, hy⟩
  rw [val23_main_v1322, val23_main_v1323]
  exact stage_gen 11 (by norm_num) (Q := 1) (s := 4096) (h := 2048) (Q' := 1) (s' := 4096) (by norm_num) (by norm_num)
    (by norm_num) (by norm_num) (V0 (Proc.devRef .tc main_arg0)) (V0 (Proc.devRef .tc main_arg1)) (V0 (Proc.devRef .tc main_arg2)) (V0 (Proc.devRef .tc main_arg3))
    (res_main_v1215 V0) (res_main_v1217 V0)
    (fun k l => wslice_apply 11 (by norm_num) (by norm_num) _ _ _ k l)
    (fun k l => wslice_apply 11 (by norm_num) (by norm_num) _ _ _ k l)
    (res_main_v1212 V0) (res_main_v1213 V0) hx hy
    slices_S2x4096_S1x2048_0_0 slices_S2x4096_S1x2048_1_0 slices_S2x4096_S1x2048_0_2048 slices_S2x4096_S1x2048_1_2048 shapeCasts_S1x2048_S2048 bcast_S2048_S1x1x2048_2 bcast_S1x1x2048_S2048x1x2048_0_1_2 slices_S2048x1x4096_S2048x1x2048_0_0_0 slices_S2048x1x4096_S2048x1x2048_0_0_2048 concatenates_S2048x1x2048_S2048x1x2048_S2048x1x4096_d2 shapeCasts_S2048x1x4096_S2048x4096 shapeCasts_S2048x4096_S2048x1x4096

/-- One block of 4096 lanes to a row is the layout of the specification's outputs: the real part … -/
theorem lay_one_re (x : Cert.Fft.SX.Idx → EReal) (p : Cert.Fft.SP.Idx → EReal) (rc ic : Cert.Fft.SW.Idx → EReal) :
    lay 1 4096 (by norm_num) (Cert.Fft.state x p rc ic 12).1 = Cert.Fft.outRe x p rc ic := by
  funext j
  obtain ⟨b, z, n, rfl⟩ : ∃ (b : Fin 2048) (z : Fin 1) (n : Fin 4096), j = ix3 b z n := ⟨j 0, j 1, j 2, eq_ix3 j⟩
  rw [lay_apply, Cert.Fft.outRe_apply]
  exact congrArg (fun n' : Fin 4096 => (Cert.Fft.state x p rc ic 12).1 (ix2 b n'))
    (Fin.ext (by show z.val * 4096 + n.val = n.val; have := z.isLt; omega))

/-- … and the imaginary part. -/
theorem lay_one_im (x : Cert.Fft.SX.Idx → EReal) (p : Cert.Fft.SP.Idx → EReal) (rc ic : Cert.Fft.SW.Idx → EReal) :
    lay 1 4096 (by norm_num) (Cert.Fft.state x p rc ic 12).2 = Cert.Fft.outIm x p rc ic := by
  funext j
  obtain ⟨b, z, n, rfl⟩ : ∃ (b : Fin 2048) (z : Fin 1) (n : Fin 4096), j = ix3 b z n := ⟨j 0, j 1, j 2, eq_ix3 j⟩
  rw [lay_apply, Cert.Fft.outIm_apply]
  exact congrArg (fun n' : Fin 4096 => (Cert.Fft.state x p rc ic 12).2 (ix2 b n'))
    (Fin.ext (by show z.val * 4096 + n.val = n.val; have := z.isLt; omega))

/-- Stages 8 to 11 in a row: from the state entering stage 8 to the run's two results, the specification's outputs. -/
theorem stages8_11 (V0 : Valuation τ sig (Elt Ideal)) :
    (res_main_v882 V0 = lay 8 512 (by norm_num) (st V0 8).1 ∧ res_main_v883 V0 = lay 8 512 (by norm_num) (st V0 8).2) →
    (val23 V0 (Proc.devRef .tc main_v1322)
        = Cert.Fft.outRe (V0 (Proc.devRef .tc main_arg0)) (V0 (Proc.devRef .tc main_arg1)) (V0 (Proc.devRef .tc main_arg2)) (V0 (Proc.devRef .tc main_arg3))
      ∧ val23 V0 (Proc.devRef .tc main_v1323)
        = Cert.Fft.outIm (V0 (Proc.devRef .tc main_arg0)) (V0 (Proc.devRef .tc main_arg1)) (V0 (Proc.devRef .tc main_arg2)) (V0 (Proc.devRef .tc main_arg3))) := by
  intro h8
  have h12 := stage11 V0 (stage10 V0 (stage9 V0 (stage8 V0 h8)))
  exact ⟨h12.1.trans (lay_one_re _ _ _ _), h12.2.trans (lay_one_im _ _ _ _)⟩

end Cert.ReferenceIdeal.HandV

end
-- ==== Proof.RV.Final.lean ====
/-
  The reference's two results are the specification's outputs. The state entering the first stage is the blocked layout
  of the specification's first state (the matrix product and the zero array); stages 0 to 3, 4 to 7 and 8 to 11 carry
  the blocked layouts of the state from stage to stage; the last stage leaves the run's two result terms, which are the
  specification's two outputs of the four argument arrays. The program is the sequence of its host operations, none of
  which allocates a buffer, so its run (the library's theorem for a sequence of host operations) ends, on every device,
  with the two result buffers at the specification's outputs of the launch contents of the four arguments, and with the
  arguments unchanged.
-/
import proofs.«135697_j83099027243546_2_alg».proof.Proof.RV.Stage0_3
import proofs.«135697_j83099027243546_2_alg».proof.Proof.RV.Stage4_7
import proofs.«135697_j83099027243546_2_alg».proof.Proof.RV.Stage8_11

noncomputable section

namespace Cert.ReferenceIdeal.HandV

open Cert.ReferenceIdeal Cert.ReferenceIdeal.Gen Cert.ReferenceIdeal.Value Idealize.ShloMosaic Idealize.ShloMosaic.TcCoe
  Idealize.SL.Sem Idealize.ShloMosaic.StableHlo

/-- The run's two result terms, over any contents of the buffers at the launch: the specification's two outputs of the
    four argument arrays. -/
theorem ref_results (V0 : Valuation τ sig (Elt Ideal)) :
    val23 V0 (Proc.devRef .tc main_v1322)
        = Cert.Fft.outRe (V0 (Proc.devRef .tc main_arg0)) (V0 (Proc.devRef .tc main_arg1)) (V0 (Proc.devRef .tc main_arg2)) (V0 (Proc.devRef .tc main_arg3))
      ∧ val23 V0 (Proc.devRef .tc main_v1323)
        = Cert.Fft.outIm (V0 (Proc.devRef .tc main_arg0)) (V0 (Proc.devRef .tc main_arg1)) (V0 (Proc.devRef .tc main_arg2)) (V0 (Proc.devRef .tc main_arg3)) :=
  stages8_11 V0 (stages4_7 V0 (stages0_3 V0))

/-! ## No operation allocates a buffer

Every operation of the program determines its results: its set of freshly allocated buffers is empty. Window by window
(each a literal list of at most sixty operations), then for the whole sequence, which is the windows end to end. -/

theorem ops_part0_fresh : ∀ op ∈ (ops_part0 : List (HloOp τ sig (Elt Ideal))), op.fresh = ∅ := by
  intro _ h; (repeat (cases h with | head => rfl | tail _ h => ?_)); exact nomatch h
theorem ops_part1_fresh : ∀ op ∈ (ops_part1 : List (HloOp τ sig (Elt Ideal))), op.fresh = ∅ := by
  intro _ h; (repeat (cases h with | head => rfl | tail _ h => ?_)); exact nomatch h
theorem ops_part2_fresh : ∀ op ∈ (ops_part2 : List (HloOp τ sig (Elt Ideal))), op.fresh = ∅ := by
  intro _ h; (repeat (cases h with | head => rfl | tail _ h => ?_)); exact nomatch h
theorem ops_part3_fresh : ∀ op ∈ (ops_part3 : List (HloOp τ sig (Elt Ideal))), op.fresh = ∅ := by
  intro _ h; (repeat (cases h with | head => rfl | tail _ h => ?_)); exact nomatch h
theorem ops_part4_fresh : ∀ op ∈ (ops_part4 : List (HloOp τ sig (Elt Ideal))), op.fresh = ∅ := by
  intro _ h; (repeat (cases h with | head => rfl | tail _ h => ?_)); exact nomatch h
theorem ops_part5_fresh : ∀ op ∈ (ops_part5 : List (HloOp τ sig (Elt Ideal))), op.fresh = ∅ := by
  intro _ h; (repeat (cases h with | head => rfl | tail _ h => ?_)); exact nomatch h
theorem ops_part6_fresh : ∀ op ∈ (ops_part6 : List (HloOp τ sig (Elt Ideal))), op.fresh = ∅ := by
  intro _ h; (repeat (cases h with | head => rfl | tail _ h => ?_)); exact nomatch h
theorem ops_part7_fresh : ∀ op ∈ (ops_part7 : List (HloOp τ sig (Elt Ideal))), op.fresh = ∅ := by
  intro _ h; (repeat (cases h with | head => rfl | tail _ h => ?_)); exact nomatch h
theorem ops_part8_fresh : ∀ op ∈ (ops_part8 : List (HloOp τ sig (Elt Ideal))), op.fresh = ∅ := by
  intro _ h; (repeat (cases h with | head => rfl | tail _ h => ?_)); exact nomatch h
theorem ops_part9_fresh : ∀ op ∈ (ops_part9 : List (HloOp τ sig (Elt Ideal))), op.fresh = ∅ := by
  intro _ h; (repeat (cases h with | head => rfl | tail _ h => ?_)); exact nomatch h
theorem ops_part10_fresh : ∀ op ∈ (ops_part10 : List (HloOp τ sig (Elt Ideal))), op.fresh = ∅ := by
  intro _ h; (repeat (cases h with | head => rfl | tail _ h => ?_)); exact nomatch h
theorem ops_part11_fresh : ∀ op ∈ (ops_part11 : List (HloOp τ sig (Elt Ideal))), op.fresh = ∅ := by
  intro _ h; (repeat (cases h with | head => rfl | tail _ h => ?_)); exact nomatch h
theorem ops_part12_fresh : ∀ op ∈ (ops_part12 : List (HloOp τ sig (Elt Ideal))), op.fresh = ∅ := by
  intro _ h; (repeat (cases h with | head => rfl | tail _ h => ?_)); exact nomatch h
theorem ops_part13_fresh : ∀ op ∈ (ops_part13 : List (HloOp τ sig (Elt Ideal))), op.fresh = ∅ := by
  intro _ h; (repeat (cases h with | head => rfl | tail _ h => ?_)); exact nomatch h
theorem ops_part14_fresh : ∀ op ∈ (ops_part14 : List (HloOp τ sig (Elt Ideal))), op.fresh = ∅ := by
  intro _ h; (repeat (cases h with | head => rfl | tail _ h => ?_)); exact nomatch h
theorem ops_part15_fresh : ∀ op ∈ (ops_part15 : List (HloOp τ sig (Elt Ideal))), op.fresh = ∅ := by
  intro _ h; (repeat (cases h with | head => rfl | tail _ h => ?_)); exact nomatch h
theorem ops_part16_fresh : ∀ op ∈ (ops_part16 : List (HloOp τ sig (Elt Ideal))), op.fresh = ∅ := by
  intro _ h; (repeat (cases h with | head => rfl | tail _ h => ?_)); exact nomatch h
theorem ops_part17_fresh : ∀ op ∈ (ops_part17 : List (HloOp τ sig (Elt Ideal))), op.fresh = ∅ := by
  intro _ h; (repeat (cases h with | head => rfl | tail _ h => ?_)); exact nomatch h
theorem ops_part18_fresh : ∀ op ∈ (ops_part18 : List (HloOp τ sig (Elt Ideal))), op.fresh = ∅ := by
  intro _ h; (repeat (cases h with | head => rfl | tail _ h => ?_)); exact nomatch h
theorem ops_part19_fresh : ∀ op ∈ (ops_part19 : List (HloOp τ sig (Elt Ideal))), op.fresh = ∅ := by
  intro _ h; (repeat (cases h with | head => rfl | tail _ h => ?_)); exact nomatch h
theorem ops_part20_fresh : ∀ op ∈ (ops_part20 : List (HloOp τ sig (Elt Ideal))), op.fresh = ∅ := by
  intro _ h; (repeat (cases h with | head => rfl | tail _ h => ?_)); exact nomatch h
theorem ops_part21_fresh : ∀ op ∈ (ops_part21 : List (HloOp τ sig (Elt Ideal))), op.fresh = ∅ := by
  intro _ h; (repeat (cases h with | head => rfl | tail _ h => ?_)); exact nomatch h
theorem ops_part22_fresh : ∀ op ∈ (ops_part22 : List (HloOp τ sig (Elt Ideal))), op.fresh = ∅ := by
  intro _ h; (repeat (cases h with | head => rfl | tail _ h => ?_)); exact nomatch h

/-- No operation of the whole sequence allocates a buffer. -/
theorem ops_fresh : ∀ op ∈ (ops : List (HloOp τ sig (Elt Ideal))), op.fresh = ∅ := by
  intro op h
  simp only [ops, List.mem_append] at h
  rcases h with h | h | h | h | h | h | h | h | h | h | h | h | h | h | h | h | h | h | h | h | h | h | h
  exacts [ops_part0_fresh op h, ops_part1_fresh op h, ops_part2_fresh op h, ops_part3_fresh op h, ops_part4_fresh op h,
    ops_part5_fresh op h, ops_part6_fresh op h, ops_part7_fresh op h, ops_part8_fresh op h, ops_part9_fresh op h,
    ops_part10_fresh op h, ops_part11_fresh op h, ops_part12_fresh op h, ops_part13_fresh op h, ops_part14_fresh op h,
    ops_part15_fresh op h, ops_part16_fresh op h, ops_part17_fresh op h, ops_part18_fresh op h, ops_part19_fresh op h,
    ops_part20_fresh op h, ops_part21_fresh op h, ops_part22_fresh op h]

/-- What the whole sequence leaves in a buffer is the named contents after the last window. -/
theorem after_ops_at (V0 : Valuation τ sig (Elt Ideal)) (b : Ref sig .tc) :
    after ops V0 (Proc.devRef .tc b) = val23 V0 (Proc.devRef .tc b) :=
  congrFun (after_ops V0) (Proc.devRef .tc b)

/-! ## The run -/

/-- Every weakly fair execution of the reference program terminates with the two result buffers at the specification's
    outputs of the launch contents of the four arguments, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1322)
          = Cert.Fft.outRe (launchContents m c (Proc.devRef .tc main_arg0)) (launchContents m c (Proc.devRef .tc main_arg1))
              (launchContents m c (Proc.devRef .tc main_arg2)) (launchContents m c (Proc.devRef .tc main_arg3))
      ∧ r.2.mem ((c.tc : Thread nD τ).loc main_v1323)
          = Cert.Fft.outIm (launchContents m c (Proc.devRef .tc main_arg0)) (launchContents m c (Proc.devRef .tc main_arg1))
              (launchContents m c (Proc.devRef .tc main_arg2)) (launchContents m c (Proc.devRef .tc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v1322).trans ((after_ops_at _ _).trans (ref_results (launchContents m c)).1),
        (h c main_v1323).trans ((after_ops_at _ _).trans (ref_results (launchContents m c)).2),
        (h c main_arg0).trans ((after_ops_at _ _).trans (val23_main_arg0 (launchContents m c))),
        (h c main_arg1).trans ((after_ops_at _ _).trans (val23_main_arg1 (launchContents m c))),
        (h c main_arg2).trans ((after_ops_at _ _).trans (val23_main_arg2 (launchContents m c))),
        (h c main_arg3).trans ((after_ops_at _ _).trans (val23_main_arg3 (launchContents m c)))⟩)
    (run_seq scopedRefs_eq scopedSems_eq defs main (fun _ => ops) main_eq (fun _ => ops_sub) m ρ (fun _ => ops_fresh))

end Cert.ReferenceIdeal.HandV

end
-- ==== Proof.lean ====
/-
  The certificate's claim: the two frames of the kernel program (word level and idealized), the reference's frame,
  the (empty) list of sanctioned rewrites, and the equivalence over the extended reals.

  Both programs compute the radix-2 butterfly network of `Proof/Spec.lean`: the kernel as one K-blocked matrix product
  (region 0) followed by twelve masked full-width butterfly stages on blocks of rows (region 1) over weight arrays its
  host code lays out by halves; the reference as a matrix product followed by twelve stages of slices, products and
  concatenations over `[2048, 4096/s, s]` layouts. Each side's result buffers are shown to hold `Cert.Fft.outRe` /
  `Cert.Fft.outIm` of the four argument arrays; the two runs then meet at those two arrays.
-/
import proofs.«135697_j83099027243546_2_alg».proof.Defs
import proofs.«135697_j83099027243546_2_alg».proof.Proof.Gen.Kernel
import proofs.«135697_j83099027243546_2_alg».proof.Proof.Gen.KernelIdeal
import proofs.«135697_j83099027243546_2_alg».proof.Proof.Gen.ReferenceIdeal
import proofs.«135697_j83099027243546_2_alg».proof.Proof.Gen.Pre_finite_inputs
import proofs.«135697_j83099027243546_2_alg».proof.Proof.K.Run
import proofs.«135697_j83099027243546_2_alg».proof.Proof.KI.Run
import proofs.«135697_j83099027243546_2_alg».proof.Proof.KV.Final
import proofs.«135697_j83099027243546_2_alg».proof.Proof.RV.Final

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.HandV.ref_run m ρ)

/-- The ideal pass rewrote nothing. -/
theorem preserves : Cert.preserves_Kernel_KernelIdeal := trivial

/-- From memories agreeing on the four arguments both runs end with the network's two arrays in their result buffers. -/
theorem algebraic : Cert.algebraic_KernelIdeal_ReferenceIdeal := by
  intro m ρ m' ρ' _ hagree
  refine ⟨fun c => Cert.Fft.outRe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Fft.outIm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact Cert.KernelIdeal.HandV.kernel_run m ρ
  · refine (θ_run Cert.ReferenceIdeal.defs _ _).mono (fun _ h c => ?_) (Cert.ReferenceIdeal.HandV.ref_run m' ρ')
    obtain ⟨h1, h2, h3⟩ := h c
    refine ⟨h1.trans ?_, h2.trans ?_, h3⟩
    · show Cert.Fft.outRe (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) = _
      rw [(hagree c).1, (hagree c).2.1, (hagree c).2.2.1, (hagree c).2.2.2]
    · show Cert.Fft.outIm (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) = _
      rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
